-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)) →
    ∃ (v0 : (c : Dev Cert.KernelIdeal.nD) → Buf (Elt Ideal) ((c.tc : Thread Cert.KernelIdeal.nD Cert.KernelIdeal.τ).loc Cert.KernelIdeal.main_v35_0)) (v1 : (c : Dev Cert.KernelIdeal.nD) → Buf (Elt Ideal) ((c.tc : Thread Cert.KernelIdeal.nD Cert.KernelIdeal.τ).loc Cert.KernelIdeal.main_v35_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v35_0) = v0 c
          ∧ r.2.mem ((c.tc : Thread Cert.KernelIdeal.nD Cert.KernelIdeal.τ).loc Cert.KernelIdeal.main_v35_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v133) = v0 c
          ∧ r.2.mem ((c.tc : Thread Cert.ReferenceIdeal.nD Cert.ReferenceIdeal.τ).loc Cert.ReferenceIdeal.main_v136) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32x512 : Shape := ⟨2, ![32, 512]⟩
abbrev S512x512 : Shape := ⟨2, ![512, 512]⟩
abbrev S2x32x32768 : Shape := ⟨3, ![2, 32, 32768]⟩
abbrev S195x128 : Shape := ⟨2, ![195, 128]⟩
abbrev S128 : Shape := ⟨1, ![128]⟩
abbrev S195x64 : Shape := ⟨2, ![195, 64]⟩
abbrev S64 : Shape := ⟨1, ![64]⟩
abbrev S384x128 : Shape := ⟨2, ![384, 128]⟩
abbrev S384x64 : Shape := ⟨2, ![384, 64]⟩
abbrev S64x1 : Shape := ⟨2, ![64, 1]⟩
abbrev S1 : Shape := ⟨1, ![1]⟩
abbrev S_ : Shape := ⟨0, ![]⟩

class Facts : Prop where
  bcast_S_S32x512 : S_.BroadcastsInDim S32x512 (![] : Fin 0 → Fin S32x512.rank)
  reducesTo_S32x512_S_d0_1 : S32x512.ReducesTo [0, 1] S_
  h_S_ : 0 < S_.numel
  bcast_S_S512x512 : S_.BroadcastsInDim S512x512 (![] : Fin 0 → Fin S512x512.rank)
  reducesTo_S512x512_S_d0_1 : S512x512.ReducesTo [0, 1] S_
  bcast_S_S2x32x32768 : S_.BroadcastsInDim S2x32x32768 (![] : Fin 0 → Fin S2x32x32768.rank)
  reducesTo_S2x32x32768_S_d0_1_2 : S2x32x32768.ReducesTo [0, 1, 2] S_
  bcast_S_S195x128 : S_.BroadcastsInDim S195x128 (![] : Fin 0 → Fin S195x128.rank)
  reducesTo_S195x128_S_d0_1 : S195x128.ReducesTo [0, 1] S_
  bcast_S_S128 : S_.BroadcastsInDim S128 (![] : Fin 0 → Fin S128.rank)
  reducesTo_S128_S_d0 : S128.ReducesTo [0] S_
  bcast_S_S195x64 : S_.BroadcastsInDim S195x64 (![] : Fin 0 → Fin S195x64.rank)
  reducesTo_S195x64_S_d0_1 : S195x64.ReducesTo [0, 1] S_
  bcast_S_S64 : S_.BroadcastsInDim S64 (![] : Fin 0 → Fin S64.rank)
  reducesTo_S64_S_d0 : S64.ReducesTo [0] S_
  bcast_S_S384x128 : S_.BroadcastsInDim S384x128 (![] : Fin 0 → Fin S384x128.rank)
  reducesTo_S384x128_S_d0_1 : S384x128.ReducesTo [0, 1] S_
  bcast_S_S384x64 : S_.BroadcastsInDim S384x64 (![] : Fin 0 → Fin S384x64.rank)
  reducesTo_S384x64_S_d0_1 : S384x64.ReducesTo [0, 1] S_
  bcast_S_S64x1 : S_.BroadcastsInDim S64x1 (![] : Fin 0 → Fin S64x1.rank)
  reducesTo_S64x1_S_d0_1 : S64x1.ReducesTo [0, 1] S_
  bcast_S_S1 : S_.BroadcastsInDim S1 (![] : Fin 0 → Fin S1.rank)
  reducesTo_S1_S_d0 : S1.ReducesTo [0] S_

variable [Facts]

def fn_part3 {F : FTy → Type} [FloatOps F] (main_arg11 : FVec F S64x1 .f32) (main_arg12 : FVec F S1 .f32) (main_v48 : IVec S_ 1) (main_v49 : FVec F S64 .f32) (main_v50 : FVec F S64 .f32) : IVec S_ 1 :=
  let main_v51 : IVec S64 1 := cmpf .olt main_v49 main_v50
  let main_c_19 : IVec S_ 1 := constantI S_ 1 1#1
  let main_v52 : IVec S_ 1 := (fun x v => Host.reduce IntOp.andi x v reducesTo_S64_S_d0 h_S_) main_v51 main_c_19
  let main_v53 : IVec S_ 1 := andi main_v48 main_v52
  let main_v54 : FVec F S64x1 .f32 := Host.absf main_arg11
  let main_cst_20 : FVec F S_ .f32 := constant S_ .f32 0x7F800000#32
  let main_v55 : FVec F S64x1 .f32 := broadcastInDim S64x1 ![] bcast_S_S64x1 main_cst_20
  let main_v56 : IVec S64x1 1 := cmpf .olt main_v54 main_v55
  let main_c_21 : IVec S_ 1 := constantI S_ 1 1#1
  let main_v57 : IVec S_ 1 := (fun x v => Host.reduce IntOp.andi x v reducesTo_S64x1_S_d0_1 h_S_) main_v56 main_c_21
  let main_v58 : IVec S_ 1 := andi main_v53 main_v57
  let main_v59 : FVec F S1 .f32 := Host.absf main_arg12
  let main_cst_22 : FVec F S_ .f32 := constant S_ .f32 0x7F800000#32
  let main_v60 : FVec F S1 .f32 := broadcastInDim S1 ![] bcast_S_S1 main_cst_22
  let main_v61 : IVec S1 1 := cmpf .olt main_v59 main_v60
  let main_c_23 : IVec S_ 1 := constantI S_ 1 1#1
  let main_v62 : IVec S_ 1 := (fun x v => Host.reduce IntOp.andi x v reducesTo_S1_S_d0 h_S_) main_v61 main_c_23
  let main_v63 : IVec S_ 1 := andi main_v58 main_v62
  main_v63

def fn_part2 {F : FTy → Type} [FloatOps F] (main_arg7 : FVec F S384x128 .f32) (main_arg8 : FVec F S128 .f32) (main_arg9 : FVec F S384x64 .f32) (main_arg10 : FVec F S64 .f32) (main_arg11 : FVec F S64x1 .f32) (main_arg12 : FVec F S1 .f32) (main_v33 : IVec S_ 1) : IVec S_ 1 :=
  let main_v34 : FVec F S384x128 .f32 := Host.absf main_arg7
  let main_cst_12 : FVec F S_ .f32 := constant S_ .f32 0x7F800000#32
  let main_v35 : FVec F S384x128 .f32 := broadcastInDim S384x128 ![] bcast_S_S384x128 main_cst_12
  let main_v36 : IVec S384x128 1 := cmpf .olt main_v34 main_v35
  let main_c_13 : IVec S_ 1 := constantI S_ 1 1#1
  let main_v37 : IVec S_ 1 := (fun x v => Host.reduce IntOp.andi x v reducesTo_S384x128_S_d0_1 h_S_) main_v36 main_c_13
  let main_v38 : IVec S_ 1 := andi main_v33 main_v37
  let main_v39 : FVec F S128 .f32 := Host.absf main_arg8
  let main_cst_14 : FVec F S_ .f32 := constant S_ .f32 0x7F800000#32
  let main_v40 : FVec F S128 .f32 := broadcastInDim S128 ![] bcast_S_S128 main_cst_14
  let main_v41 : IVec S128 1 := cmpf .olt main_v39 main_v40
  let main_c_15 : IVec S_ 1 := constantI S_ 1 1#1
  let main_v42 : IVec S_ 1 := (fun x v => Host.reduce IntOp.andi x v reducesTo_S128_S_d0 h_S_) main_v41 main_c_15
  let main_v43 : IVec S_ 1 := andi main_v38 main_v42
  let main_v44 : FVec F S384x64 .f32 := Host.absf main_arg9
  let main_cst_16 : FVec F S_ .f32 := constant S_ .f32 0x7F800000#32
  let main_v45 : FVec F S384x64 .f32 := broadcastInDim S384x64 ![] bcast_S_S384x64 main_cst_16
  let main_v46 : IVec S384x64 1 := cmpf .olt main_v44 main_v45
  let main_c_17 : IVec S_ 1 := constantI S_ 1 1#1
  let main_v47 : IVec S_ 1 := (fun x v => Host.reduce IntOp.andi x v reducesTo_S384x64_S_d0_1 h_S_) main_v46 main_c_17
  let main_v48 : IVec S_ 1 := andi main_v43 main_v47
  let main_v49 : FVec F S64 .f32 := Host.absf main_arg10
  let main_cst_18 : FVec F S_ .f32 := constant S_ .f32 0x7F800000#32
  let main_v50 : FVec F S64 .f32 := broadcastInDim S64 ![] bcast_S_S64 main_cst_18
  fn_part3 (F := F) main_arg11 main_arg12 main_v48 main_v49 main_v50

def fn_part1 {F : FTy → Type} [FloatOps F] (main_arg4 : FVec F S128 .f32) (main_arg5 : FVec F S195x64 .f32) (main_arg6 : FVec F S64 .f32) (main_arg7 : FVec F S384x128 .f32) (main_arg8 : FVec F S128 .f32) (main_arg9 : FVec F S384x64 .f32) (main_arg10 : FVec F S64 .f32) (main_arg11 : FVec F S64x1 .f32) (main_arg12 : FVec F S1 .f32) (main_v13 : IVec S_ 1) (main_v16 : IVec S195x128 1) : IVec S_ 1 :=
  let main_c_5 : IVec S_ 1 := constantI S_ 1 1#1
  let main_v17 : IVec S_ 1 := (fun x v => Host.reduce IntOp.andi x v reducesTo_S195x128_S_d0_1 h_S_) main_v16 main_c_5
  let main_v18 : IVec S_ 1 := andi main_v13 main_v17
  let main_v19 : FVec F S128 .f32 := Host.absf main_arg4
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S195x64 .f32 := Host.absf main_arg5
  let main_cst_8 : FVec F S_ .f32 := constant S_ .f32 0x7F800000#32
  let main_v25 : FVec F S195x64 .f32 := broadcastInDim S195x64 ![] bcast_S_S195x64 main_cst_8
  let main_v26 : IVec S195x64 1 := cmpf .olt main_v24 main_v25
  let main_c_9 : IVec S_ 1 := constantI S_ 1 1#1
  let main_v27 : IVec S_ 1 := (fun x v => Host.reduce IntOp.andi x v reducesTo_S195x64_S_d0_1 h_S_) main_v26 main_c_9
  let main_v28 : IVec S_ 1 := andi main_v23 main_v27
  let main_v29 : FVec F S64 .f32 := Host.absf main_arg6
  let main_cst_10 : FVec F S_ .f32 := constant S_ .f32 0x7F800000#32
  let main_v30 : FVec F S64 .f32 := broadcastInDim S64 ![] bcast_S_S64 main_cst_10
  let main_v31 : IVec S64 1 := cmpf .olt main_v29 main_v30
  let main_c_11 : IVec S_ 1 := constantI S_ 1 1#1
  let main_v32 : IVec S_ 1 := (fun x v => Host.reduce IntOp.andi x v reducesTo_S64_S_d0 h_S_) main_v31 main_c_11
  let main_v33 : IVec S_ 1 := andi main_v28 main_v32
  fn_part2 (F := F) main_arg7 main_arg8 main_arg9 main_arg10 main_arg11 main_arg12 main_v33

def fn {F : FTy → Type} [FloatOps F] (main_arg0 : FVec F S32x512 .f32) (main_arg1 : FVec F S512x512 .f32) (main_arg2 : FVec F S2x32x32768 .f32) (main_arg3 : FVec F S195x128 .f32) (main_arg4 : FVec F S128 .f32) (main_arg5 : FVec F S195x64 .f32) (main_arg6 : FVec F S64 .f32) (main_arg7 : FVec F S384x128 .f32) (main_arg8 : FVec F S128 .f32) (main_arg9 : FVec F S384x64 .f32) (main_arg10 : FVec F S64 .f32) (main_arg11 : FVec F S64x1 .f32) (main_arg12 : FVec F S1 .f32) : IVec S_ 1 :=
  let main_v0 : FVec F S32x512 .f32 := Host.absf main_arg0
  let main_cst : FVec F S_ .f32 := constant S_ .f32 0x7F800000#32
  let main_v1 : FVec F S32x512 .f32 := broadcastInDim S32x512 ![] bcast_S_S32x512 main_cst
  let main_v2 : IVec S32x512 1 := cmpf .olt main_v0 main_v1
  let main_c : IVec S_ 1 := constantI S_ 1 1#1
  let main_v3 : IVec S_ 1 := (fun x v => Host.reduce IntOp.andi x v reducesTo_S32x512_S_d0_1 h_S_) main_v2 main_c
  let main_v4 : FVec F S512x512 .f32 := Host.absf main_arg1
  let main_cst_0 : FVec F S_ .f32 := constant S_ .f32 0x7F800000#32
  let main_v5 : FVec F S512x512 .f32 := broadcastInDim S512x512 ![] bcast_S_S512x512 main_cst_0
  let main_v6 : IVec S512x512 1 := cmpf .olt main_v4 main_v5
  let main_c_1 : IVec S_ 1 := constantI S_ 1 1#1
  let main_v7 : IVec S_ 1 := (fun x v => Host.reduce IntOp.andi x v reducesTo_S512x512_S_d0_1 h_S_) main_v6 main_c_1
  let main_v8 : IVec S_ 1 := andi main_v3 main_v7
  let main_v9 : FVec F S2x32x32768 .f32 := Host.absf main_arg2
  let main_cst_2 : FVec F S_ .f32 := constant S_ .f32 0x7F800000#32
  let main_v10 : FVec F S2x32x32768 .f32 := broadcastInDim S2x32x32768 ![] bcast_S_S2x32x32768 main_cst_2
  let main_v11 : IVec S2x32x32768 1 := cmpf .olt main_v9 main_v10
  let main_c_3 : IVec S_ 1 := constantI S_ 1 1#1
  let main_v12 : IVec S_ 1 := (fun x v => Host.reduce IntOp.andi x v reducesTo_S2x32x32768_S_d0_1_2 h_S_) main_v11 main_c_3
  let main_v13 : IVec S_ 1 := andi main_v8 main_v12
  let main_v14 : FVec F S195x128 .f32 := Host.absf main_arg3
  let main_cst_4 : FVec F S_ .f32 := constant S_ .f32 0x7F800000#32
  let main_v15 : FVec F S195x128 .f32 := broadcastInDim S195x128 ![] bcast_S_S195x128 main_cst_4
  let main_v16 : IVec S195x128 1 := cmpf .olt main_v14 main_v15
  fn_part1 (F := F) main_arg4 main_arg5 main_arg6 main_arg7 main_arg8 main_arg9 main_arg10 main_arg11 main_arg12 main_v13 main_v16
-- ==== Kernel.lean ====
abbrev S32x512 : Shape := ⟨2, ![32, 512]⟩
abbrev S512x512 : Shape := ⟨2, ![512, 512]⟩
abbrev S2x32x32768 : Shape := ⟨3, ![2, 32, 32768]⟩
abbrev S195x128 : Shape := ⟨2, ![195, 128]⟩
abbrev S128 : Shape := ⟨1, ![128]⟩
abbrev S195x64 : Shape := ⟨2, ![195, 64]⟩
abbrev S64 : Shape := ⟨1, ![64]⟩
abbrev S384x128 : Shape := ⟨2, ![384, 128]⟩
abbrev S384x64 : Shape := ⟨2, ![384, 64]⟩
abbrev S64x1 : Shape := ⟨2, ![64, 1]⟩
abbrev S1 : Shape := ⟨1, ![1]⟩
abbrev S65x3x128 : Shape := ⟨3, ![65, 3, 128]⟩
abbrev S1x3x128 : Shape := ⟨3, ![1, 3, 128]⟩
abbrev S3x1x128 : Shape := ⟨3, ![3, 1, 128]⟩
abbrev S64x3x128 : Shape := ⟨3, ![64, 3, 128]⟩
abbrev S3x64x128 : Shape := ⟨3, ![3, 64, 128]⟩
abbrev S65x3x64 : Shape := ⟨3, ![65, 3, 64]⟩
abbrev S1x3x64 : Shape := ⟨3, ![1, 3, 64]⟩
abbrev S3x1x64 : Shape := ⟨3, ![3, 1, 64]⟩
abbrev S64x3x64 : Shape := ⟨3, ![64, 3, 64]⟩
abbrev S3x64x64 : Shape := ⟨3, ![3, 64, 64]⟩
abbrev S16x16 : Shape := ⟨2, ![16, 16]⟩
abbrev S_ : Shape := ⟨0, ![]⟩
abbrev S16x1x16x1 : Shape := ⟨4, ![16, 1, 16, 1]⟩
abbrev S3x1x1x1x128 : Shape := ⟨5, ![3, 1, 1, 1, 128]⟩
abbrev S1x16x1x16x1 : Shape := ⟨5, ![1, 16, 1, 16, 1]⟩
abbrev S3x16x1x16x128 : Shape := ⟨5, ![3, 16, 1, 16, 128]⟩
abbrev S3x16x2048 : Shape := ⟨3, ![3, 16, 2048]⟩
abbrev S3x1x1x1x64 : Shape := ⟨5, ![3, 1, 1, 1, 64]⟩
abbrev S3x16x1x16x64 : Shape := ⟨5, ![3, 16, 1, 16, 64]⟩
abbrev S3x16x1024 : Shape := ⟨3, ![3, 16, 1024]⟩
abbrev S128x3x128 : Shape := ⟨3, ![128, 3, 128]⟩
abbrev S128x3x64 : Shape := ⟨3, ![128, 3, 64]⟩
abbrev S1x64 : Shape := ⟨2, ![1, 64]⟩
abbrev S16x512 : Shape := ⟨2, ![16, 512]⟩
abbrev S2x16x32768 : Shape := ⟨3, ![2, 16, 32768]⟩
abbrev S1x16x32768 : Shape := ⟨3, ![1, 16, 32768]⟩
abbrev S16x32768 : Shape := ⟨2, ![16, 32768]⟩
abbrev S16x512x64 : Shape := ⟨3, ![16, 512, 64]⟩
abbrev S512x16x64 : Shape := ⟨3, ![512, 16, 64]⟩
abbrev S8192x64 : Shape := ⟨2, ![8192, 64]⟩
abbrev S512x16 : Shape := ⟨2, ![512, 16]⟩
abbrev S512x1024 : Shape := ⟨2, ![512, 1024]⟩
abbrev S1x128 : Shape := ⟨2, ![1, 128]⟩
abbrev S8192x128 : Shape := ⟨2, ![8192, 128]⟩
abbrev S1x64x128 : Shape := ⟨3, ![1, 64, 128]⟩
abbrev S64x128 : Shape := ⟨2, ![64, 128]⟩
abbrev S1x16x2048 : Shape := ⟨3, ![1, 16, 2048]⟩
abbrev S16x2048 : Shape := ⟨2, ![16, 2048]⟩
abbrev S512x2048 : Shape := ⟨2, ![512, 2048]⟩
abbrev S512x16x128 : Shape := ⟨3, ![512, 16, 128]⟩
abbrev S1x64x64 : Shape := ⟨3, ![1, 64, 64]⟩
abbrev S64x64 : Shape := ⟨2, ![64, 64]⟩
abbrev S1x16x1024 : Shape := ⟨3, ![1, 16, 1024]⟩
abbrev S16x1024 : Shape := ⟨2, ![16, 1024]⟩
abbrev S1x1x64 : Shape := ⟨3, ![1, 1, 64]⟩

abbrev nBuf : Space → Nat
  | .hbm => 64
  | .vmem => 23
  | .smem => 0
  | _ => 0

abbrev bufTy : (tb : Table) → Fin (tcTables nBuf tb) → BufTy
  | .hbm, ⟨0, _⟩ => ⟨S32x512, .f32⟩
  | .hbm, ⟨1, _⟩ => ⟨S512x512, .f32⟩
  | .hbm, ⟨2, _⟩ => ⟨S2x32x32768, .f32⟩
  | .hbm, ⟨3, _⟩ => ⟨S195x128, .f32⟩
  | .hbm, ⟨4, _⟩ => ⟨S128, .f32⟩
  | .hbm, ⟨5, _⟩ => ⟨S195x64, .f32⟩
  | .hbm, ⟨6, _⟩ => ⟨S64, .f32⟩
  | .hbm, ⟨7, _⟩ => ⟨S384x128, .f32⟩
  | .hbm, ⟨8, _⟩ => ⟨S128, .f32⟩
  | .hbm, ⟨9, _⟩ => ⟨S384x64, .f32⟩
  | .hbm, ⟨10, _⟩ => ⟨S64, .f32⟩
  | .hbm, ⟨11, _⟩ => ⟨S64x1, .f32⟩
  | .hbm, ⟨12, _⟩ => ⟨S1, .f32⟩
  | .hbm, ⟨13, _⟩ => ⟨S65x3x128, .f32⟩
  | .hbm, ⟨14, _⟩ => ⟨S1x3x128, .f32⟩
  | .hbm, ⟨15, _⟩ => ⟨S3x1x128, .f32⟩
  | .hbm, ⟨16, _⟩ => ⟨S64x3x128, .f32⟩
  | .hbm, ⟨17, _⟩ => ⟨S3x64x128, .f32⟩
  | .hbm, ⟨18, _⟩ => ⟨S65x3x64, .f32⟩
  | .hbm, ⟨19, _⟩ => ⟨S1x3x64, .f32⟩
  | .hbm, ⟨20, _⟩ => ⟨S3x1x64, .f32⟩
  | .hbm, ⟨21, _⟩ => ⟨S64x3x64, .f32⟩
  | .hbm, ⟨22, _⟩ => ⟨S3x64x64, .f32⟩
  | .hbm, ⟨23, _⟩ => ⟨S16x16, .i32⟩
  | .hbm, ⟨24, _⟩ => ⟨S16x16, .i32⟩
  | .hbm, ⟨25, _⟩ => ⟨S_, .i32⟩
  | .hbm, ⟨26, _⟩ => ⟨S16x16, .i32⟩
  | .hbm, ⟨27, _⟩ => ⟨S16x16, .i32⟩
  | .hbm, ⟨28, _⟩ => ⟨S16x16, .i1⟩
  | .hbm, ⟨29, _⟩ => ⟨S16x16, .f32⟩
  | .hbm, ⟨30, _⟩ => ⟨S16x1x16x1, .f32⟩
  | .hbm, ⟨31, _⟩ => ⟨S3x1x1x1x128, .f32⟩
  | .hbm, ⟨32, _⟩ => ⟨S1x16x1x16x1, .f32⟩
  | .hbm, ⟨33, _⟩ => ⟨S3x16x1x16x128, .f32⟩
  | .hbm, ⟨34, _⟩ => ⟨S3x16x1x16x128, .f32⟩
  | .hbm, ⟨35, _⟩ => ⟨S3x16x1x16x128, .f32⟩
  | .hbm, ⟨36, _⟩ => ⟨S3x16x2048, .f32⟩
  | .hbm, ⟨37, _⟩ => ⟨S16x16, .i32⟩
  | .hbm, ⟨38, _⟩ => ⟨S16x16, .i32⟩
  | .hbm, ⟨39, _⟩ => ⟨S_, .i32⟩
  | .hbm, ⟨40, _⟩ => ⟨S16x16, .i32⟩
  | .hbm, ⟨41, _⟩ => ⟨S16x16, .i32⟩
  | .hbm, ⟨42, _⟩ => ⟨S16x16, .i1⟩
  | .hbm, ⟨43, _⟩ => ⟨S16x16, .f32⟩
  | .hbm, ⟨44, _⟩ => ⟨S16x1x16x1, .f32⟩
  | .hbm, ⟨45, _⟩ => ⟨S3x1x1x1x64, .f32⟩
  | .hbm, ⟨46, _⟩ => ⟨S1x16x1x16x1, .f32⟩
  | .hbm, ⟨47, _⟩ => ⟨S3x16x1x16x64, .f32⟩
  | .hbm, ⟨48, _⟩ => ⟨S3x16x1x16x64, .f32⟩
  | .hbm, ⟨49, _⟩ => ⟨S3x16x1x16x64, .f32⟩
  | .hbm, ⟨50, _⟩ => ⟨S3x16x1024, .f32⟩
  | .hbm, ⟨51, _⟩ => ⟨S128x3x128, .f32⟩
  | .hbm, ⟨52, _⟩ => ⟨S64x3x128, .f32⟩
  | .hbm, ⟨53, _⟩ => ⟨S3x64x128, .f32⟩
  | .hbm, ⟨54, _⟩ => ⟨S64x3x128, .f32⟩
  | .hbm, ⟨55, _⟩ => ⟨S3x64x128, .f32⟩
  | .hbm, ⟨56, _⟩ => ⟨S128x3x64, .f32⟩
  | .hbm, ⟨57, _⟩ => ⟨S64x3x64, .f32⟩
  | .hbm, ⟨58, _⟩ => ⟨S3x64x64, .f32⟩
  | .hbm, ⟨59, _⟩ => ⟨S64x3x64, .f32⟩
  | .hbm, ⟨60, _⟩ => ⟨S3x64x64, .f32⟩
  | .hbm, ⟨61, _⟩ => ⟨S1x64, .f32⟩
  | .hbm, ⟨62, _⟩ => ⟨S32x512, .f32⟩
  | .hbm, ⟨63, _⟩ => ⟨S2x32x32768, .f32⟩
  | .local _ .vmem, ⟨0, _⟩ => ⟨S16x512, .f32⟩
  | .local _ .vmem, ⟨1, _⟩ => ⟨S16x512, .f32⟩
  | .local _ .vmem, ⟨2, _⟩ => ⟨S512x512, .f32⟩
  | .local _ .vmem, ⟨3, _⟩ => ⟨S2x16x32768, .f32⟩
  | .local _ .vmem, ⟨4, _⟩ => ⟨S2x16x32768, .f32⟩
  | .local _ .vmem, ⟨5, _⟩ => ⟨S3x16x2048, .f32⟩
  | .local _ .vmem, ⟨6, _⟩ => ⟨S3x64x128, .f32⟩
  | .local _ .vmem, ⟨7, _⟩ => ⟨S3x16x1024, .f32⟩
  | .local _ .vmem, ⟨8, _⟩ => ⟨S3x64x64, .f32⟩
  | .local _ .vmem, ⟨9, _⟩ => ⟨S128, .f32⟩
  | .local _ .vmem, ⟨10, _⟩ => ⟨S64, .f32⟩
  | .local _ .vmem, ⟨11, _⟩ => ⟨S3x64x128, .f32⟩
  | .local _ .vmem, ⟨12, _⟩ => ⟨S3x64x128, .f32⟩
  | .local _ .vmem, ⟨13, _⟩ => ⟨S3x64x64, .f32⟩
  | .local _ .vmem, ⟨14, _⟩ => ⟨S3x64x64, .f32⟩
  | .local _ .vmem, ⟨15, _⟩ => ⟨S128, .f32⟩
  | .local _ .vmem, ⟨16, _⟩ => ⟨S64, .f32⟩
  | .local _ .vmem, ⟨17, _⟩ => ⟨S1x64, .f32⟩
  | .local _ .vmem, ⟨18, _⟩ => ⟨S1, .f32⟩
  | .local _ .vmem, ⟨19, _⟩ => ⟨S16x512, .f32⟩
  | .local _ .vmem, ⟨20, _⟩ => ⟨S16x512, .f32⟩
  | .local _ .vmem, ⟨21, _⟩ => ⟨S2x16x32768, .f32⟩
  | .local _ .vmem, ⟨22, _⟩ => ⟨S2x16x32768, .f32⟩
  | _, _ => ⟨S32x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_c : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_call0_v0 : Ref sig .tc := ⟨.hbm, 30, rfl⟩
abbrev main_call0_v1 : Ref sig .tc := ⟨.hbm, 31, rfl⟩
abbrev main_call0_v2 : Ref sig .tc := ⟨.hbm, 32, rfl⟩
abbrev main_call0_v3 : Ref sig .tc := ⟨.hbm, 33, rfl⟩
abbrev main_call0_v4 : Ref sig .tc := ⟨.hbm, 34, rfl⟩
abbrev main_call0_v5 : Ref sig .tc := ⟨.hbm, 35, rfl⟩
abbrev main_v16 : Ref sig .tc := ⟨.hbm, 36, rfl⟩
abbrev main_v17 : Ref sig .tc := ⟨.hbm, 37, rfl⟩
abbrev main_v18 : Ref sig .tc := ⟨.hbm, 38, rfl⟩
abbrev main_c_0 : Ref sig .tc := ⟨.hbm, 39, rfl⟩
abbrev main_v19 : Ref sig .tc := ⟨.hbm, 40, rfl⟩
abbrev main_v20 : Ref sig .tc := ⟨.hbm, 41, rfl⟩
abbrev main_v21 : Ref sig .tc := ⟨.hbm, 42, rfl⟩
abbrev main_v22 : Ref sig .tc := ⟨.hbm, 43, rfl⟩
abbrev main_call1_v0 : Ref sig .tc := ⟨.hbm, 44, rfl⟩
abbrev main_call1_v1 : Ref sig .tc := ⟨.hbm, 45, rfl⟩
abbrev main_call1_v2 : Ref sig .tc := ⟨.hbm, 46, rfl⟩
abbrev main_call1_v3 : Ref sig .tc := ⟨.hbm, 47, rfl⟩
abbrev main_call1_v4 : Ref sig .tc := ⟨.hbm, 48, rfl⟩
abbrev main_call1_v5 : Ref sig .tc := ⟨.hbm, 49, rfl⟩
abbrev main_v23 : Ref sig .tc := ⟨.hbm, 50, rfl⟩
abbrev main_v24 : Ref sig .tc := ⟨.hbm, 51, rfl⟩
abbrev main_v25 : Ref sig .tc := ⟨.hbm, 52, rfl⟩
abbrev main_v26 : Ref sig .tc := ⟨.hbm, 53, rfl⟩
abbrev main_v27 : Ref sig .tc := ⟨.hbm, 54, rfl⟩
abbrev main_v28 : Ref sig .tc := ⟨.hbm, 55, rfl⟩
abbrev main_v29 : Ref sig .tc := ⟨.hbm, 56, rfl⟩
abbrev main_v30 : Ref sig .tc := ⟨.hbm, 57, rfl⟩
abbrev main_v31 : Ref sig .tc := ⟨.hbm, 58, rfl⟩
abbrev main_v32 : Ref sig .tc := ⟨.hbm, 59, rfl⟩
abbrev main_v33 : Ref sig .tc := ⟨.hbm, 60, rfl⟩
abbrev main_v34 : Ref sig .tc := ⟨.hbm, 61, rfl⟩
abbrev main_v35_0 : Ref sig .tc := ⟨.hbm, 62, rfl⟩
abbrev main_v35_1 : Ref sig .tc := ⟨.hbm, 63, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg10_0 : Ref sig .tc := ⟨.vmem, 12, rfl⟩
abbrev cc0_stg11_0 : Ref sig .tc := ⟨.vmem, 13, rfl⟩
abbrev cc0_stg12_0 : Ref sig .tc := ⟨.vmem, 14, rfl⟩
abbrev cc0_stg13_0 : Ref sig .tc := ⟨.vmem, 15, rfl⟩
abbrev cc0_stg14_0 : Ref sig .tc := ⟨.vmem, 16, rfl⟩
abbrev cc0_stg15_0 : Ref sig .tc := ⟨.vmem, 17, rfl⟩
abbrev cc0_stg16_0 : Ref sig .tc := ⟨.vmem, 18, rfl⟩
abbrev cc0_stg17_0 : Ref sig .tc := ⟨.vmem, 19, rfl⟩
abbrev cc0_stg17_1 : Ref sig .tc := ⟨.vmem, 20, rfl⟩
abbrev cc0_stg18_0 : Ref sig .tc := ⟨.vmem, 21, rfl⟩
abbrev cc0_stg18_1 : Ref sig .tc := ⟨.vmem, 22, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem10_0 : DmaSem sig := 12
abbrev cc0_sem11_0 : DmaSem sig := 13
abbrev cc0_sem12_0 : DmaSem sig := 14
abbrev cc0_sem13_0 : DmaSem sig := 15
abbrev cc0_sem14_0 : DmaSem sig := 16
abbrev cc0_sem15_0 : DmaSem sig := 17
abbrev cc0_sem16_0 : DmaSem sig := 18
abbrev cc0_sem17_0 : DmaSem sig := 19
abbrev cc0_sem17_1 : DmaSem sig := 20
abbrev cc0_sem18_0 : DmaSem sig := 21
abbrev cc0_sem18_1 : DmaSem sig := 22

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_8 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_10 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_11 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_12 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_13 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_14 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_17 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_18 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S16x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S2x16x32768 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S3x16x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S3x64x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S3x16x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S3x64x64 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S64 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S3x64x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S3x64x128 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S3x64x64 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S3x64x64 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S128 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S64 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S1x64 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 1 → Memref sig .tc .vmem S1 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]

abbrev stage0_17 : Fin 2 → Memref sig .tc .vmem S16x512 .f32 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]

abbrev stage0_18 : Fin 2 → Memref sig .tc .vmem S2x16x32768 .f32 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true]

class Facts₀ : Prop where
  shapeCasts_S195x128_S65x3x128 : S195x128.ShapeCasts S65x3x128
  slices_S65x3x128_S1x3x128_0_0_0 : S65x3x128.Slices ![0, 0, 0] S1x3x128
  transposes_S1x3x128_S3x1x128_1_0_2 : S1x3x128.Transposes [1, 0, 2] S3x1x128
  slices_S65x3x128_S64x3x128_1_0_0 : S65x3x128.Slices ![1, 0, 0] S64x3x128
  transposes_S64x3x128_S3x64x128_1_0_2 : S64x3x128.Transposes [1, 0, 2] S3x64x128
  shapeCasts_S195x64_S65x3x64 : S195x64.ShapeCasts S65x3x64
  slices_S65x3x64_S1x3x64_0_0_0 : S65x3x64.Slices ![0, 0, 0] S1x3x64
  transposes_S1x3x64_S3x1x64_1_0_2 : S1x3x64.Transposes [1, 0, 2] S3x1x64
  slices_S65x3x64_S64x3x64_1_0_0 : S65x3x64.Slices ![1, 0, 0] S64x3x64
  transposes_S64x3x64_S3x64x64_1_0_2 : S64x3x64.Transposes [1, 0, 2] S3x64x64
  bcast_S_S16x16 : S_.BroadcastsInDim S16x16 (![] : Fin 0 → Fin S16x16.rank)
  bcast_S16x16_S16x1x16x1_0_2 : S16x16.BroadcastsInDim S16x1x16x1 (![0, 2] : Fin 2 → Fin S16x1x16x1.rank)
  bcast_S3x1x128_S3x1x1x1x128_0_2_4 : S3x1x128.BroadcastsInDim S3x1x1x1x128 (![0, 2, 4] : Fin 3 → Fin S3x1x1x1x128.rank)
  bcast_S16x1x16x1_S1x16x1x16x1_1_2_3_4 : S16x1x16x1.BroadcastsInDim S1x16x1x16x1 (![1, 2, 3, 4] : Fin 4 → Fin S1x16x1x16x1.rank)
  bcast_S1x16x1x16x1_S3x16x1x16x128_0_1_2_3_4 : S1x16x1x16x1.BroadcastsInDim S3x16x1x16x128 (![0, 1, 2, 3, 4] : Fin 5 → Fin S3x16x1x16x128.rank)
  bcast_S3x1x1x1x128_S3x16x1x16x128_0_1_2_3_4 : S3x1x1x1x128.BroadcastsInDim S3x16x1x16x128 (![0, 1, 2, 3, 4] : Fin 5 → Fin S3x16x1x16x128.rank)
  shapeCasts_S3x16x1x16x128_S3x16x2048 : S3x16x1x16x128.ShapeCasts S3x16x2048
  bcast_S3x1x64_S3x1x1x1x64_0_2_4 : S3x1x64.BroadcastsInDim S3x1x1x1x64 (![0, 2, 4] : Fin 3 → Fin S3x1x1x1x64.rank)
  bcast_S1x16x1x16x1_S3x16x1x16x64_0_1_2_3_4 : S1x16x1x16x1.BroadcastsInDim S3x16x1x16x64 (![0, 1, 2, 3, 4] : Fin 5 → Fin S3x16x1x16x64.rank)
  bcast_S3x1x1x1x64_S3x16x1x16x64_0_1_2_3_4 : S3x1x1x1x64.BroadcastsInDim S3x16x1x16x64 (![0, 1, 2, 3, 4] : Fin 5 → Fin S3x16x1x16x64.rank)
  shapeCasts_S3x16x1x16x64_S3x16x1024 : S3x16x1x16x64.ShapeCasts S3x16x1024
  shapeCasts_S384x128_S128x3x128 : S384x128.ShapeCasts S128x3x128
  slices_S128x3x128_S64x3x128_0_0_0 : S128x3x128.Slices ![0, 0, 0] S64x3x128
  slices_S128x3x128_S64x3x128_64_0_0 : S128x3x128.Slices ![64, 0, 0] S64x3x128
  shapeCasts_S384x64_S128x3x64 : S384x64.ShapeCasts S128x3x64
  slices_S128x3x64_S64x3x64_0_0_0 : S128x3x64.Slices ![0, 0, 0] S64x3x64
  slices_S128x3x64_S64x3x64_64_0_0 : S128x3x64.Slices ![64, 0, 0] S64x3x64
  transposes_S64x1_S1x64_1_0 : S64x1.Transposes [1, 0] S1x64
  inb_S512x512_S512x512_0_0 : ∀ a, (![0, 0] : Fin 2 → Nat) a + S512x512.size a ≤ S512x512.size a
  h_S512x512 : 0 < S512x512.numel
  inb_S2x16x32768_S1x16x32768_0_0_0 : ∀ a, (![0, 0, 0] : Fin 3 → Nat) a + S1x16x32768.size a ≤ S2x16x32768.size a
  h_S1x16x32768 : 0 < S1x16x32768.numel
  shapeCasts_S1x16x32768_S16x32768 : S1x16x32768.ShapeCasts S16x32768
  shapeCasts_S16x32768_S16x512x64 : S16x32768.ShapeCasts S16x512x64
  transposes_S16x512x64_p1_0_2_S512x16x64 : S16x512x64.Transposes [1, 0, 2] S512x16x64
  shapeCasts_S512x16x64_S8192x64 : S512x16x64.ShapeCasts S8192x64
  inb_S16x512_S16x512_0_0 : ∀ a, (![0, 0] : Fin 2 → Nat) a + S16x512.size a ≤ S16x512.size a
  h_S16x512 : 0 < S16x512.numel
  transposes_S16x512_p1_0_S512x16 : S16x512.Transposes [1, 0] S512x16
  bitsLt_bf16_f32 : FTy.bits .bf16 < FTy.bits .f32
  inb_S3x16x2048_S3x16x2048_0_0_0 : ∀ a, (![0, 0, 0] : Fin 3 → Nat) a + S3x16x2048.size a ≤ S3x16x2048.size a
  h_S3x16x2048 : 0 < S3x16x2048.numel
  shapeCasts_S3x16x2048_S3x16x2048 : S3x16x2048.ShapeCasts S3x16x2048
  inb_S3x64x128_S3x64x128_0_0_0 : ∀ a, (![0, 0, 0] : Fin 3 → Nat) a + S3x64x128.size a ≤ S3x64x128.size a
  h_S3x64x128 : 0 < S3x64x128.numel
  shapeCasts_S3x64x128_S3x64x128 : S3x64x128.ShapeCasts S3x64x128
  inb_S128_S128_0 : ∀ a, (![0] : Fin 1 → Nat) a + S128.size a ≤ S128.size a
  h_S128 : 0 < S128.numel
  shapeCasts_S8192x64_S512x16x64 : S8192x64.ShapeCasts S512x16x64
  shapeCasts_S512x16x64_S512x1024 : S512x16x64.ShapeCasts S512x1024
  shapeCasts_S128_S1x128 : S128.ShapeCasts S1x128
  shapeCasts_S1x128_S1x128 : S1x128.ShapeCasts S1x128
  broadcasts_S1x128_S8192x128 : S1x128.Broadcasts S8192x128
  shapeCasts_S512x1024_S512x16x64 : S512x1024.ShapeCasts S512x16x64
  slices_S3x64x128_o0_0_0_S1x64x128 : S3x64x128.Slices ![0, 0, 0] S1x64x128
  shapeCasts_S1x64x128_S64x128 : S1x64x128.ShapeCasts S64x128
  slices_S3x16x2048_o0_0_0_S1x16x2048 : S3x16x2048.Slices ![0, 0, 0] S1x16x2048
  shapeCasts_S1x16x2048_S16x2048 : S1x16x2048.ShapeCasts S16x2048
  shapeCasts_S512x2048_S512x16x128 : S512x2048.ShapeCasts S512x16x128
  shapeCasts_S512x16x128_S8192x128 : S512x16x128.ShapeCasts S8192x128
  slices_S3x64x128_o1_0_0_S1x64x128 : S3x64x128.Slices ![1, 0, 0] S1x64x128
  slices_S3x16x2048_o1_0_0_S1x16x2048 : S3x16x2048.Slices ![1, 0, 0] S1x16x2048
  slices_S3x64x128_o2_0_0_S1x64x128 : S3x64x128.Slices ![2, 0, 0] S1x64x128
  slices_S3x16x2048_o2_0_0_S1x16x2048 : S3x16x2048.Slices ![2, 0, 0] S1x16x2048
  slices_S8192x128_o0_0_S8192x64 : S8192x128.Slices ![0, 0] S8192x64
  slices_S8192x128_o0_64_S8192x64 : S8192x128.Slices ![0, 64] S8192x64
  inb_S3x16x1024_S3x16x1024_0_0_0 : ∀ a, (![0, 0, 0] : Fin 3 → Nat) a + S3x16x1024.size a ≤ S3x16x1024.size a
  h_S3x16x1024 : 0 < S3x16x1024.numel
  shapeCasts_S3x16x1024_S3x16x1024 : S3x16x1024.ShapeCasts S3x16x1024
  inb_S3x64x64_S3x64x64_0_0_0 : ∀ a, (![0, 0, 0] : Fin 3 → Nat) a + S3x64x64.size a ≤ S3x64x64.size a
  h_S3x64x64 : 0 < S3x64x64.numel
  shapeCasts_S3x64x64_S3x64x64 : S3x64x64.ShapeCasts S3x64x64
  inb_S64_S64_0 : ∀ a, (![0] : Fin 1 → Nat) a + S64.size a ≤ S64.size a
  h_S64 : 0 < S64.numel
  shapeCasts_S64_S1x64 : S64.ShapeCasts S1x64
  shapeCasts_S1x64_S1x64 : S1x64.ShapeCasts S1x64
  broadcasts_S1x64_S8192x64 : S1x64.Broadcasts S8192x64
  slices_S3x64x64_o0_0_0_S1x64x64 : S3x64x64.Slices ![0, 0, 0] S1x64x64
  shapeCasts_S1x64x64_S64x64 : S1x64x64.ShapeCasts S64x64
  slices_S3x16x1024_o0_0_0_S1x16x1024 : S3x16x1024.Slices ![0, 0, 0] S1x16x1024
  shapeCasts_S1x16x1024_S16x1024 : S1x16x1024.ShapeCasts S16x1024
  slices_S3x64x64_o1_0_0_S1x64x64 : S3x64x64.Slices ![1, 0, 0] S1x64x64
  slices_S3x16x1024_o1_0_0_S1x16x1024 : S3x16x1024.Slices ![1, 0, 0] S1x16x1024
  slices_S3x64x64_o2_0_0_S1x64x64 : S3x64x64.Slices ![2, 0, 0] S1x64x64
  slices_S3x16x1024_o2_0_0_S1x16x1024 : S3x16x1024.Slices ![2, 0, 0] S1x16x1024
  inb_S2x16x32768_S1x16x32768_1_0_0 : ∀ a, (![1, 0, 0] : Fin 3 → Nat) a + S1x16x32768.size a ≤ S2x16x32768.size a
  transposes_S512x16x64_p1_0_2_S16x512x64 : S512x16x64.Transposes [1, 0, 2] S16x512x64
  shapeCasts_S16x512x64_S16x32768 : S16x512x64.ShapeCasts S16x32768
  shapeCasts_S16x32768_S1x16x32768 : S16x32768.ShapeCasts S1x16x32768
  inb_S1x64_S1x64_0_0 : ∀ a, (![0, 0] : Fin 2 → Nat) a + S1x64.size a ≤ S1x64.size a
  h_S1x64 : 0 < S1x64.numel
  shapeCasts_S1x64_S1x1x64 : S1x64.ShapeCasts S1x1x64
  broadcasts_S1x1x64_S512x16x64 : S1x1x64.Broadcasts S512x16x64
  reduces_S512x16x64_S512x16 : S512x16x64.Reduces [2] S512x16
  inb_S1_S1_0 : ∀ a, (![0] : Fin 1 → Nat) a + S1.size a ≤ S1.size a
  h_S1 : 0 < S1.numel
  inpos_S1_p0 : ∀ a, (![0] : Fin 1 → Nat) a < S1.size a
  transposes_S512x16_p1_0_S16x512 : S512x16.Transposes [1, 0] S16x512
  dot_S512x512_S512x16_S512x16_1_0_0_1_n_n_wf : DotDims.WF S512x512 S512x16 S512x16 [1] [0] [0] [1] [] []
  dot_S512x512_S512x1024_S512x1024_1_0_0_1_n_n_wf : DotDims.WF S512x512 S512x1024 S512x1024 [1] [0] [0] [1] [] []
  dot_S8192x64_S64x128_S8192x128_1_0_0_1_n_n_wf : DotDims.WF S8192x64 S64x128 S8192x128 [1] [0] [0] [1] [] []
  dot_S512x16_S16x2048_S512x2048_1_0_0_1_n_n_wf : DotDims.WF S512x16 S16x2048 S512x2048 [1] [0] [0] [1] [] []
  dot_S8192x64_S64x64_S8192x64_1_0_0_1_n_n_wf : DotDims.WF S8192x64 S64x64 S8192x64 [1] [0] [0] [1] [] []
  dot_S512x16_S16x1024_S512x1024_1_0_0_1_n_n_wf : DotDims.WF S512x16 S16x1024 S512x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S16x512.size a ≤ S32x512.size a
  hwx0_0 : ∀ i : grid0.Coords, EltTy.bits .f32 = 32 ∨ (Rect.block (s := S32x512) S16x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S512x512.size a ≤ S512x512.size a
  hwx0_1 : ∀ i : grid0.Coords, EltTy.bits .f32 = 32 ∨ (Rect.block (s := S512x512) S512x512.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2x16x32768.size a ≤ S2x32x32768.size a
  hwx0_2 : ∀ i : grid0.Coords, EltTy.bits .f32 = 32 ∨ (Rect.block (s := S2x32x32768) S2x16x32768.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S3x16x2048.size a ≤ S3x16x2048.size a
  hwx0_3 : ∀ i : grid0.Coords, EltTy.bits .f32 = 32 ∨ (Rect.block (s := S3x16x2048) S3x16x2048.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S3x64x128.size a ≤ S3x64x128.size a
  hwx0_4 : ∀ i : grid0.Coords, EltTy.bits .f32 = 32 ∨ (Rect.block (s := S3x64x128) S3x64x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S3x16x1024.size a ≤ S3x16x1024.size a
  hwx0_5 : ∀ i : grid0.Coords, EltTy.bits .f32 = 32 ∨ (Rect.block (s := S3x16x1024) S3x16x1024.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S3x64x64.size a ≤ S3x64x64.size a
  hwx0_6 : ∀ i : grid0.Coords, EltTy.bits .f32 = 32 ∨ (Rect.block (s := S3x64x64) S3x64x64.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S128.size a ≤ S128.size a
  hwx0_7 : ∀ i : grid0.Coords, EltTy.bits .f32 = 32 ∨ (Rect.block (s := S128) S128.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S64.size a ≤ S64.size a
  hwx0_8 : ∀ i : grid0.Coords, EltTy.bits .f32 = 32 ∨ (Rect.block (s := S64) S64.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S3x64x128.size a ≤ S3x64x128.size a
  hwx0_9 : ∀ i : grid0.Coords, EltTy.bits .f32 = 32 ∨ (Rect.block (s := S3x64x128) S3x64x128.size (cc0_transform_9 i) (hinb0_9 i)).WholeWords (EltTy.packing .f32)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S3x64x128.size a ≤ S3x64x128.size a
  hwx0_10 : ∀ i : grid0.Coords, EltTy.bits .f32 = 32 ∨ (Rect.block (s := S3x64x128) S3x64x128.size (cc0_transform_10 i) (hinb0_10 i)).WholeWords (EltTy.packing .f32)
  hstage0_11 : ∀ j, (stage0_11 j).IsWhole
  nbuf0_11 : grid0.bufCount reads0_11 true = 1
  hreads0_11 : ∀ i i' : grid0.Coords, (∀ a, reads0_11 a = true → i a = i' a) → cc0_transform_11 i = cc0_transform_11 i'
  hinb0_11 : ∀ (i : grid0.Coords) a, (cc0_transform_11 i a + 1) * S3x64x64.size a ≤ S3x64x64.size a
  hwx0_11 : ∀ i : grid0.Coords, EltTy.bits .f32 = 32 ∨ (Rect.block (s := S3x64x64) S3x64x64.size (cc0_transform_11 i) (hinb0_11 i)).WholeWords (EltTy.packing .f32)
  hstage0_12 : ∀ j, (stage0_12 j).IsWhole
  nbuf0_12 : grid0.bufCount reads0_12 true = 1
  hreads0_12 : ∀ i i' : grid0.Coords, (∀ a, reads0_12 a = true → i a = i' a) → cc0_transform_12 i = cc0_transform_12 i'
  hinb0_12 : ∀ (i : grid0.Coords) a, (cc0_transform_12 i a + 1) * S3x64x64.size a ≤ S3x64x64.size a
  hwx0_12 : ∀ i : grid0.Coords, EltTy.bits .f32 = 32 ∨ (Rect.block (s := S3x64x64) S3x64x64.size (cc0_transform_12 i) (hinb0_12 i)).WholeWords (EltTy.packing .f32)
  hstage0_13 : ∀ j, (stage0_13 j).IsWhole
  nbuf0_13 : grid0.bufCount reads0_13 true = 1
  hreads0_13 : ∀ i i' : grid0.Coords, (∀ a, reads0_13 a = true → i a = i' a) → cc0_transform_13 i = cc0_transform_13 i'
  hinb0_13 : ∀ (i : grid0.Coords) a, (cc0_transform_13 i a + 1) * S128.size a ≤ S128.size a
  hwx0_13 : ∀ i : grid0.Coords, EltTy.bits .f32 = 32 ∨ (Rect.block (s := S128) S128.size (cc0_transform_13 i) (hinb0_13 i)).WholeWords (EltTy.packing .f32)
  hstage0_14 : ∀ j, (stage0_14 j).IsWhole
  nbuf0_14 : grid0.bufCount reads0_14 true = 1
  hreads0_14 : ∀ i i' : grid0.Coords, (∀ a, reads0_14 a = true → i a = i' a) → cc0_transform_14 i = cc0_transform_14 i'
  hinb0_14 : ∀ (i : grid0.Coords) a, (cc0_transform_14 i a + 1) * S64.size a ≤ S64.size a
  hwx0_14 : ∀ i : grid0.Coords, EltTy.bits .f32 = 32 ∨ (Rect.block (s := S64) S64.size (cc0_transform_14 i) (hinb0_14 i)).WholeWords (EltTy.packing .f32)
  hstage0_15 : ∀ j, (stage0_15 j).IsWhole
  nbuf0_15 : grid0.bufCount reads0_15 true = 1
  hreads0_15 : ∀ i i' : grid0.Coords, (∀ a, reads0_15 a = true → i a = i' a) → cc0_transform_15 i = cc0_transform_15 i'
  hinb0_15 : ∀ (i : grid0.Coords) a, (cc0_transform_15 i a + 1) * S1x64.size a ≤ S1x64.size a
  hwx0_15 : ∀ i : grid0.Coords, EltTy.bits .f32 = 32 ∨ (Rect.block (s := S1x64) S1x64.size (cc0_transform_15 i) (hinb0_15 i)).WholeWords (EltTy.packing .f32)
  hstage0_16 : ∀ j, (stage0_16 j).IsWhole
  nbuf0_16 : grid0.bufCount reads0_16 true = 1
  hreads0_16 : ∀ i i' : grid0.Coords, (∀ a, reads0_16 a = true → i a = i' a) → cc0_transform_16 i = cc0_transform_16 i'
  hinb0_16 : ∀ (i : grid0.Coords) a, (cc0_transform_16 i a + 1) * S1.size a ≤ S1.size a
  hwx0_16 : ∀ i : grid0.Coords, EltTy.bits .f32 = 32 ∨ (Rect.block (s := S1) S1.size (cc0_transform_16 i) (hinb0_16 i)).WholeWords (EltTy.packing .f32)
  hstage0_17 : ∀ j, (stage0_17 j).IsWhole
  nbuf0_17 : grid0.bufCount reads0_17 false = 2
  hreads0_17 : ∀ i i' : grid0.Coords, (∀ a, reads0_17 a = true → i a = i' a) → cc0_transform_17 i = cc0_transform_17 i'
  hinb0_17 : ∀ (i : grid0.Coords) a, (cc0_transform_17 i a + 1) * S16x512.size a ≤ S32x512.size a
  hwx0_17 : ∀ i : grid0.Coords, EltTy.bits .f32 = 32 ∨ (Rect.block (s := S32x512) S16x512.size (cc0_transform_17 i) (hinb0_17 i)).WholeWords (EltTy.packing .f32)
  hstage0_18 : ∀ j, (stage0_18 j).IsWhole
  nbuf0_18 : grid0.bufCount reads0_18 false = 2
  hreads0_18 : ∀ i i' : grid0.Coords, (∀ a, reads0_18 a = true → i a = i' a) → cc0_transform_18 i = cc0_transform_18 i'
  hinb0_18 : ∀ (i : grid0.Coords) a, (cc0_transform_18 i a + 1) * S2x16x32768.size a ≤ S2x32x32768.size a
  hwx0_18 : ∀ i : grid0.Coords, EltTy.bits .f32 = 32 ∨ (Rect.block (s := S2x32x32768) S2x16x32768.size (cc0_transform_18 i) (hinb0_18 i)).WholeWords (EltTy.packing .f32)

variable [Facts₀]

def dot_S512x512_S512x16_S512x16_1_0_0_1_n_n : DotDims S512x512 S512x16 S512x16 where
  lhsContracting := [1]
  rhsContracting := [0]
  lhsNonContracting := [0]
  rhsNonContracting := [1]
  lhsBatch := []
  rhsBatch := []
  wf := dot_S512x512_S512x16_S512x16_1_0_0_1_n_n_wf
def dot_S512x512_S512x1024_S512x1024_1_0_0_1_n_n : DotDims S512x512 S512x1024 S512x1024 where
  lhsContracting := [1]
  rhsContracting := [0]
  lhsNonContracting := [0]
  rhsNonContracting := [1]
  lhsBatch := []
  rhsBatch := []
  wf := dot_S512x512_S512x1024_S512x1024_1_0_0_1_n_n_wf
def dot_S8192x64_S64x128_S8192x128_1_0_0_1_n_n : DotDims S8192x64 S64x128 S8192x128 where
  lhsContracting := [1]
  rhsContracting := [0]
  lhsNonContracting := [0]
  rhsNonContracting := [1]
  lhsBatch := []
  rhsBatch := []
  wf := dot_S8192x64_S64x128_S8192x128_1_0_0_1_n_n_wf
def dot_S512x16_S16x2048_S512x2048_1_0_0_1_n_n : DotDims S512x16 S16x2048 S512x2048 where
  lhsContracting := [1]
  rhsContracting := [0]
  lhsNonContracting := [0]
  rhsNonContracting := [1]
  lhsBatch := []
  rhsBatch := []
  wf := dot_S512x16_S16x2048_S512x2048_1_0_0_1_n_n_wf
def dot_S8192x64_S64x64_S8192x64_1_0_0_1_n_n : DotDims S8192x64 S64x64 S8192x64 where
  lhsContracting := [1]
  rhsContracting := [0]
  lhsNonContracting := [0]
  rhsNonContracting := [1]
  lhsBatch := []
  rhsBatch := []
  wf := dot_S8192x64_S64x64_S8192x64_1_0_0_1_n_n_wf
def dot_S512x16_S16x1024_S512x1024_1_0_0_1_n_n : DotDims S512x16 S16x1024 S512x1024 where
  lhsContracting := [1]
  rhsContracting := [0]
  lhsNonContracting := [0]
  rhsNonContracting := [1]
  lhsBatch := []
  rhsBatch := []
  wf := dot_S512x16_S16x1024_S512x1024_1_0_0_1_n_n_wf

abbrev win0_0 : Pipeline.Window sig grid0 :=
  Pipeline.Window.ofSpec (Memref.whole main_arg0) S16x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S512x512.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S2x16x32768.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v16) S3x16x2048.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v4) S3x64x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v23) S3x16x1024.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v9) S3x64x64.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_arg4) S128.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_arg6) S64.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v26) S3x64x128.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_v28) S3x64x128.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_v31) S3x64x64.size cc0_transform_11 reads0_11 false true 1 stage0_11 sem0_11
    hrank0 hreads0_11 hinb0_11 nbuf0_11 (Memref.isWhole_whole _) hwx0_11 hstage0_11

abbrev win0_12 : Pipeline.Window sig grid0 :=
  Pipeline.Window.ofSpec (Memref.whole main_v33) S3x64x64.size cc0_transform_12 reads0_12 false true 1 stage0_12 sem0_12
    hrank0 hreads0_12 hinb0_12 nbuf0_12 (Memref.isWhole_whole _) hwx0_12 hstage0_12

abbrev win0_13 : Pipeline.Window sig grid0 :=
  Pipeline.Window.ofSpec (Memref.whole main_arg8) S128.size cc0_transform_13 reads0_13 false true 1 stage0_13 sem0_13
    hrank0 hreads0_13 hinb0_13 nbuf0_13 (Memref.isWhole_whole _) hwx0_13 hstage0_13

abbrev win0_14 : Pipeline.Window sig grid0 :=
  Pipeline.Window.ofSpec (Memref.whole main_arg10) S64.size cc0_transform_14 reads0_14 false true 1 stage0_14 sem0_14
    hrank0 hreads0_14 hinb0_14 nbuf0_14 (Memref.isWhole_whole _) hwx0_14 hstage0_14

abbrev win0_15 : Pipeline.Window sig grid0 :=
  Pipeline.Window.ofSpec (Memref.whole main_v34) S1x64.size cc0_transform_15 reads0_15 false true 1 stage0_15 sem0_15
    hrank0 hreads0_15 hinb0_15 nbuf0_15 (Memref.isWhole_whole _) hwx0_15 hstage0_15

abbrev win0_16 : Pipeline.Window sig grid0 :=
  Pipeline.Window.ofSpec (Memref.whole main_arg12) S1.size cc0_transform_16 reads0_16 false true 1 stage0_16 sem0_16
    hrank0 hreads0_16 hinb0_16 nbuf0_16 (Memref.isWhole_whole _) hwx0_16 hstage0_16

abbrev win0_17 : Pipeline.Window sig grid0 :=
  Pipeline.Window.ofSpec (Memref.whole main_v35_0) S16x512.size cc0_transform_17 reads0_17 true false 2 stage0_17 sem0_17
    hrank0 hreads0_17 hinb0_17 nbuf0_17 (Memref.isWhole_whole _) hwx0_17 hstage0_17

abbrev win0_18 : Pipeline.Window sig grid0 :=
  Pipeline.Window.ofSpec (Memref.whole main_v35_1) S2x16x32768.size cc0_transform_18 reads0_18 true false 2 stage0_18 sem0_18
    hrank0 hreads0_18 hinb0_18 nbuf0_18 (Memref.isWhole_whole _) hwx0_18 hstage0_18

abbrev win0 : Fin 19 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | 13 => win0_13 | 14 => win0_14 | 15 => win0_15 | 16 => win0_16 | 17 => win0_17 | 18 => win0_18 | ⟨_ + 19, h⟩ => absurd h (Nat.not_lt.2 (Nat.le_add_left _ _))
abbrev spec0 : Fin 19 → Pipeline.WinSpec sig grid0.rank := fun w => (win0 w).toWinSpec

class Facts : Prop extends Facts₀ where

variable [Facts]
-- ==== ReferenceIdeal.lean ====
abbrev S32x512 : Shape := ⟨2, ![32, 512]⟩
abbrev S512x512 : Shape := ⟨2, ![512, 512]⟩
abbrev S2x32x32768 : Shape := ⟨3, ![2, 32, 32768]⟩
abbrev S195x128 : Shape := ⟨2, ![195, 128]⟩
abbrev S128 : Shape := ⟨1, ![128]⟩
abbrev S195x64 : Shape := ⟨2, ![195, 64]⟩
abbrev S64 : Shape := ⟨1, ![64]⟩
abbrev S384x128 : Shape := ⟨2, ![384, 128]⟩
abbrev S384x64 : Shape := ⟨2, ![384, 64]⟩
abbrev S64x1 : Shape := ⟨2, ![64, 1]⟩
abbrev S1 : Shape := ⟨1, ![1]⟩
abbrev S1x32x32768 : Shape := ⟨3, ![1, 32, 32768]⟩
abbrev S32x32768 : Shape := ⟨2, ![32, 32768]⟩
abbrev S32x512x1 : Shape := ⟨3, ![32, 512, 1]⟩
abbrev S32x512x64 : Shape := ⟨3, ![32, 512, 64]⟩
abbrev S32x512x65 : Shape := ⟨3, ![32, 512, 65]⟩
abbrev S512x65x32 : Shape := ⟨3, ![512, 65, 32]⟩
abbrev S512x2080 : Shape := ⟨2, ![512, 2080]⟩
abbrev S_ : Shape := ⟨0, ![]⟩
abbrev S1x512x2080 : Shape := ⟨3, ![1, 512, 2080]⟩
abbrev S3x512x2080 : Shape := ⟨3, ![3, 512, 2080]⟩
abbrev S3x512x65x32 : Shape := ⟨4, ![3, 512, 65, 32]⟩
abbrev S32x512x65x3 : Shape := ⟨4, ![32, 512, 65, 3]⟩
abbrev S16384x195 : Shape := ⟨2, ![16384, 195]⟩
abbrev S16384x128 : Shape := ⟨2, ![16384, 128]⟩
abbrev S1x128 : Shape := ⟨2, ![1, 128]⟩
abbrev S32x65536 : Shape := ⟨2, ![32, 65536]⟩
abbrev S32x512x128 : Shape := ⟨3, ![32, 512, 128]⟩
abbrev S16384x64 : Shape := ⟨2, ![16384, 64]⟩
abbrev S1x64 : Shape := ⟨2, ![1, 64]⟩
abbrev S512x128x32 : Shape := ⟨3, ![512, 128, 32]⟩
abbrev S512x4096 : Shape := ⟨2, ![512, 4096]⟩
abbrev S1x512x4096 : Shape := ⟨3, ![1, 512, 4096]⟩
abbrev S3x512x4096 : Shape := ⟨3, ![3, 512, 4096]⟩
abbrev S3x512x128x32 : Shape := ⟨4, ![3, 512, 128, 32]⟩
abbrev S32x512x128x3 : Shape := ⟨4, ![32, 512, 128, 3]⟩
abbrev S16384x384 : Shape := ⟨2, ![16384, 384]⟩
abbrev S16384x1 : Shape := ⟨2, ![16384, 1]⟩
abbrev S1x1 : Shape := ⟨2, ![1, 1]⟩

abbrev nBuf : Space → Nat
  | .hbm => 160
  | .vmem => 0
  | .smem => 0
  | _ => 0

abbrev hbmTy0_0 (i : Nat) : BufTy := match i % 128 with
  | 0 => ⟨S32x512, .f32⟩
  | 1 => ⟨S512x512, .f32⟩
  | 2 => ⟨S2x32x32768, .f32⟩
  | 3 => ⟨S195x128, .f32⟩
  | 4 => ⟨S128, .f32⟩
  | 5 => ⟨S195x64, .f32⟩
  | 6 => ⟨S64, .f32⟩
  | 7 => ⟨S384x128, .f32⟩
  | 8 => ⟨S128, .f32⟩
  | 9 => ⟨S384x64, .f32⟩
  | 10 => ⟨S64, .f32⟩
  | 11 => ⟨S64x1, .f32⟩
  | 12 => ⟨S1, .f32⟩
  | 13 => ⟨S1x32x32768, .f32⟩
  | 14 => ⟨S32x32768, .f32⟩
  | 15 => ⟨S32x512x1, .f32⟩
  | 16 => ⟨S32x512x64, .f32⟩
  | 17 => ⟨S32x512x65, .f32⟩
  | 18 => ⟨S512x65x32, .f32⟩
  | 19 => ⟨S512x2080, .f32⟩
  | 20 => ⟨S512x2080, .f32⟩
  | 21 => ⟨S512x2080, .f32⟩
  | 22 => ⟨S_, .f32⟩
  | 23 => ⟨S512x2080, .f32⟩
  | 24 => ⟨S512x2080, .f32⟩
  | 25 => ⟨S512x2080, .f32⟩
  | 26 => ⟨S1x512x2080, .f32⟩
  | 27 => ⟨S1x512x2080, .f32⟩
  | 28 => ⟨S1x512x2080, .f32⟩
  | 29 => ⟨S3x512x2080, .f32⟩
  | 30 => ⟨S3x512x65x32, .f32⟩
  | 31 => ⟨S32x512x65x3, .f32⟩
  | 32 => ⟨S16384x195, .f32⟩
  | 33 => ⟨S16384x128, .f32⟩
  | 34 => ⟨S1x128, .f32⟩
  | 35 => ⟨S16384x128, .f32⟩
  | 36 => ⟨S16384x128, .f32⟩
  | 37 => ⟨S32x65536, .f32⟩
  | 38 => ⟨S32x65536, .f32⟩
  | 39 => ⟨S32x65536, .f32⟩
  | 40 => ⟨S_, .f32⟩
  | 41 => ⟨S32x65536, .f32⟩
  | 42 => ⟨S32x65536, .f32⟩
  | 43 => ⟨S_, .f32⟩
  | 44 => ⟨S32x65536, .f32⟩
  | 45 => ⟨S32x65536, .f32⟩
  | 46 => ⟨S32x512x128, .f32⟩
  | 47 => ⟨S32x512x64, .f32⟩
  | 48 => ⟨S32x512x64, .f32⟩
  | 49 => ⟨S32x32768, .f32⟩
  | 50 => ⟨S32x32768, .f32⟩
  | 51 => ⟨S32x32768, .f32⟩
  | 52 => ⟨S32x512x1, .f32⟩
  | 53 => ⟨S32x512x64, .f32⟩
  | 54 => ⟨S32x512x65, .f32⟩
  | 55 => ⟨S512x65x32, .f32⟩
  | 56 => ⟨S512x2080, .f32⟩
  | 57 => ⟨S512x2080, .f32⟩
  | 58 => ⟨S512x2080, .f32⟩
  | 59 => ⟨S_, .f32⟩
  | 60 => ⟨S512x2080, .f32⟩
  | 61 => ⟨S512x2080, .f32⟩
  | 62 => ⟨S512x2080, .f32⟩
  | 63 => ⟨S1x512x2080, .f32⟩
  | 64 => ⟨S1x512x2080, .f32⟩
  | 65 => ⟨S1x512x2080, .f32⟩
  | 66 => ⟨S3x512x2080, .f32⟩
  | 67 => ⟨S3x512x65x32, .f32⟩
  | 68 => ⟨S32x512x65x3, .f32⟩
  | 69 => ⟨S16384x195, .f32⟩
  | 70 => ⟨S16384x64, .f32⟩
  | 71 => ⟨S1x64, .f32⟩
  | 72 => ⟨S16384x64, .f32⟩
  | 73 => ⟨S16384x64, .f32⟩
  | 74 => ⟨S32x32768, .f32⟩
  | 75 => ⟨S32x32768, .f32⟩
  | 76 => ⟨S32x32768, .f32⟩
  | 77 => ⟨S_, .f32⟩
  | 78 => ⟨S32x32768, .f32⟩
  | 79 => ⟨S32x32768, .f32⟩
  | 80 => ⟨S32x32768, .f32⟩
  | 81 => ⟨S32x32768, .f32⟩
  | 82 => ⟨S1x32x32768, .f32⟩
  | 83 => ⟨S32x32768, .f32⟩
  | 84 => ⟨S32x512x64, .f32⟩
  | 85 => ⟨S32x512x64, .f32⟩
  | 86 => ⟨S32x512x128, .f32⟩
  | 87 => ⟨S512x128x32, .f32⟩
  | 88 => ⟨S512x4096, .f32⟩
  | 89 => ⟨S512x4096, .f32⟩
  | 90 => ⟨S512x4096, .f32⟩
  | 91 => ⟨S_, .f32⟩
  | 92 => ⟨S512x4096, .f32⟩
  | 93 => ⟨S512x4096, .f32⟩
  | 94 => ⟨S512x4096, .f32⟩
  | 95 => ⟨S1x512x4096, .f32⟩
  | 96 => ⟨S1x512x4096, .f32⟩
  | 97 => ⟨S1x512x4096, .f32⟩
  | 98 => ⟨S3x512x4096, .f32⟩
  | 99 => ⟨S3x512x128x32, .f32⟩
  | 100 => ⟨S32x512x128x3, .f32⟩
  | 101 => ⟨S16384x384, .f32⟩
  | 102 => ⟨S16384x128, .f32⟩
  | 103 => ⟨S1x128, .f32⟩
  | 104 => ⟨S16384x128, .f32⟩
  | 105 => ⟨S16384x128, .f32⟩
  | 106 => ⟨S32x65536, .f32⟩
  | 107 => ⟨S32x65536, .f32⟩
  | 108 => ⟨S32x65536, .f32⟩
  | 109 => ⟨S_, .f32⟩
  | 110 => ⟨S32x65536, .f32⟩
  | 111 => ⟨S32x65536, .f32⟩
  | 112 => ⟨S_, .f32⟩
  | 113 => ⟨S32x65536, .f32⟩
  | 114 => ⟨S32x65536, .f32⟩
  | 115 => ⟨S32x512x128, .f32⟩
  | 116 => ⟨S32x512x64, .f32⟩
  | 117 => ⟨S32x512x64, .f32⟩
  | 118 => ⟨S32x32768, .f32⟩
  | 119 => ⟨S32x32768, .f32⟩
  | 120 => ⟨S32x32768, .f32⟩
  | 121 => ⟨S32x512x64, .f32⟩
  | 122 => ⟨S32x512x64, .f32⟩
  | 123 => ⟨S32x512x128, .f32⟩
  | 124 => ⟨S512x128x32, .f32⟩
  | 125 => ⟨S512x4096, .f32⟩
  | 126 => ⟨S512x4096, .f32⟩
  | 127 => ⟨S512x4096, .f32⟩
  | _ => ⟨S32x512, .f32⟩

abbrev hbmTy0_1 (i : Nat) : BufTy := match i % 128 with
  | 0 => ⟨S_, .f32⟩
  | 1 => ⟨S512x4096, .f32⟩
  | 2 => ⟨S512x4096, .f32⟩
  | 3 => ⟨S512x4096, .f32⟩
  | 4 => ⟨S1x512x4096, .f32⟩
  | 5 => ⟨S1x512x4096, .f32⟩
  | 6 => ⟨S1x512x4096, .f32⟩
  | 7 => ⟨S3x512x4096, .f32⟩
  | 8 => ⟨S3x512x128x32, .f32⟩
  | 9 => ⟨S32x512x128x3, .f32⟩
  | 10 => ⟨S16384x384, .f32⟩
  | 11 => ⟨S16384x64, .f32⟩
  | 12 => ⟨S1x64, .f32⟩
  | 13 => ⟨S16384x64, .f32⟩
  | 14 => ⟨S16384x64, .f32⟩
  | 15 => ⟨S32x32768, .f32⟩
  | 16 => ⟨S32x32768, .f32⟩
  | 17 => ⟨S32x32768, .f32⟩
  | 18 => ⟨S_, .f32⟩
  | 19 => ⟨S32x32768, .f32⟩
  | 20 => ⟨S32x32768, .f32⟩
  | 21 => ⟨S32x32768, .f32⟩
  | 22 => ⟨S32x32768, .f32⟩
  | 23 => ⟨S16384x64, .f32⟩
  | 24 => ⟨S16384x1, .f32⟩
  | 25 => ⟨S1x1, .f32⟩
  | 26 => ⟨S16384x1, .f32⟩
  | 27 => ⟨S16384x1, .f32⟩
  | 28 => ⟨S32x512, .f32⟩
  | 29 => ⟨S1x32x32768, .f32⟩
  | 30 => ⟨S1x32x32768, .f32⟩
  | 31 => ⟨S2x32x32768, .f32⟩
  | _ => ⟨S32x512, .f32⟩

abbrev hbmTy (i : Nat) : BufTy := match i / 128 with
  | 0 => hbmTy0_0 i
  | 1 => hbmTy0_1 i
  | _ => ⟨S32x512, .f32⟩

abbrev bufTy : (tb : Table) → Fin (tcTables nBuf tb) → BufTy
  | .hbm, ⟨i, _⟩ => hbmTy i
  | _, _ => ⟨S32x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_cst : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_cst_0 : Ref sig .tc := ⟨.hbm, 40, rfl⟩
abbrev main_v26 : Ref sig .tc := ⟨.hbm, 41, rfl⟩
abbrev main_v27 : Ref sig .tc := ⟨.hbm, 42, rfl⟩
abbrev main_cst_1 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_cst_2 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩
abbrev main_v53 : Ref sig .tc := ⟨.hbm, 70, rfl⟩
abbrev main_v54 : Ref sig .tc := ⟨.hbm, 71, rfl⟩
abbrev main_v55 : Ref sig .tc := ⟨.hbm, 72, rfl⟩
abbrev main_v56 : Ref sig .tc := ⟨.hbm, 73, rfl⟩
abbrev main_v57 : Ref sig .tc := ⟨.hbm, 74, rfl⟩
abbrev main_v58 : Ref sig .tc := ⟨.hbm, 75, rfl⟩
abbrev main_v59 : Ref sig .tc := ⟨.hbm, 76, rfl⟩
abbrev main_cst_3 : Ref sig .tc := ⟨.hbm, 77, rfl⟩
abbrev main_v60 : Ref sig .tc := ⟨.hbm, 78, rfl⟩
abbrev main_v61 : Ref sig .tc := ⟨.hbm, 79, rfl⟩
abbrev main_v62 : Ref sig .tc := ⟨.hbm, 80, rfl⟩
abbrev main_v63 : Ref sig .tc := ⟨.hbm, 81, rfl⟩
abbrev main_v64 : Ref sig .tc := ⟨.hbm, 82, rfl⟩
abbrev main_v65 : Ref sig .tc := ⟨.hbm, 83, rfl⟩
abbrev main_v66 : Ref sig .tc := ⟨.hbm, 84, rfl⟩
abbrev main_v67 : Ref sig .tc := ⟨.hbm, 85, rfl⟩
abbrev main_v68 : Ref sig .tc := ⟨.hbm, 86, rfl⟩
abbrev main_v69 : Ref sig .tc := ⟨.hbm, 87, rfl⟩
abbrev main_v70 : Ref sig .tc := ⟨.hbm, 88, rfl⟩
abbrev main_v71 : Ref sig .tc := ⟨.hbm, 89, rfl⟩
abbrev main_v72 : Ref sig .tc := ⟨.hbm, 90, rfl⟩
abbrev main_cst_4 : Ref sig .tc := ⟨.hbm, 91, rfl⟩
abbrev main_v73 : Ref sig .tc := ⟨.hbm, 92, rfl⟩
abbrev main_v74 : Ref sig .tc := ⟨.hbm, 93, rfl⟩
abbrev main_v75 : Ref sig .tc := ⟨.hbm, 94, rfl⟩
abbrev main_v76 : Ref sig .tc := ⟨.hbm, 95, rfl⟩
abbrev main_v77 : Ref sig .tc := ⟨.hbm, 96, rfl⟩
abbrev main_v78 : Ref sig .tc := ⟨.hbm, 97, rfl⟩
abbrev main_v79 : Ref sig .tc := ⟨.hbm, 98, rfl⟩
abbrev main_v80 : Ref sig .tc := ⟨.hbm, 99, rfl⟩
abbrev main_v81 : Ref sig .tc := ⟨.hbm, 100, rfl⟩
abbrev main_v82 : Ref sig .tc := ⟨.hbm, 101, rfl⟩
abbrev main_v83 : Ref sig .tc := ⟨.hbm, 102, rfl⟩
abbrev main_v84 : Ref sig .tc := ⟨.hbm, 103, rfl⟩
abbrev main_v85 : Ref sig .tc := ⟨.hbm, 104, rfl⟩
abbrev main_v86 : Ref sig .tc := ⟨.hbm, 105, rfl⟩
abbrev main_v87 : Ref sig .tc := ⟨.hbm, 106, rfl⟩
abbrev main_v88 : Ref sig .tc := ⟨.hbm, 107, rfl⟩
abbrev main_v89 : Ref sig .tc := ⟨.hbm, 108, rfl⟩
abbrev main_cst_5 : Ref sig .tc := ⟨.hbm, 109, rfl⟩
abbrev main_v90 : Ref sig .tc := ⟨.hbm, 110, rfl⟩
abbrev main_v91 : Ref sig .tc := ⟨.hbm, 111, rfl⟩
abbrev main_cst_6 : Ref sig .tc := ⟨.hbm, 112, rfl⟩
abbrev main_v92 : Ref sig .tc := ⟨.hbm, 113, rfl⟩
abbrev main_v93 : Ref sig .tc := ⟨.hbm, 114, rfl⟩
abbrev main_v94 : Ref sig .tc := ⟨.hbm, 115, rfl⟩
abbrev main_v95 : Ref sig .tc := ⟨.hbm, 116, rfl⟩
abbrev main_v96 : Ref sig .tc := ⟨.hbm, 117, rfl⟩
abbrev main_v97 : Ref sig .tc := ⟨.hbm, 118, rfl⟩
abbrev main_v98 : Ref sig .tc := ⟨.hbm, 119, rfl⟩
abbrev main_v99 : Ref sig .tc := ⟨.hbm, 120, rfl⟩
abbrev main_v100 : Ref sig .tc := ⟨.hbm, 121, rfl⟩
abbrev main_v101 : Ref sig .tc := ⟨.hbm, 122, rfl⟩
abbrev main_v102 : Ref sig .tc := ⟨.hbm, 123, rfl⟩
abbrev main_v103 : Ref sig .tc := ⟨.hbm, 124, rfl⟩
abbrev main_v104 : Ref sig .tc := ⟨.hbm, 125, rfl⟩
abbrev main_v105 : Ref sig .tc := ⟨.hbm, 126, rfl⟩
abbrev main_v106 : Ref sig .tc := ⟨.hbm, 127, rfl⟩
abbrev main_cst_7 : Ref sig .tc := ⟨.hbm, 128, rfl⟩
abbrev main_v107 : Ref sig .tc := ⟨.hbm, 129, rfl⟩
abbrev main_v108 : Ref sig .tc := ⟨.hbm, 130, rfl⟩
abbrev main_v109 : Ref sig .tc := ⟨.hbm, 131, rfl⟩
abbrev main_v110 : Ref sig .tc := ⟨.hbm, 132, rfl⟩
abbrev main_v111 : Ref sig .tc := ⟨.hbm, 133, rfl⟩
abbrev main_v112 : Ref sig .tc := ⟨.hbm, 134, rfl⟩
abbrev main_v113 : Ref sig .tc := ⟨.hbm, 135, rfl⟩
abbrev main_v114 : Ref sig .tc := ⟨.hbm, 136, rfl⟩
abbrev main_v115 : Ref sig .tc := ⟨.hbm, 137, rfl⟩
abbrev main_v116 : Ref sig .tc := ⟨.hbm, 138, rfl⟩
abbrev main_v117 : Ref sig .tc := ⟨.hbm, 139, rfl⟩
abbrev main_v118 : Ref sig .tc := ⟨.hbm, 140, rfl⟩
abbrev main_v119 : Ref sig .tc := ⟨.hbm, 141, rfl⟩
abbrev main_v120 : Ref sig .tc := ⟨.hbm, 142, rfl⟩
abbrev main_v121 : Ref sig .tc := ⟨.hbm, 143, rfl⟩
abbrev main_v122 : Ref sig .tc := ⟨.hbm, 144, rfl⟩
abbrev main_v123 : Ref sig .tc := ⟨.hbm, 145, rfl⟩
abbrev main_cst_8 : Ref sig .tc := ⟨.hbm, 146, rfl⟩
abbrev main_v124 : Ref sig .tc := ⟨.hbm, 147, rfl⟩
abbrev main_v125 : Ref sig .tc := ⟨.hbm, 148, rfl⟩
abbrev main_v126 : Ref sig .tc := ⟨.hbm, 149, rfl⟩
abbrev main_v127 : Ref sig .tc := ⟨.hbm, 150, rfl⟩
abbrev main_v128 : Ref sig .tc := ⟨.hbm, 151, rfl⟩
abbrev main_v129 : Ref sig .tc := ⟨.hbm, 152, rfl⟩
abbrev main_v130 : Ref sig .tc := ⟨.hbm, 153, rfl⟩
abbrev main_v131 : Ref sig .tc := ⟨.hbm, 154, rfl⟩
abbrev main_v132 : Ref sig .tc := ⟨.hbm, 155, rfl⟩
abbrev main_v133 : Ref sig .tc := ⟨.hbm, 156, rfl⟩
abbrev main_v134 : Ref sig .tc := ⟨.hbm, 157, rfl⟩
abbrev main_v135 : Ref sig .tc := ⟨.hbm, 158, rfl⟩
abbrev main_v136 : Ref sig .tc := ⟨.hbm, 159, rfl⟩

abbrev nD : Nat := 1
abbrev τ : Topo := Topo.v7x

variable {F : FTy → Type} [FloatOps F]

class Facts₀ : Prop where
  slices_S2x32x32768_S1x32x32768_0_0_0 : S2x32x32768.Slices ![0, 0, 0] S1x32x32768
  shapeCasts_S1x32x32768_S32x32768 : S1x32x32768.ShapeCasts S32x32768
  shapeCasts_S32x512_S32x512x1 : S32x512.ShapeCasts S32x512x1
  shapeCasts_S32x32768_S32x512x64 : S32x32768.ShapeCasts S32x512x64
  concatenates_S32x512x1_S32x512x64_S32x512x65_d2 : Shape.Concatenates [S32x512x1, S32x512x64] S32x512x65 2
  transposes_S32x512x65_S512x65x32_1_2_0 : S32x512x65.Transposes [1, 2, 0] S512x65x32
  shapeCasts_S512x65x32_S512x2080 : S512x65x32.ShapeCasts S512x2080
  bcast_S_S512x2080 : S_.BroadcastsInDim S512x2080 (![] : Fin 0 → Fin S512x2080.rank)
  bcast_S512x2080_S1x512x2080_1_2 : S512x2080.BroadcastsInDim S1x512x2080 (![1, 2] : Fin 2 → Fin S1x512x2080.rank)
  concatenates_S1x512x2080_S1x512x2080_S1x512x2080_S3x512x2080_d0 : Shape.Concatenates [S1x512x2080, S1x512x2080, S1x512x2080] S3x512x2080 0
  shapeCasts_S3x512x2080_S3x512x65x32 : S3x512x2080.ShapeCasts S3x512x65x32
  transposes_S3x512x65x32_S32x512x65x3_3_1_2_0 : S3x512x65x32.Transposes [3, 1, 2, 0] S32x512x65x3
  shapeCasts_S32x512x65x3_S16384x195 : S32x512x65x3.ShapeCasts S16384x195
  bcast_S128_S1x128_1 : S128.BroadcastsInDim S1x128 (![1] : Fin 1 → Fin S1x128.rank)
  bcast_S1x128_S16384x128_0_1 : S1x128.BroadcastsInDim S16384x128 (![0, 1] : Fin 2 → Fin S16384x128.rank)
  shapeCasts_S16384x128_S32x65536 : S16384x128.ShapeCasts S32x65536
  bcast_S_S32x65536 : S_.BroadcastsInDim S32x65536 (![] : Fin 0 → Fin S32x65536.rank)
  shapeCasts_S32x65536_S32x512x128 : S32x65536.ShapeCasts S32x512x128
  slices_S32x512x128_S32x512x64_0_0_0 : S32x512x128.Slices ![0, 0, 0] S32x512x64
  slices_S32x512x128_S32x512x64_0_0_64 : S32x512x128.Slices ![0, 0, 64] S32x512x64
  shapeCasts_S32x512x64_S32x32768 : S32x512x64.ShapeCasts S32x32768
  bcast_S64_S1x64_1 : S64.BroadcastsInDim S1x64 (![1] : Fin 1 → Fin S1x64.rank)
  bcast_S1x64_S16384x64_0_1 : S1x64.BroadcastsInDim S16384x64 (![0, 1] : Fin 2 → Fin S16384x64.rank)
  shapeCasts_S16384x64_S32x32768 : S16384x64.ShapeCasts S32x32768
  bcast_S_S32x32768 : S_.BroadcastsInDim S32x32768 (![] : Fin 0 → Fin S32x32768.rank)
  slices_S2x32x32768_S1x32x32768_1_0_0 : S2x32x32768.Slices ![1, 0, 0] S1x32x32768
  concatenates_S32x512x64_S32x512x64_S32x512x128_d2 : Shape.Concatenates [S32x512x64, S32x512x64] S32x512x128 2
  transposes_S32x512x128_S512x128x32_1_2_0 : S32x512x128.Transposes [1, 2, 0] S512x128x32
  shapeCasts_S512x128x32_S512x4096 : S512x128x32.ShapeCasts S512x4096
  bcast_S_S512x4096 : S_.BroadcastsInDim S512x4096 (![] : Fin 0 → Fin S512x4096.rank)
  bcast_S512x4096_S1x512x4096_1_2 : S512x4096.BroadcastsInDim S1x512x4096 (![1, 2] : Fin 2 → Fin S1x512x4096.rank)
  concatenates_S1x512x4096_S1x512x4096_S1x512x4096_S3x512x4096_d0 : Shape.Concatenates [S1x512x4096, S1x512x4096, S1x512x4096] S3x512x4096 0
  shapeCasts_S3x512x4096_S3x512x128x32 : S3x512x4096.ShapeCasts S3x512x128x32
  transposes_S3x512x128x32_S32x512x128x3_3_1_2_0 : S3x512x128x32.Transposes [3, 1, 2, 0] S32x512x128x3
  shapeCasts_S32x512x128x3_S16384x384 : S32x512x128x3.ShapeCasts S16384x384
  shapeCasts_S32x32768_S16384x64 : S32x32768.ShapeCasts S16384x64
  bcast_S1_S1x1_1 : S1.BroadcastsInDim S1x1 (![1] : Fin 1 → Fin S1x1.rank)
  bcast_S1x1_S16384x1_0_1 : S1x1.BroadcastsInDim S16384x1 (![0, 1] : Fin 2 → Fin S16384x1.rank)
  shapeCasts_S16384x1_S32x512 : S16384x1.ShapeCasts S32x512
  bcast_S32x32768_S1x32x32768_1_2 : S32x32768.BroadcastsInDim S1x32x32768 (![1, 2] : Fin 2 → Fin S1x32x32768.rank)
  concatenates_S1x32x32768_S1x32x32768_S2x32x32768_d0 : Shape.Concatenates [S1x32x32768, S1x32x32768] S2x32x32768 0
  dot_S512x512_S512x2080_S512x2080_1_0_0_1_n_n_wf : DotDims.WF S512x512 S512x2080 S512x2080 [1] [0] [0] [1] [] []
  dot_S16384x195_S195x128_S16384x128_1_0_0_1_n_n_wf : DotDims.WF S16384x195 S195x128 S16384x128 [1] [0] [0] [1] [] []
  dot_S16384x195_S195x64_S16384x64_1_0_0_1_n_n_wf : DotDims.WF S16384x195 S195x64 S16384x64 [1] [0] [0] [1] [] []
  dot_S512x512_S512x4096_S512x4096_1_0_0_1_n_n_wf : DotDims.WF S512x512 S512x4096 S512x4096 [1] [0] [0] [1] [] []
  dot_S16384x384_S384x128_S16384x128_1_0_0_1_n_n_wf : DotDims.WF S16384x384 S384x128 S16384x128 [1] [0] [0] [1] [] []
  dot_S16384x384_S384x64_S16384x64_1_0_0_1_n_n_wf : DotDims.WF S16384x384 S384x64 S16384x64 [1] [0] [0] [1] [] []
  dot_S16384x64_S64x1_S16384x1_1_0_0_1_n_n_wf : DotDims.WF S16384x64 S64x1 S16384x1 [1] [0] [0] [1] [] []

variable [Facts₀]

def dot_S512x512_S512x2080_S512x2080_1_0_0_1_n_n : DotDims S512x512 S512x2080 S512x2080 where
  lhsContracting := [1]
  rhsContracting := [0]
  lhsNonContracting := [0]
  rhsNonContracting := [1]
  lhsBatch := []
  rhsBatch := []
  wf := dot_S512x512_S512x2080_S512x2080_1_0_0_1_n_n_wf
def dot_S16384x195_S195x128_S16384x128_1_0_0_1_n_n : DotDims S16384x195 S195x128 S16384x128 where
  lhsContracting := [1]
  rhsContracting := [0]
  lhsNonContracting := [0]
  rhsNonContracting := [1]
  lhsBatch := []
  rhsBatch := []
  wf := dot_S16384x195_S195x128_S16384x128_1_0_0_1_n_n_wf
def dot_S16384x195_S195x64_S16384x64_1_0_0_1_n_n : DotDims S16384x195 S195x64 S16384x64 where
  lhsContracting := [1]
  rhsContracting := [0]
  lhsNonContracting := [0]
  rhsNonContracting := [1]
  lhsBatch := []
  rhsBatch := []
  wf := dot_S16384x195_S195x64_S16384x64_1_0_0_1_n_n_wf
def dot_S512x512_S512x4096_S512x4096_1_0_0_1_n_n : DotDims S512x512 S512x4096 S512x4096 where
  lhsContracting := [1]
  rhsContracting := [0]
  lhsNonContracting := [0]
  rhsNonContracting := [1]
  lhsBatch := []
  rhsBatch := []
  wf := dot_S512x512_S512x4096_S512x4096_1_0_0_1_n_n_wf
def dot_S16384x384_S384x128_S16384x128_1_0_0_1_n_n : DotDims S16384x384 S384x128 S16384x128 where
  lhsContracting := [1]
  rhsContracting := [0]
  lhsNonContracting := [0]
  rhsNonContracting := [1]
  lhsBatch := []
  rhsBatch := []
  wf := dot_S16384x384_S384x128_S16384x128_1_0_0_1_n_n_wf
def dot_S16384x384_S384x64_S16384x64_1_0_0_1_n_n : DotDims S16384x384 S384x64 S16384x64 where
  lhsContracting := [1]
  rhsContracting := [0]
  lhsNonContracting := [0]
  rhsNonContracting := [1]
  lhsBatch := []
  rhsBatch := []
  wf := dot_S16384x384_S384x64_S16384x64_1_0_0_1_n_n_wf
def dot_S16384x64_S64x1_S16384x1_1_0_0_1_n_n : DotDims S16384x64 S64x1 S16384x1 where
  lhsContracting := [1]
  rhsContracting := [0]
  lhsNonContracting := [0]
  rhsNonContracting := [1]
  lhsBatch := []
  rhsBatch := []
  wf := dot_S16384x64_S64x1_S16384x1_1_0_0_1_n_n_wf

class Facts : Prop extends Facts₀ where

variable [Facts]
-- ==== Proof.Spec.lean ====
/-
  The mathematics both programs compute, one batch element at a time, over the extended reals.

  A graph signal on 512 nodes is diffused by the adjacency matrix `A`: the three taps of a signal `z` are
  `z`, `A z` and `2 A (A z) - z`.  A graph convolution stacks the taps of every input feature (the layer's input
  features first, then the 64 state features), orders the stack as (feature, tap) and contracts it with a weight
  matrix whose rows are ordered the same way, then adds a bias.  A GRU cell applies that convolution twice: once
  for the reset and update gates (a logistic), once for the candidate (a hyperbolic tangent, on the reset state),
  and mixes `u * h + (1 - u) * c`.  Two cells are stacked, the second fed by the first's new state, and the
  second's new state is projected to one number per node.
-/
import Idealize.ShloMosaic.PureOps.Ideal
import Idealize.ShloMosaic.PureOps.Ideal.Laws

noncomputable section

namespace Cert.Dcgru

open Idealize.ShloMosaic

/-- The literal `2.0`. -/
abbrev two : EReal := Ideal.ofBits .f32 0x40000000#32
/-- The literal `1.0`. -/
abbrev one : EReal := Ideal.ofBits .f32 0x3F800000#32

/-- A node signal. -/
abbrev Sig := Fin 512 → EReal
/-- Sixty-four node signals: a cell's state for one batch element, unit first. -/
abbrev St := Fin 64 → Fin 512 → EReal

/-- The adjacency matrix applied to a node signal. -/
def mv (A : Fin 512 → Fin 512 → EReal) (z : Sig) : Sig := fun n => ∑ k : Fin 512, A n k * z k

/-- The three diffusion taps of a node signal: `z`, `A z`, `2 A (A z) - z`. -/
def tap (A : Fin 512 → Fin 512 → EReal) (m : Fin 3) (z : Sig) : Sig :=
  if m.val = 0 then z else if m.val = 1 then mv A z else fun n => two * mv A (mv A z) n - z n

theorem tap_zero (A : Fin 512 → Fin 512 → EReal) (z : Sig) : tap A 0 z = z := rfl
theorem tap_one (A : Fin 512 → Fin 512 → EReal) (z : Sig) : tap A 1 z = mv A z := rfl
theorem tap_two (A : Fin 512 → Fin 512 → EReal) (z : Sig) :
    tap A 2 z = fun n => two * mv A (mv A z) n - z n := rfl

/-- Layer 0's 65 features: the scalar input, then the 64 state units. -/
def feat0 (x : Sig) (s : St) (f : Fin 65) : Sig :=
  if h : f.val = 0 then x else s ⟨f.val - 1, by have := f.isLt; omega⟩

/-- Layer 1's 128 features: the 64 units of the layer below, then the 64 state units. -/
def feat1 (xs s : St) (f : Fin 128) : Sig :=
  if h : f.val < 64 then xs ⟨f.val, h⟩ else s ⟨f.val - 64, by have := f.isLt; omega⟩

/-- Layer 0's contraction: rows of `W` are ordered (feature, tap), feature-major. -/
def gsum0 (A : Fin 512 → Fin 512 → EReal) {O : ℕ} (x : Sig) (s : St) (W : Fin 195 → Fin O → EReal)
    (n : Fin 512) (o : Fin O) : EReal :=
  ∑ k : Fin 195, tap A ⟨k.val % 3, Nat.mod_lt _ (by decide)⟩
      (feat0 x s ⟨k.val / 3, by have := k.isLt; omega⟩) n * W k o

/-- Layer 1's contraction. -/
def gsum1 (A : Fin 512 → Fin 512 → EReal) {O : ℕ} (xs s : St) (W : Fin 384 → Fin O → EReal)
    (n : Fin 512) (o : Fin O) : EReal :=
  ∑ k : Fin 384, tap A ⟨k.val % 3, Nat.mod_lt _ (by decide)⟩
      (feat1 xs s ⟨k.val / 3, by have := k.isLt; omega⟩) n * W k o

/-- The same contraction of layer 0 as a kernel accumulates it: from the bias, for each tap in turn the 64 state
    units' terms and then the input's one term. -/
def gacc0 (A : Fin 512 → Fin 512 → EReal) {O : ℕ} (x : Sig) (s : St) (W : Fin 195 → Fin O → EReal)
    (bias : Fin O → EReal) (n : Fin 512) (o : Fin O) : EReal :=
  ((((((bias o
    + ∑ u : Fin 64, tap A 0 (s u) n * W ⟨(1 + u.val) * 3 + 0, by have := u.isLt; omega⟩ o)
    + tap A 0 x n * W ⟨0, by decide⟩ o)
    + ∑ u : Fin 64, tap A 1 (s u) n * W ⟨(1 + u.val) * 3 + 1, by have := u.isLt; omega⟩ o)
    + tap A 1 x n * W ⟨1, by decide⟩ o)
    + ∑ u : Fin 64, tap A 2 (s u) n * W ⟨(1 + u.val) * 3 + 2, by have := u.isLt; omega⟩ o)
    + tap A 2 x n * W ⟨2, by decide⟩ o)

/-- Layer 1's contraction as a kernel accumulates it: from the bias, for each tap the state units' terms and then
    the lower layer's units' terms. -/
def gacc1 (A : Fin 512 → Fin 512 → EReal) {O : ℕ} (xs s : St) (W : Fin 384 → Fin O → EReal)
    (bias : Fin O → EReal) (n : Fin 512) (o : Fin O) : EReal :=
  ((((((bias o
    + ∑ u : Fin 64, tap A 0 (s u) n * W ⟨(64 + u.val) * 3 + 0, by have := u.isLt; omega⟩ o)
    + ∑ u : Fin 64, tap A 0 (xs u) n * W ⟨u.val * 3 + 0, by have := u.isLt; omega⟩ o)
    + ∑ u : Fin 64, tap A 1 (s u) n * W ⟨(64 + u.val) * 3 + 1, by have := u.isLt; omega⟩ o)
    + ∑ u : Fin 64, tap A 1 (xs u) n * W ⟨u.val * 3 + 1, by have := u.isLt; omega⟩ o)
    + ∑ u : Fin 64, tap A 2 (s u) n * W ⟨(64 + u.val) * 3 + 2, by have := u.isLt; omega⟩ o)
    + ∑ u : Fin 64, tap A 2 (xs u) n * W ⟨u.val * 3 + 2, by have := u.isLt; omega⟩ o)

/-- The weights of the two cells and the projection. -/
structure Wts where
  adj : Fin 512 → Fin 512 → EReal
  wg0 : Fin 195 → Fin 128 → EReal
  bg0 : Fin 128 → EReal
  wc0 : Fin 195 → Fin 64 → EReal
  bc0 : Fin 64 → EReal
  wg1 : Fin 384 → Fin 128 → EReal
  bg1 : Fin 128 → EReal
  wc1 : Fin 384 → Fin 64 → EReal
  bc1 : Fin 64 → EReal
  wp : Fin 64 → EReal
  bp : EReal

/-- The GRU mix `u * h + (1 - u) * c`. -/
def mix (u h c : EReal) : EReal := u * h + (one - u) * c

/-- Layer 0's gates: the logistic of the convolution of (input, state). Outputs 0..63 reset, 64..127 update. -/
def gate0 (w : Wts) (x : Sig) (h : St) (n : Fin 512) (o : Fin 128) : EReal :=
  Ideal.logistic (gsum0 w.adj x h w.wg0 n o + w.bg0 o)

/-- Layer 0's reset state `r * h`. -/
def rst0 (w : Wts) (x : Sig) (h : St) : St := fun u n => gate0 w x h n ⟨u.val, by have := u.isLt; omega⟩ * h u n

/-- Layer 0's candidate. -/
def cand0 (w : Wts) (x : Sig) (h : St) (n : Fin 512) (u : Fin 64) : EReal :=
  Ideal.tanh (gsum0 w.adj x (rst0 w x h) w.wc0 n u + w.bc0 u)

/-- Layer 0's new state. -/
def new0 (w : Wts) (x : Sig) (h : St) : St := fun u n =>
  mix (gate0 w x h n ⟨64 + u.val, by have := u.isLt; omega⟩) (h u n) (cand0 w x h n u)

/-- Layer 1's gates, fed by `xs` (layer 0's new state). -/
def gate1 (w : Wts) (xs h : St) (n : Fin 512) (o : Fin 128) : EReal :=
  Ideal.logistic (gsum1 w.adj xs h w.wg1 n o + w.bg1 o)

def rst1 (w : Wts) (xs h : St) : St := fun u n => gate1 w xs h n ⟨u.val, by have := u.isLt; omega⟩ * h u n

def cand1 (w : Wts) (xs h : St) (n : Fin 512) (u : Fin 64) : EReal :=
  Ideal.tanh (gsum1 w.adj xs (rst1 w xs h) w.wc1 n u + w.bc1 u)

def new1 (w : Wts) (xs h : St) : St := fun u n =>
  mix (gate1 w xs h n ⟨64 + u.val, by have := u.isLt; omega⟩) (h u n) (cand1 w xs h n u)

/-- The projection of a state to one number per node. -/
def proj (w : Wts) (h : St) (n : Fin 512) : EReal := (∑ u : Fin 64, h u n * w.wp u) + w.bp

/-- One batch element's three results: both new states and the projected output. -/
def H0N (w : Wts) (x : Sig) (h0 : St) : St := new0 w x h0
def H1N (w : Wts) (x : Sig) (h0 h1 : St) : St := new1 w (new0 w x h0) h1
def OUT (w : Wts) (x : Sig) (h0 h1 : St) : Sig := proj w (H1N w x h0 h1)

end Cert.Dcgru

end
-- ==== Proof.SpecArr.lean ====
/-
  The specification over whole arrays: how the thirteen argument arrays are read as one batch element's signals and
  the cells' weights, and the two result arrays as functions of them.  The hidden state's last axis is node-major:
  position `n * 64 + u` is unit `u` of node `n`.
-/
import proofs.«172483_g44504451121623_cont_8to1_c_180_13_alg».proof.Proof.Spec
import Idealize.ShloMosaic.Lib.ValueIdx

noncomputable section

namespace Cert.Dcgru

open Idealize.ShloMosaic Idealize.ShloMosaic.ValueIdx

/-- Batch element `b`'s input signal. -/
def sigOf (a0 : FVec Ideal ⟨2, ![32, 512]⟩ .f32) (b : Fin 32) : Sig := fun n => a0 (ix2 b n)

/-- Batch element `b`'s state in layer `l`. -/
def stOf (a2 : FVec Ideal ⟨3, ![2, 32, 32768]⟩ .f32) (l : Fin 2) (b : Fin 32) : St :=
  fun u n => a2 (ix3 l b ⟨n.val * 64 + u.val, by have := n.isLt; have := u.isLt; omega⟩)

/-- The weights, from the argument arrays. -/
def wtsOf (a1 : FVec Ideal ⟨2, ![512, 512]⟩ .f32) (a3 : FVec Ideal ⟨2, ![195, 128]⟩ .f32) (a4 : FVec Ideal ⟨1, ![128]⟩ .f32)
    (a5 : FVec Ideal ⟨2, ![195, 64]⟩ .f32) (a6 : FVec Ideal ⟨1, ![64]⟩ .f32) (a7 : FVec Ideal ⟨2, ![384, 128]⟩ .f32)
    (a8 : FVec Ideal ⟨1, ![128]⟩ .f32) (a9 : FVec Ideal ⟨2, ![384, 64]⟩ .f32) (a10 : FVec Ideal ⟨1, ![64]⟩ .f32)
    (a11 : FVec Ideal ⟨2, ![64, 1]⟩ .f32) (a12 : FVec Ideal ⟨1, ![1]⟩ .f32) : Wts where
  adj := fun n k => a1 (ix2 n k)
  wg0 := fun k o => a3 (ix2 k o)
  bg0 := fun o => a4 (ix1 o)
  wc0 := fun k o => a5 (ix2 k o)
  bc0 := fun o => a6 (ix1 o)
  wg1 := fun k o => a7 (ix2 k o)
  bg1 := fun o => a8 (ix1 o)
  wc1 := fun k o => a9 (ix2 k o)
  bc1 := fun o => a10 (ix1 o)
  wp := fun u => a11 (ix2 u 0)
  bp := a12 (ix1 0)

/-- A family of states, one per batch element, laid out as a [32, 32768] array (node-major last axis). -/
def encFlat (f : Fin 32 → St) : FVec Ideal ⟨2, ![32, 32768]⟩ .f32 :=
  fun i => f (i 0) ⟨(i 1).val % 64, Nat.mod_lt _ (by decide)⟩ ⟨(i 1).val / 64, by have h : (i 1).val < 32768 := (i 1).isLt; omega⟩

theorem encFlat_apply (f : Fin 32 → St) (b : Fin 32) (n : Fin 512) (u : Fin 64) :
    encFlat f (ix2 b ⟨n.val * 64 + u.val, by have := n.isLt; have := u.isLt; omega⟩) = f b u n := by
  have hu := u.isLt
  show f b ⟨(n.val * 64 + u.val) % 64, _⟩ ⟨(n.val * 64 + u.val) / 64, _⟩ = f b u n
  congr 1
  · exact Fin.ext (by show (n.val * 64 + u.val) % 64 = u.val; omega)
  · exact Fin.ext (by show (n.val * 64 + u.val) / 64 = n.val; omega)

/-- The projected output array [32, 512]. -/
def outArr (w : Wts) (a0 : FVec Ideal ⟨2, ![32, 512]⟩ .f32) (a2 : FVec Ideal ⟨3, ![2, 32, 32768]⟩ .f32) :
    FVec Ideal ⟨2, ![32, 512]⟩ .f32 :=
  fun i => OUT w (sigOf a0 (i 0)) (stOf a2 0 (i 0)) (stOf a2 1 (i 0)) (i 1)

/-- The stacked new states [2, 32, 32768]. -/
def hsArr (w : Wts) (a0 : FVec Ideal ⟨2, ![32, 512]⟩ .f32) (a2 : FVec Ideal ⟨3, ![2, 32, 32768]⟩ .f32) :
    FVec Ideal ⟨3, ![2, 32, 32768]⟩ .f32 :=
  fun i =>
    if (i 0).val = 0 then
      H0N w (sigOf a0 (i 1)) (stOf a2 0 (i 1)) ⟨(i 2).val % 64, Nat.mod_lt _ (by decide)⟩
        ⟨(i 2).val / 64, by have h : (i 2).val < 32768 := (i 2).isLt; omega⟩
    else
      H1N w (sigOf a0 (i 1)) (stOf a2 0 (i 1)) (stOf a2 1 (i 1)) ⟨(i 2).val % 64, Nat.mod_lt _ (by decide)⟩
        ⟨(i 2).val / 64, by have h : (i 2).val < 32768 := (i 2).isLt; omega⟩

end Cert.Dcgru

end
-- ==== Proof.KIns.lean ====
/-
  The kernel program's argument arrays read as the specification's inputs.
-/
import proofs.«172483_g44504451121623_cont_8to1_c_180_13_alg».proof.Proof.Gen.KernelIdeal
import proofs.«172483_g44504451121623_cont_8to1_c_180_13_alg».proof.Proof.SpecArr

noncomputable section

namespace Cert.KernelIdeal.KRead

open Cert.KernelIdeal Cert.KernelIdeal.Gen Idealize.ShloMosaic Idealize.ShloMosaic.TcCoe Idealize.SL.Sem Cert.Dcgru

/-- The cells' weights as the kernel program's argument buffers hold them on core `c`. -/
def wK (m : (ℓ : Loc nD τ sig) → Buf (Elt Ideal) ℓ) (c : Dev nD) : Wts :=
  wtsOf (m ((c : Thread nD τ).loc main_arg1)) (m ((c : Thread nD τ).loc main_arg3)) (m ((c : Thread nD τ).loc main_arg4))
    (m ((c : Thread nD τ).loc main_arg5)) (m ((c : Thread nD τ).loc main_arg6)) (m ((c : Thread nD τ).loc main_arg7))
    (m ((c : Thread nD τ).loc main_arg8)) (m ((c : Thread nD τ).loc main_arg9)) (m ((c : Thread nD τ).loc main_arg10))
    (m ((c : Thread nD τ).loc main_arg11)) (m ((c : Thread nD τ).loc main_arg12))

end Cert.KernelIdeal.KRead

end
-- ==== Proof.KHost.lean ====
/-
  The weight arrays the kernel program prepares on the host before its one launch, read index by index: each cell's
  weight matrix (rows ordered (feature, tap)) is cut per tap into the input features' rows and the state units' rows;
  layer 0's single input row is spread to a Kronecker block `I ⊗ w` over the 16 batch elements of a block.
-/
import proofs.«172483_g44504451121623_cont_8to1_c_180_13_alg».proof.Proof.Gen.KernelIdeal.Frame
import proofs.«172483_g44504451121623_cont_8to1_c_180_13_alg».proof.Proof.KIns
import Idealize.ShloMosaic.Lib.ValueIdx
import Idealize.ShloMosaic.Lib.Pipeline.Value
import Idealize.ShloMosaic.Lib.StableHlo.Run

noncomputable section

namespace Cert.KernelIdeal.KRead

open Cert.KernelIdeal Cert.KernelIdeal.Gen Idealize.ShloMosaic Idealize.ShloMosaic.TcCoe Idealize.SL.Sem
open Idealize.ShloMosaic.ValueIdx Cert.Dcgru

/-! ## The layout chains read at an index -/

/-- A weight matrix whose rows are ordered (feature, tap), cut to 64 features from feature `off` and regrouped tap-first:
    at (tap, unit, output) it holds the matrix's row `(off + unit) * 3 + tap`. -/
theorem split_read {α : Type} {K R O : ℕ} (off : ℕ)
    (x : (⟨2, ![K, O]⟩ : Shape).Idx → α)
    (h1 : (⟨2, ![K, O]⟩ : Shape).ShapeCasts ⟨3, ![R, 3, O]⟩)
    (h2 : (⟨3, ![R, 3, O]⟩ : Shape).Slices ![off, 0, 0] ⟨3, ![64, 3, O]⟩)
    (h3 : (⟨3, ![64, 3, O]⟩ : Shape).Transposes [1, 0, 2] ⟨3, ![3, 64, O]⟩)
    (mm : Fin 3) (u : Fin 64) (o : Fin O) (r : Fin K) (hR : off + u.val < R) (hr : r.val = (off + u.val) * 3 + mm.val) :
    transpose ⟨3, ![3, 64, O]⟩ [1, 0, 2] (extractStridedSlice ⟨3, ![64, 3, O]⟩ ![off, 0, 0] (shapeCast ⟨3, ![R, 3, O]⟩ x h1) h2) h3 (ix3 mm u o)
      = x (ix2 r o) := by
  refine (transpose_apply _ _ _ _ (ix3 u mm o) (fun b => match b with | ⟨0, _⟩ => rfl | ⟨1, _⟩ => rfl | ⟨2, _⟩ => rfl)).trans ?_
  refine (extractStridedSlice_apply _ _ _ _ (ix3 ⟨off + u.val, hR⟩ mm o)
    (fun a => match a with
      | ⟨0, _⟩ => by show off + u.val = off + u.val; rfl
      | ⟨1, _⟩ => by show mm.val = 0 + mm.val; omega
      | ⟨2, _⟩ => by show o.val = 0 + o.val; omega)).trans ?_
  exact shapeCast_apply _ _ _ _ (by
    rw [Shape.rowMajor_val_two, Shape.rowMajor_val_three]
    show r.val * O + o.val = ((off + u.val) * 3 + mm.val) * O + o.val
    rw [hr])

/-- The matrix's first feature (rows 0..2, one per tap), regrouped tap-first: at (tap, 0, output) it holds row `tap`. -/
theorem split0_read {α : Type} {K R O : ℕ}
    (x : (⟨2, ![K, O]⟩ : Shape).Idx → α)
    (h1 : (⟨2, ![K, O]⟩ : Shape).ShapeCasts ⟨3, ![R, 3, O]⟩)
    (h2 : (⟨3, ![R, 3, O]⟩ : Shape).Slices ![0, 0, 0] ⟨3, ![1, 3, O]⟩)
    (h3 : (⟨3, ![1, 3, O]⟩ : Shape).Transposes [1, 0, 2] ⟨3, ![3, 1, O]⟩)
    (mm : Fin 3) (o : Fin O) (r : Fin K) (hR : 0 < R) (hr : r.val = mm.val) :
    transpose ⟨3, ![3, 1, O]⟩ [1, 0, 2] (extractStridedSlice ⟨3, ![1, 3, O]⟩ ![0, 0, 0] (shapeCast ⟨3, ![R, 3, O]⟩ x h1) h2) h3 (ix3 mm 0 o)
      = x (ix2 r o) := by
  refine (transpose_apply _ _ _ _ (ix3 0 mm o) (fun b => match b with | ⟨0, _⟩ => rfl | ⟨1, _⟩ => rfl | ⟨2, _⟩ => rfl)).trans ?_
  refine (extractStridedSlice_apply _ _ _ _ (ix3 ⟨0, hR⟩ mm o)
    (fun a => match a with
      | ⟨0, _⟩ => by show 0 = 0 + 0; rfl
      | ⟨1, _⟩ => by show mm.val = 0 + mm.val; omega
      | ⟨2, _⟩ => by show o.val = 0 + o.val; omega)).trans ?_
  exact shapeCast_apply _ _ _ _ (by
    rw [Shape.rowMajor_val_two, Shape.rowMajor_val_three]
    show r.val * O + o.val = ((0 * 3 + mm.val) * O + o.val)
    rw [hr, Nat.zero_mul, Nat.zero_add])

/-- The identity matrix as the host builds it: the comparison of a row counter with a column counter, converted to a float. -/
theorem eye_apply (h : S_.BroadcastsInDim S16x16 ![]) (b' b : Fin 16) :
    (uitofp (F := Ideal) .f32 (cmpi .eq (addi (iotaInDim S16x16 32 0) (broadcastInDim S16x16 ![] h (constantI S_ 32 0#32)))
      (iotaInDim S16x16 32 1)) : S16x16.Idx → EReal) (ix2 b' b) = if b' = b then (1 : EReal) else 0 := by
  show (((IntOp.cmpi .eq (IntOp.addi (BitVec.ofNat 32 b'.val) 0#32) (BitVec.ofNat 32 b.val)).toNat : ℝ) : EReal) = _
  have hb' : b'.val < 16 := b'.isLt
  have hb : b.val < 16 := b.isLt
  have key : (IntOp.addi (BitVec.ofNat 32 b'.val) 0#32 = BitVec.ofNat 32 b.val) ↔ b' = b := by
    unfold IntOp.addi
    rw [BitVec.add_zero]
    constructor
    · intro e
      have e' := congrArg BitVec.toNat e
      rw [BitVec.toNat_ofNat, BitVec.toNat_ofNat] at e'
      exact Fin.ext (by omega)
    · intro e; rw [e]
  by_cases hbb : b' = b
  · rw [if_pos hbb]
    have : IntOp.cmpi .eq (IntOp.addi (BitVec.ofNat 32 b'.val) 0#32) (BitVec.ofNat 32 b.val) = 1#1 := by
      unfold IntOp.cmpi
      show BitVec.ofBool (_ == _) = 1#1
      rw [beq_iff_eq.mpr (key.mpr hbb)]
      rfl
    rw [this]
    show (((1 : ℕ) : ℝ) : EReal) = 1
    simp
  · rw [if_neg hbb]
    have hne : IntOp.addi (BitVec.ofNat 32 b'.val) 0#32 ≠ BitVec.ofNat 32 b.val := fun e => hbb (key.mp e)
    have : IntOp.cmpi .eq (IntOp.addi (BitVec.ofNat 32 b'.val) 0#32) (BitVec.ofNat 32 b.val) = 0#1 := by
      unfold IntOp.cmpi
      show BitVec.ofBool (_ == _) = 0#1
      rw [beq_eq_false_iff_ne.mpr hne]
      rfl
    rw [this]
    show (((0 : ℕ) : ℝ) : EReal) = 0
    simp

/-- The Kronecker block `E ⊗ w`: the product of `E` spread over (tap, ·, ·, ·, output) and `w` spread over the two batch
    axes, with the last two axes merged: at (tap, b', b * O + o) it holds `E (b', b) * w (tap, 0, o)`. -/
theorem kron_read {O N : ℕ} (E : (⟨2, ![16, 16]⟩ : Shape).Idx → EReal) (w : (⟨3, ![3, 1, O]⟩ : Shape).Idx → EReal)
    (g1 : (⟨2, ![16, 16]⟩ : Shape).BroadcastsInDim ⟨4, ![16, 1, 16, 1]⟩ ![0, 2])
    (g2 : (⟨4, ![16, 1, 16, 1]⟩ : Shape).BroadcastsInDim ⟨5, ![1, 16, 1, 16, 1]⟩ ![1, 2, 3, 4])
    (g3 : (⟨5, ![1, 16, 1, 16, 1]⟩ : Shape).BroadcastsInDim ⟨5, ![3, 16, 1, 16, O]⟩ ![0, 1, 2, 3, 4])
    (g4 : (⟨3, ![3, 1, O]⟩ : Shape).BroadcastsInDim ⟨5, ![3, 1, 1, 1, O]⟩ ![0, 2, 4])
    (g5 : (⟨5, ![3, 1, 1, 1, O]⟩ : Shape).BroadcastsInDim ⟨5, ![3, 16, 1, 16, O]⟩ ![0, 1, 2, 3, 4])
    (g6 : (⟨5, ![3, 16, 1, 16, O]⟩ : Shape).ShapeCasts ⟨3, ![3, 16, N]⟩)
    (mm : Fin 3) (b' b : Fin 16) (o : Fin O) (q : Fin N) (hN : N = 16 * O) (hq : q.val = b.val * O + o.val) :
    shapeCast ⟨3, ![3, 16, N]⟩
        (mulf (F := Ideal) (φ := .f32)
          (broadcastInDim ⟨5, ![3, 16, 1, 16, O]⟩ ![0, 1, 2, 3, 4] g3
            (broadcastInDim ⟨5, ![1, 16, 1, 16, 1]⟩ ![1, 2, 3, 4] g2 (broadcastInDim ⟨4, ![16, 1, 16, 1]⟩ ![0, 2] g1 E)))
          (broadcastInDim ⟨5, ![3, 16, 1, 16, O]⟩ ![0, 1, 2, 3, 4] g5 (broadcastInDim ⟨5, ![3, 1, 1, 1, O]⟩ ![0, 2, 4] g4 w)))
        g6 (ix3 mm b' q)
      = E (ix2 b' b) * w (ix3 mm 0 o) := by
  have ho := o.isLt
  refine (shapeCast_apply _ _ _ (ix5 mm b' 0 b o) (by
    rw [Shape.rowMajor_val_five, Shape.rowMajor_val_three]
    show (((mm.val * 16 + b'.val) * 1 + 0) * 16 + b.val) * O + o.val = (mm.val * 16 + b'.val) * N + q.val
    rw [hq, hN]; ring)).trans ?_
  rw [mulf_apply]
  congr 1
  · refine (broadcastInDim_apply _ _ _ _ (ix5 0 b' 0 b 0) (fun a => match a with
      | ⟨0, _⟩ => rfl | ⟨1, _⟩ => rfl | ⟨2, _⟩ => rfl | ⟨3, _⟩ => rfl | ⟨4, _⟩ => rfl)).trans ?_
    refine (broadcastInDim_apply _ _ _ _ (ix4 b' 0 b 0) (fun a => match a with
      | ⟨0, _⟩ => rfl | ⟨1, _⟩ => rfl | ⟨2, _⟩ => rfl | ⟨3, _⟩ => rfl)).trans ?_
    exact broadcastInDim_apply _ _ _ _ (ix2 b' b) (fun a => match a with
      | ⟨0, _⟩ => rfl | ⟨1, _⟩ => rfl)
  · refine (broadcastInDim_apply _ _ _ _ (ix5 mm 0 0 0 o) (fun a => match a with
      | ⟨0, _⟩ => rfl | ⟨1, _⟩ => rfl | ⟨2, _⟩ => rfl | ⟨3, _⟩ => rfl
      | ⟨4, _⟩ => by show o.val = if O = 1 then 0 else o.val; split <;> omega)).trans ?_
    exact broadcastInDim_apply _ _ _ _ (ix3 mm 0 o) (fun a => match a with
      | ⟨0, _⟩ => rfl | ⟨1, _⟩ => rfl
      | ⟨2, _⟩ => by show o.val = if O = 1 then 0 else o.val; split <;> omega)

variable (m : (ℓ : Loc nD τ sig) → Buf (Elt Ideal) ℓ)

/-! ## Each prepared array as the composition of operations the host applies to an argument array -/

theorem e_v4 (c : Dev nD) : (V m c main_v4 : S3x64x128.Idx → EReal)
    = transpose S3x64x128 [1, 0, 2] (extractStridedSlice S64x3x128 ![1, 0, 0]
        (shapeCast S65x3x128 (m ((c : Thread nD τ).loc main_arg3) : S195x128.Idx → EReal) shapeCasts_S195x128_S65x3x128)
        slices_S65x3x128_S64x3x128_1_0_0) transposes_S64x3x128_S3x64x128_1_0_2 := by
  dsimp only [Gen.V]
  simp only [Gen.hostOps0, Gen.hostOps0_1, Gen.hostOps0_2, Gen.hostOps0_3, Gen.hostOps0_4, List.flatten_cons, List.flatten_nil, List.append_nil, List.cons_append, List.nil_append]
  after_results
  rfl

theorem e_v9 (c : Dev nD) : (V m c main_v9 : S3x64x64.Idx → EReal)
    = transpose S3x64x64 [1, 0, 2] (extractStridedSlice S64x3x64 ![1, 0, 0]
        (shapeCast S65x3x64 (m ((c : Thread nD τ).loc main_arg5) : S195x64.Idx → EReal) shapeCasts_S195x64_S65x3x64)
        slices_S65x3x64_S64x3x64_1_0_0) transposes_S64x3x64_S3x64x64_1_0_2 := by
  dsimp only [Gen.V]
  simp only [Gen.hostOps0, Gen.hostOps0_1, Gen.hostOps0_2, Gen.hostOps0_3, Gen.hostOps0_4, List.flatten_cons, List.flatten_nil, List.append_nil, List.cons_append, List.nil_append]
  after_results
  rfl

theorem e_v26 (c : Dev nD) : (V m c main_v26 : S3x64x128.Idx → EReal)
    = transpose S3x64x128 [1, 0, 2] (extractStridedSlice S64x3x128 ![0, 0, 0]
        (shapeCast S128x3x128 (m ((c : Thread nD τ).loc main_arg7) : S384x128.Idx → EReal) shapeCasts_S384x128_S128x3x128)
        slices_S128x3x128_S64x3x128_0_0_0) transposes_S64x3x128_S3x64x128_1_0_2 := by
  dsimp only [Gen.V]
  simp only [Gen.hostOps0, Gen.hostOps0_1, Gen.hostOps0_2, Gen.hostOps0_3, Gen.hostOps0_4, List.flatten_cons, List.flatten_nil, List.append_nil, List.cons_append, List.nil_append]
  after_results
  rfl

theorem e_v28 (c : Dev nD) : (V m c main_v28 : S3x64x128.Idx → EReal)
    = transpose S3x64x128 [1, 0, 2] (extractStridedSlice S64x3x128 ![64, 0, 0]
        (shapeCast S128x3x128 (m ((c : Thread nD τ).loc main_arg7) : S384x128.Idx → EReal) shapeCasts_S384x128_S128x3x128)
        slices_S128x3x128_S64x3x128_64_0_0) transposes_S64x3x128_S3x64x128_1_0_2 := by
  dsimp only [Gen.V]
  simp only [Gen.hostOps0, Gen.hostOps0_1, Gen.hostOps0_2, Gen.hostOps0_3, Gen.hostOps0_4, List.flatten_cons, List.flatten_nil, List.append_nil, List.cons_append, List.nil_append]
  after_results
  rfl

theorem e_v31 (c : Dev nD) : (V m c main_v31 : S3x64x64.Idx → EReal)
    = transpose S3x64x64 [1, 0, 2] (extractStridedSlice S64x3x64 ![0, 0, 0]
        (shapeCast S128x3x64 (m ((c : Thread nD τ).loc main_arg9) : S384x64.Idx → EReal) shapeCasts_S384x64_S128x3x64)
        slices_S128x3x64_S64x3x64_0_0_0) transposes_S64x3x64_S3x64x64_1_0_2 := by
  dsimp only [Gen.V]
  simp only [Gen.hostOps0, Gen.hostOps0_1, Gen.hostOps0_2, Gen.hostOps0_3, Gen.hostOps0_4, List.flatten_cons, List.flatten_nil, List.append_nil, List.cons_append, List.nil_append]
  after_results
  rfl

theorem e_v33 (c : Dev nD) : (V m c main_v33 : S3x64x64.Idx → EReal)
    = transpose S3x64x64 [1, 0, 2] (extractStridedSlice S64x3x64 ![64, 0, 0]
        (shapeCast S128x3x64 (m ((c : Thread nD τ).loc main_arg9) : S384x64.Idx → EReal) shapeCasts_S384x64_S128x3x64)
        slices_S128x3x64_S64x3x64_64_0_0) transposes_S64x3x64_S3x64x64_1_0_2 := by
  dsimp only [Gen.V]
  simp only [Gen.hostOps0, Gen.hostOps0_1, Gen.hostOps0_2, Gen.hostOps0_3, Gen.hostOps0_4, List.flatten_cons, List.flatten_nil, List.append_nil, List.cons_append, List.nil_append]
  after_results
  rfl

theorem e_v34 (c : Dev nD) : (V m c main_v34 : S1x64.Idx → EReal)
    = transpose S1x64 [1, 0] (m ((c : Thread nD τ).loc main_arg11) : S64x1.Idx → EReal) transposes_S64x1_S1x64_1_0 := by
  dsimp only [Gen.V]
  simp only [Gen.hostOps0, Gen.hostOps0_1, Gen.hostOps0_2, Gen.hostOps0_3, Gen.hostOps0_4, List.flatten_cons, List.flatten_nil, List.append_nil, List.cons_append, List.nil_append]
  after_results

set_option maxHeartbeats 2000000 in
theorem e_v16 (c : Dev nD) : (V m c main_v16 : S3x16x2048.Idx → EReal)
    = shapeCast S3x16x2048 (mulf (F := Ideal) (φ := .f32)
        (broadcastInDim S3x16x1x16x128 ![0, 1, 2, 3, 4] bcast_S1x16x1x16x1_S3x16x1x16x128_0_1_2_3_4
          (broadcastInDim S1x16x1x16x1 ![1, 2, 3, 4] bcast_S16x1x16x1_S1x16x1x16x1_1_2_3_4
            (broadcastInDim S16x1x16x1 ![0, 2] bcast_S16x16_S16x1x16x1_0_2
              (uitofp (F := Ideal) .f32 (cmpi .eq (addi (iotaInDim S16x16 32 0)
                (broadcastInDim S16x16 ![] bcast_S_S16x16 (constantI S_ 32 0#32))) (iotaInDim S16x16 32 1))))))
        (broadcastInDim S3x16x1x16x128 ![0, 1, 2, 3, 4] bcast_S3x1x1x1x128_S3x16x1x16x128_0_1_2_3_4
          (broadcastInDim S3x1x1x1x128 ![0, 2, 4] bcast_S3x1x128_S3x1x1x1x128_0_2_4
            (transpose S3x1x128 [1, 0, 2] (extractStridedSlice S1x3x128 ![0, 0, 0]
              (shapeCast S65x3x128 (m ((c : Thread nD τ).loc main_arg3) : S195x128.Idx → EReal) shapeCasts_S195x128_S65x3x128)
              slices_S65x3x128_S1x3x128_0_0_0) transposes_S1x3x128_S3x1x128_1_0_2))))
      shapeCasts_S3x16x1x16x128_S3x16x2048 := by
  dsimp only [Gen.V]
  simp only [Gen.hostOps0, Gen.hostOps0_1, Gen.hostOps0_2, Gen.hostOps0_3, Gen.hostOps0_4, List.flatten_cons, List.flatten_nil, List.append_nil, List.cons_append, List.nil_append]
  after_results_simp
  simp only [StableHlo.TRef.ofBuf, StableHlo.TRef.toBuf, cast_eq]
  rfl

set_option maxHeartbeats 2000000 in
theorem e_v23 (c : Dev nD) : (V m c main_v23 : S3x16x1024.Idx → EReal)
    = shapeCast S3x16x1024 (mulf (F := Ideal) (φ := .f32)
        (broadcastInDim S3x16x1x16x64 ![0, 1, 2, 3, 4] bcast_S1x16x1x16x1_S3x16x1x16x64_0_1_2_3_4
          (broadcastInDim S1x16x1x16x1 ![1, 2, 3, 4] bcast_S16x1x16x1_S1x16x1x16x1_1_2_3_4
            (broadcastInDim S16x1x16x1 ![0, 2] bcast_S16x16_S16x1x16x1_0_2
              (uitofp (F := Ideal) .f32 (cmpi .eq (addi (iotaInDim S16x16 32 0)
                (broadcastInDim S16x16 ![] bcast_S_S16x16 (constantI S_ 32 0#32))) (iotaInDim S16x16 32 1))))))
        (broadcastInDim S3x16x1x16x64 ![0, 1, 2, 3, 4] bcast_S3x1x1x1x64_S3x16x1x16x64_0_1_2_3_4
          (broadcastInDim S3x1x1x1x64 ![0, 2, 4] bcast_S3x1x64_S3x1x1x1x64_0_2_4
            (transpose S3x1x64 [1, 0, 2] (extractStridedSlice S1x3x64 ![0, 0, 0]
              (shapeCast S65x3x64 (m ((c : Thread nD τ).loc main_arg5) : S195x64.Idx → EReal) shapeCasts_S195x64_S65x3x64)
              slices_S65x3x64_S1x3x64_0_0_0) transposes_S1x3x64_S3x1x64_1_0_2))))
      shapeCasts_S3x16x1x16x64_S3x16x1024 := by
  dsimp only [Gen.V]
  simp only [Gen.hostOps0, Gen.hostOps0_1, Gen.hostOps0_2, Gen.hostOps0_3, Gen.hostOps0_4, List.flatten_cons, List.flatten_nil, List.append_nil, List.cons_append, List.nil_append]
  after_results_simp
  simp only [StableHlo.TRef.ofBuf, StableHlo.TRef.toBuf, cast_eq]
  rfl

/-! ## The prepared arrays read at an index -/

/-- Layer 0, gates: the input row of tap `mm` as a Kronecker block [16, 16*128]. -/
theorem V_kxg0 (c : Dev nD) (mm : Fin 3) (b' b : Fin 16) (o : Fin 128) :
    (V m c main_v16 : FVec Ideal S3x16x2048 .f32) (ix3 mm b' ⟨b.val * 128 + o.val, by have := b.isLt; have := o.isLt; omega⟩)
      = (if b' = b then (1 : EReal) else 0) * (wK m c).wg0 ⟨mm.val, by have := mm.isLt; omega⟩ o := by
  have hm := mm.isLt
  rw [e_v16]
  refine (kron_read (O := 128) (N := 2048) _ _ _ _ _ _ _ _ mm b' b o _ rfl rfl).trans ?_
  rw [eye_apply]
  congr 1
  exact split0_read (K := 195) (R := 65) (O := 128) _ _ _ _ mm o _ (by omega) rfl

/-- Layer 0, gates: state unit `u`'s row of tap `mm`. -/
theorem V_whg0 (c : Dev nD) (mm : Fin 3) (u : Fin 64) (o : Fin 128) :
    (V m c main_v4 : FVec Ideal S3x64x128 .f32) (ix3 mm u o)
      = (wK m c).wg0 ⟨(1 + u.val) * 3 + mm.val, by have := mm.isLt; have := u.isLt; omega⟩ o := by
  have hu := u.isLt
  have hm := mm.isLt
  rw [e_v4]
  exact split_read (K := 195) (R := 65) (O := 128) 1 _ _ _ _ mm u o _ (by omega)
    (by show (1 + u.val) * 3 + mm.val = (1 + u.val) * 3 + mm.val; omega)

/-- Layer 0, candidate: the input row of tap `mm` as a Kronecker block [16, 16*64]. -/
theorem V_kxc0 (c : Dev nD) (mm : Fin 3) (b' b : Fin 16) (o : Fin 64) :
    (V m c main_v23 : FVec Ideal S3x16x1024 .f32) (ix3 mm b' ⟨b.val * 64 + o.val, by have := b.isLt; have := o.isLt; omega⟩)
      = (if b' = b then (1 : EReal) else 0) * (wK m c).wc0 ⟨mm.val, by have := mm.isLt; omega⟩ o := by
  have hm := mm.isLt
  rw [e_v23]
  refine (kron_read (O := 64) (N := 1024) _ _ _ _ _ _ _ _ mm b' b o _ rfl rfl).trans ?_
  rw [eye_apply]
  congr 1
  exact split0_read (K := 195) (R := 65) (O := 64) _ _ _ _ mm o _ (by omega) rfl

/-- Layer 0, candidate: state unit `u`'s row of tap `mm`. -/
theorem V_whc0 (c : Dev nD) (mm : Fin 3) (u : Fin 64) (o : Fin 64) :
    (V m c main_v9 : FVec Ideal S3x64x64 .f32) (ix3 mm u o)
      = (wK m c).wc0 ⟨(1 + u.val) * 3 + mm.val, by have := mm.isLt; have := u.isLt; omega⟩ o := by
  have hu := u.isLt
  have hm := mm.isLt
  rw [e_v9]
  exact split_read (K := 195) (R := 65) (O := 64) 1 _ _ _ _ mm u o _ (by omega)
    (by show (1 + u.val) * 3 + mm.val = (1 + u.val) * 3 + mm.val; omega)

/-- Layer 1, gates: lower-layer unit `u`'s row of tap `mm`. -/
theorem V_wxg1 (c : Dev nD) (mm : Fin 3) (u : Fin 64) (o : Fin 128) :
    (V m c main_v26 : FVec Ideal S3x64x128 .f32) (ix3 mm u o)
      = (wK m c).wg1 ⟨u.val * 3 + mm.val, by have := mm.isLt; have := u.isLt; omega⟩ o := by
  have hu := u.isLt
  have hm := mm.isLt
  rw [e_v26]
  exact split_read (K := 384) (R := 128) (O := 128) 0 _ _ _ _ mm u o _ (by omega)
    (by show u.val * 3 + mm.val = (0 + u.val) * 3 + mm.val; omega)

/-- Layer 1, gates: state unit `u`'s row of tap `mm`. -/
theorem V_whg1 (c : Dev nD) (mm : Fin 3) (u : Fin 64) (o : Fin 128) :
    (V m c main_v28 : FVec Ideal S3x64x128 .f32) (ix3 mm u o)
      = (wK m c).wg1 ⟨(64 + u.val) * 3 + mm.val, by have := mm.isLt; have := u.isLt; omega⟩ o := by
  have hu := u.isLt
  have hm := mm.isLt
  rw [e_v28]
  exact split_read (K := 384) (R := 128) (O := 128) 64 _ _ _ _ mm u o _ (by omega)
    (by show (64 + u.val) * 3 + mm.val = (64 + u.val) * 3 + mm.val; omega)

/-- Layer 1, candidate: lower-layer unit `u`'s row of tap `mm`. -/
theorem V_wxc1 (c : Dev nD) (mm : Fin 3) (u : Fin 64) (o : Fin 64) :
    (V m c main_v31 : FVec Ideal S3x64x64 .f32) (ix3 mm u o)
      = (wK m c).wc1 ⟨u.val * 3 + mm.val, by have := mm.isLt; have := u.isLt; omega⟩ o := by
  have hu := u.isLt
  have hm := mm.isLt
  rw [e_v31]
  exact split_read (K := 384) (R := 128) (O := 64) 0 _ _ _ _ mm u o _ (by omega)
    (by show u.val * 3 + mm.val = (0 + u.val) * 3 + mm.val; omega)

/-- Layer 1, candidate: state unit `u`'s row of tap `mm`. -/
theorem V_whc1 (c : Dev nD) (mm : Fin 3) (u : Fin 64) (o : Fin 64) :
    (V m c main_v33 : FVec Ideal S3x64x64 .f32) (ix3 mm u o)
      = (wK m c).wc1 ⟨(64 + u.val) * 3 + mm.val, by have := mm.isLt; have := u.isLt; omega⟩ o := by
  have hu := u.isLt
  have hm := mm.isLt
  rw [e_v33]
  exact split_read (K := 384) (R := 128) (O := 64) 64 _ _ _ _ mm u o _ (by omega)
    (by show (64 + u.val) * 3 + mm.val = (64 + u.val) * 3 + mm.val; omega)

/-- The projection's weights as one row. -/
theorem V_wpT (c : Dev nD) (u : Fin 64) :
    (V m c main_v34 : FVec Ideal S1x64 .f32) (ix2 0 u) = (wK m c).wp u := by
  rw [e_v34]
  exact transpose_apply _ _ _ _ (ix2 u 0) (fun b => match b with | ⟨0, _⟩ => rfl | ⟨1, _⟩ => rfl)

end Cert.KernelIdeal.KRead

end
-- ==== Proof.KEnc.lean ====
/-
  How the kernel lays a block's sixteen batch elements out in its vectors.  A "row form" [8192, C] puts batch element
  `b` of node `n` in row `n * 16 + b`; a "node-major form" [512, 16 * 64] puts unit `u` of batch element `b` in
  column `b * 64 + u` of node `n`'s row; the scalar input of the block is [512, 16], node by batch element.
-/
import proofs.«172483_g44504451121623_cont_8to1_c_180_13_alg».proof.Proof.Gen.KernelIdeal
import proofs.«172483_g44504451121623_cont_8to1_c_180_13_alg».proof.Proof.Spec
import Idealize.ShloMosaic.Lib.ValueIdx

noncomputable section

namespace Cert.KernelIdeal.KRead

open Cert.KernelIdeal Idealize.ShloMosaic Idealize.ShloMosaic.ValueIdx Cert.Dcgru

/-- Sixteen states in row form [8192, 64]. -/
def encRows64 (f : Fin 16 → St) : FVec Ideal S8192x64 .f32 :=
  fun i => f ⟨(i 0).val % 16, Nat.mod_lt _ (by decide)⟩ (i 1)
    ⟨(i 0).val / 16, by have h : (i 0).val < 8192 := (i 0).isLt; omega⟩

/-- Sixteen 128-wide gate arrays in row form [8192, 128]. -/
def encRows128 (f : Fin 16 → Fin 512 → Fin 128 → EReal) : FVec Ideal S8192x128 .f32 :=
  fun i => f ⟨(i 0).val % 16, Nat.mod_lt _ (by decide)⟩
    ⟨(i 0).val / 16, by have h : (i 0).val < 8192 := (i 0).isLt; omega⟩ (i 1)

/-- Sixteen states in node-major form [512, 1024]. -/
def encNm (f : Fin 16 → St) : FVec Ideal S512x1024 .f32 :=
  fun i => f ⟨(i 1).val / 64, by have h : (i 1).val < 1024 := (i 1).isLt; omega⟩
    ⟨(i 1).val % 64, Nat.mod_lt _ (by decide)⟩ (i 0)

/-- Sixteen node signals as [512, 16]. -/
def encX (f : Fin 16 → Sig) : FVec Ideal S512x16 .f32 := fun i => f (i 1) (i 0)

theorem encRows64_apply (f : Fin 16 → St) (n : Fin 512) (b : Fin 16) (u : Fin 64) :
    encRows64 f (ix2 ⟨n.val * 16 + b.val, by have := n.isLt; have := b.isLt; omega⟩ u) = f b u n := by
  have hb := b.isLt
  have hn := n.isLt
  have e1 : (⟨(n.val * 16 + b.val) % 16, Nat.mod_lt _ (by decide)⟩ : Fin 16) = b :=
    Fin.ext (by show (n.val * 16 + b.val) % 16 = b.val; omega)
  have e2 : (⟨(n.val * 16 + b.val) / 16, by omega⟩ : Fin 512) = n :=
    Fin.ext (by show (n.val * 16 + b.val) / 16 = n.val; omega)
  show f ⟨(n.val * 16 + b.val) % 16, _⟩ u ⟨(n.val * 16 + b.val) / 16, _⟩ = f b u n
  rw [e1, e2]

theorem encRows128_apply (f : Fin 16 → Fin 512 → Fin 128 → EReal) (n : Fin 512) (b : Fin 16) (o : Fin 128) :
    encRows128 f (ix2 ⟨n.val * 16 + b.val, by have := n.isLt; have := b.isLt; omega⟩ o) = f b n o := by
  have hb := b.isLt
  have hn := n.isLt
  have e1 : (⟨(n.val * 16 + b.val) % 16, Nat.mod_lt _ (by decide)⟩ : Fin 16) = b :=
    Fin.ext (by show (n.val * 16 + b.val) % 16 = b.val; omega)
  have e2 : (⟨(n.val * 16 + b.val) / 16, by omega⟩ : Fin 512) = n :=
    Fin.ext (by show (n.val * 16 + b.val) / 16 = n.val; omega)
  show f ⟨(n.val * 16 + b.val) % 16, _⟩ ⟨(n.val * 16 + b.val) / 16, _⟩ o = f b n o
  rw [e1, e2]

theorem encNm_apply (f : Fin 16 → St) (n : Fin 512) (b : Fin 16) (u : Fin 64) :
    encNm f (ix2 n ⟨b.val * 64 + u.val, by have := b.isLt; have := u.isLt; omega⟩) = f b u n := by
  have hu := u.isLt
  have hb := b.isLt
  have e1 : (⟨(b.val * 64 + u.val) / 64, by omega⟩ : Fin 16) = b :=
    Fin.ext (by show (b.val * 64 + u.val) / 64 = b.val; omega)
  have e2 : (⟨(b.val * 64 + u.val) % 64, Nat.mod_lt _ (by decide)⟩ : Fin 64) = u :=
    Fin.ext (by show (b.val * 64 + u.val) % 64 = u.val; omega)
  show f ⟨(b.val * 64 + u.val) / 64, _⟩ ⟨(b.val * 64 + u.val) % 64, _⟩ n = f b u n
  rw [e1, e2]

theorem encX_apply (f : Fin 16 → Sig) (n : Fin 512) (b : Fin 16) : encX f (ix2 n b) = f b n := rfl

end Cert.KernelIdeal.KRead

end
-- ==== Proof.KMacro.lean ====
/-
  The kernel body's recurring vector patterns at the ideal instance, each read as ONE function of its operands: the
  re-layout between node-major and row forms (a shape cast to three axes, an added zero, a shape cast back), a matrix
  product of bf16-truncated operands into a zero accumulator (a plain sum of products over the extended reals: the
  truncation is the identity there), one tap's slab of a stacked weight array, a bias row spread over all rows, the
  load of a block's state as rows, the store layouts, and the projection's lane sum.
-/
import proofs.«172483_g44504451121623_cont_8to1_c_180_13_alg».proof.Proof.Gen.KernelIdeal.Skeleton
import proofs.«172483_g44504451121623_cont_8to1_c_180_13_alg».proof.Proof.KEnc
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.KRead

open Cert.KernelIdeal Cert.KernelIdeal.Gen Idealize.ShloMosaic Idealize.ShloMosaic.TcCoe Idealize.ShloMosaic.ValueIdx Cert.Dcgru

/-! ## Re-layouts -/

/-- Node-major [512, 16*64] to rows [8192, 64]: row `r` column `u` is node `r / 16`, column `(r % 16) * 64 + u`. -/
theorem rows64_of_nm (z : FVec Ideal S512x1024 .f32) (h1 : S512x1024.ShapeCasts S512x16x64) (h2 : S512x16x64.ShapeCasts S8192x64) :
    shapeCast S8192x64 (addf (shapeCast S512x16x64 z h1) (broadcast S512x16x64 (Scalar.ofBits .f32 0x00000000#32))) h2
      = fun i => z (ix2 ⟨(i 0).val / 16, by have h : (i 0).val < 8192 := (i 0).isLt; omega⟩
          ⟨((i 0).val % 16) * 64 + (i 1).val, by have h : (i 1).val < 64 := (i 1).isLt; omega⟩) := by
  funext i
  obtain ⟨r, u, rfl⟩ : ∃ (r : Fin 8192) (u : Fin 64), i = ix2 r u := ⟨i 0, i 1, eq_ix2 i⟩
  have hr := r.isLt
  have hu := u.isLt
  refine (shapeCast_apply _ h2 (ix2 r u) (ix3 ⟨r.val / 16, by omega⟩ ⟨r.val % 16, by omega⟩ u)
    (by rw [Shape.rowMajor_val_three, Shape.rowMajor_val_two]
        show ((r.val / 16) * 16 + r.val % 16) * 64 + u.val = r.val * 64 + u.val
        omega)).trans ?_
  rw [addf_apply, broadcast_apply]
  show _ + Ideal.ofBits .f32 0x00000000#32 = _
  rw [Ideal.ofBits_zero_f32, add_zero]
  exact shapeCast_apply _ h1 _ (ix2 ⟨r.val / 16, by omega⟩ ⟨(r.val % 16) * 64 + u.val, by omega⟩)
    (by rw [Shape.rowMajor_val_three, Shape.rowMajor_val_two]
        show (r.val / 16) * 1024 + ((r.val % 16) * 64 + u.val) = ((r.val / 16) * 16 + r.val % 16) * 64 + u.val
        omega)

/-- The same for a 128-wide product [512, 16*128] to rows [8192, 128]. -/
theorem rows128_of_nm (z : FVec Ideal S512x2048 .f32) (h1 : S512x2048.ShapeCasts S512x16x128) (h2 : S512x16x128.ShapeCasts S8192x128) :
    shapeCast S8192x128 (addf (shapeCast S512x16x128 z h1) (broadcast S512x16x128 (Scalar.ofBits .f32 0x00000000#32))) h2
      = fun i => z (ix2 ⟨(i 0).val / 16, by have h : (i 0).val < 8192 := (i 0).isLt; omega⟩
          ⟨((i 0).val % 16) * 128 + (i 1).val, by have h : (i 1).val < 128 := (i 1).isLt; omega⟩) := by
  funext i
  obtain ⟨r, u, rfl⟩ : ∃ (r : Fin 8192) (u : Fin 128), i = ix2 r u := ⟨i 0, i 1, eq_ix2 i⟩
  have hr := r.isLt
  have hu := u.isLt
  refine (shapeCast_apply _ h2 (ix2 r u) (ix3 ⟨r.val / 16, by omega⟩ ⟨r.val % 16, by omega⟩ u)
    (by rw [Shape.rowMajor_val_three, Shape.rowMajor_val_two]
        show ((r.val / 16) * 16 + r.val % 16) * 128 + u.val = r.val * 128 + u.val
        omega)).trans ?_
  rw [addf_apply, broadcast_apply]
  show _ + Ideal.ofBits .f32 0x00000000#32 = _
  rw [Ideal.ofBits_zero_f32, add_zero]
  exact shapeCast_apply _ h1 _ (ix2 ⟨r.val / 16, by omega⟩ ⟨(r.val % 16) * 128 + u.val, by omega⟩)
    (by rw [Shape.rowMajor_val_three, Shape.rowMajor_val_two]
        show (r.val / 16) * 2048 + ((r.val % 16) * 128 + u.val) = ((r.val / 16) * 16 + r.val % 16) * 128 + u.val
        omega)

/-- Rows [8192, 64] to node-major [512, 16*64]: node `n` column `j` is row `n * 16 + j / 64`, column `j % 64`. -/
theorem nm_of_rows64 (r : FVec Ideal S8192x64 .f32) (h1 : S8192x64.ShapeCasts S512x16x64) (h2 : S512x16x64.ShapeCasts S512x1024) :
    shapeCast S512x1024 (addf (shapeCast S512x16x64 r h1) (broadcast S512x16x64 (Scalar.ofBits .f32 0x00000000#32))) h2
      = fun i => r (ix2 ⟨(i 0).val * 16 + (i 1).val / 64, by have h : (i 0).val < 512 := (i 0).isLt; have h' : (i 1).val < 1024 := (i 1).isLt; omega⟩
          ⟨(i 1).val % 64, Nat.mod_lt _ (by decide)⟩) := by
  funext i
  obtain ⟨n, j, rfl⟩ : ∃ (n : Fin 512) (j : Fin 1024), i = ix2 n j := ⟨i 0, i 1, eq_ix2 i⟩
  have hn := n.isLt
  have hj := j.isLt
  refine (shapeCast_apply _ h2 (ix2 n j) (ix3 n ⟨j.val / 64, by omega⟩ ⟨j.val % 64, by omega⟩)
    (by rw [Shape.rowMajor_val_three, Shape.rowMajor_val_two]
        show (n.val * 16 + j.val / 64) * 64 + j.val % 64 = n.val * 1024 + j.val
        omega)).trans ?_
  rw [addf_apply, broadcast_apply]
  show _ + Ideal.ofBits .f32 0x00000000#32 = _
  rw [Ideal.ofBits_zero_f32, add_zero]
  exact shapeCast_apply _ h1 _ (ix2 ⟨n.val * 16 + j.val / 64, by omega⟩ ⟨j.val % 64, by omega⟩)
    (by rw [Shape.rowMajor_val_three, Shape.rowMajor_val_two]
        show (n.val * 16 + j.val / 64) * 64 + j.val % 64 = (n.val * 16 + j.val / 64) * 64 + j.val % 64
        rfl)

/-- Sixteen states: node-major to rows. -/
theorem rows64_of_encNm (f : Fin 16 → St) (h1 : S512x1024.ShapeCasts S512x16x64) (h2 : S512x16x64.ShapeCasts S8192x64) :
    shapeCast S8192x64 (addf (shapeCast S512x16x64 (encNm f) h1) (broadcast S512x16x64 (Scalar.ofBits .f32 0x00000000#32))) h2
      = encRows64 f := by
  rw [rows64_of_nm]
  funext i
  have hr : (i 0).val < 8192 := (i 0).isLt
  have hu : (i 1).val < 64 := (i 1).isLt
  exact encNm_apply f ⟨(i 0).val / 16, by omega⟩ ⟨(i 0).val % 16, Nat.mod_lt _ (by decide)⟩ (i 1)

/-- Sixteen states: rows to node-major. -/
theorem nm_of_encRows64 (f : Fin 16 → St) (h1 : S8192x64.ShapeCasts S512x16x64) (h2 : S512x16x64.ShapeCasts S512x1024) :
    shapeCast S512x1024 (addf (shapeCast S512x16x64 (encRows64 f) h1) (broadcast S512x16x64 (Scalar.ofBits .f32 0x00000000#32))) h2
      = encNm f := by
  rw [nm_of_rows64]
  funext i
  have hn : (i 0).val < 512 := (i 0).isLt
  have hj : (i 1).val < 1024 := (i 1).isLt
  exact encRows64_apply f (i 0) ⟨(i 1).val / 64, by omega⟩ ⟨(i 1).val % 64, Nat.mod_lt _ (by decide)⟩

/-! ## Matrix products -/

/-- [512,512] x [512,16]. -/
theorem mm_512_512_16 (a : FVec Ideal S512x512 .f32) (b : FVec Ideal S512x16 .f32) (ha hb) :
    matmul dot_S512x512_S512x16_S512x16_1_0_0_1_n_n none (truncf .bf16 a ha) (truncf .bf16 b hb) (constant S512x16 .f32 0x00000000#32)
      = fun i => ∑ k : Fin 512, a (ix2 (i 0) k) * b (ix2 k (i 1)) := by
  funext i
  obtain ⟨p, q, rfl⟩ : ∃ (p : Fin 512) (q : Fin 16), i = ix2 p q := ⟨i 0, i 1, eq_ix2 i⟩
  show FloatOps.matmul _ none _ _ _ (ix2 p q) = _
  rw [Ideal.matmul_constant_zero_apply,
    ← Equiv.sum_comp (contrEquiv1 dot_S512x512_S512x16_S512x16_1_0_0_1_n_n 512 rfl rfl).symm]
  refine Finset.sum_congr rfl fun c _ => ?_
  have c2 := contrEquiv1_symm_val dot_S512x512_S512x16_S512x16_1_0_0_1_n_n 512 rfl rfl c
  have l2 : dot_S512x512_S512x16_S512x16_1_0_0_1_n_n.lhsIdx (ix2 p q) ((contrEquiv1 _ 512 rfl rfl).symm c) = ix2 p c := by
    funext ax; apply Fin.ext
    match ax with
    | ⟨0, _⟩ => simp [DotDims.lhsIdx, dot_S512x512_S512x16_S512x16_1_0_0_1_n_n]; rfl
    | ⟨1, _⟩ => simp [DotDims.lhsIdx, dot_S512x512_S512x16_S512x16_1_0_0_1_n_n]; exact c2
  have r2 : dot_S512x512_S512x16_S512x16_1_0_0_1_n_n.rhsIdx (ix2 p q) ((contrEquiv1 _ 512 rfl rfl).symm c) = ix2 c q := by
    funext ax; apply Fin.ext
    match ax with
    | ⟨0, _⟩ => simp [DotDims.rhsIdx, dot_S512x512_S512x16_S512x16_1_0_0_1_n_n]; exact c2
    | ⟨1, _⟩ => simp [DotDims.rhsIdx, dot_S512x512_S512x16_S512x16_1_0_0_1_n_n]; rfl
  rw [l2, r2]
  rfl

/-- [512,512] x [512,1024]. -/
theorem mm_512_512_1024 (a : FVec Ideal S512x512 .f32) (b : FVec Ideal S512x1024 .f32) (ha hb) :
    matmul dot_S512x512_S512x1024_S512x1024_1_0_0_1_n_n none (truncf .bf16 a ha) (truncf .bf16 b hb) (constant S512x1024 .f32 0x00000000#32)
      = fun i => ∑ k : Fin 512, a (ix2 (i 0) k) * b (ix2 k (i 1)) := by
  funext i
  obtain ⟨p, q, rfl⟩ : ∃ (p : Fin 512) (q : Fin 1024), i = ix2 p q := ⟨i 0, i 1, eq_ix2 i⟩
  show FloatOps.matmul _ none _ _ _ (ix2 p q) = _
  rw [Ideal.matmul_constant_zero_apply,
    ← Equiv.sum_comp (contrEquiv1 dot_S512x512_S512x1024_S512x1024_1_0_0_1_n_n 512 rfl rfl).symm]
  refine Finset.sum_congr rfl fun c _ => ?_
  have c2 := contrEquiv1_symm_val dot_S512x512_S512x1024_S512x1024_1_0_0_1_n_n 512 rfl rfl c
  have l2 : dot_S512x512_S512x1024_S512x1024_1_0_0_1_n_n.lhsIdx (ix2 p q) ((contrEquiv1 _ 512 rfl rfl).symm c) = ix2 p c := by
    funext ax; apply Fin.ext
    match ax with
    | ⟨0, _⟩ => simp [DotDims.lhsIdx, dot_S512x512_S512x1024_S512x1024_1_0_0_1_n_n]; rfl
    | ⟨1, _⟩ => simp [DotDims.lhsIdx, dot_S512x512_S512x1024_S512x1024_1_0_0_1_n_n]; exact c2
  have r2 : dot_S512x512_S512x1024_S512x1024_1_0_0_1_n_n.rhsIdx (ix2 p q) ((contrEquiv1 _ 512 rfl rfl).symm c) = ix2 c q := by
    funext ax; apply Fin.ext
    match ax with
    | ⟨0, _⟩ => simp [DotDims.rhsIdx, dot_S512x512_S512x1024_S512x1024_1_0_0_1_n_n]; exact c2
    | ⟨1, _⟩ => simp [DotDims.rhsIdx, dot_S512x512_S512x1024_S512x1024_1_0_0_1_n_n]; rfl
  rw [l2, r2]
  rfl

/-- [8192,64] x [64,128]. -/
theorem mm_8192_64_128 (a : FVec Ideal S8192x64 .f32) (b : FVec Ideal S64x128 .f32) (ha hb) :
    matmul dot_S8192x64_S64x128_S8192x128_1_0_0_1_n_n none (truncf .bf16 a ha) (truncf .bf16 b hb) (constant S8192x128 .f32 0x00000000#32)
      = fun i => ∑ k : Fin 64, a (ix2 (i 0) k) * b (ix2 k (i 1)) := by
  funext i
  obtain ⟨p, q, rfl⟩ : ∃ (p : Fin 8192) (q : Fin 128), i = ix2 p q := ⟨i 0, i 1, eq_ix2 i⟩
  show FloatOps.matmul _ none _ _ _ (ix2 p q) = _
  rw [Ideal.matmul_constant_zero_apply,
    ← Equiv.sum_comp (contrEquiv1 dot_S8192x64_S64x128_S8192x128_1_0_0_1_n_n 64 rfl rfl).symm]
  refine Finset.sum_congr rfl fun c _ => ?_
  have c2 := contrEquiv1_symm_val dot_S8192x64_S64x128_S8192x128_1_0_0_1_n_n 64 rfl rfl c
  have l2 : dot_S8192x64_S64x128_S8192x128_1_0_0_1_n_n.lhsIdx (ix2 p q) ((contrEquiv1 _ 64 rfl rfl).symm c) = ix2 p c := by
    funext ax; apply Fin.ext
    match ax with
    | ⟨0, _⟩ => simp [DotDims.lhsIdx, dot_S8192x64_S64x128_S8192x128_1_0_0_1_n_n]; rfl
    | ⟨1, _⟩ => simp [DotDims.lhsIdx, dot_S8192x64_S64x128_S8192x128_1_0_0_1_n_n]; exact c2
  have r2 : dot_S8192x64_S64x128_S8192x128_1_0_0_1_n_n.rhsIdx (ix2 p q) ((contrEquiv1 _ 64 rfl rfl).symm c) = ix2 c q := by
    funext ax; apply Fin.ext
    match ax with
    | ⟨0, _⟩ => simp [DotDims.rhsIdx, dot_S8192x64_S64x128_S8192x128_1_0_0_1_n_n]; exact c2
    | ⟨1, _⟩ => simp [DotDims.rhsIdx, dot_S8192x64_S64x128_S8192x128_1_0_0_1_n_n]; rfl
  rw [l2, r2]
  rfl

/-- [8192,64] x [64,64]. -/
theorem mm_8192_64_64 (a : FVec Ideal S8192x64 .f32) (b : FVec Ideal S64x64 .f32) (ha hb) :
    matmul dot_S8192x64_S64x64_S8192x64_1_0_0_1_n_n none (truncf .bf16 a ha) (truncf .bf16 b hb) (constant S8192x64 .f32 0x00000000#32)
      = fun i => ∑ k : Fin 64, a (ix2 (i 0) k) * b (ix2 k (i 1)) := by
  funext i
  obtain ⟨p, q, rfl⟩ : ∃ (p : Fin 8192) (q : Fin 64), i = ix2 p q := ⟨i 0, i 1, eq_ix2 i⟩
  show FloatOps.matmul _ none _ _ _ (ix2 p q) = _
  rw [Ideal.matmul_constant_zero_apply,
    ← Equiv.sum_comp (contrEquiv1 dot_S8192x64_S64x64_S8192x64_1_0_0_1_n_n 64 rfl rfl).symm]
  refine Finset.sum_congr rfl fun c _ => ?_
  have c2 := contrEquiv1_symm_val dot_S8192x64_S64x64_S8192x64_1_0_0_1_n_n 64 rfl rfl c
  have l2 : dot_S8192x64_S64x64_S8192x64_1_0_0_1_n_n.lhsIdx (ix2 p q) ((contrEquiv1 _ 64 rfl rfl).symm c) = ix2 p c := by
    funext ax; apply Fin.ext
    match ax with
    | ⟨0, _⟩ => simp [DotDims.lhsIdx, dot_S8192x64_S64x64_S8192x64_1_0_0_1_n_n]; rfl
    | ⟨1, _⟩ => simp [DotDims.lhsIdx, dot_S8192x64_S64x64_S8192x64_1_0_0_1_n_n]; exact c2
  have r2 : dot_S8192x64_S64x64_S8192x64_1_0_0_1_n_n.rhsIdx (ix2 p q) ((contrEquiv1 _ 64 rfl rfl).symm c) = ix2 c q := by
    funext ax; apply Fin.ext
    match ax with
    | ⟨0, _⟩ => simp [DotDims.rhsIdx, dot_S8192x64_S64x64_S8192x64_1_0_0_1_n_n]; exact c2
    | ⟨1, _⟩ => simp [DotDims.rhsIdx, dot_S8192x64_S64x64_S8192x64_1_0_0_1_n_n]; rfl
  rw [l2, r2]
  rfl

/-- [512,16] x [16,2048]. -/
theorem mm_512_16_2048 (a : FVec Ideal S512x16 .f32) (b : FVec Ideal S16x2048 .f32) (ha hb) :
    matmul dot_S512x16_S16x2048_S512x2048_1_0_0_1_n_n none (truncf .bf16 a ha) (truncf .bf16 b hb) (constant S512x2048 .f32 0x00000000#32)
      = fun i => ∑ k : Fin 16, a (ix2 (i 0) k) * b (ix2 k (i 1)) := by
  funext i
  obtain ⟨p, q, rfl⟩ : ∃ (p : Fin 512) (q : Fin 2048), i = ix2 p q := ⟨i 0, i 1, eq_ix2 i⟩
  show FloatOps.matmul _ none _ _ _ (ix2 p q) = _
  rw [Ideal.matmul_constant_zero_apply,
    ← Equiv.sum_comp (contrEquiv1 dot_S512x16_S16x2048_S512x2048_1_0_0_1_n_n 16 rfl rfl).symm]
  refine Finset.sum_congr rfl fun c _ => ?_
  have c2 := contrEquiv1_symm_val dot_S512x16_S16x2048_S512x2048_1_0_0_1_n_n 16 rfl rfl c
  have l2 : dot_S512x16_S16x2048_S512x2048_1_0_0_1_n_n.lhsIdx (ix2 p q) ((contrEquiv1 _ 16 rfl rfl).symm c) = ix2 p c := by
    funext ax; apply Fin.ext
    match ax with
    | ⟨0, _⟩ => simp [DotDims.lhsIdx, dot_S512x16_S16x2048_S512x2048_1_0_0_1_n_n]; rfl
    | ⟨1, _⟩ => simp [DotDims.lhsIdx, dot_S512x16_S16x2048_S512x2048_1_0_0_1_n_n]; exact c2
  have r2 : dot_S512x16_S16x2048_S512x2048_1_0_0_1_n_n.rhsIdx (ix2 p q) ((contrEquiv1 _ 16 rfl rfl).symm c) = ix2 c q := by
    funext ax; apply Fin.ext
    match ax with
    | ⟨0, _⟩ => simp [DotDims.rhsIdx, dot_S512x16_S16x2048_S512x2048_1_0_0_1_n_n]; exact c2
    | ⟨1, _⟩ => simp [DotDims.rhsIdx, dot_S512x16_S16x2048_S512x2048_1_0_0_1_n_n]; rfl
  rw [l2, r2]
  rfl

/-- [512,16] x [16,1024]. -/
theorem mm_512_16_1024 (a : FVec Ideal S512x16 .f32) (b : FVec Ideal S16x1024 .f32) (ha hb) :
    matmul dot_S512x16_S16x1024_S512x1024_1_0_0_1_n_n none (truncf .bf16 a ha) (truncf .bf16 b hb) (constant S512x1024 .f32 0x00000000#32)
      = fun i => ∑ k : Fin 16, a (ix2 (i 0) k) * b (ix2 k (i 1)) := by
  funext i
  obtain ⟨p, q, rfl⟩ : ∃ (p : Fin 512) (q : Fin 1024), i = ix2 p q := ⟨i 0, i 1, eq_ix2 i⟩
  show FloatOps.matmul _ none _ _ _ (ix2 p q) = _
  rw [Ideal.matmul_constant_zero_apply,
    ← Equiv.sum_comp (contrEquiv1 dot_S512x16_S16x1024_S512x1024_1_0_0_1_n_n 16 rfl rfl).symm]
  refine Finset.sum_congr rfl fun c _ => ?_
  have c2 := contrEquiv1_symm_val dot_S512x16_S16x1024_S512x1024_1_0_0_1_n_n 16 rfl rfl c
  have l2 : dot_S512x16_S16x1024_S512x1024_1_0_0_1_n_n.lhsIdx (ix2 p q) ((contrEquiv1 _ 16 rfl rfl).symm c) = ix2 p c := by
    funext ax; apply Fin.ext
    match ax with
    | ⟨0, _⟩ => simp [DotDims.lhsIdx, dot_S512x16_S16x1024_S512x1024_1_0_0_1_n_n]; rfl
    | ⟨1, _⟩ => simp [DotDims.lhsIdx, dot_S512x16_S16x1024_S512x1024_1_0_0_1_n_n]; exact c2
  have r2 : dot_S512x16_S16x1024_S512x1024_1_0_0_1_n_n.rhsIdx (ix2 p q) ((contrEquiv1 _ 16 rfl rfl).symm c) = ix2 c q := by
    funext ax; apply Fin.ext
    match ax with
    | ⟨0, _⟩ => simp [DotDims.rhsIdx, dot_S512x16_S16x1024_S512x1024_1_0_0_1_n_n]; exact c2
    | ⟨1, _⟩ => simp [DotDims.rhsIdx, dot_S512x16_S16x1024_S512x1024_1_0_0_1_n_n]; rfl
  rw [l2, r2]
  rfl

/-- A product whose left operand is already of the bf16 type (a truncated value carried between parts). -/
theorem mm_8192_64_128' (a : FVec Ideal S8192x64 .bf16) (b : FVec Ideal S64x128 .f32) (hb) :
    matmul dot_S8192x64_S64x128_S8192x128_1_0_0_1_n_n none a (truncf .bf16 b hb) (constant S8192x128 .f32 0x00000000#32)
      = fun i => ∑ k : Fin 64, a (ix2 (i 0) k) * b (ix2 k (i 1)) := by
  funext i
  obtain ⟨p, q, rfl⟩ : ∃ (p : Fin 8192) (q : Fin 128), i = ix2 p q := ⟨i 0, i 1, eq_ix2 i⟩
  show FloatOps.matmul _ none _ _ _ (ix2 p q) = _
  rw [Ideal.matmul_constant_zero_apply,
    ← Equiv.sum_comp (contrEquiv1 dot_S8192x64_S64x128_S8192x128_1_0_0_1_n_n 64 rfl rfl).symm]
  refine Finset.sum_congr rfl fun c _ => ?_
  have c2 := contrEquiv1_symm_val dot_S8192x64_S64x128_S8192x128_1_0_0_1_n_n 64 rfl rfl c
  have l2 : dot_S8192x64_S64x128_S8192x128_1_0_0_1_n_n.lhsIdx (ix2 p q) ((contrEquiv1 _ 64 rfl rfl).symm c) = ix2 p c := by
    funext ax; apply Fin.ext
    match ax with
    | ⟨0, _⟩ => simp [DotDims.lhsIdx, dot_S8192x64_S64x128_S8192x128_1_0_0_1_n_n]; rfl
    | ⟨1, _⟩ => simp [DotDims.lhsIdx, dot_S8192x64_S64x128_S8192x128_1_0_0_1_n_n]; exact c2
  have r2 : dot_S8192x64_S64x128_S8192x128_1_0_0_1_n_n.rhsIdx (ix2 p q) ((contrEquiv1 _ 64 rfl rfl).symm c) = ix2 c q := by
    funext ax; apply Fin.ext
    match ax with
    | ⟨0, _⟩ => simp [DotDims.rhsIdx, dot_S8192x64_S64x128_S8192x128_1_0_0_1_n_n]; exact c2
    | ⟨1, _⟩ => simp [DotDims.rhsIdx, dot_S8192x64_S64x128_S8192x128_1_0_0_1_n_n]; rfl
  rw [l2, r2]
  rfl

theorem mm_8192_64_64' (a : FVec Ideal S8192x64 .bf16) (b : FVec Ideal S64x64 .f32) (hb) :
    matmul dot_S8192x64_S64x64_S8192x64_1_0_0_1_n_n none a (truncf .bf16 b hb) (constant S8192x64 .f32 0x00000000#32)
      = fun i => ∑ k : Fin 64, a (ix2 (i 0) k) * b (ix2 k (i 1)) := by
  funext i
  obtain ⟨p, q, rfl⟩ : ∃ (p : Fin 8192) (q : Fin 64), i = ix2 p q := ⟨i 0, i 1, eq_ix2 i⟩
  show FloatOps.matmul _ none _ _ _ (ix2 p q) = _
  rw [Ideal.matmul_constant_zero_apply,
    ← Equiv.sum_comp (contrEquiv1 dot_S8192x64_S64x64_S8192x64_1_0_0_1_n_n 64 rfl rfl).symm]
  refine Finset.sum_congr rfl fun c _ => ?_
  have c2 := contrEquiv1_symm_val dot_S8192x64_S64x64_S8192x64_1_0_0_1_n_n 64 rfl rfl c
  have l2 : dot_S8192x64_S64x64_S8192x64_1_0_0_1_n_n.lhsIdx (ix2 p q) ((contrEquiv1 _ 64 rfl rfl).symm c) = ix2 p c := by
    funext ax; apply Fin.ext
    match ax with
    | ⟨0, _⟩ => simp [DotDims.lhsIdx, dot_S8192x64_S64x64_S8192x64_1_0_0_1_n_n]; rfl
    | ⟨1, _⟩ => simp [DotDims.lhsIdx, dot_S8192x64_S64x64_S8192x64_1_0_0_1_n_n]; exact c2
  have r2 : dot_S8192x64_S64x64_S8192x64_1_0_0_1_n_n.rhsIdx (ix2 p q) ((contrEquiv1 _ 64 rfl rfl).symm c) = ix2 c q := by
    funext ax; apply Fin.ext
    match ax with
    | ⟨0, _⟩ => simp [DotDims.rhsIdx, dot_S8192x64_S64x64_S8192x64_1_0_0_1_n_n]; exact c2
    | ⟨1, _⟩ => simp [DotDims.rhsIdx, dot_S8192x64_S64x64_S8192x64_1_0_0_1_n_n]; rfl
  rw [l2, r2]
  rfl

/-! ## One tap's slab of a stacked weight array -/

theorem slab_3x64x128 (mm : Fin 3) (w : FVec Ideal S3x64x128 .f32) (hs : S3x64x128.Slices ![mm.val, 0, 0] S1x64x128) (hc : S1x64x128.ShapeCasts S64x128) :
    shapeCast S64x128 (extractStridedSlice S1x64x128 ![mm.val, 0, 0] w hs) hc = fun i => w (ix3 mm (i 0) (i 1)) := by
  funext i
  obtain ⟨p, q, rfl⟩ : ∃ (p : Fin 64) (q : Fin 128), i = ix2 p q := ⟨i 0, i 1, eq_ix2 i⟩
  show _ = w (ix3 mm p q)
  rw [shapeCast_1ab_ab_apply]
  exact extractStridedSlice_apply _ _ hs _ (ix3 mm p q) (fun a => match a with
    | ⟨0, _⟩ => by show mm.val = mm.val + 0; omega
    | ⟨1, _⟩ => by show p.val = 0 + p.val; omega
    | ⟨2, _⟩ => by show q.val = 0 + q.val; omega)

theorem slab_3x64x64 (mm : Fin 3) (w : FVec Ideal S3x64x64 .f32) (hs : S3x64x64.Slices ![mm.val, 0, 0] S1x64x64) (hc : S1x64x64.ShapeCasts S64x64) :
    shapeCast S64x64 (extractStridedSlice S1x64x64 ![mm.val, 0, 0] w hs) hc = fun i => w (ix3 mm (i 0) (i 1)) := by
  funext i
  obtain ⟨p, q, rfl⟩ : ∃ (p : Fin 64) (q : Fin 64), i = ix2 p q := ⟨i 0, i 1, eq_ix2 i⟩
  show _ = w (ix3 mm p q)
  rw [shapeCast_1ab_ab_apply]
  exact extractStridedSlice_apply _ _ hs _ (ix3 mm p q) (fun a => match a with
    | ⟨0, _⟩ => by show mm.val = mm.val + 0; omega
    | ⟨1, _⟩ => by show p.val = 0 + p.val; omega
    | ⟨2, _⟩ => by show q.val = 0 + q.val; omega)

theorem slab_3x16x2048 (mm : Fin 3) (w : FVec Ideal S3x16x2048 .f32) (hs : S3x16x2048.Slices ![mm.val, 0, 0] S1x16x2048) (hc : S1x16x2048.ShapeCasts S16x2048) :
    shapeCast S16x2048 (extractStridedSlice S1x16x2048 ![mm.val, 0, 0] w hs) hc = fun i => w (ix3 mm (i 0) (i 1)) := by
  funext i
  obtain ⟨p, q, rfl⟩ : ∃ (p : Fin 16) (q : Fin 2048), i = ix2 p q := ⟨i 0, i 1, eq_ix2 i⟩
  show _ = w (ix3 mm p q)
  rw [shapeCast_1ab_ab_apply]
  exact extractStridedSlice_apply _ _ hs _ (ix3 mm p q) (fun a => match a with
    | ⟨0, _⟩ => by show mm.val = mm.val + 0; omega
    | ⟨1, _⟩ => by show p.val = 0 + p.val; omega
    | ⟨2, _⟩ => by show q.val = 0 + q.val; omega)

theorem slab_3x16x1024 (mm : Fin 3) (w : FVec Ideal S3x16x1024 .f32) (hs : S3x16x1024.Slices ![mm.val, 0, 0] S1x16x1024) (hc : S1x16x1024.ShapeCasts S16x1024) :
    shapeCast S16x1024 (extractStridedSlice S1x16x1024 ![mm.val, 0, 0] w hs) hc = fun i => w (ix3 mm (i 0) (i 1)) := by
  funext i
  obtain ⟨p, q, rfl⟩ : ∃ (p : Fin 16) (q : Fin 1024), i = ix2 p q := ⟨i 0, i 1, eq_ix2 i⟩
  show _ = w (ix3 mm p q)
  rw [shapeCast_1ab_ab_apply]
  exact extractStridedSlice_apply _ _ hs _ (ix3 mm p q) (fun a => match a with
    | ⟨0, _⟩ => by show mm.val = mm.val + 0; omega
    | ⟨1, _⟩ => by show p.val = 0 + p.val; omega
    | ⟨2, _⟩ => by show q.val = 0 + q.val; omega)

/-! ## Halves of the gates -/

theorem half_lo (g : FVec Ideal S8192x128 .f32) (hs : S8192x128.Slices ![0, 0] S8192x64) :
    extractStridedSlice S8192x64 ![0, 0] g hs = fun i => g (ix2 (i 0) ⟨(i 1).val, by have h : (i 1).val < 64 := (i 1).isLt; omega⟩) := by
  funext i
  obtain ⟨p, q, rfl⟩ : ∃ (p : Fin 8192) (q : Fin 64), i = ix2 p q := ⟨i 0, i 1, eq_ix2 i⟩
  have hq := q.isLt
  exact slice2_axis1_apply 0 g hs p q ⟨q.val, by omega⟩ (by show q.val = 0 + q.val; omega)

theorem half_hi (g : FVec Ideal S8192x128 .f32) (hs : S8192x128.Slices ![0, 64] S8192x64) :
    extractStridedSlice S8192x64 ![0, 64] g hs = fun i => g (ix2 (i 0) ⟨64 + (i 1).val, by have h : (i 1).val < 64 := (i 1).isLt; omega⟩) := by
  funext i
  obtain ⟨p, q, rfl⟩ : ∃ (p : Fin 8192) (q : Fin 64), i = ix2 p q := ⟨i 0, i 1, eq_ix2 i⟩
  have hq := q.isLt
  exact slice2_axis1_apply 64 g hs p q ⟨64 + q.val, by omega⟩ rfl

/-! ## A bias row over all rows -/

theorem bias128 (v : FVec Ideal S128 .f32) (h1 : S128.ShapeCasts S1x128) (h2 : S1x128.ShapeCasts S1x128) (hb : S1x128.Broadcasts S8192x128) :
    broadcastTo S8192x128 (shapeCast S1x128 (shapeCast S1x128 v h1) h2) hb = fun i => v (ix1 (i 1)) := by
  funext i
  obtain ⟨p, q, rfl⟩ : ∃ (p : Fin 8192) (q : Fin 128), i = ix2 p q := ⟨i 0, i 1, eq_ix2 i⟩
  show _ = v (ix1 q)
  rw [broadcastTo_1b_ab_apply, shapeCast_self, shapeCast_a_1a_apply]

theorem bias64 (v : FVec Ideal S64 .f32) (h1 : S64.ShapeCasts S1x64) (h2 : S1x64.ShapeCasts S1x64) (hb : S1x64.Broadcasts S8192x64) :
    broadcastTo S8192x64 (shapeCast S1x64 (shapeCast S1x64 v h1) h2) hb = fun i => v (ix1 (i 1)) := by
  funext i
  obtain ⟨p, q, rfl⟩ : ∃ (p : Fin 8192) (q : Fin 64), i = ix2 p q := ⟨i 0, i 1, eq_ix2 i⟩
  show _ = v (ix1 q)
  rw [broadcastTo_1b_ab_apply, shapeCast_self, shapeCast_a_1a_apply]

/-! ## Loads and stores of a block -/

/-- A block's state slab [1, 16, 32768] (node-major last axis) as rows. -/
theorem pay5_eq (v1 : Vec Ideal S1x16x32768 .f32) :
    k0_pay5 (F := Ideal) v1
      = encRows64 (fun b u n => v1 (ix3 0 b ⟨n.val * 64 + u.val, by have := n.isLt; have := u.isLt; omega⟩)) := by
  funext i
  obtain ⟨r, u, rfl⟩ : ∃ (r : Fin 8192) (u : Fin 64), i = ix2 r u := ⟨i 0, i 1, eq_ix2 i⟩
  have hr := r.isLt
  have hu := u.isLt
  unfold k0_pay5
  -- rows [8192, 64] at (r, u) read [512, 16, 64] at (r / 16, r % 16, u)
  refine (shapeCast_apply _ _ (ix2 r u) (ix3 ⟨r.val / 16, by omega⟩ ⟨r.val % 16, by omega⟩ u)
    (by rw [Shape.rowMajor_val_three, Shape.rowMajor_val_two]
        show ((r.val / 16) * 16 + r.val % 16) * 64 + u.val = r.val * 64 + u.val
        omega)).trans ?_
  -- the transpose [1, 0, 2] swaps node and batch element
  refine (transpose_apply _ _ _ _ (ix3 ⟨r.val % 16, by omega⟩ ⟨r.val / 16, by omega⟩ u)
    (fun b => match b with | ⟨0, _⟩ => rfl | ⟨1, _⟩ => rfl | ⟨2, _⟩ => rfl)).trans ?_
  -- [16, 512, 64] at (b, n, u) reads [16, 32768] at (b, n * 64 + u)
  refine (shapeCast_apply _ _ _ (ix2 ⟨r.val % 16, by omega⟩ ⟨(r.val / 16) * 64 + u.val, by omega⟩)
    (by rw [Shape.rowMajor_val_three, Shape.rowMajor_val_two]
        show (r.val % 16) * 32768 + ((r.val / 16) * 64 + u.val) = ((r.val % 16) * 512 + r.val / 16) * 64 + u.val
        omega)).trans ?_
  exact shapeCast_1ab_ab_apply _ _ _ _

theorem pay26_eq (v1 : Vec Ideal S1x16x32768 .f32) :
    k0_pay26 (F := Ideal) v1
      = encRows64 (fun b u n => v1 (ix3 0 b ⟨n.val * 64 + u.val, by have := n.isLt; have := u.isLt; omega⟩)) := by
  exact pay5_eq v1

/-- The block's scalar input [16, 512] transposed. -/
theorem pay6_eq (v6 : Vec Ideal S16x512 .f32) : k0_pay6 (F := Ideal) v6 = encX (fun b n => v6 (ix2 b n)) := by
  funext i
  obtain ⟨n, b, rfl⟩ : ∃ (n : Fin 512) (b : Fin 16), i = ix2 n b := ⟨i 0, i 1, eq_ix2 i⟩
  unfold k0_pay6
  exact transpose_ix2_apply _ _ n b

/-- Rows stored back as a state slab [1, 16, 32768]. -/
theorem pay2_eq (f : Fin 16 → St) :
    k0_pay2 (F := Ideal) (encRows64 f)
      = fun i => f (i 1) ⟨(i 2).val % 64, Nat.mod_lt _ (by decide)⟩
          ⟨(i 2).val / 64, by have h : (i 2).val < 32768 := (i 2).isLt; omega⟩ := by
  funext i
  obtain ⟨z, b, m, rfl⟩ : ∃ (z : Fin 1) (b : Fin 16) (m : Fin 32768), i = ix3 z b m := ⟨i 0, i 1, i 2, eq_ix3 i⟩
  have hb := b.isLt
  have hm := m.isLt
  show _ = f b ⟨m.val % 64, _⟩ ⟨m.val / 64, _⟩
  unfold k0_pay2
  refine (shapeCast_ab_1ab_apply _ _ z b m).trans ?_
  -- [16, 32768] at (b, m) reads [16, 512, 64] at (b, m / 64, m % 64)
  refine (shapeCast_apply _ _ _ (ix3 b ⟨m.val / 64, by omega⟩ ⟨m.val % 64, by omega⟩)
    (by rw [Shape.rowMajor_val_three, Shape.rowMajor_val_two]
        show (b.val * 512 + m.val / 64) * 64 + m.val % 64 = b.val * 32768 + m.val
        omega)).trans ?_
  refine (transpose_apply _ _ _ _ (ix3 ⟨m.val / 64, by omega⟩ b ⟨m.val % 64, by omega⟩)
    (fun c => match c with | ⟨0, _⟩ => rfl | ⟨1, _⟩ => rfl | ⟨2, _⟩ => rfl)).trans ?_
  refine (shapeCast_apply _ _ _ (ix2 ⟨(m.val / 64) * 16 + b.val, by omega⟩ ⟨m.val % 64, by omega⟩)
    (by rw [Shape.rowMajor_val_three, Shape.rowMajor_val_two]
        show ((m.val / 64) * 16 + b.val) * 64 + m.val % 64 = ((m.val / 64) * 16 + b.val) * 64 + m.val % 64
        rfl)).trans ?_
  exact encRows64_apply f ⟨m.val / 64, by omega⟩ b ⟨m.val % 64, by omega⟩

/-- The store layout of `k0_pay3` is that of `k0_pay2` applied to `k0_pay1`. -/
theorem pay3_eq_pay2 (v193 v290 v362 : FVec Ideal S8192x64 .f32) (v368 : FVec Ideal S64x64 .f32) (v369 : FVec Ideal S8192x64 .bf16) :
    k0_pay3 (F := Ideal) v193 v290 v362 v368 v369 = k0_pay2 (F := Ideal) (k0_pay1 v193 v290 v362 v368 v369) := by
  unfold k0_pay3 k0_pay2
  rfl

/-- The projection: rows times the weight row, summed over the 64 units, plus the bias, transposed to [16, 512]. -/
theorem pay4_eq (f : Fin 16 → St) (v193 v290 v362 : FVec Ideal S8192x64 .f32) (v368 : FVec Ideal S64x64 .f32) (v369 : FVec Ideal S8192x64 .bf16)
    (v392 : Vec Ideal S1x64 .f32) (v398 : Vec Ideal S1 .f32) (hf : k0_pay1 (F := Ideal) v193 v290 v362 v368 v369 = encRows64 f) :
    k0_pay4 (F := Ideal) v193 v290 v362 v368 v369 v392 v398
      = fun i => (∑ u : Fin 64, f (i 0) u (i 1) * v392 (ix2 0 u)) + v398 (ix1 0) := by
  funext i
  obtain ⟨b, n, rfl⟩ : ∃ (b : Fin 16) (n : Fin 512), i = ix2 b n := ⟨i 0, i 1, eq_ix2 i⟩
  have hb := b.isLt
  have hn := n.isLt
  show _ = (∑ u : Fin 64, f b u n * v392 (ix2 0 u)) + v398 (ix1 0)
  unfold k0_pay4
  rw [hf]
  refine (transpose_ix2_apply _ _ b n).trans ?_
  rw [addf_apply, broadcast_apply]
  -- the lane sum over axis 2 is a sum over the 64 units
  refine (congrArg₂ (· + ·) (Ideal.multiReduction_add_single _ _ _ _ _ (ix2 n b)) rfl).trans ?_
  refine congrArg₂ (· + ·) (Finset.sum_congr rfl fun u _ => ?_) ?_
  · have hu : u.val < 64 := u.isLt
    have hl : Shape.Reduces.lift (Gen.reduces_S512x16x64_S512x16) (ix2 n b) u = ix3 n b ⟨u.val, hu⟩ := by
      funext c; apply Fin.ext
      match c with
      | ⟨0, _⟩ => rfl
      | ⟨1, _⟩ => rfl
      | ⟨2, _⟩ => rfl
    rw [hl, mulf_apply]
    refine congrArg₂ (· * ·) ?_ ?_
    · refine (shapeCast_apply _ _ _ (ix2 ⟨n.val * 16 + b.val, by omega⟩ ⟨u.val, hu⟩)
        (by rw [Shape.rowMajor_val_three, Shape.rowMajor_val_two]
            show (n.val * 16 + b.val) * 64 + u.val = (n.val * 16 + b.val) * 64 + u.val
            rfl)).trans ?_
      exact encRows64_apply f n b ⟨u.val, hu⟩
    · refine (broadcastTo_apply _ _ _ (ix3 (0 : Fin 1) (0 : Fin 1) ⟨u.val, hu⟩) (fun a => match a with
        | ⟨0, _⟩ => rfl
        | ⟨1, _⟩ => rfl
        | ⟨2, _⟩ => rfl)).trans ?_
      refine (shapeCast_ab_1ab_apply _ _ _ _ _).trans ?_
      rw [shapeCast_self]
      rfl
  · show v398 _ = v398 _
    exact congrArg v398 (funext fun a => match a with | ⟨0, _⟩ => rfl)

end Cert.KernelIdeal.KRead

end
-- ==== Proof.KTerms.lean ====
/-
  The terms a graph convolution is accumulated from, in the kernel's layouts.  The adjacency matrix applied to
  sixteen states (or sixteen node signals) in node-major form; one tap's contraction of sixteen states with a
  [64, O] slab of weights, in row form; and one tap's product of the sixteen input signals with a Kronecker slab
  [16, 16 * O], re-laid into row form.
-/
import proofs.«172483_g44504451121623_cont_8to1_c_180_13_alg».proof.Proof.KMacro

noncomputable section

namespace Cert.KernelIdeal.KRead

open Cert.KernelIdeal Cert.KernelIdeal.Gen Idealize.ShloMosaic Idealize.ShloMosaic.TcCoe Idealize.ShloMosaic.ValueIdx Cert.Dcgru

/-- The adjacency matrix applied to sixteen states in node-major form. -/
theorem mmA_encNm (A : Fin 512 → Fin 512 → EReal) (x1 : FVec Ideal S512x512 .f32) (hA : ∀ n k, x1 (ix2 n k) = A n k)
    (g : Fin 16 → St) (ha hb) :
    matmul dot_S512x512_S512x1024_S512x1024_1_0_0_1_n_n none (truncf .bf16 x1 ha) (truncf .bf16 (encNm g) hb) (constant S512x1024 .f32 0x00000000#32)
      = encNm (fun b u => mv A (g b u)) := by
  rw [mm_512_512_1024]
  funext i
  obtain ⟨n, j, rfl⟩ : ∃ (n : Fin 512) (j : Fin 1024), i = ix2 n j := ⟨i 0, i 1, eq_ix2 i⟩
  show (∑ k : Fin 512, x1 (ix2 n k) * encNm g (ix2 k j)) = ∑ k : Fin 512, A n k * encNm g (ix2 k j)
  exact Finset.sum_congr rfl (fun k _ => by rw [hA])

/-- The adjacency matrix applied to sixteen node signals. -/
theorem mmA_encX (A : Fin 512 → Fin 512 → EReal) (x1 : FVec Ideal S512x512 .f32) (hA : ∀ n k, x1 (ix2 n k) = A n k)
    (f : Fin 16 → Sig) (ha hb) :
    matmul dot_S512x512_S512x16_S512x16_1_0_0_1_n_n none (truncf .bf16 x1 ha) (truncf .bf16 (encX f) hb) (constant S512x16 .f32 0x00000000#32)
      = encX (fun b => mv A (f b)) := by
  rw [mm_512_512_16]
  funext i
  obtain ⟨n, b, rfl⟩ : ∃ (n : Fin 512) (b : Fin 16), i = ix2 n b := ⟨i 0, i 1, eq_ix2 i⟩
  show (∑ k : Fin 512, x1 (ix2 n k) * encX f (ix2 k b)) = ∑ k : Fin 512, A n k * encX f (ix2 k b)
  exact Finset.sum_congr rfl (fun k _ => by rw [hA])

/-- The third tap in node-major form: `2 * (A (A z)) - z`, pointwise. -/
theorem tap2_encNm (A : Fin 512 → Fin 512 → EReal) (g : Fin 16 → St) :
    subf (mulf (broadcast S512x1024 (Scalar.ofBits .f32 0x40000000#32)) (encNm (fun b u => mv A (mv A (g b u))))) (encNm g)
      = encNm (fun b u => tap A 2 (g b u)) := by
  funext i
  rfl

theorem tap2_encX (A : Fin 512 → Fin 512 → EReal) (f : Fin 16 → Sig) :
    subf (mulf (broadcast S512x16 (Scalar.ofBits .f32 0x40000000#32)) (encX (fun b => mv A (mv A (f b))))) (encX f)
      = encX (fun b => tap A 2 (f b)) := by
  funext i
  rfl

/-- One tap's contraction of sixteen states (given in node-major form `z = encNm g`) with a 128-wide slab. -/
theorem stTerm128 (g : Fin 16 → St) (W : FVec Ideal S3x64x128 .f32) (mm : Fin 3) (h1 h2 hs hc ha hb) :
    matmul dot_S8192x64_S64x128_S8192x128_1_0_0_1_n_n none
        (truncf .bf16 (shapeCast S8192x64 (addf (shapeCast S512x16x64 (encNm g) h1) (broadcast S512x16x64 (Scalar.ofBits .f32 0x00000000#32))) h2) ha)
        (truncf .bf16 (shapeCast S64x128 (extractStridedSlice S1x64x128 ![mm.val, 0, 0] W hs) hc) hb)
        (constant S8192x128 .f32 0x00000000#32)
      = encRows128 (fun b n o => ∑ u : Fin 64, g b u n * W (ix3 mm u o)) := by
  rw [rows64_of_encNm, slab_3x64x128, mm_8192_64_128]
  funext i
  rfl

/-- The same with a 64-wide slab. -/
theorem stTerm64 (g : Fin 16 → St) (W : FVec Ideal S3x64x64 .f32) (mm : Fin 3) (h1 h2 hs hc ha hb) :
    matmul dot_S8192x64_S64x64_S8192x64_1_0_0_1_n_n none
        (truncf .bf16 (shapeCast S8192x64 (addf (shapeCast S512x16x64 (encNm g) h1) (broadcast S512x16x64 (Scalar.ofBits .f32 0x00000000#32))) h2) ha)
        (truncf .bf16 (shapeCast S64x64 (extractStridedSlice S1x64x64 ![mm.val, 0, 0] W hs) hc) hb)
        (constant S8192x64 .f32 0x00000000#32)
      = encRows64 (fun b o n => ∑ u : Fin 64, g b u n * W (ix3 mm u o)) := by
  rw [rows64_of_encNm, slab_3x64x64, mm_8192_64_64]
  funext i
  rfl

/-- One tap's product of the sixteen input signals with a Kronecker slab [16, 16*128], re-laid into rows. -/
theorem xTerm128 (f : Fin 16 → Sig) (K : FVec Ideal S3x16x2048 .f32) (mm : Fin 3) (h1 h2 hs hc ha hb) :
    shapeCast S8192x128 (addf (shapeCast S512x16x128
        (matmul dot_S512x16_S16x2048_S512x2048_1_0_0_1_n_n none (truncf .bf16 (encX f) ha)
          (truncf .bf16 (shapeCast S16x2048 (extractStridedSlice S1x16x2048 ![mm.val, 0, 0] K hs) hc) hb)
          (constant S512x2048 .f32 0x00000000#32)) h1) (broadcast S512x16x128 (Scalar.ofBits .f32 0x00000000#32))) h2
      = encRows128 (fun b n o => ∑ b' : Fin 16, f b' n * K (ix3 mm b' ⟨b.val * 128 + o.val, by have := b.isLt; have := o.isLt; omega⟩)) := by
  rw [slab_3x16x2048, mm_512_16_2048, rows128_of_nm]
  funext i
  rfl

/-- The same with a 64-wide Kronecker slab [16, 16*64]. -/
theorem xTerm64 (f : Fin 16 → Sig) (K : FVec Ideal S3x16x1024 .f32) (mm : Fin 3) (h1 h2 hs hc ha hb) :
    shapeCast S8192x64 (addf (shapeCast S512x16x64
        (matmul dot_S512x16_S16x1024_S512x1024_1_0_0_1_n_n none (truncf .bf16 (encX f) ha)
          (truncf .bf16 (shapeCast S16x1024 (extractStridedSlice S1x16x1024 ![mm.val, 0, 0] K hs) hc) hb)
          (constant S512x1024 .f32 0x00000000#32)) h1) (broadcast S512x16x64 (Scalar.ofBits .f32 0x00000000#32))) h2
      = encRows64 (fun b o n => ∑ b' : Fin 16, f b' n * K (ix3 mm b' ⟨b.val * 64 + o.val, by have := b.isLt; have := o.isLt; omega⟩)) := by
  rw [slab_3x16x1024, mm_512_16_1024, rows64_of_nm]
  funext i
  rfl

/-- A product whose left operand is rows already of the bf16 type: one tap's contraction with a given [64,128] slab. -/
theorem stTerm128' (g : Fin 16 → St) (S : FVec Ideal S64x128 .f32) (a : FVec Ideal S8192x64 .bf16)
    (hae : (a : S8192x64.Idx → EReal) = encRows64 g) (hb) :
    matmul dot_S8192x64_S64x128_S8192x128_1_0_0_1_n_n none a (truncf .bf16 S hb) (constant S8192x128 .f32 0x00000000#32)
      = encRows128 (fun b n o => ∑ u : Fin 64, g b u n * S (ix2 u o)) := by
  rw [mm_8192_64_128']
  funext i
  obtain ⟨r, o, rfl⟩ : ∃ (r : Fin 8192) (o : Fin 128), i = ix2 r o := ⟨i 0, i 1, eq_ix2 i⟩
  show (∑ k : Fin 64, a (ix2 r k) * S (ix2 k o)) = ∑ k : Fin 64, encRows64 g (ix2 r k) * S (ix2 k o)
  exact Finset.sum_congr rfl (fun k _ => by rw [congrFun hae (ix2 r k)])

theorem stTerm64' (g : Fin 16 → St) (S : FVec Ideal S64x64 .f32) (a : FVec Ideal S8192x64 .bf16)
    (hae : (a : S8192x64.Idx → EReal) = encRows64 g) (hb) :
    matmul dot_S8192x64_S64x64_S8192x64_1_0_0_1_n_n none a (truncf .bf16 S hb) (constant S8192x64 .f32 0x00000000#32)
      = encRows64 (fun b o n => ∑ u : Fin 64, g b u n * S (ix2 u o)) := by
  rw [mm_8192_64_64']
  funext i
  obtain ⟨r, o, rfl⟩ : ∃ (r : Fin 8192) (o : Fin 64), i = ix2 r o := ⟨i 0, i 1, eq_ix2 i⟩
  show (∑ k : Fin 64, a (ix2 r k) * S (ix2 k o)) = ∑ k : Fin 64, encRows64 g (ix2 r k) * S (ix2 k o)
  exact Finset.sum_congr rfl (fun k _ => by rw [congrFun hae (ix2 r k)])

end Cert.KernelIdeal.KRead

end
-- ==== Proof.KBlk.lean ====
/-
  A block's inputs as the specification reads them, and what it means for a block's weight arrays to be the per-tap
  cuts of a cell's weight matrix (rows ordered (feature, tap)).
-/
import proofs.«172483_g44504451121623_cont_8to1_c_180_13_alg».proof.Proof.KEnc

noncomputable section

namespace Cert.KernelIdeal.KRead

open Cert.KernelIdeal Idealize.ShloMosaic Idealize.ShloMosaic.ValueIdx Cert.Dcgru

/-- The sixteen input signals of a block [16, 512]. -/
def xbOf (x0 : Vec Ideal S16x512 .f32) : Fin 16 → Sig := fun b n => x0 (ix2 b n)

/-- The sixteen states of a block's slab [1, 16, 32768] (node-major last axis). -/
def hbOf (hv : Vec Ideal S1x16x32768 .f32) : Fin 16 → St :=
  fun b u n => hv (ix3 0 b ⟨n.val * 64 + u.val, by have := n.isLt; have := u.isLt; omega⟩)

/-- `K` holds, per tap, the Kronecker block `I ⊗ (row mm of W)`: layer 0's one input feature. -/
def IsKron {O : ℕ} (K : FVec Ideal ⟨3, ![3, 16, 16 * O]⟩ .f32) (W : Fin 195 → Fin O → EReal) : Prop :=
  ∀ (mm : Fin 3) (b' b : Fin 16) (o : Fin O),
    K (ix3 mm b' ⟨b.val * O + o.val, by
        have hb := b.isLt; have ho := o.isLt
        calc b.val * O + o.val < b.val * O + O := by omega
          _ = (b.val + 1) * O := by ring
          _ ≤ 16 * O := Nat.mul_le_mul_right O (by omega)⟩)
      = (if b' = b then (1 : EReal) else 0) * W ⟨mm.val, by have := mm.isLt; omega⟩ o

/-- `Wh` holds, per tap, layer 0's 64 state rows. -/
def IsSt0 {O : ℕ} (Wh : FVec Ideal ⟨3, ![3, 64, O]⟩ .f32) (W : Fin 195 → Fin O → EReal) : Prop :=
  ∀ (mm : Fin 3) (u : Fin 64) (o : Fin O),
    Wh (ix3 mm u o) = W ⟨(1 + u.val) * 3 + mm.val, by have := mm.isLt; have := u.isLt; omega⟩ o

/-- `Wx` holds, per tap, layer 1's 64 lower-layer rows. -/
def IsX1 {O : ℕ} (Wx : FVec Ideal ⟨3, ![3, 64, O]⟩ .f32) (W : Fin 384 → Fin O → EReal) : Prop :=
  ∀ (mm : Fin 3) (u : Fin 64) (o : Fin O),
    Wx (ix3 mm u o) = W ⟨u.val * 3 + mm.val, by have := mm.isLt; have := u.isLt; omega⟩ o

/-- `Wh` holds, per tap, layer 1's 64 state rows. -/
def IsSt1 {O : ℕ} (Wh : FVec Ideal ⟨3, ![3, 64, O]⟩ .f32) (W : Fin 384 → Fin O → EReal) : Prop :=
  ∀ (mm : Fin 3) (u : Fin 64) (o : Fin O),
    Wh (ix3 mm u o) = W ⟨(64 + u.val) * 3 + mm.val, by have := mm.isLt; have := u.isLt; omega⟩ o

end Cert.KernelIdeal.KRead

end
-- ==== Proof.SpecAlg.lean ====
/-
  The algebra between the two arrangements of one graph convolution, and the small facts about the literals.
  All of it holds on every extended real: only that addition is commutative and associative, and that zero
  annihilates, is used; nothing needs the inputs finite.
-/
import proofs.«172483_g44504451121623_cont_8to1_c_180_13_alg».proof.Proof.Spec

noncomputable section

namespace Cert.Dcgru

open Idealize.ShloMosaic

/-- The literal `1.0` is the real one. -/
theorem one_eq : one = 1 := by
  simp [one, Ideal.ofBits, Ideal.ieee]
  norm_cast
  norm_num

/-- The logistic as the host spells it, with the literal ones: `1 / (1 + exp (-x))`. -/
theorem logistic_host (x : EReal) : Ideal.div one (one + Ideal.exp (-x)) = Ideal.logistic x := by
  rw [one_eq]
  rfl

/-- A sum over `N * 3` rows ordered (feature, tap), feature-major, is the sum over taps of the sums over
    features: row `f * 3 + m` is feature `f`, tap `m`. -/
theorem sum_mul3 {M : Type*} [AddCommMonoid M] (N : ℕ) (F : Fin (N * 3) → M) :
    ∑ k : Fin (N * 3), F k
      = ∑ m : Fin 3, ∑ f : Fin N, F ⟨f.val * 3 + m.val, by have := m.isLt; have := f.isLt; omega⟩ := by
  rw [← Equiv.sum_comp finProdFinEquiv F, Fintype.sum_prod_type, Finset.sum_comm]
  refine Finset.sum_congr rfl fun m _ => Finset.sum_congr rfl fun f _ => ?_
  congr 1
  apply Fin.ext
  simp only [finProdFinEquiv_apply_val]
  omega

/-- A sum over 195 = 65 * 3 rows ordered (feature, tap), split by tap and, within a tap, into feature 0 and the 64
    others. -/
theorem sum195_split {M : Type*} [AddCommMonoid M] (F : Fin 195 → M) :
    ∑ k : Fin 195, F k
      = ∑ m : Fin 3, (F ⟨m.val, by have := m.isLt; omega⟩
          + ∑ u : Fin 64, F ⟨(1 + u.val) * 3 + m.val, by have := m.isLt; have := u.isLt; omega⟩) := by
  rw [sum_mul3 65 F]
  refine Finset.sum_congr rfl fun m _ => ?_
  rw [Fin.sum_univ_succ]
  refine congrArg₂ (· + ·) ?_ ?_
  · exact congrArg F (Fin.ext (by simp))
  · refine Finset.sum_congr rfl fun u _ => ?_
    exact congrArg F (Fin.ext (by simp only [Fin.val_succ]; omega))

/-- A sum over 384 = 128 * 3 rows ordered (feature, tap), split by tap and, within a tap, into the first and the
    last 64 features. -/
theorem sum384_split {M : Type*} [AddCommMonoid M] (F : Fin 384 → M) :
    ∑ k : Fin 384, F k
      = ∑ m : Fin 3, ((∑ u : Fin 64, F ⟨u.val * 3 + m.val, by have := m.isLt; have := u.isLt; omega⟩)
          + ∑ u : Fin 64, F ⟨(64 + u.val) * 3 + m.val, by have := m.isLt; have := u.isLt; omega⟩) := by
  rw [sum_mul3 128 F]
  refine Finset.sum_congr rfl fun m _ => ?_
  rw [Fin.sum_univ_add (a := 64) (b := 64)]
  congr 1

/-- Row `k = f * 3 + m` of the stack is tap `m` of feature `f`. -/
theorem tap_row {N : ℕ} (A : Fin 512 → Fin 512 → EReal) (g : Fin N → Sig) (k : ℕ) (h3 : k % 3 < 3) (hN : k / 3 < N)
    (m : Fin 3) (f : Fin N) (hk : k = f.val * 3 + m.val) :
    tap A ⟨k % 3, h3⟩ (g ⟨k / 3, hN⟩) = tap A m (g f) := by
  have hm := m.isLt
  have e1 : (⟨k % 3, h3⟩ : Fin 3) = m := Fin.ext (by show k % 3 = m.val; omega)
  have e2 : (⟨k / 3, hN⟩ : Fin N) = f := Fin.ext (by show k / 3 = f.val; omega)
  rw [e1, e2]

/-- Layer 0's feature 0 is the input. -/
theorem feat0_zero (x : Sig) (s : St) : feat0 x s ⟨0, by decide⟩ = x := by
  simp [feat0]

/-- Layer 0's feature `1 + u` is state unit `u`. -/
theorem feat0_succ (x : Sig) (s : St) (u : Fin 64) :
    feat0 x s ⟨1 + u.val, by have := u.isLt; omega⟩ = s u := by
  unfold feat0
  rw [dif_neg (by show ¬ (1 + u.val = 0); omega)]
  exact congrArg s (Fin.ext (by show 1 + u.val - 1 = u.val; omega))

/-- Layer 1's feature `u` below 64 is unit `u` of the layer below. -/
theorem feat1_lo (xs s : St) (u : Fin 64) :
    feat1 xs s ⟨u.val, by have := u.isLt; omega⟩ = xs u := by
  unfold feat1
  rw [dif_pos (by show u.val < 64; exact u.isLt)]

/-- Layer 1's feature `64 + u` is state unit `u`. -/
theorem feat1_hi (xs s : St) (u : Fin 64) :
    feat1 xs s ⟨64 + u.val, by have := u.isLt; omega⟩ = s u := by
  unfold feat1
  rw [dif_neg (by show ¬ (64 + u.val < 64); omega)]
  exact congrArg s (Fin.ext (by show 64 + u.val - 64 = u.val; omega))

/-- Layer 0's contraction, by tap: the input's term and the 64 state units' terms. -/
theorem gsum0_split (A : Fin 512 → Fin 512 → EReal) {O : ℕ} (x : Sig) (s : St) (W : Fin 195 → Fin O → EReal)
    (n : Fin 512) (o : Fin O) :
    gsum0 A x s W n o
      = ∑ m : Fin 3, (tap A m x n * W ⟨m.val, by have := m.isLt; omega⟩ o
          + ∑ u : Fin 64, tap A m (s u) n
              * W ⟨(1 + u.val) * 3 + m.val, by have := m.isLt; have := u.isLt; omega⟩ o) := by
  unfold gsum0
  rw [sum195_split]
  refine Finset.sum_congr rfl fun m _ => ?_
  congr 1
  · rw [tap_row A (feat0 x s) _ _ _ m ⟨0, by decide⟩ (by simp), feat0_zero]
  · refine Finset.sum_congr rfl fun u _ => ?_
    rw [tap_row A (feat0 x s) _ _ _ m ⟨1 + u.val, by have := u.isLt; omega⟩ rfl, feat0_succ]

/-- Layer 1's contraction, by tap: the lower layer's 64 units' terms and the 64 state units' terms. -/
theorem gsum1_split (A : Fin 512 → Fin 512 → EReal) {O : ℕ} (xs s : St) (W : Fin 384 → Fin O → EReal)
    (n : Fin 512) (o : Fin O) :
    gsum1 A xs s W n o
      = ∑ m : Fin 3, ((∑ u : Fin 64, tap A m (xs u) n
              * W ⟨u.val * 3 + m.val, by have := m.isLt; have := u.isLt; omega⟩ o)
          + ∑ u : Fin 64, tap A m (s u) n
              * W ⟨(64 + u.val) * 3 + m.val, by have := m.isLt; have := u.isLt; omega⟩ o) := by
  unfold gsum1
  rw [sum384_split]
  refine Finset.sum_congr rfl fun m _ => ?_
  congr 1
  · refine Finset.sum_congr rfl fun u _ => ?_
    rw [tap_row A (feat1 xs s) _ _ _ m ⟨u.val, by have := u.isLt; omega⟩ rfl, feat1_lo]
  · refine Finset.sum_congr rfl fun u _ => ?_
    rw [tap_row A (feat1 xs s) _ _ _ m ⟨64 + u.val, by have := u.isLt; omega⟩ rfl, feat1_hi]

/-- Layer 0: what a kernel accumulates from the bias is the contraction plus the bias. -/
theorem gacc0_eq (A : Fin 512 → Fin 512 → EReal) {O : ℕ} (x : Sig) (s : St) (W : Fin 195 → Fin O → EReal)
    (bias : Fin O → EReal) (n : Fin 512) (o : Fin O) :
    gacc0 A x s W bias n o = gsum0 A x s W n o + bias o := by
  rw [gsum0_split, Fin.sum_univ_three]
  show ((((((bias o + _) + _) + _) + _) + _) + _) = ((_ + _) + (_ + _) + (_ + _)) + bias o
  ac_rfl

/-- Layer 1: the same. -/
theorem gacc1_eq (A : Fin 512 → Fin 512 → EReal) {O : ℕ} (xs s : St) (W : Fin 384 → Fin O → EReal)
    (bias : Fin O → EReal) (n : Fin 512) (o : Fin O) :
    gacc1 A xs s W bias n o = gsum1 A xs s W n o + bias o := by
  rw [gsum1_split, Fin.sum_univ_three]
  show ((((((bias o + _) + _) + _) + _) + _) + _) = ((_ + _) + (_ + _) + (_ + _)) + bias o
  ac_rfl

/-- A sum against one column of a Kronecker block `I ⊗ w`: only the diagonal term survives. -/
theorem kron_sum (f : Fin 16 → EReal) (e : Fin 16 → EReal) (b : Fin 16) (c : EReal)
    (he : ∀ b', e b' = if b' = b then 1 else 0) :
    ∑ b' : Fin 16, f b' * (e b' * c) = f b * c := by
  rw [Finset.sum_eq_single b]
  · rw [he b, if_pos rfl, one_mul]
  · intro b' _ hb
    rw [he b', if_neg hb, zero_mul, mul_zero]
  · intro h
    exact absurd (Finset.mem_univ b) h

end Cert.Dcgru

end
-- ==== Proof.K0g.lean ====
/-
  Layer 0's gates in the kernel: the diffusion taps of the block's input signals and of its states, and the
  logistic of the accumulated convolution, in row form, are the specification's gates of the sixteen batch elements.
-/
import proofs.«172483_g44504451121623_cont_8to1_c_180_13_alg».proof.Proof.KTerms
import proofs.«172483_g44504451121623_cont_8to1_c_180_13_alg».proof.Proof.KBlk
import proofs.«172483_g44504451121623_cont_8to1_c_180_13_alg».proof.Proof.SpecAlg

noncomputable section

namespace Cert.KernelIdeal.KRead

open Cert.KernelIdeal Cert.KernelIdeal.Gen Idealize.ShloMosaic Idealize.ShloMosaic.TcCoe Idealize.ShloMosaic.ValueIdx Cert.Dcgru

variable (w : Wts) (x0 : Vec Ideal S16x512 .f32) (x1 : Vec Ideal S512x512 .f32) (hv : Vec Ideal S1x16x32768 .f32)

/-- The input signals' second tap. -/
theorem pay7_eq (hA : ∀ n k, x1 (ix2 n k) = w.adj n k) :
    k0_pay7 (F := Ideal) x1 x0 = encX (fun b => tap w.adj 1 (xbOf x0 b)) := by
  unfold k0_pay7
  rw [pay6_eq]
  exact mmA_encX w.adj x1 hA (fun b n => x0 (ix2 b n)) _ _

/-- The input signals' third tap. -/
theorem pay8_eq (hA : ∀ n k, x1 (ix2 n k) = w.adj n k) :
    k0_pay8 (F := Ideal) x1 x0 = encX (fun b => tap w.adj 2 (xbOf x0 b)) := by
  show subf (mulf (broadcast S512x16 (Scalar.ofBits .f32 0x40000000#32))
      (matmul dot_S512x512_S512x16_S512x16_1_0_0_1_n_n none (truncf .bf16 x1 bitsLt_bf16_f32)
        (truncf .bf16 (k0_pay7 x1 x0) bitsLt_bf16_f32) (constant S512x16 .f32 0x00000000#32))) (k0_pay6 x0) = _
  rw [pay7_eq w x0 x1 hA, pay6_eq, mmA_encX w.adj x1 hA]
  exact tap2_encX w.adj (xbOf x0)

/-- The states in node-major form (their first tap). -/
theorem pay11_eq : k0_pay11 (F := Ideal) hv = encNm (hbOf hv) := by
  unfold k0_pay11
  rw [pay5_eq]
  exact nm_of_encRows64 (hbOf hv) _ _

/-- The states' second tap. -/
theorem pay12_eq (hA : ∀ n k, x1 (ix2 n k) = w.adj n k) :
    k0_pay12 (F := Ideal) x1 hv = encNm (fun b u => tap w.adj 1 (hbOf hv b u)) := by
  unfold k0_pay12
  rw [pay11_eq]
  exact mmA_encNm w.adj x1 hA (hbOf hv) _ _

/-- The states' third tap. -/
theorem pay13_eq (hA : ∀ n k, x1 (ix2 n k) = w.adj n k) :
    k0_pay13 (F := Ideal) x1 hv = encNm (fun b u => tap w.adj 2 (hbOf hv b u)) := by
  show subf (mulf (broadcast S512x1024 (Scalar.ofBits .f32 0x40000000#32))
      (matmul dot_S512x512_S512x1024_S512x1024_1_0_0_1_n_n none (truncf .bf16 x1 bitsLt_bf16_f32)
        (truncf .bf16 (k0_pay12 x1 hv) bitsLt_bf16_f32) (constant S512x1024 .f32 0x00000000#32))) (k0_pay11 hv) = _
  rw [pay12_eq w x1 hv hA, pay11_eq, mmA_encNm w.adj x1 hA]
  exact tap2_encNm w.adj (hbOf hv)

/-- A shape cast to the same shape is the identity: the Kronecker slabs. -/
theorem k0g_pay9_eq (x3 : Vec Ideal S3x16x2048 .f32) : k0_pay9 (F := Ideal) x3 = x3 := by
  unfold k0_pay9
  exact shapeCast_self _ _

/-- The same for the states' slabs. -/
theorem k0g_pay10_eq (x4 : Vec Ideal S3x64x128 .f32) : k0_pay10 (F := Ideal) x4 = x4 := by
  unfold k0_pay10
  exact shapeCast_self _ _

/-- The bias row over all rows. -/
theorem k0g_pay14_eq (x7 : Vec Ideal S128 .f32) : k0_pay14 (F := Ideal) x7 = fun i => x7 (ix1 (i 1)) := by
  unfold k0_pay14
  exact bias128 x7 _ _ _

/-- The accumulation up to the third tap's state term: the bias, then per tap the state term and the input term. -/
theorem k0g_pay15_terms (f0 f1 : Fin 16 → Sig) (g0 g1 g2 : Fin 16 → St) (K : FVec Ideal S3x16x2048 .f32)
    (W : FVec Ideal S3x64x128 .f32) (bias : FVec Ideal S8192x128 .f32) :
    k0_pay15 (F := Ideal) (encX f0) (encX f1) K W (encNm g0) (encNm g1) (encNm g2) bias
      = addf (addf (addf (addf (addf bias
          (encRows128 (fun b n o => ∑ u : Fin 64, g0 b u n * W (ix3 0 u o))))
          (encRows128 (fun b n o => ∑ b' : Fin 16, f0 b' n * K (ix3 0 b' ⟨b.val * 128 + o.val, by have := b.isLt; have := o.isLt; omega⟩))))
          (encRows128 (fun b n o => ∑ u : Fin 64, g1 b u n * W (ix3 1 u o))))
          (encRows128 (fun b n o => ∑ b' : Fin 16, f1 b' n * K (ix3 1 b' ⟨b.val * 128 + o.val, by have := b.isLt; have := o.isLt; omega⟩))))
          (encRows128 (fun b n o => ∑ u : Fin 64, g2 b u n * W (ix3 2 u o))) := by
  unfold k0_pay15
  exact congrArg₂ addf (congrArg₂ addf (congrArg₂ addf (congrArg₂ addf (congrArg₂ addf rfl
    (stTerm128 g0 W 0 _ _ _ _ _ _)) (xTerm128 f0 K 0 _ _ _ _ _ _)) (stTerm128 g1 W 1 _ _ _ _ _ _))
    (xTerm128 f1 K 1 _ _ _ _ _ _)) (stTerm128 g2 W 2 _ _ _ _ _ _)

/-- The third tap's input term is added, and the logistic applied. -/
theorem k0g_pay16_terms (f2 : Fin 16 → Sig) (K : FVec Ideal S3x16x2048 .f32) (acc : FVec Ideal S8192x128 .f32) :
    k0_pay16 (F := Ideal) (encX f2) K acc
      = logistic (addf acc
          (encRows128 (fun b n o => ∑ b' : Fin 16, f2 b' n * K (ix3 2 b' ⟨b.val * 128 + o.val, by have := b.isLt; have := o.isLt; omega⟩)))) := by
  unfold k0_pay16
  exact congrArg logistic (congrArg₂ addf rfl (xTerm128 f2 K 2 _ _ _ _ _ _))

/-- One row's accumulated sum is the specification's accumulation: the weights' slabs are the rows of the cell's
    matrix, and a sum against a Kronecker column keeps the one diagonal term. -/
theorem k0g_gate_point (A : Fin 512 → Fin 512 → EReal) (x : Fin 16 → Sig) (h : Fin 16 → St)
    (K : FVec Ideal S3x16x2048 .f32) (W : FVec Ideal S3x64x128 .f32) (bias : FVec Ideal S128 .f32)
    (Wg : Fin 195 → Fin 128 → EReal) (bg : Fin 128 → EReal)
    (h3 : IsKron K Wg) (h4 : IsSt0 W Wg) (h7 : ∀ o, bias (ix1 o) = bg o) (n : Fin 512) (b : Fin 16) (o : Fin 128) :
    ((((((bias (ix1 o)
      + ∑ u : Fin 64, h b u n * W (ix3 0 u o))
      + ∑ b' : Fin 16, x b' n * K (ix3 0 b' ⟨b.val * 128 + o.val, by have := b.isLt; have := o.isLt; omega⟩))
      + ∑ u : Fin 64, tap A 1 (h b u) n * W (ix3 1 u o))
      + ∑ b' : Fin 16, tap A 1 (x b') n * K (ix3 1 b' ⟨b.val * 128 + o.val, by have := b.isLt; have := o.isLt; omega⟩))
      + ∑ u : Fin 64, tap A 2 (h b u) n * W (ix3 2 u o))
      + ∑ b' : Fin 16, tap A 2 (x b') n * K (ix3 2 b' ⟨b.val * 128 + o.val, by have := b.isLt; have := o.isLt; omega⟩))
    = gacc0 A (x b) (h b) Wg bg n o := by
  have kx : ∀ (m : Fin 3) (z : Fin 16 → Sig),
      (∑ b' : Fin 16, z b' n * K (ix3 m b' ⟨b.val * 128 + o.val, by have := b.isLt; have := o.isLt; omega⟩))
        = z b n * Wg ⟨m.val, by have := m.isLt; omega⟩ o := by
    intro m z
    refine Eq.trans (Finset.sum_congr rfl (fun b' _ => congrArg (fun t => z b' n * t) (h3 m b' b o))) ?_
    exact kron_sum (fun b' => z b' n) (fun b' => if b' = b then 1 else 0) b _ (fun _ => rfl)
  have ks : ∀ (m : Fin 3) (s : St),
      (∑ u : Fin 64, s u n * W (ix3 m u o))
        = ∑ u : Fin 64, s u n * Wg ⟨(1 + u.val) * 3 + m.val, by have := m.isLt; have := u.isLt; omega⟩ o := by
    intro m s
    exact Finset.sum_congr rfl (fun u _ => congrArg (fun t => s u n * t) (h4 m u o))
  rw [h7 o, kx 0 x, kx 1 (fun b' => tap A 1 (x b')), kx 2 (fun b' => tap A 2 (x b')),
    ks 0 (h b), ks 1 (fun u => tap A 1 (h b u)), ks 2 (fun u => tap A 2 (h b u))]
  rfl

/-- Layer 0's gates of the sixteen batch elements, in row form. -/
theorem gate0_eq (x3 : Vec Ideal S3x16x2048 .f32) (x4 : Vec Ideal S3x64x128 .f32) (x7 : Vec Ideal S128 .f32)
    (hA : ∀ n k, x1 (ix2 n k) = w.adj n k) (h3 : IsKron x3 w.wg0) (h4 : IsSt0 x4 w.wg0) (h7 : ∀ o, x7 (ix1 o) = w.bg0 o) :
    k0_pay16 (F := Ideal) (k0_pay8 x1 x0) (k0_pay9 x3)
        (k0_pay15 (k0_pay6 x0) (k0_pay7 x1 x0) (k0_pay9 x3) (k0_pay10 x4) (k0_pay11 hv) (k0_pay12 x1 hv) (k0_pay13 x1 hv) (k0_pay14 x7))
      = encRows128 (fun b => gate0 w (xbOf x0 b) (hbOf hv b)) := by
  rw [pay8_eq w x0 x1 hA, pay7_eq w x0 x1 hA, pay6_eq, k0g_pay9_eq, k0g_pay10_eq, pay11_eq, pay12_eq w x1 hv hA,
    pay13_eq w x1 hv hA, k0g_pay14_eq, k0g_pay15_terms, k0g_pay16_terms]
  funext i
  obtain ⟨r, o, rfl⟩ : ∃ (r : Fin 8192) (o : Fin 128), i = ix2 r o := ⟨i 0, i 1, eq_ix2 i⟩
  obtain ⟨n, b, rfl⟩ : ∃ (n : Fin 512) (b : Fin 16),
      r = ⟨n.val * 16 + b.val, by have := n.isLt; have := b.isLt; omega⟩ := by
    have hr := r.isLt
    exact ⟨⟨r.val / 16, by omega⟩, ⟨r.val % 16, Nat.mod_lt _ (by decide)⟩,
      Fin.ext (by show r.val = (r.val / 16) * 16 + r.val % 16; omega)⟩
  show Ideal.logistic (((((((x7 (ix1 o) + encRows128 _ (ix2 _ o)) + encRows128 _ (ix2 _ o)) + encRows128 _ (ix2 _ o))
      + encRows128 _ (ix2 _ o)) + encRows128 _ (ix2 _ o)) + encRows128 _ (ix2 _ o))) = encRows128 _ (ix2 _ o)
  simp only [encRows128_apply]
  refine Eq.trans (congrArg Ideal.logistic
    (k0g_gate_point w.adj (xbOf x0) (hbOf hv) x3 x4 x7 w.wg0 w.bg0 h3 h4 h7 n b o)) ?_
  rw [gacc0_eq]
  rfl

end Cert.KernelIdeal.KRead

end
-- ==== Proof.K0c.lean ====
/-
  Layer 0's candidate and new state in the kernel, over whatever gates `G` the logistic produced: the reset
  states' taps, the accumulated convolution's hyperbolic tangent and the GRU mix, in row form.
-/
import proofs.«172483_g44504451121623_cont_8to1_c_180_13_alg».proof.Proof.KTerms
import proofs.«172483_g44504451121623_cont_8to1_c_180_13_alg».proof.Proof.KBlk
import proofs.«172483_g44504451121623_cont_8to1_c_180_13_alg».proof.Proof.SpecAlg

noncomputable section

namespace Cert.KernelIdeal.KRead

open Cert.KernelIdeal Cert.KernelIdeal.Gen Idealize.ShloMosaic Idealize.ShloMosaic.TcCoe Idealize.ShloMosaic.ValueIdx Cert.Dcgru

namespace K0c

/-! ## The per-tap terms at the literal offsets the kernel slices at -/

theorem stTerm64_at0 (g : Fin 16 → St) (W : FVec Ideal S3x64x64 .f32) (h1 h2)
    (hs : S3x64x64.Slices ![0, 0, 0] S1x64x64) (hc ha hb) :
    matmul dot_S8192x64_S64x64_S8192x64_1_0_0_1_n_n none
        (truncf .bf16 (shapeCast S8192x64 (addf (shapeCast S512x16x64 (encNm g) h1) (broadcast S512x16x64 (Scalar.ofBits .f32 0x00000000#32))) h2) ha)
        (truncf .bf16 (shapeCast S64x64 (extractStridedSlice S1x64x64 ![0, 0, 0] W hs) hc) hb)
        (constant S8192x64 .f32 0x00000000#32)
      = encRows64 (fun b o n => ∑ u : Fin 64, g b u n * W (ix3 0 u o)) :=
  stTerm64 g W 0 h1 h2 hs hc ha hb

theorem stTerm64_at1 (g : Fin 16 → St) (W : FVec Ideal S3x64x64 .f32) (h1 h2)
    (hs : S3x64x64.Slices ![1, 0, 0] S1x64x64) (hc ha hb) :
    matmul dot_S8192x64_S64x64_S8192x64_1_0_0_1_n_n none
        (truncf .bf16 (shapeCast S8192x64 (addf (shapeCast S512x16x64 (encNm g) h1) (broadcast S512x16x64 (Scalar.ofBits .f32 0x00000000#32))) h2) ha)
        (truncf .bf16 (shapeCast S64x64 (extractStridedSlice S1x64x64 ![1, 0, 0] W hs) hc) hb)
        (constant S8192x64 .f32 0x00000000#32)
      = encRows64 (fun b o n => ∑ u : Fin 64, g b u n * W (ix3 1 u o)) :=
  stTerm64 g W 1 h1 h2 hs hc ha hb

theorem stTerm64_at2 (g : Fin 16 → St) (W : FVec Ideal S3x64x64 .f32) (h1 h2)
    (hs : S3x64x64.Slices ![2, 0, 0] S1x64x64) (hc ha hb) :
    matmul dot_S8192x64_S64x64_S8192x64_1_0_0_1_n_n none
        (truncf .bf16 (shapeCast S8192x64 (addf (shapeCast S512x16x64 (encNm g) h1) (broadcast S512x16x64 (Scalar.ofBits .f32 0x00000000#32))) h2) ha)
        (truncf .bf16 (shapeCast S64x64 (extractStridedSlice S1x64x64 ![2, 0, 0] W hs) hc) hb)
        (constant S8192x64 .f32 0x00000000#32)
      = encRows64 (fun b o n => ∑ u : Fin 64, g b u n * W (ix3 2 u o)) :=
  stTerm64 g W 2 h1 h2 hs hc ha hb

theorem xTerm64_at0 (f : Fin 16 → Sig) (K : FVec Ideal S3x16x1024 .f32) (h1 h2)
    (hs : S3x16x1024.Slices ![0, 0, 0] S1x16x1024) (hc ha hb) :
    shapeCast S8192x64 (addf (shapeCast S512x16x64
        (matmul dot_S512x16_S16x1024_S512x1024_1_0_0_1_n_n none (truncf .bf16 (encX f) ha)
          (truncf .bf16 (shapeCast S16x1024 (extractStridedSlice S1x16x1024 ![0, 0, 0] K hs) hc) hb)
          (constant S512x1024 .f32 0x00000000#32)) h1) (broadcast S512x16x64 (Scalar.ofBits .f32 0x00000000#32))) h2
      = encRows64 (fun b o n => ∑ b' : Fin 16, f b' n * K (ix3 0 b' ⟨b.val * 64 + o.val, by have := b.isLt; have := o.isLt; omega⟩)) :=
  xTerm64 f K 0 h1 h2 hs hc ha hb

theorem xTerm64_at1 (f : Fin 16 → Sig) (K : FVec Ideal S3x16x1024 .f32) (h1 h2)
    (hs : S3x16x1024.Slices ![1, 0, 0] S1x16x1024) (hc ha hb) :
    shapeCast S8192x64 (addf (shapeCast S512x16x64
        (matmul dot_S512x16_S16x1024_S512x1024_1_0_0_1_n_n none (truncf .bf16 (encX f) ha)
          (truncf .bf16 (shapeCast S16x1024 (extractStridedSlice S1x16x1024 ![1, 0, 0] K hs) hc) hb)
          (constant S512x1024 .f32 0x00000000#32)) h1) (broadcast S512x16x64 (Scalar.ofBits .f32 0x00000000#32))) h2
      = encRows64 (fun b o n => ∑ b' : Fin 16, f b' n * K (ix3 1 b' ⟨b.val * 64 + o.val, by have := b.isLt; have := o.isLt; omega⟩)) :=
  xTerm64 f K 1 h1 h2 hs hc ha hb

theorem xTerm64_at2 (f : Fin 16 → Sig) (K : FVec Ideal S3x16x1024 .f32) (h1 h2)
    (hs : S3x16x1024.Slices ![2, 0, 0] S1x16x1024) (hc ha hb) :
    shapeCast S8192x64 (addf (shapeCast S512x16x64
        (matmul dot_S512x16_S16x1024_S512x1024_1_0_0_1_n_n none (truncf .bf16 (encX f) ha)
          (truncf .bf16 (shapeCast S16x1024 (extractStridedSlice S1x16x1024 ![2, 0, 0] K hs) hc) hb)
          (constant S512x1024 .f32 0x00000000#32)) h1) (broadcast S512x16x64 (Scalar.ofBits .f32 0x00000000#32))) h2
      = encRows64 (fun b o n => ∑ b' : Fin 16, f b' n * K (ix3 2 b' ⟨b.val * 64 + o.val, by have := b.isLt; have := o.isLt; omega⟩)) :=
  xTerm64 f K 2 h1 h2 hs hc ha hb

/-- The reset states `r * h` of sixteen batch elements, from their gates. -/
def rstOf (G : Fin 16 → Fin 512 → Fin 128 → EReal) (hs : Fin 16 → St) : Fin 16 → St :=
  fun b u n => G b n ⟨u.val, by have := u.isLt; omega⟩ * hs b u n

/-- The update half of the gates, in row form. -/
theorem pay17_eq (G : Fin 16 → Fin 512 → Fin 128 → EReal)
    (v16 : FVec Ideal S512x16 .f32) (v18 : FVec Ideal S3x16x2048 .f32) (v87 : FVec Ideal S8192x128 .f32)
    (hG : k0_pay16 (F := Ideal) v16 v18 v87 = encRows128 G) :
    k0_pay17 (F := Ideal) v16 v18 v87
      = encRows64 (fun b u n => G b n ⟨64 + u.val, by have := u.isLt; omega⟩) := by
  unfold k0_pay17
  dsimp only
  rw [hG, half_hi]
  funext i
  rfl

/-- The reset half of the gates times the states, re-laid to node-major form. -/
theorem pay20_eq (G : Fin 16 → Fin 512 → Fin 128 → EReal) (hs : Fin 16 → St)
    (v16 : FVec Ideal S512x16 .f32) (v18 : FVec Ideal S3x16x2048 .f32) (v87 : FVec Ideal S8192x128 .f32)
    (hG : k0_pay16 (F := Ideal) v16 v18 v87 = encRows128 G) :
    k0_pay20 (F := Ideal) (encRows64 hs) v16 v18 v87 = encNm (rstOf G hs) := by
  unfold k0_pay20
  dsimp only
  rw [hG, half_lo]
  have e : mulf (fun i : S8192x64.Idx => encRows128 G (ix2 (i 0) ⟨(i 1).val, by have h : (i 1).val < 64 := (i 1).isLt; omega⟩))
      (encRows64 hs) = encRows64 (rstOf G hs) := by
    funext i
    rfl
  rw [e, nm_of_encRows64]

/-- The adjacency matrix applied to the reset states. -/
theorem pay21_eq (A : Fin 512 → Fin 512 → EReal) (x1 : Vec Ideal S512x512 .f32) (hA : ∀ n k, x1 (ix2 n k) = A n k)
    (G : Fin 16 → Fin 512 → Fin 128 → EReal) (hs : Fin 16 → St)
    (v16 : FVec Ideal S512x16 .f32) (v18 : FVec Ideal S3x16x2048 .f32) (v87 : FVec Ideal S8192x128 .f32)
    (hG : k0_pay16 (F := Ideal) v16 v18 v87 = encRows128 G) :
    k0_pay21 (F := Ideal) x1 (encRows64 hs) v16 v18 v87 = encNm (fun b u => mv A (rstOf G hs b u)) := by
  unfold k0_pay21
  dsimp only
  rw [pay20_eq G hs v16 v18 v87 hG, mmA_encNm A x1 hA]

/-- The third tap of the reset states. -/
theorem pay22_eq (A : Fin 512 → Fin 512 → EReal) (x1 : Vec Ideal S512x512 .f32) (hA : ∀ n k, x1 (ix2 n k) = A n k)
    (G : Fin 16 → Fin 512 → Fin 128 → EReal) (hs : Fin 16 → St)
    (v16 : FVec Ideal S512x16 .f32) (v18 : FVec Ideal S3x16x2048 .f32) (v87 : FVec Ideal S8192x128 .f32)
    (hG : k0_pay16 (F := Ideal) v16 v18 v87 = encRows128 G) :
    k0_pay22 (F := Ideal) x1 (encRows64 hs) v16 v18 v87 = encNm (fun b u => tap A 2 (rstOf G hs b u)) := by
  unfold k0_pay22
  dsimp only
  rw [pay21_eq A x1 hA G hs v16 v18 v87 hG, pay20_eq G hs v16 v18 v87 hG, mmA_encNm A x1 hA]
  exact tap2_encNm A (rstOf G hs)

/-- The bias and the first tap's state term. -/
theorem pay23_eq (G : Fin 16 → Fin 512 → Fin 128 → EReal) (hs : Fin 16 → St)
    (v16 : FVec Ideal S512x16 .f32) (v18 : FVec Ideal S3x16x2048 .f32) (v87 : FVec Ideal S8192x128 .f32)
    (hG : k0_pay16 (F := Ideal) v16 v18 v87 = encRows128 G)
    (x6 : Vec Ideal S3x64x64 .f32) (x8 : Vec Ideal S64 .f32) :
    k0_pay23 (F := Ideal) (encRows64 hs) v16 v18 v87 x6 x8
      = addf (fun i : S8192x64.Idx => x8 (ix1 (i 1)))
          (encRows64 (fun b o n => ∑ u : Fin 64, rstOf G hs b u n * x6 (ix3 0 u o))) := by
  unfold k0_pay23 k0_pay19
  dsimp only
  rw [pay20_eq G hs v16 v18 v87 hG, bias64, shapeCast_self, stTerm64_at0]

/-- The five further terms of the accumulation: the input's three taps against the Kronecker slabs and the reset
    states' second and third taps against the state slabs. -/
theorem pay24_eq (f0 f1 f2 : Fin 16 → Sig) (g1 g2 : Fin 16 → St)
    (K : FVec Ideal S3x16x1024 .f32) (W : FVec Ideal S3x64x64 .f32) (acc : FVec Ideal S8192x64 .f32) :
    k0_pay24 (F := Ideal) (encX f0) (encX f1) (encX f2) K W (encNm g1) (encNm g2) acc
      = addf (addf (addf (addf (addf acc
          (encRows64 (fun b o n => ∑ b' : Fin 16, f0 b' n * K (ix3 0 b' ⟨b.val * 64 + o.val, by have := b.isLt; have := o.isLt; omega⟩))))
          (encRows64 (fun b o n => ∑ u : Fin 64, g1 b u n * W (ix3 1 u o))))
          (encRows64 (fun b o n => ∑ b' : Fin 16, f1 b' n * K (ix3 1 b' ⟨b.val * 64 + o.val, by have := b.isLt; have := o.isLt; omega⟩))))
          (encRows64 (fun b o n => ∑ u : Fin 64, g2 b u n * W (ix3 2 u o))))
          (encRows64 (fun b o n => ∑ b' : Fin 16, f2 b' n * K (ix3 2 b' ⟨b.val * 64 + o.val, by have := b.isLt; have := o.isLt; omega⟩))) := by
  unfold k0_pay24
  dsimp only
  rw [xTerm64_at0, stTerm64_at1, xTerm64_at1, stTerm64_at2, xTerm64_at2]

/-- One tap's state term with the slab read as rows of the weight matrix. -/
theorem stPiece {O : ℕ} (g : Fin 16 → St) (Wh : FVec Ideal ⟨3, ![3, 64, O]⟩ .f32) (W : Fin 195 → Fin O → EReal)
    (h : IsSt0 Wh W) (mm : Fin 3) (b : Fin 16) (n : Fin 512) (o : Fin O) :
    ∑ u : Fin 64, g b u n * Wh (ix3 mm u o)
      = ∑ u : Fin 64, g b u n * W ⟨(1 + u.val) * 3 + mm.val, by have := mm.isLt; have := u.isLt; omega⟩ o :=
  Finset.sum_congr rfl (fun u _ => by rw [h mm u o])

/-- One tap's input term: the sum against a Kronecker column keeps the batch element's own signal. -/
theorem xPiece (f : Fin 16 → Sig) (K : FVec Ideal S3x16x1024 .f32) (W : Fin 195 → Fin 64 → EReal)
    (h : IsKron K W) (mm : Fin 3) (b : Fin 16) (n : Fin 512) (o : Fin 64) :
    ∑ b' : Fin 16, f b' n * K (ix3 mm b' ⟨b.val * 64 + o.val, by have := b.isLt; have := o.isLt; omega⟩)
      = f b n * W ⟨mm.val, by have := mm.isLt; omega⟩ o := by
  rw [Finset.sum_congr rfl (fun b' _ => by rw [h mm b' b o])]
  exact kron_sum (fun b' => f b' n) (fun b' => if b' = b then 1 else 0) b _ (fun _ => rfl)

end K0c

open K0c

variable (w : Wts) (x1 : Vec Ideal S512x512 .f32)

/-- Layer 0's new states of the sixteen batch elements, in row form, from their gates. -/
theorem new0_eq (hA : ∀ n k, x1 (ix2 n k) = w.adj n k) (xs : Fin 16 → Sig) (hs : Fin 16 → St)
    (G : Fin 16 → Fin 512 → Fin 128 → EReal)
    (v5 : FVec Ideal S8192x64 .f32) (h5 : v5 = encRows64 hs)
    (v7 v10 v16 : FVec Ideal S512x16 .f32) (hx0 : v7 = encX (fun b => tap w.adj 0 (xs b)))
    (hx1 : v10 = encX (fun b => tap w.adj 1 (xs b))) (hx2 : v16 = encX (fun b => tap w.adj 2 (xs b)))
    (v18 : FVec Ideal S3x16x2048 .f32) (v87 : FVec Ideal S8192x128 .f32)
    (hG : k0_pay16 (F := Ideal) v16 v18 v87 = encRows128 G)
    (x5 : Vec Ideal S3x16x1024 .f32) (x6 : Vec Ideal S3x64x64 .f32) (x8 : Vec Ideal S64 .f32)
    (h5k : IsKron x5 w.wc0) (h6 : IsSt0 x6 w.wc0) (h8 : ∀ o, x8 (ix1 o) = w.bc0 o) :
    k0_pay25 (F := Ideal) v5 (k0_pay17 v16 v18 v87)
        (k0_pay24 v7 v10 v16 (k0_pay18 x5) (k0_pay19 x6) (k0_pay21 x1 v5 v16 v18 v87) (k0_pay22 x1 v5 v16 v18 v87)
          (k0_pay23 v5 v16 v18 v87 x6 x8))
      = encRows64 (fun b u n =>
          mix (G b n ⟨64 + u.val, by have := u.isLt; omega⟩) (hs b u n)
            (Ideal.tanh (gsum0 w.adj (xs b) (fun u' n' => G b n' ⟨u'.val, by have := u'.isLt; omega⟩ * hs b u' n') w.wc0 n u
              + w.bc0 u))) := by
  subst h5 hx0 hx1
  have e18 : k0_pay18 (F := Ideal) x5 = x5 := by unfold k0_pay18; exact shapeCast_self _ _
  have e19 : k0_pay19 (F := Ideal) x6 = x6 := by unfold k0_pay19; exact shapeCast_self _ _
  rw [e18, e19, pay17_eq G v16 v18 v87 hG, pay21_eq w.adj x1 hA G hs v16 v18 v87 hG,
    pay22_eq w.adj x1 hA G hs v16 v18 v87 hG, pay23_eq G hs v16 v18 v87 hG x6 x8]
  subst hx2
  rw [pay24_eq]
  unfold k0_pay25
  funext i
  obtain ⟨r, u, rfl⟩ : ∃ (r : Fin 8192) (u : Fin 64), i = ix2 r u := ⟨i 0, i 1, eq_ix2 i⟩
  have hr := r.isLt
  refine (congrArg (fun c => mix (G ⟨r.val % 16, Nat.mod_lt _ (by decide)⟩ ⟨r.val / 16, by omega⟩ ⟨64 + u.val, by have := u.isLt; omega⟩)
      (hs ⟨r.val % 16, Nat.mod_lt _ (by decide)⟩ u ⟨r.val / 16, by omega⟩) (Ideal.tanh c)) ?_ : _ = _)
  rw [← gacc0_eq]
  unfold gacc0
  refine congrArg₂ (· + ·) (congrArg₂ (· + ·) (congrArg₂ (· + ·) (congrArg₂ (· + ·) (congrArg₂ (· + ·)
    (congrArg₂ (· + ·) ?_ ?_) ?_) ?_) ?_) ?_) ?_
  · exact h8 u
  · exact stPiece (rstOf G hs) x6 w.wc0 h6 0 _ _ u
  · exact xPiece (fun b => tap w.adj 0 (xs b)) x5 w.wc0 h5k 0 _ _ u
  · exact stPiece (fun b u => mv w.adj (rstOf G hs b u)) x6 w.wc0 h6 1 _ _ u
  · exact xPiece (fun b => tap w.adj 1 (xs b)) x5 w.wc0 h5k 1 _ _ u
  · exact stPiece (fun b u => tap w.adj 2 (rstOf G hs b u)) x6 w.wc0 h6 2 _ _ u
  · exact xPiece (fun b => tap w.adj 2 (xs b)) x5 w.wc0 h5k 2 _ _ u

end Cert.KernelIdeal.KRead

end
-- ==== Proof.K1g.lean ====
/-
  Layer 1's gates in the kernel, over whatever family `g` of states layer 0 produced (given in row form): the taps of
  `g` and of the block's layer-1 states, and the logistic of the accumulated convolution, in row form.
-/
import proofs.«172483_g44504451121623_cont_8to1_c_180_13_alg».proof.Proof.KTerms
import proofs.«172483_g44504451121623_cont_8to1_c_180_13_alg».proof.Proof.KBlk
import proofs.«172483_g44504451121623_cont_8to1_c_180_13_alg».proof.Proof.SpecAlg

noncomputable section

namespace Cert.KernelIdeal.KRead

open Cert.KernelIdeal Cert.KernelIdeal.Gen Idealize.ShloMosaic Idealize.ShloMosaic.TcCoe Idealize.ShloMosaic.ValueIdx Cert.Dcgru

variable (w : Wts) (x1 : Vec Ideal S512x512 .f32) (hv1 : Vec Ideal S1x16x32768 .f32)
variable (g : Fin 16 → St) (v5 v100 v182 : FVec Ideal S8192x64 .f32)

/-- Layer 0's new states in node-major form (their first tap). -/
theorem pay27_eq (hR : k0_pay25 (F := Ideal) v5 v100 v182 = encRows64 g) :
    k0_pay27 (F := Ideal) v5 v100 v182 = encNm g := by
  unfold k0_pay27
  rw [hR]
  exact nm_of_encRows64 g _ _

theorem pay28_eq (hA : ∀ n k, x1 (ix2 n k) = w.adj n k) (hR : k0_pay25 (F := Ideal) v5 v100 v182 = encRows64 g) :
    k0_pay28 (F := Ideal) x1 v5 v100 v182 = encNm (fun b u => tap w.adj 1 (g b u)) := by
  unfold k0_pay28
  rw [pay27_eq g v5 v100 v182 hR]
  exact mmA_encNm w.adj x1 hA g _ _

theorem pay29_eq (hA : ∀ n k, x1 (ix2 n k) = w.adj n k) (hR : k0_pay25 (F := Ideal) v5 v100 v182 = encRows64 g) :
    k0_pay29 (F := Ideal) x1 v5 v100 v182 = encNm (fun b u => tap w.adj 2 (g b u)) := by
  unfold k0_pay29
  rw [pay28_eq w x1 g v5 v100 v182 hA hR, pay27_eq g v5 v100 v182 hR]
  show subf (mulf _ (matmul _ none _ (truncf .bf16 (encNm (fun b u => mv w.adj (g b u))) _) _)) _ = _
  rw [mmA_encNm w.adj x1 hA (fun b u => mv w.adj (g b u))]
  exact tap2_encNm w.adj g

/-! ## The pieces of layer 1's accumulation -/

/-- The lower layer's weights and the state weights are read unchanged. -/
theorem pay30_eq (x9 : Vec Ideal S3x64x128 .f32) : k0_pay30 (F := Ideal) x9 = x9 := by
  unfold k0_pay30
  exact shapeCast_self _ _

theorem pay31_eq (x10 : Vec Ideal S3x64x128 .f32) : k0_pay31 (F := Ideal) x10 = x10 := by
  unfold k0_pay31
  exact shapeCast_self _ _

/-- The third tap's slab of the state weights. -/
theorem pay36_eq (x10 : FVec Ideal S3x64x128 .f32) :
    k0_pay36 (F := Ideal) x10 = fun i => x10 (ix3 2 (i 0) (i 1)) := by
  unfold k0_pay36
  exact slab_3x64x128 2 x10 _ _

/-- The block's layer-1 states in node-major form. -/
theorem pay32_eq : k0_pay32 (F := Ideal) hv1 = encNm (hbOf hv1) := by
  unfold k0_pay32
  rw [pay26_eq]
  exact nm_of_encRows64 (hbOf hv1) _ _

/-- Their second tap. -/
theorem pay33_eq (hA : ∀ n k, x1 (ix2 n k) = w.adj n k) :
    k0_pay33 (F := Ideal) x1 hv1 = encNm (fun b u => tap w.adj 1 (hbOf hv1 b u)) := by
  unfold k0_pay33
  rw [pay32_eq]
  exact mmA_encNm w.adj x1 hA (hbOf hv1) _ _

/-- Their third tap, as rows. -/
theorem pay37_eq (hA : ∀ n k, x1 (ix2 n k) = w.adj n k) :
    (k0_pay37 (F := Ideal) (k0_pay32 hv1) (k0_pay34 x1 hv1) : S8192x64.Idx → EReal)
      = encRows64 (fun b u => tap w.adj 2 (hbOf hv1 b u)) := by
  have e34 : k0_pay34 (F := Ideal) x1 hv1
      = mulf (broadcast S512x1024 (Scalar.ofBits .f32 0x40000000#32))
          (encNm (fun b u => mv w.adj (mv w.adj (hbOf hv1 b u)))) := by
    unfold k0_pay34
    rw [pay33_eq w x1 hv1 hA]
    show mulf _ (matmul _ none _ (truncf .bf16 (encNm (fun b u => mv w.adj (hbOf hv1 b u))) _) _) = _
    rw [mmA_encNm w.adj x1 hA (fun b u => mv w.adj (hbOf hv1 b u))]
  unfold k0_pay37
  rw [e34, pay32_eq, tap2_encNm]
  exact rows64_of_encNm _ _ _

/-- One tap's contraction with a slab, at each literal tap. -/
theorem stTerm128_0 (g : Fin 16 → St) (W : FVec Ideal S3x64x128 .f32) (h1 h2)
    (hs : S3x64x128.Slices ![0, 0, 0] S1x64x128) (hc ha hb) :
    matmul dot_S8192x64_S64x128_S8192x128_1_0_0_1_n_n none
        (truncf .bf16 (shapeCast S8192x64 (addf (shapeCast S512x16x64 (encNm g) h1) (broadcast S512x16x64 (Scalar.ofBits .f32 0x00000000#32))) h2) ha)
        (truncf .bf16 (shapeCast S64x128 (extractStridedSlice S1x64x128 ![0, 0, 0] W hs) hc) hb)
        (constant S8192x128 .f32 0x00000000#32)
      = encRows128 (fun b n o => ∑ u : Fin 64, g b u n * W (ix3 0 u o)) :=
  stTerm128 g W 0 h1 h2 hs hc ha hb

theorem stTerm128_1 (g : Fin 16 → St) (W : FVec Ideal S3x64x128 .f32) (h1 h2)
    (hs : S3x64x128.Slices ![1, 0, 0] S1x64x128) (hc ha hb) :
    matmul dot_S8192x64_S64x128_S8192x128_1_0_0_1_n_n none
        (truncf .bf16 (shapeCast S8192x64 (addf (shapeCast S512x16x64 (encNm g) h1) (broadcast S512x16x64 (Scalar.ofBits .f32 0x00000000#32))) h2) ha)
        (truncf .bf16 (shapeCast S64x128 (extractStridedSlice S1x64x128 ![1, 0, 0] W hs) hc) hb)
        (constant S8192x128 .f32 0x00000000#32)
      = encRows128 (fun b n o => ∑ u : Fin 64, g b u n * W (ix3 1 u o)) :=
  stTerm128 g W 1 h1 h2 hs hc ha hb

theorem stTerm128_2 (g : Fin 16 → St) (W : FVec Ideal S3x64x128 .f32) (h1 h2)
    (hs : S3x64x128.Slices ![2, 0, 0] S1x64x128) (hc ha hb) :
    matmul dot_S8192x64_S64x128_S8192x128_1_0_0_1_n_n none
        (truncf .bf16 (shapeCast S8192x64 (addf (shapeCast S512x16x64 (encNm g) h1) (broadcast S512x16x64 (Scalar.ofBits .f32 0x00000000#32))) h2) ha)
        (truncf .bf16 (shapeCast S64x128 (extractStridedSlice S1x64x128 ![2, 0, 0] W hs) hc) hb)
        (constant S8192x128 .f32 0x00000000#32)
      = encRows128 (fun b n o => ∑ u : Fin 64, g b u n * W (ix3 2 u o)) :=
  stTerm128 g W 2 h1 h2 hs hc ha hb

/-- The accumulation of the first two taps from the bias: per tap the state term, then the lower layer's term. -/
theorem pay35_eq (g0 g1 h0 h1 : Fin 16 → St) (x9 x10 : FVec Ideal S3x64x128 .f32) (x13 : Vec Ideal S128 .f32) :
    k0_pay35 (F := Ideal) (encNm g0) (encNm g1) x9 x10 x13 (encNm h0) (encNm h1)
      = addf (addf (addf (addf (fun i => x13 (ix1 (i 1)))
          (encRows128 (fun b n o => ∑ u : Fin 64, h0 b u n * x10 (ix3 0 u o))))
          (encRows128 (fun b n o => ∑ u : Fin 64, g0 b u n * x9 (ix3 0 u o))))
          (encRows128 (fun b n o => ∑ u : Fin 64, h1 b u n * x10 (ix3 1 u o))))
          (encRows128 (fun b n o => ∑ u : Fin 64, g1 b u n * x9 (ix3 1 u o))) := by
  unfold k0_pay35
  dsimp only
  rw [bias128, stTerm128_0 h0 x10, stTerm128_0 g0 x9, stTerm128_1 h1 x10, stTerm128_1 g1 x9]

/-- The third tap's two terms and the logistic. -/
theorem pay38_gen (g2 h2 : Fin 16 → St) (x9 : FVec Ideal S3x64x128 .f32) (acc : FVec Ideal S8192x128 .f32)
    (S : FVec Ideal S64x128 .f32) (a : FVec Ideal S8192x64 .bf16) (ha : (a : S8192x64.Idx → EReal) = encRows64 h2) :
    k0_pay38 (F := Ideal) (encNm g2) x9 acc S a
      = logistic (addf (addf acc (encRows128 (fun b n o => ∑ u : Fin 64, h2 b u n * S (ix2 u o))))
          (encRows128 (fun b n o => ∑ u : Fin 64, g2 b u n * x9 (ix3 2 u o)))) := by
  unfold k0_pay38
  dsimp only
  rw [stTerm128' h2 S a ha, stTerm128_2 g2 x9]

/-- One term of the accumulation at a row, with the slab's entries named by the weight matrix. -/
theorem term_at (f : Fin 16 → St) (V W : Fin 64 → Fin 128 → EReal) (hW : ∀ u o, V u o = W u o) (r : Fin 8192) (o : Fin 128) :
    encRows128 (fun b n o => ∑ u : Fin 64, f b u n * V u o) (ix2 r o)
      = ∑ u : Fin 64, f ⟨r.val % 16, Nat.mod_lt _ (by decide)⟩ u
          ⟨r.val / 16, by have h := r.isLt; omega⟩ * W u o := by
  show (∑ u : Fin 64, _ * V u o) = _
  exact Finset.sum_congr rfl (fun u _ => by rw [hW])

/-- Layer 1's gates of the sixteen batch elements, in row form. -/
theorem gate1_eq (x9 x10 : Vec Ideal S3x64x128 .f32) (x13 : Vec Ideal S128 .f32)
    (hA : ∀ n k, x1 (ix2 n k) = w.adj n k) (hR : k0_pay25 (F := Ideal) v5 v100 v182 = encRows64 g)
    (h9 : IsX1 x9 w.wg1) (h10 : IsSt1 x10 w.wg1) (h13 : ∀ o, x13 (ix1 o) = w.bg1 o) :
    k0_pay38 (F := Ideal) (k0_pay29 x1 v5 v100 v182) (k0_pay30 x9)
        (k0_pay35 (k0_pay27 v5 v100 v182) (k0_pay28 x1 v5 v100 v182) (k0_pay30 x9) (k0_pay31 x10) x13 (k0_pay32 hv1) (k0_pay33 x1 hv1))
        (k0_pay36 (k0_pay31 x10)) (k0_pay37 (k0_pay32 hv1) (k0_pay34 x1 hv1))
      = encRows128 (fun b => gate1 w (g b) (hbOf hv1 b)) := by
  rw [pay29_eq w x1 g v5 v100 v182 hA hR, pay30_eq,
    pay38_gen _ _ _ _ _ _ (pay37_eq w x1 hv1 hA),
    pay27_eq g v5 v100 v182 hR, pay28_eq w x1 g v5 v100 v182 hA hR, pay31_eq, pay32_eq,
    pay33_eq w x1 hv1 hA, pay35_eq, pay36_eq]
  funext i
  obtain ⟨r, o, rfl⟩ : ∃ (r : Fin 8192) (o : Fin 128), i = ix2 r o := ⟨i 0, i 1, eq_ix2 i⟩
  have hr := r.isLt
  show Ideal.logistic (((((((x13 (ix1 o) + encRows128 _ (ix2 r o)) + encRows128 _ (ix2 r o)) + encRows128 _ (ix2 r o))
      + encRows128 _ (ix2 r o)) + encRows128 _ (ix2 r o)) + encRows128 _ (ix2 r o)))
    = gate1 w (g ⟨r.val % 16, Nat.mod_lt _ (by decide)⟩) (hbOf hv1 ⟨r.val % 16, Nat.mod_lt _ (by decide)⟩)
        ⟨r.val / 16, by omega⟩ o
  rw [gate1, ← gacc1_eq, gacc1, h13 o,
    term_at (hbOf hv1) _ _ (fun u o => h10 0 u o) r o,
    term_at g _ _ (fun u o => h9 0 u o) r o,
    term_at (fun b u => tap w.adj 1 (hbOf hv1 b u)) _ _ (fun u o => h10 1 u o) r o,
    term_at (fun b u => tap w.adj 1 (g b u)) _ _ (fun u o => h9 1 u o) r o,
    term_at (fun b u => tap w.adj 2 (hbOf hv1 b u)) _ _ (fun u o => h10 2 u o) r o,
    term_at (fun b u => tap w.adj 2 (g b u)) _ _ (fun u o => h9 2 u o) r o]
  rfl

end Cert.KernelIdeal.KRead

end
-- ==== Proof.K1c.lean ====
/-
  Layer 1's candidate and new state in the kernel, over whatever gates `G` the logistic produced and whatever family
  `g` of states layer 0 produced (given by its three taps in node-major form): the reset states' taps, the accumulated
  convolution's hyperbolic tangent and the GRU mix, in row form.
-/
import proofs.«172483_g44504451121623_cont_8to1_c_180_13_alg».proof.Proof.KTerms
import proofs.«172483_g44504451121623_cont_8to1_c_180_13_alg».proof.Proof.KBlk
import proofs.«172483_g44504451121623_cont_8to1_c_180_13_alg».proof.Proof.SpecAlg

noncomputable section

namespace Cert.KernelIdeal.KRead

open Cert.KernelIdeal Cert.KernelIdeal.Gen Idealize.ShloMosaic Idealize.ShloMosaic.TcCoe Idealize.ShloMosaic.ValueIdx Cert.Dcgru

/-- The reset states `r * h` of the sixteen batch elements, from the gates' lower half. -/
def rstOf (G : Fin 16 → Fin 512 → Fin 128 → EReal) (hs1 : Fin 16 → St) : Fin 16 → St :=
  fun b u n => G b n ⟨u.val, by have := u.isLt; omega⟩ * hs1 b u n

/-- The update half of the gates, in row form. -/
theorem pay39_eq (G : Fin 16 → Fin 512 → Fin 128 → EReal)
    (v206 : FVec Ideal S512x1024 .f32) (v208 : FVec Ideal S3x64x128 .f32) (v267 : FVec Ideal S8192x128 .f32)
    (v273 : FVec Ideal S64x128 .f32) (v274 : FVec Ideal S8192x64 .bf16)
    (hG : k0_pay38 (F := Ideal) v206 v208 v267 v273 v274 = encRows128 G) :
    k0_pay39 (F := Ideal) v206 v208 v267 v273 v274
      = fun i => encRows128 G (ix2 (i 0) ⟨64 + (i 1).val, by have h : (i 1).val < 64 := (i 1).isLt; omega⟩) := by
  unfold k0_pay39
  dsimp only
  rw [hG, half_hi]

/-- The reset states, in node-major form. -/
theorem pay42_eq (G : Fin 16 → Fin 512 → Fin 128 → EReal) (hs1 : Fin 16 → St)
    (v193 : FVec Ideal S8192x64 .f32) (h193 : v193 = encRows64 hs1)
    (v206 : FVec Ideal S512x1024 .f32) (v208 : FVec Ideal S3x64x128 .f32) (v267 : FVec Ideal S8192x128 .f32)
    (v273 : FVec Ideal S64x128 .f32) (v274 : FVec Ideal S8192x64 .bf16)
    (hG : k0_pay38 (F := Ideal) v206 v208 v267 v273 v274 = encRows128 G) :
    k0_pay42 (F := Ideal) v193 v206 v208 v267 v273 v274 = encNm (rstOf G hs1) := by
  unfold k0_pay42
  dsimp only
  rw [hG, half_lo, h193]
  have e : mulf (fun i : S8192x64.Idx => encRows128 G (ix2 (i 0) ⟨(i 1).val, by have h : (i 1).val < 64 := (i 1).isLt; omega⟩))
      (encRows64 hs1) = encRows64 (rstOf G hs1) := by
    funext i
    rfl
  rw [e, nm_of_encRows64]

/-- The adjacency matrix applied to the reset states. -/
theorem pay43_eq (A : Fin 512 → Fin 512 → EReal) (x1 : Vec Ideal S512x512 .f32) (hA : ∀ n k, x1 (ix2 n k) = A n k)
    (G : Fin 16 → Fin 512 → Fin 128 → EReal) (hs1 : Fin 16 → St)
    (v193 : FVec Ideal S8192x64 .f32) (h193 : v193 = encRows64 hs1)
    (v206 : FVec Ideal S512x1024 .f32) (v208 : FVec Ideal S3x64x128 .f32) (v267 : FVec Ideal S8192x128 .f32)
    (v273 : FVec Ideal S64x128 .f32) (v274 : FVec Ideal S8192x64 .bf16)
    (hG : k0_pay38 (F := Ideal) v206 v208 v267 v273 v274 = encRows128 G) :
    k0_pay43 (F := Ideal) x1 v193 v206 v208 v267 v273 v274 = encNm (fun b u => tap A 1 (rstOf G hs1 b u)) := by
  unfold k0_pay43
  dsimp only
  rw [pay42_eq G hs1 v193 h193 v206 v208 v267 v273 v274 hG]
  exact mmA_encNm A x1 hA (rstOf G hs1) _ _

/-- The third tap of the reset states. -/
theorem pay44_eq (A : Fin 512 → Fin 512 → EReal) (x1 : Vec Ideal S512x512 .f32) (hA : ∀ n k, x1 (ix2 n k) = A n k)
    (G : Fin 16 → Fin 512 → Fin 128 → EReal) (hs1 : Fin 16 → St)
    (v193 : FVec Ideal S8192x64 .f32) (h193 : v193 = encRows64 hs1)
    (v206 : FVec Ideal S512x1024 .f32) (v208 : FVec Ideal S3x64x128 .f32) (v267 : FVec Ideal S8192x128 .f32)
    (v273 : FVec Ideal S64x128 .f32) (v274 : FVec Ideal S8192x64 .bf16)
    (hG : k0_pay38 (F := Ideal) v206 v208 v267 v273 v274 = encRows128 G) :
    k0_pay44 (F := Ideal) x1 v193 v206 v208 v267 v273 v274 = encNm (fun b u => tap A 2 (rstOf G hs1 b u)) := by
  unfold k0_pay44
  dsimp only
  rw [pay43_eq A x1 hA G hs1 v193 h193 v206 v208 v267 v273 v274 hG,
    pay42_eq G hs1 v193 h193 v206 v208 v267 v273 v274 hG]
  have e : (fun b u => tap A 1 (rstOf G hs1 b u)) = (fun b u => mv A (rstOf G hs1 b u)) := rfl
  rw [e, mmA_encNm A x1 hA (fun b u => mv A (rstOf G hs1 b u))]
  exact tap2_encNm A (rstOf G hs1)

/-- The bias row over all rows. -/
theorem pay45_eq (x14 : Vec Ideal S64 .f32) :
    k0_pay45 (F := Ideal) x14 = fun i => x14 (ix1 (i 1)) := by
  unfold k0_pay45
  dsimp only
  exact bias64 x14 _ _ _

theorem pay40_eq (x11 : Vec Ideal S3x64x64 .f32) : k0_pay40 (F := Ideal) x11 = x11 := by
  unfold k0_pay40
  dsimp only
  exact shapeCast_self _ _

theorem pay41_eq (x12 : Vec Ideal S3x64x64 .f32) : k0_pay41 (F := Ideal) x12 = x12 := by
  unfold k0_pay41
  dsimp only
  exact shapeCast_self _ _

/-- The first tap's slab of the state weights. -/
theorem pay46_eq (x12 : Vec Ideal S3x64x64 .f32) :
    k0_pay46 (F := Ideal) x12 = fun i => x12 (ix3 0 (i 0) (i 1)) := by
  unfold k0_pay46
  dsimp only
  rw [pay41_eq]
  exact slab_3x64x64 0 x12 _ _

/-- The third tap's slab of the lower layer's weights. -/
theorem pay49_eq (x11 : FVec Ideal S3x64x64 .f32) :
    k0_pay49 (F := Ideal) x11 = fun i => x11 (ix3 2 (i 0) (i 1)) := by
  unfold k0_pay49
  dsimp only
  exact slab_3x64x64 2 x11 _ _

/-- The reset states in row form, as the product's left operand. -/
theorem pay47_eq (G : Fin 16 → Fin 512 → Fin 128 → EReal) (hs1 : Fin 16 → St)
    (v193 : FVec Ideal S8192x64 .f32) (h193 : v193 = encRows64 hs1)
    (v206 : FVec Ideal S512x1024 .f32) (v208 : FVec Ideal S3x64x128 .f32) (v267 : FVec Ideal S8192x128 .f32)
    (v273 : FVec Ideal S64x128 .f32) (v274 : FVec Ideal S8192x64 .bf16)
    (hG : k0_pay38 (F := Ideal) v206 v208 v267 v273 v274 = encRows128 G) :
    (k0_pay47 (F := Ideal) v193 v206 v208 v267 v273 v274 : S8192x64.Idx → EReal) = encRows64 (rstOf G hs1) := by
  unfold k0_pay47
  dsimp only
  rw [pay42_eq G hs1 v193 h193 v206 v208 v267 v273 v274 hG, rows64_of_encNm]
  rfl

/-- The lower layer's third tap in row form, as the product's left operand. -/
theorem pay50_eq (f : Fin 16 → St) :
    (k0_pay50 (F := Ideal) (encNm f) : S8192x64.Idx → EReal) = encRows64 f := by
  unfold k0_pay50
  dsimp only
  rw [rows64_of_encNm]
  rfl

/-- One tap's contraction of sixteen states with a slab of weights, at each of the three literal taps. -/
theorem st64_tap0 (g : Fin 16 → St) (W : FVec Ideal S3x64x64 .f32) (h1 h2) (hs : S3x64x64.Slices ![0, 0, 0] S1x64x64) (hc ha hb) :
    matmul dot_S8192x64_S64x64_S8192x64_1_0_0_1_n_n none
        (truncf .bf16 (shapeCast S8192x64 (addf (shapeCast S512x16x64 (encNm g) h1) (broadcast S512x16x64 (Scalar.ofBits .f32 0x00000000#32))) h2) ha)
        (truncf .bf16 (shapeCast S64x64 (extractStridedSlice S1x64x64 ![0, 0, 0] W hs) hc) hb)
        (constant S8192x64 .f32 0x00000000#32)
      = encRows64 (fun b o n => ∑ u : Fin 64, g b u n * W (ix3 0 u o)) :=
  stTerm64 g W 0 h1 h2 hs hc ha hb

theorem st64_tap1 (g : Fin 16 → St) (W : FVec Ideal S3x64x64 .f32) (h1 h2) (hs : S3x64x64.Slices ![1, 0, 0] S1x64x64) (hc ha hb) :
    matmul dot_S8192x64_S64x64_S8192x64_1_0_0_1_n_n none
        (truncf .bf16 (shapeCast S8192x64 (addf (shapeCast S512x16x64 (encNm g) h1) (broadcast S512x16x64 (Scalar.ofBits .f32 0x00000000#32))) h2) ha)
        (truncf .bf16 (shapeCast S64x64 (extractStridedSlice S1x64x64 ![1, 0, 0] W hs) hc) hb)
        (constant S8192x64 .f32 0x00000000#32)
      = encRows64 (fun b o n => ∑ u : Fin 64, g b u n * W (ix3 1 u o)) :=
  stTerm64 g W 1 h1 h2 hs hc ha hb

theorem st64_tap2 (g : Fin 16 → St) (W : FVec Ideal S3x64x64 .f32) (h1 h2) (hs : S3x64x64.Slices ![2, 0, 0] S1x64x64) (hc ha hb) :
    matmul dot_S8192x64_S64x64_S8192x64_1_0_0_1_n_n none
        (truncf .bf16 (shapeCast S8192x64 (addf (shapeCast S512x16x64 (encNm g) h1) (broadcast S512x16x64 (Scalar.ofBits .f32 0x00000000#32))) h2) ha)
        (truncf .bf16 (shapeCast S64x64 (extractStridedSlice S1x64x64 ![2, 0, 0] W hs) hc) hb)
        (constant S8192x64 .f32 0x00000000#32)
      = encRows64 (fun b o n => ∑ u : Fin 64, g b u n * W (ix3 2 u o)) :=
  stTerm64 g W 2 h1 h2 hs hc ha hb

/-- The candidate's convolution as accumulated up to the last state term: the bias, then per tap the reset
    states' term and the lower layer's term. -/
theorem pay48_eq (f0 f1 r0 r1 r2 : Fin 16 → St) (x11 x12 : FVec Ideal S3x64x64 .f32)
    (bias : FVec Ideal S8192x64 .f32) (S0 : FVec Ideal S64x64 .f32) (a : FVec Ideal S8192x64 .bf16)
    (hae : (a : S8192x64.Idx → EReal) = encRows64 r0) :
    k0_pay48 (F := Ideal) (encNm f0) (encNm f1) x11 x12 (encNm r1) (encNm r2) bias S0 a
      = addf (addf (addf (addf (addf bias
          (encRows64 (fun b o n => ∑ u : Fin 64, r0 b u n * S0 (ix2 u o))))
          (encRows64 (fun b o n => ∑ u : Fin 64, f0 b u n * x11 (ix3 0 u o))))
          (encRows64 (fun b o n => ∑ u : Fin 64, r1 b u n * x12 (ix3 1 u o))))
          (encRows64 (fun b o n => ∑ u : Fin 64, f1 b u n * x11 (ix3 1 u o))))
          (encRows64 (fun b o n => ∑ u : Fin 64, r2 b u n * x12 (ix3 2 u o))) := by
  unfold k0_pay48
  dsimp only
  rw [stTerm64' r0 S0 a hae, st64_tap0 f0 x11, st64_tap1 r1 x12, st64_tap1 f1 x11, st64_tap2 r2 x12]

variable (w : Wts) (x1 : Vec Ideal S512x512 .f32)

/-- Layer 1's new states of the sixteen batch elements, in row form, from their gates. -/
theorem new1_eq (hA : ∀ n k, x1 (ix2 n k) = w.adj n k) (g hs1 : Fin 16 → St)
    (G : Fin 16 → Fin 512 → Fin 128 → EReal)
    (v193 : FVec Ideal S8192x64 .f32) (h193 : v193 = encRows64 hs1)
    (v197 v200 v206 : FVec Ideal S512x1024 .f32) (hz0 : v197 = encNm g)
    (hz1 : v200 = encNm (fun b u => tap w.adj 1 (g b u))) (hz2 : v206 = encNm (fun b u => tap w.adj 2 (g b u)))
    (v208 : FVec Ideal S3x64x128 .f32) (v267 : FVec Ideal S8192x128 .f32) (v273 : FVec Ideal S64x128 .f32)
    (v274 : FVec Ideal S8192x64 .bf16)
    (hG : k0_pay38 (F := Ideal) v206 v208 v267 v273 v274 = encRows128 G)
    (x11 x12 : Vec Ideal S3x64x64 .f32) (x14 : Vec Ideal S64 .f32)
    (h11 : IsX1 x11 w.wc1) (h12 : IsSt1 x12 w.wc1) (h14 : ∀ o, x14 (ix1 o) = w.bc1 o) :
    k0_pay1 (F := Ideal) v193 (k0_pay39 v206 v208 v267 v273 v274)
        (k0_pay48 v197 v200 (k0_pay40 x11) (k0_pay41 x12) (k0_pay43 x1 v193 v206 v208 v267 v273 v274)
          (k0_pay44 x1 v193 v206 v208 v267 v273 v274) (k0_pay45 x14) (k0_pay46 x12) (k0_pay47 v193 v206 v208 v267 v273 v274))
        (k0_pay49 (k0_pay40 x11)) (k0_pay50 v206)
      = encRows64 (fun b u n =>
          mix (G b n ⟨64 + u.val, by have := u.isLt; omega⟩) (hs1 b u n)
            (Ideal.tanh (gsum1 w.adj (g b) (fun u' n' => G b n' ⟨u'.val, by have := u'.isLt; omega⟩ * hs1 b u' n') w.wc1 n u
              + w.bc1 u))) := by
  rw [pay39_eq G v206 v208 v267 v273 v274 hG, pay40_eq, pay41_eq,
    pay43_eq w.adj x1 hA G hs1 v193 h193 v206 v208 v267 v273 v274 hG,
    pay44_eq w.adj x1 hA G hs1 v193 h193 v206 v208 v267 v273 v274 hG, pay45_eq, pay46_eq, pay49_eq, hz0, hz1]
  rw [pay48_eq g (fun b u => tap w.adj 1 (g b u)) (rstOf G hs1) (fun b u => tap w.adj 1 (rstOf G hs1 b u))
    (fun b u => tap w.adj 2 (rstOf G hs1 b u)) x11 x12 _ _ _
    (pay47_eq G hs1 v193 h193 v206 v208 v267 v273 v274 hG)]
  unfold k0_pay1
  dsimp only
  rw [stTerm64' (fun b u => tap w.adj 2 (g b u)) _ (k0_pay50 v206) (by rw [hz2]; exact pay50_eq _), h193]
  funext i
  obtain ⟨r, o, rfl⟩ : ∃ (r : Fin 8192) (o : Fin 64), i = ix2 r o := ⟨i 0, i 1, eq_ix2 i⟩
  have hr : r.val < 8192 := r.isLt
  have ho : o.val < 64 := o.isLt
  obtain ⟨b, n, hb, hn⟩ : ∃ (b : Fin 16) (n : Fin 512), b.val = r.val % 16 ∧ n.val = r.val / 16 :=
    ⟨⟨r.val % 16, Nat.mod_lt _ (by decide)⟩, ⟨r.val / 16, by omega⟩, rfl, rfl⟩
  have eb : (⟨r.val % 16, Nat.mod_lt _ (by decide)⟩ : Fin 16) = b := Fin.ext hb.symm
  have en : (⟨r.val / 16, by omega⟩ : Fin 512) = n := Fin.ext hn.symm
  show G ⟨r.val % 16, _⟩ ⟨r.val / 16, _⟩ ⟨64 + o.val, _⟩ * hs1 ⟨r.val % 16, _⟩ o ⟨r.val / 16, _⟩
      + (one - G ⟨r.val % 16, _⟩ ⟨r.val / 16, _⟩ ⟨64 + o.val, _⟩)
        * Ideal.tanh ((((((x14 (ix1 o)
          + ∑ u : Fin 64, rstOf G hs1 ⟨r.val % 16, _⟩ u ⟨r.val / 16, _⟩ * x12 (ix3 0 u o))
          + ∑ u : Fin 64, g ⟨r.val % 16, _⟩ u ⟨r.val / 16, _⟩ * x11 (ix3 0 u o))
          + ∑ u : Fin 64, tap w.adj 1 (rstOf G hs1 ⟨r.val % 16, _⟩ u) ⟨r.val / 16, _⟩ * x12 (ix3 1 u o))
          + ∑ u : Fin 64, tap w.adj 1 (g ⟨r.val % 16, _⟩ u) ⟨r.val / 16, _⟩ * x11 (ix3 1 u o))
          + ∑ u : Fin 64, tap w.adj 2 (rstOf G hs1 ⟨r.val % 16, _⟩ u) ⟨r.val / 16, _⟩ * x12 (ix3 2 u o))
          + ∑ u : Fin 64, tap w.adj 2 (g ⟨r.val % 16, _⟩ u) ⟨r.val / 16, _⟩ * x11 (ix3 2 u o))
    = mix (G ⟨r.val % 16, _⟩ ⟨r.val / 16, _⟩ ⟨64 + o.val, _⟩) (hs1 ⟨r.val % 16, _⟩ o ⟨r.val / 16, _⟩)
        (Ideal.tanh (gsum1 w.adj (g ⟨r.val % 16, _⟩) (rstOf G hs1 ⟨r.val % 16, _⟩) w.wc1 ⟨r.val / 16, _⟩ o + w.bc1 o))
  rw [eb, en, ← gacc1_eq]
  have h11' : ∀ (mm : Fin 3) (u : Fin 64) (o : Fin 64),
      x11 (ix3 mm u o) = w.wc1 ⟨u.val * 3 + mm.val, by have := mm.isLt; have := u.isLt; omega⟩ o := h11
  have h12' : ∀ (mm : Fin 3) (u : Fin 64) (o : Fin 64),
      x12 (ix3 mm u o) = w.wc1 ⟨(64 + u.val) * 3 + mm.val, by have := mm.isLt; have := u.isLt; omega⟩ o := h12
  simp only [h11', h12', h14]
  rfl

end Cert.KernelIdeal.KRead

end
-- ==== Proof.KBlock.lean ====
/-
  One grid point of the kernel: what the body leaves in its two output blocks, as functions of the block's inputs.
  The layers' four convolutions are chained: layer 0's gates, its new states, layer 1's gates over those, its new
  states; the second output block stacks the two new states, the first holds the projection of the second.
-/
import proofs.«172483_g44504451121623_cont_8to1_c_180_13_alg».proof.Proof.Gen.KernelIdeal.Frame
import proofs.«172483_g44504451121623_cont_8to1_c_180_13_alg».proof.Proof.K0g
import proofs.«172483_g44504451121623_cont_8to1_c_180_13_alg».proof.Proof.K0c
import proofs.«172483_g44504451121623_cont_8to1_c_180_13_alg».proof.Proof.K1g
import proofs.«172483_g44504451121623_cont_8to1_c_180_13_alg».proof.Proof.K1c

set_option maxRecDepth 16384

noncomputable section

namespace Cert.KernelIdeal.KRead

open Cert.KernelIdeal Cert.KernelIdeal.Gen Idealize.ShloMosaic Idealize.ShloMosaic.TcCoe Idealize.ShloMosaic.ValueIdx Cert.Dcgru

variable (w : Wts)
variable (x0 : Vec Ideal S16x512 .f32) (x1 : Vec Ideal S512x512 .f32) (x2 : Vec Ideal S2x16x32768 .f32)
  (x3 : Vec Ideal S3x16x2048 .f32) (x4 : Vec Ideal S3x64x128 .f32) (x5 : Vec Ideal S3x16x1024 .f32) (x6 : Vec Ideal S3x64x64 .f32)
  (x7 : Vec Ideal S128 .f32) (x8 : Vec Ideal S64 .f32) (x9 : Vec Ideal S3x64x128 .f32) (x10 : Vec Ideal S3x64x128 .f32)
  (x11 : Vec Ideal S3x64x64 .f32) (x12 : Vec Ideal S3x64x64 .f32) (x13 : Vec Ideal S128 .f32) (x14 : Vec Ideal S64 .f32)
  (x15 : Vec Ideal S1x64 .f32) (x16 : Vec Ideal S1 .f32)

/-- The block's weight arrays are the per-tap cuts of the cells' weights `w`. -/
structure BlkW : Prop where
  adj : ∀ n k, x1 (ix2 n k) = w.adj n k
  kxg0 : IsKron x3 w.wg0
  whg0 : IsSt0 x4 w.wg0
  kxc0 : IsKron x5 w.wc0
  whc0 : IsSt0 x6 w.wc0
  bg0 : ∀ o, x7 (ix1 o) = w.bg0 o
  bc0 : ∀ o, x8 (ix1 o) = w.bc0 o
  wxg1 : IsX1 x9 w.wg1
  whg1 : IsSt1 x10 w.wg1
  wxc1 : IsX1 x11 w.wc1
  whc1 : IsSt1 x12 w.wc1
  bg1 : ∀ o, x13 (ix1 o) = w.bg1 o
  bc1 : ∀ o, x14 (ix1 o) = w.bc1 o
  wp : ∀ u, x15 (ix2 0 u) = w.wp u
  bp : x16 (ix1 0) = w.bp

/-- The second slab's rectangle places a block index one step along the layer axis. -/
theorem emb_r0_9 (a : Fin 1) (b : Fin 16) (c : Fin 32768) :
    (r0_9.emb (ix3 a b c) : S2x16x32768.Idx) = ix3 (1 : Fin 2) b c := by
  funext d
  apply Fin.ext
  rw [Rect.emb_apply]
  match d with
  | ⟨0, _⟩ => show 1 + 1 * a.val = 1; omega
  | ⟨1, _⟩ => show 0 + 1 * b.val = b.val; omega
  | ⟨2, _⟩ => show 0 + 1 * c.val = c.val; omega

/-- The first slab's rectangle places a block index at the layer axis' origin. -/
theorem emb_r0_1 (a : Fin 1) (b : Fin 16) (c : Fin 32768) :
    (r0_1.emb (ix3 a b c) : S2x16x32768.Idx) = ix3 (0 : Fin 2) b c := by
  funext d
  apply Fin.ext
  rw [Rect.emb_apply]
  match d with
  | ⟨0, _⟩ => show 0 + 1 * a.val = 0; omega
  | ⟨1, _⟩ => show 0 + 1 * b.val = b.val; omega
  | ⟨2, _⟩ => show 0 + 1 * c.val = c.val; omega

/-- The first output block [16, 512]: the projected output of the block's sixteen batch elements. -/
theorem blk17 (hw : BlkW w x1 x3 x4 x5 x6 x7 x8 x9 x10 x11 x12 x13 x14 x15 x16) :
    out0_17 (F := Ideal) x0 x1 x2 x3 x4 x5 x6 x7 x8 x9 x10 x11 x12 x13 x14 x15 x16
      = fun i => OUT w (xbOf x0 (i 0)) (hbOf (View.ld x2 r0_1) (i 0)) (hbOf (View.ld x2 r0_9) (i 0)) (i 1) := by
  have hz1 : (![0] : Fin 1 → Nat) = fun _ => 0 := funext fun a => by fin_cases a <;> rfl
  have hz2 : (![0, 0] : Fin 2 → Nat) = fun _ => 0 := funext fun a => by fin_cases a <;> rfl
  have hz3 : (![0, 0, 0] : Fin 3 → Nat) = fun _ => 0 := funext fun a => by fin_cases a <;> rfl
  unfold out0_17
  rw [View.canon_unit_zero hz2]
  simp only [View.ld_unit_zero (S := S512x512) hz2, View.ld_unit_zero (S := S16x512) hz2,
    View.ld_unit_zero (S := S3x16x2048) hz3, View.ld_unit_zero (S := S3x64x128) hz3, View.ld_unit_zero (S := S128) hz1,
    View.ld_unit_zero (S := S3x16x1024) hz3, View.ld_unit_zero (S := S3x64x64) hz3, View.ld_unit_zero (S := S64) hz1,
    View.ld_unit_zero (S := S1x64) hz2, View.ld_unit_zero (S := S1) hz1]
  have e16 := gate0_eq w x0 x1 (View.ld x2 r0_1) x3 x4 x7 hw.adj hw.kxg0 hw.whg0 hw.bg0
  have e25 := new0_eq w x1 hw.adj (xbOf x0) (hbOf (View.ld x2 r0_1)) _ (k0_pay5 (View.ld x2 r0_1)) (pay5_eq _)
    (k0_pay6 x0) (k0_pay7 x1 x0) (k0_pay8 x1 x0)
    (show k0_pay6 (F := Ideal) x0 = encX (fun b => tap w.adj 0 (xbOf x0 b)) from pay6_eq x0)
    (pay7_eq w x0 x1 hw.adj) (pay8_eq w x0 x1 hw.adj) (k0_pay9 x3) _ e16 x5 x6 x8 hw.kxc0 hw.whc0 hw.bc0
  have e27 := pay27_eq _ _ _ _ e25
  have e28 := pay28_eq w x1 _ _ _ _ hw.adj e25
  have e29 := pay29_eq w x1 _ _ _ _ hw.adj e25
  have e38 := gate1_eq w x1 (View.ld x2 r0_9) _ _ _ _ x9 x10 x13 hw.adj e25 hw.wxg1 hw.whg1 hw.bg1
  have e1 := new1_eq w x1 hw.adj _ (hbOf (View.ld x2 r0_9)) _ (k0_pay26 (View.ld x2 r0_9)) (pay26_eq _) _ _ _ e27 e28 e29
    _ _ _ _ e38 x11 x12 x14 hw.wxc1 hw.whc1 hw.bc1
  first | rw [pay4_eq _ _ _ _ _ _ x15 x16 e1] | fail "the projection's payload does not match the chained new state"
  funext i
  simp only [hw.wp, hw.bp]
  first | rfl | fail "the projected rows are not the specification's output"

/-- The second output block [2, 16, 32768]: the two new states of the block's sixteen batch elements, stacked. -/
theorem blk18 (hw : BlkW w x1 x3 x4 x5 x6 x7 x8 x9 x10 x11 x12 x13 x14 x15 x16) :
    out0_18 (F := Ideal) x0 x1 x2 x3 x4 x5 x6 x7 x8 x9 x10 x11 x12 x13 x14 x15 x16
      = fun i =>
          if (i 0).val = 0 then
            H0N w (xbOf x0 (i 1)) (hbOf (View.ld x2 r0_1) (i 1)) ⟨(i 2).val % 64, Nat.mod_lt _ (by decide)⟩
              ⟨(i 2).val / 64, by have h : (i 2).val < 32768 := (i 2).isLt; omega⟩
          else
            H1N w (xbOf x0 (i 1)) (hbOf (View.ld x2 r0_1) (i 1)) (hbOf (View.ld x2 r0_9) (i 1))
              ⟨(i 2).val % 64, Nat.mod_lt _ (by decide)⟩
              ⟨(i 2).val / 64, by have h : (i 2).val < 32768 := (i 2).isLt; omega⟩ := by
  have hz1 : (![0] : Fin 1 → Nat) = fun _ => 0 := funext fun a => by fin_cases a <;> rfl
  have hz2 : (![0, 0] : Fin 2 → Nat) = fun _ => 0 := funext fun a => by fin_cases a <;> rfl
  have hz3 : (![0, 0, 0] : Fin 3 → Nat) = fun _ => 0 := funext fun a => by fin_cases a <;> rfl
  unfold out0_18
  simp only [View.ld_unit_zero (S := S512x512) hz2, View.ld_unit_zero (S := S16x512) hz2,
    View.ld_unit_zero (S := S3x16x2048) hz3, View.ld_unit_zero (S := S3x64x128) hz3, View.ld_unit_zero (S := S128) hz1,
    View.ld_unit_zero (S := S3x16x1024) hz3, View.ld_unit_zero (S := S3x64x64) hz3, View.ld_unit_zero (S := S64) hz1,
    View.ld_unit_zero (S := S1x64) hz2, View.ld_unit_zero (S := S1) hz1]
  have e16 := gate0_eq w x0 x1 (View.ld x2 r0_1) x3 x4 x7 hw.adj hw.kxg0 hw.whg0 hw.bg0
  have e25 := new0_eq w x1 hw.adj (xbOf x0) (hbOf (View.ld x2 r0_1)) _ (k0_pay5 (View.ld x2 r0_1)) (pay5_eq _)
    (k0_pay6 x0) (k0_pay7 x1 x0) (k0_pay8 x1 x0)
    (show k0_pay6 (F := Ideal) x0 = encX (fun b => tap w.adj 0 (xbOf x0 b)) from pay6_eq x0)
    (pay7_eq w x0 x1 hw.adj) (pay8_eq w x0 x1 hw.adj) (k0_pay9 x3) _ e16 x5 x6 x8 hw.kxc0 hw.whc0 hw.bc0
  have e27 := pay27_eq _ _ _ _ e25
  have e28 := pay28_eq w x1 _ _ _ _ hw.adj e25
  have e29 := pay29_eq w x1 _ _ _ _ hw.adj e25
  have e38 := gate1_eq w x1 (View.ld x2 r0_9) _ _ _ _ x9 x10 x13 hw.adj e25 hw.wxg1 hw.whg1 hw.bg1
  have e1 := new1_eq w x1 hw.adj _ (hbOf (View.ld x2 r0_9)) _ (k0_pay26 (View.ld x2 r0_9)) (pay26_eq _) _ _ _ e27 e28 e29
    _ _ _ _ e38 x11 x12 x14 hw.wxc1 hw.whc1 hw.bc1
  refine funext fun y => ?_
  first
  | refine View.canon_apply_of_pieces (Val := Elt Ideal)
      (fun i : S2x16x32768.Idx =>
        if (i 0).val = 0 then
          H0N w (xbOf x0 (i 1)) (hbOf (View.ld x2 r0_1) (i 1)) ⟨(i 2).val % 64, Nat.mod_lt _ (by decide)⟩
            ⟨(i 2).val / 64, by have h : (i 2).val < 32768 := (i 2).isLt; omega⟩
        else
          H1N w (xbOf x0 (i 1)) (hbOf (View.ld x2 r0_1) (i 1)) (hbOf (View.ld x2 r0_9) (i 1))
            ⟨(i 2).val % 64, Nat.mod_lt _ (by decide)⟩
            ⟨(i 2).val / 64, by have h : (i 2).val < 32768 := (i 2).isLt; omega⟩)
      _ ?_ y (cover0_18 (F := Ideal) _ _ y)
  | fail "the two stores do not present as pieces of one function"
  intro p hp
  simp only [List.mem_cons, List.mem_singleton, List.not_mem_nil, or_false] at hp
  rcases hp with rfl | rfl
  · intro x
    obtain ⟨a, b, c, rfl⟩ : ∃ (a : Fin 1) (b : Fin 16) (c : Fin 32768), x = ix3 a b c := ⟨x 0, x 1, x 2, eq_ix3 x⟩
    first | rw [emb_r0_9] | fail "second slab's embedding"
    show k0_pay3 (F := Ideal) _ _ _ _ _ (ix3 a b c) = _
    first | rw [pay3_eq_pay2, e1, pay2_eq] | fail "second slab's payload does not match layer 1's new state"
    first | rfl | fail "second slab is not the specification's layer-1 state"
  · intro x
    obtain ⟨a, b, c, rfl⟩ : ∃ (a : Fin 1) (b : Fin 16) (c : Fin 32768), x = ix3 a b c := ⟨x 0, x 1, x 2, eq_ix3 x⟩
    first | rw [emb_r0_1] | fail "first slab's embedding"
    first | rw [e25, pay2_eq] | fail "first slab's payload does not match layer 0's new state"
    first | rfl | fail "first slab is not the specification's layer-0 state"

end Cert.KernelIdeal.KRead

end
-- ==== Proof.KIblk.lean ====
/-
  The blocks the launch hands the body at a grid point, read off the arrays as the region finds them: the two
  batch-blocked windows (the input signals and the states: block `t` is batch rows `16 t … 16 t + 15`) and the fifteen
  whole-array windows (every point sees the whole array), whose contents are the cells' weights cut per tap.
-/
import proofs.«172483_g44504451121623_cont_8to1_c_180_13_alg».proof.Proof.Gen.KernelIdeal.Frame
import proofs.«172483_g44504451121623_cont_8to1_c_180_13_alg».proof.Proof.KHost
import proofs.«172483_g44504451121623_cont_8to1_c_180_13_alg».proof.Proof.KBlock

noncomputable section

namespace Cert.KernelIdeal.KRead

open Cert.KernelIdeal Cert.KernelIdeal.Gen Idealize.ShloMosaic Idealize.ShloMosaic.TcCoe Idealize.SL.Sem
open Idealize.ShloMosaic.ValueIdx Cert.Dcgru

variable (m : (ℓ : Loc nD τ sig) → Buf (Elt Ideal) ℓ)

/-- The batch row a block's row is. -/
abbrev brow (t : Fin cfg0.N) (b : Fin 16) : Fin 32 :=
  ⟨t.val * 16 + b.val, by have := t.isLt; have := b.isLt; have : cfg0.N = 2 := rfl; omega⟩

theorem idx0 : ∀ (t : Fin grid0.N), win0_0.index t (0 : Fin 2) = t.val ∧ win0_0.index t (1 : Fin 2) = 0 := by decide +kernel

/-- The input window's block at point `t` is batch rows `16 t …` of the argument. -/
theorem iblk0_apply (c : Dev nD) (t : Fin cfg0.N) (b : Fin 16) (n : Fin 512) :
    (iblk m c 0 t : Vec Ideal S16x512 .f32) (ix2 b n)
      = (m ((c : Thread nD τ).loc main_arg0) : FVec Ideal S32x512 .f32) (ix2 (brow t b) n) := by
  unfold iblk
  rw [View.read_apply]
  show V m c main_arg0 _ = _
  rw [V_main_arg0]
  congr 1
  funext a
  apply Fin.ext
  match a with
  | ⟨0, _⟩ => show win0_0.index t 0 * 16 + 1 * b.val = t.val * 16 + b.val; rw [(idx0 t).1]; omega
  | ⟨1, _⟩ => show win0_0.index t 1 * 512 + 1 * n.val = n.val; rw [(idx0 t).2]; omega

theorem idx2 : ∀ (t : Fin grid0.N), win0_2.index t (0 : Fin 3) = 0 ∧ win0_2.index t (1 : Fin 3) = t.val ∧ win0_2.index t (2 : Fin 3) = 0 := by
  decide +kernel

/-- The state window's block at point `t` is batch rows `16 t …` of both layers' states. -/
theorem iblk2_apply (c : Dev nD) (t : Fin cfg0.N) (l : Fin 2) (b : Fin 16) (j : Fin 32768) :
    (iblk m c 2 t : Vec Ideal S2x16x32768 .f32) (ix3 l b j)
      = (m ((c : Thread nD τ).loc main_arg2) : FVec Ideal S2x32x32768 .f32) (ix3 l (brow t b) j) := by
  unfold iblk
  rw [View.read_apply]
  show V m c main_arg2 _ = _
  rw [V_main_arg2]
  congr 1
  funext a
  apply Fin.ext
  match a with
  | ⟨0, _⟩ => show win0_2.index t 0 * 2 + 1 * l.val = l.val; rw [(idx2 t).1]; omega
  | ⟨1, _⟩ => show win0_2.index t 1 * 16 + 1 * b.val = t.val * 16 + b.val; rw [(idx2 t).2.1]; omega
  | ⟨2, _⟩ => show win0_2.index t 2 * 32768 + 1 * j.val = j.val; rw [(idx2 t).2.2]; omega

/-- The block's sixteen input signals are the argument's signals of batch rows `16 t …`. -/
theorem xb_iblk (c : Dev nD) (t : Fin cfg0.N) (b : Fin 16) :
    xbOf (iblk m c 0 t) b = sigOf (m ((c : Thread nD τ).loc main_arg0)) (brow t b) := by
  funext n
  exact iblk0_apply m c t b n

/-- The first slab's rectangle places a block index at the layer axis' origin. -/
theorem iblk_emb_r0_1 (a : Fin 1) (b : Fin 16) (j : Fin 32768) :
    (r0_1.emb (ix3 a b j) : S2x16x32768.Idx) = ix3 (0 : Fin 2) b j := by
  funext d
  apply Fin.ext
  rw [Rect.emb_apply]
  match d with
  | ⟨0, _⟩ => show 0 + 1 * a.val = 0; omega
  | ⟨1, _⟩ => show 0 + 1 * b.val = b.val; omega
  | ⟨2, _⟩ => show 0 + 1 * j.val = j.val; omega

/-- The second slab's rectangle places a block index one step along the layer axis. -/
theorem iblk_emb_r0_9 (a : Fin 1) (b : Fin 16) (j : Fin 32768) :
    (r0_9.emb (ix3 a b j) : S2x16x32768.Idx) = ix3 (1 : Fin 2) b j := by
  funext d
  apply Fin.ext
  rw [Rect.emb_apply]
  match d with
  | ⟨0, _⟩ => show 1 + 1 * a.val = 1; omega
  | ⟨1, _⟩ => show 0 + 1 * b.val = b.val; omega
  | ⟨2, _⟩ => show 0 + 1 * j.val = j.val; omega

/-- The block's sixteen layer-0 states (the slab at offset 0 of the state block). -/
theorem hb0_iblk (c : Dev nD) (t : Fin cfg0.N) (b : Fin 16) :
    hbOf (View.ld (iblk m c 2 t) r0_1) b = stOf (m ((c : Thread nD τ).loc main_arg2)) 0 (brow t b) := by
  funext u n
  show (iblk m c 2 t : Vec Ideal S2x16x32768 .f32) (r0_1.emb (ix3 0 b ⟨n.val * 64 + u.val, _⟩)) = _
  rw [iblk_emb_r0_1]
  exact iblk2_apply m c t 0 b _

/-- The block's sixteen layer-1 states (the slab at offset 1 of the state block). -/
theorem hb1_iblk (c : Dev nD) (t : Fin cfg0.N) (b : Fin 16) :
    hbOf (View.ld (iblk m c 2 t) r0_9) b = stOf (m ((c : Thread nD τ).loc main_arg2)) 1 (brow t b) := by
  funext u n
  show (iblk m c 2 t : Vec Ideal S2x16x32768 .f32) (r0_9.emb (ix3 0 b ⟨n.val * 64 + u.val, _⟩)) = _
  rw [iblk_emb_r0_9]
  exact iblk2_apply m c t 1 b _

theorem idx1 : ∀ (t : Fin grid0.N) (a : Fin 2), win0_1.index t a * S512x512.size a = 0 := by decide +kernel

/-- The adjacency window's block is the whole array at every point. -/
theorem iblk1_eq (c : Dev nD) (t : Fin cfg0.N) : (iblk m c 1 t : Vec Ideal S512x512 .f32) = V m c main_arg1 := by
  unfold iblk
  exact Memref.read_access_unit_zero (Elt Ideal) main_arg1 (funext fun a => idx1 t a) (fun a => by rw [idx1 t a]; simp) (V m c main_arg1)

/-! The other whole-array windows likewise: every block index is 0, so the block is the array. -/

theorem idx3 : ∀ (t : Fin grid0.N) (a : Fin 3), win0_3.index t a * S3x16x2048.size a = 0 := by decide +kernel

theorem iblk3_eq (c : Dev nD) (t : Fin cfg0.N) : (iblk m c 3 t : Vec Ideal S3x16x2048 .f32) = V m c main_v16 := by
  unfold iblk
  exact Memref.read_access_unit_zero (Elt Ideal) main_v16 (funext fun a => idx3 t a) (fun a => by rw [idx3 t a]; simp) (V m c main_v16)

theorem idx4 : ∀ (t : Fin grid0.N) (a : Fin 3), win0_4.index t a * S3x64x128.size a = 0 := by decide +kernel

theorem iblk4_eq (c : Dev nD) (t : Fin cfg0.N) : (iblk m c 4 t : Vec Ideal S3x64x128 .f32) = V m c main_v4 := by
  unfold iblk
  exact Memref.read_access_unit_zero (Elt Ideal) main_v4 (funext fun a => idx4 t a) (fun a => by rw [idx4 t a]; simp) (V m c main_v4)

theorem idx5 : ∀ (t : Fin grid0.N) (a : Fin 3), win0_5.index t a * S3x16x1024.size a = 0 := by decide +kernel

theorem iblk5_eq (c : Dev nD) (t : Fin cfg0.N) : (iblk m c 5 t : Vec Ideal S3x16x1024 .f32) = V m c main_v23 := by
  unfold iblk
  exact Memref.read_access_unit_zero (Elt Ideal) main_v23 (funext fun a => idx5 t a) (fun a => by rw [idx5 t a]; simp) (V m c main_v23)

theorem idx6 : ∀ (t : Fin grid0.N) (a : Fin 3), win0_6.index t a * S3x64x64.size a = 0 := by decide +kernel

theorem iblk6_eq (c : Dev nD) (t : Fin cfg0.N) : (iblk m c 6 t : Vec Ideal S3x64x64 .f32) = V m c main_v9 := by
  unfold iblk
  exact Memref.read_access_unit_zero (Elt Ideal) main_v9 (funext fun a => idx6 t a) (fun a => by rw [idx6 t a]; simp) (V m c main_v9)

theorem idx7 : ∀ (t : Fin grid0.N) (a : Fin 1), win0_7.index t a * S128.size a = 0 := by decide +kernel

theorem iblk7_eq (c : Dev nD) (t : Fin cfg0.N) : (iblk m c 7 t : Vec Ideal S128 .f32) = V m c main_arg4 := by
  unfold iblk
  exact Memref.read_access_unit_zero (Elt Ideal) main_arg4 (funext fun a => idx7 t a) (fun a => by rw [idx7 t a]; simp) (V m c main_arg4)

theorem idx8 : ∀ (t : Fin grid0.N) (a : Fin 1), win0_8.index t a * S64.size a = 0 := by decide +kernel

theorem iblk8_eq (c : Dev nD) (t : Fin cfg0.N) : (iblk m c 8 t : Vec Ideal S64 .f32) = V m c main_arg6 := by
  unfold iblk
  exact Memref.read_access_unit_zero (Elt Ideal) main_arg6 (funext fun a => idx8 t a) (fun a => by rw [idx8 t a]; simp) (V m c main_arg6)

theorem idx9 : ∀ (t : Fin grid0.N) (a : Fin 3), win0_9.index t a * S3x64x128.size a = 0 := by decide +kernel

theorem iblk9_eq (c : Dev nD) (t : Fin cfg0.N) : (iblk m c 9 t : Vec Ideal S3x64x128 .f32) = V m c main_v26 := by
  unfold iblk
  exact Memref.read_access_unit_zero (Elt Ideal) main_v26 (funext fun a => idx9 t a) (fun a => by rw [idx9 t a]; simp) (V m c main_v26)

theorem idx10 : ∀ (t : Fin grid0.N) (a : Fin 3), win0_10.index t a * S3x64x128.size a = 0 := by decide +kernel

theorem iblk10_eq (c : Dev nD) (t : Fin cfg0.N) : (iblk m c 10 t : Vec Ideal S3x64x128 .f32) = V m c main_v28 := by
  unfold iblk
  exact Memref.read_access_unit_zero (Elt Ideal) main_v28 (funext fun a => idx10 t a) (fun a => by rw [idx10 t a]; simp) (V m c main_v28)

theorem idx11 : ∀ (t : Fin grid0.N) (a : Fin 3), win0_11.index t a * S3x64x64.size a = 0 := by decide +kernel

theorem iblk11_eq (c : Dev nD) (t : Fin cfg0.N) : (iblk m c 11 t : Vec Ideal S3x64x64 .f32) = V m c main_v31 := by
  unfold iblk
  exact Memref.read_access_unit_zero (Elt Ideal) main_v31 (funext fun a => idx11 t a) (fun a => by rw [idx11 t a]; simp) (V m c main_v31)

theorem idx12 : ∀ (t : Fin grid0.N) (a : Fin 3), win0_12.index t a * S3x64x64.size a = 0 := by decide +kernel

theorem iblk12_eq (c : Dev nD) (t : Fin cfg0.N) : (iblk m c 12 t : Vec Ideal S3x64x64 .f32) = V m c main_v33 := by
  unfold iblk
  exact Memref.read_access_unit_zero (Elt Ideal) main_v33 (funext fun a => idx12 t a) (fun a => by rw [idx12 t a]; simp) (V m c main_v33)

theorem idx13 : ∀ (t : Fin grid0.N) (a : Fin 1), win0_13.index t a * S128.size a = 0 := by decide +kernel

theorem iblk13_eq (c : Dev nD) (t : Fin cfg0.N) : (iblk m c 13 t : Vec Ideal S128 .f32) = V m c main_arg8 := by
  unfold iblk
  exact Memref.read_access_unit_zero (Elt Ideal) main_arg8 (funext fun a => idx13 t a) (fun a => by rw [idx13 t a]; simp) (V m c main_arg8)

theorem idx14 : ∀ (t : Fin grid0.N) (a : Fin 1), win0_14.index t a * S64.size a = 0 := by decide +kernel

theorem iblk14_eq (c : Dev nD) (t : Fin cfg0.N) : (iblk m c 14 t : Vec Ideal S64 .f32) = V m c main_arg10 := by
  unfold iblk
  exact Memref.read_access_unit_zero (Elt Ideal) main_arg10 (funext fun a => idx14 t a) (fun a => by rw [idx14 t a]; simp) (V m c main_arg10)

theorem idx15 : ∀ (t : Fin grid0.N) (a : Fin 2), win0_15.index t a * S1x64.size a = 0 := by decide +kernel

theorem iblk15_eq (c : Dev nD) (t : Fin cfg0.N) : (iblk m c 15 t : Vec Ideal S1x64 .f32) = V m c main_v34 := by
  unfold iblk
  exact Memref.read_access_unit_zero (Elt Ideal) main_v34 (funext fun a => idx15 t a) (fun a => by rw [idx15 t a]; simp) (V m c main_v34)

theorem idx16 : ∀ (t : Fin grid0.N) (a : Fin 1), win0_16.index t a * S1.size a = 0 := by decide +kernel

theorem iblk16_eq (c : Dev nD) (t : Fin cfg0.N) : (iblk m c 16 t : Vec Ideal S1 .f32) = V m c main_arg12 := by
  unfold iblk
  exact Memref.read_access_unit_zero (Elt Ideal) main_arg12 (funext fun a => idx16 t a) (fun a => by rw [idx16 t a]; simp) (V m c main_arg12)

/-- At every point the block's weight windows hold the per-tap cuts of the cells' weights. -/
theorem blkW_iblk (c : Dev nD) (t : Fin cfg0.N) :
    BlkW (wK m c) (iblk m c 1 t) (iblk m c 3 t) (iblk m c 4 t) (iblk m c 5 t) (iblk m c 6 t) (iblk m c 7 t) (iblk m c 8 t)
      (iblk m c 9 t) (iblk m c 10 t) (iblk m c 11 t) (iblk m c 12 t) (iblk m c 13 t) (iblk m c 14 t) (iblk m c 15 t)
      (iblk m c 16 t) := by
  exact {
    adj := fun n k => (congrFun (iblk1_eq m c t) _).trans ((congrFun (V_main_arg1 m c) _).trans rfl)
    kxg0 := fun mm b' b o => (congrFun (iblk3_eq m c t) _).trans (V_kxg0 m c mm b' b o)
    whg0 := fun mm u o => (congrFun (iblk4_eq m c t) _).trans (V_whg0 m c mm u o)
    kxc0 := fun mm b' b o => (congrFun (iblk5_eq m c t) _).trans (V_kxc0 m c mm b' b o)
    whc0 := fun mm u o => (congrFun (iblk6_eq m c t) _).trans (V_whc0 m c mm u o)
    bg0 := fun o => (congrFun (iblk7_eq m c t) _).trans ((congrFun (V_main_arg4 m c) _).trans rfl)
    bc0 := fun o => (congrFun (iblk8_eq m c t) _).trans ((congrFun (V_main_arg6 m c) _).trans rfl)
    wxg1 := fun mm u o => (congrFun (iblk9_eq m c t) _).trans (V_wxg1 m c mm u o)
    whg1 := fun mm u o => (congrFun (iblk10_eq m c t) _).trans (V_whg1 m c mm u o)
    wxc1 := fun mm u o => (congrFun (iblk11_eq m c t) _).trans (V_wxc1 m c mm u o)
    whc1 := fun mm u o => (congrFun (iblk12_eq m c t) _).trans (V_whc1 m c mm u o)
    bg1 := fun o => (congrFun (iblk13_eq m c t) _).trans ((congrFun (V_main_arg8 m c) _).trans rfl)
    bc1 := fun o => (congrFun (iblk14_eq m c t) _).trans ((congrFun (V_main_arg10 m c) _).trans rfl)
    wp := fun u => (congrFun (iblk15_eq m c t) _).trans (V_wpT m c u)
    bp := (congrFun (iblk16_eq m c t) _).trans ((congrFun (V_main_arg12 m c) _).trans rfl) }

end Cert.KernelIdeal.KRead

end
-- ==== Proof.KFinal.lean ====
/-
  From blocks to arrays.  Grid point `t` writes back batch rows `16 t … 16 t + 15` of both results; what it writes
  is the specification's result of those batch elements (the body's block read with the block's inputs traced back to
  the arguments), the two points' blocks cover both arrays, so after the run each result array is the specification's
  array of the arguments.
-/
import proofs.«172483_g44504451121623_cont_8to1_c_180_13_alg».proof.Proof.Gen.KernelIdeal.Value
import proofs.«172483_g44504451121623_cont_8to1_c_180_13_alg».proof.Proof.KIblk

noncomputable section

namespace Cert.KernelIdeal.KRead

open Cert.KernelIdeal Cert.KernelIdeal.Gen Idealize.ShloMosaic Idealize.ShloMosaic.TcCoe Idealize.SL.Sem
open Idealize.ShloMosaic.ValueIdx Cert.Dcgru
open Idealize.ShloMosaic.Pipeline (Dat)

variable (m : (ℓ : Loc nD τ sig) → Buf (Elt Ideal) ℓ) (ρ : Dev nD → PrngReg)

/-- The projected output of the arguments, as the kernel program's buffers hold them. -/
abbrev outK (c : Dev nD) : FVec Ideal S32x512 .f32 :=
  outArr (wK m c) (m ((c : Thread nD τ).loc main_arg0)) (m ((c : Thread nD τ).loc main_arg2))

/-- The stacked new states of the arguments. -/
abbrev hsK (c : Dev nD) : FVec Ideal S2x32x32768 .f32 :=
  hsArr (wK m c) (m ((c : Thread nD τ).loc main_arg0)) (m ((c : Thread nD τ).loc main_arg2))

theorem idx17 : ∀ (t : Fin grid0.N), win0_17.index t (0 : Fin 2) = t.val ∧ win0_17.index t (1 : Fin 2) = 0 := by decide +kernel

theorem idx18 : ∀ (t : Fin grid0.N), win0_18.index t (0 : Fin 3) = 0 ∧ win0_18.index t (1 : Fin 3) = t.val
    ∧ win0_18.index t (2 : Fin 3) = 0 := by decide +kernel

/-- What point `t` writes back to the output array is block `t` of the specification's output. -/
theorem flushed17_eq (c : Dev nD) (t : Fin cfg0.N) :
    (dats m 0 c).flushed 17 t = ((cfg0.win 17).blk t).view.read (Elt Ideal) (outK m c) := by
  rw [Cert.KernelIdeal.Value.flushed17,
    blk17 (wK m c) (iblk m c 0 t) (iblk m c 1 t) (iblk m c 2 t) (iblk m c 3 t) (iblk m c 4 t) (iblk m c 5 t) (iblk m c 6 t)
      (iblk m c 7 t) (iblk m c 8 t) (iblk m c 9 t) (iblk m c 10 t) (iblk m c 11 t) (iblk m c 12 t) (iblk m c 13 t)
      (iblk m c 14 t) (iblk m c 15 t) (iblk m c 16 t) (blkW_iblk m c t)]
  funext j
  obtain ⟨b, n, rfl⟩ : ∃ (b : Fin 16) (n : Fin 512), j = ix2 b n := ⟨j 0, j 1, eq_ix2 j⟩
  show OUT (wK m c) (xbOf (iblk m c 0 t) b) (hbOf (View.ld (iblk m c 2 t) r0_1) b) (hbOf (View.ld (iblk m c 2 t) r0_9) b) n
    = outK m c (((cfg0.win 17).blk t).view.emb (ix2 b n))
  rw [xb_iblk, hb0_iblk, hb1_iblk]
  have he : ((cfg0.win 17).blk t).view.emb (ix2 b n) = (ix2 (brow t b) n : S32x512.Idx) := by
    funext a
    apply Fin.ext
    match a with
    | ⟨0, _⟩ => show win0_17.index t 0 * 16 + 1 * b.val = t.val * 16 + b.val; rw [(idx17 t).1]; omega
    | ⟨1, _⟩ => show win0_17.index t 1 * 512 + 1 * n.val = n.val; rw [(idx17 t).2]; omega
  rw [he]
  rfl

/-- What point `t` writes back to the state array is block `t` of the specification's stacked states. -/
theorem flushed18_eq (c : Dev nD) (t : Fin cfg0.N) :
    (dats m 0 c).flushed 18 t = ((cfg0.win 18).blk t).view.read (Elt Ideal) (hsK m c) := by
  rw [Cert.KernelIdeal.Value.flushed18,
    blk18 (wK m c) (iblk m c 0 t) (iblk m c 1 t) (iblk m c 2 t) (iblk m c 3 t) (iblk m c 4 t) (iblk m c 5 t) (iblk m c 6 t)
      (iblk m c 7 t) (iblk m c 8 t) (iblk m c 9 t) (iblk m c 10 t) (iblk m c 11 t) (iblk m c 12 t) (iblk m c 13 t)
      (iblk m c 14 t) (iblk m c 15 t) (iblk m c 16 t) (blkW_iblk m c t)]
  funext j
  obtain ⟨l, b, p, rfl⟩ : ∃ (l : Fin 2) (b : Fin 16) (p : Fin 32768), j = ix3 l b p := ⟨j 0, j 1, j 2, eq_ix3 j⟩
  have he : ((cfg0.win 18).blk t).view.emb (ix3 l b p) = (ix3 l (brow t b) p : S2x32x32768.Idx) := by
    funext a
    apply Fin.ext
    match a with
    | ⟨0, _⟩ => show win0_18.index t 0 * 2 + 1 * l.val = l.val; rw [(idx18 t).1]; omega
    | ⟨1, _⟩ => show win0_18.index t 1 * 16 + 1 * b.val = t.val * 16 + b.val; rw [(idx18 t).2.1]; omega
    | ⟨2, _⟩ => show win0_18.index t 2 * 32768 + 1 * p.val = p.val; rw [(idx18 t).2.2]; omega
  show (if l.val = 0 then
        H0N (wK m c) (xbOf (iblk m c 0 t) b) (hbOf (View.ld (iblk m c 2 t) r0_1) b) ⟨p.val % 64, _⟩ ⟨p.val / 64, _⟩
      else
        H1N (wK m c) (xbOf (iblk m c 0 t) b) (hbOf (View.ld (iblk m c 2 t) r0_1) b) (hbOf (View.ld (iblk m c 2 t) r0_9) b)
          ⟨p.val % 64, _⟩ ⟨p.val / 64, _⟩)
    = hsK m c (((cfg0.win 18).blk t).view.emb (ix3 l b p))
  rw [he, xb_iblk, hb0_iblk, hb1_iblk]
  rfl

/-- Every index of the output array is in the block of the point its batch row belongs to. -/
theorem cover17 (i : S32x512.Idx) :
    ∃ t : Fin cfg0.N, (cfg0.win 17).flush t = true ∧ i ∈ ((cfg0.win 17).blk t).view.set := by
  have h0 : (i 0).val < 32 := (i 0).isLt
  have h1 : (i 1).val < 512 := (i 1).isLt
  have hN : cfg0.N = 2 := rfl
  obtain ⟨t, ht⟩ : ∃ t : Fin cfg0.N, t.val = (i 0).val / 16 := ⟨⟨(i 0).val / 16, by omega⟩, rfl⟩
  refine ⟨t, flush0_17 t, ?_⟩
  show i ∈ ((View.whole main_v35_0).slice (win0_17.rect t)).set
  rw [View.set_slice_whole, Rect.mem_set_unit]
  intro a
  match a with
  | ⟨0, _⟩ =>
    show win0_17.index t 0 * 16 ≤ (i 0).val ∧ (i 0).val < win0_17.index t 0 * 16 + 16
    rw [(idx17 t).1, ht]; omega
  | ⟨1, _⟩ =>
    show win0_17.index t 1 * 512 ≤ (i 1).val ∧ (i 1).val < win0_17.index t 1 * 512 + 512
    rw [(idx17 t).2]; omega

/-- Every index of the state array is in the block of the point its batch row belongs to. -/
theorem cover18 (i : S2x32x32768.Idx) :
    ∃ t : Fin cfg0.N, (cfg0.win 18).flush t = true ∧ i ∈ ((cfg0.win 18).blk t).view.set := by
  have h0 : (i 0).val < 2 := (i 0).isLt
  have h1 : (i 1).val < 32 := (i 1).isLt
  have h2 : (i 2).val < 32768 := (i 2).isLt
  have hN : cfg0.N = 2 := rfl
  obtain ⟨t, ht⟩ : ∃ t : Fin cfg0.N, t.val = (i 1).val / 16 := ⟨⟨(i 1).val / 16, by omega⟩, rfl⟩
  refine ⟨t, flush0_18 t, ?_⟩
  show i ∈ ((View.whole main_v35_1).slice (win0_18.rect t)).set
  rw [View.set_slice_whole, Rect.mem_set_unit]
  intro a
  match a with
  | ⟨0, _⟩ =>
    show win0_18.index t 0 * 2 ≤ (i 0).val ∧ (i 0).val < win0_18.index t 0 * 2 + 2
    rw [(idx18 t).1]; omega
  | ⟨1, _⟩ =>
    show win0_18.index t 1 * 16 ≤ (i 1).val ∧ (i 1).val < win0_18.index t 1 * 16 + 16
    rw [(idx18 t).2.1, ht]; omega
  | ⟨2, _⟩ =>
    show win0_18.index t 2 * 32768 ≤ (i 2).val ∧ (i 2).val < win0_18.index t 2 * 32768 + 32768
    rw [(idx18 t).2.2]; omega

/-- After the run the output array is the specification's output of the arguments. -/
theorem final17 (c : Dev nD) : (dats m 0 c).arrAt 17 cfg0.N = outK m c :=
  (dats m 0 c).arrAt_eq_of_cover 17 (outK m c) (fun t _ => flushed17_eq m c t) (cover17)

/-- After the run the state array is the specification's stacked new states of the arguments. -/
theorem final18 (c : Dev nD) : (dats m 0 c).arrAt 18 cfg0.N = hsK m c :=
  (dats m 0 c).arrAt_eq_of_cover 18 (hsK m c) (fun t _ => flushed18_eq m c t) (cover18)

/-- The kernel program's run, read: both results at the specification's arrays of the arguments, the arguments
    unchanged. -/
theorem run : θ_run defs (onTc (τ := τ) (main (F := Ideal))) ⟨m, fun _ => 0, ρ⟩ fun r => ∀ c : Dev nD,
      r.2.mem ((c : Thread nD τ).loc main_v35_0) = outK m c
      ∧ r.2.mem ((c : Thread nD τ).loc main_v35_1) = hsK m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9)
      ∧ r.2.mem ((c : Thread nD τ).loc main_arg10) = m ((c : Thread nD τ).loc main_arg10)
      ∧ r.2.mem ((c : Thread nD τ).loc main_arg11) = m ((c : Thread nD τ).loc main_arg11)
      ∧ r.2.mem ((c : Thread nD τ).loc main_arg12) = m ((c : Thread nD τ).loc main_arg12) :=
  (θ_run defs _ _).mono (fun r h c => ⟨(h c).1.trans (final17 m c), (h c).2.1.trans (final18 m c), (h c).2.2⟩)
    (Cert.KernelIdeal.Value.run_blocks m ρ)

end Cert.KernelIdeal.KRead

end
-- ==== Proof.RefIns.lean ====
/-
  The reference program's argument arrays read as the specification's inputs.
-/
import proofs.«172483_g44504451121623_cont_8to1_c_180_13_alg».proof.Proof.Gen.ReferenceIdeal
import proofs.«172483_g44504451121623_cont_8to1_c_180_13_alg».proof.Proof.SpecArr
import Idealize.ShloMosaic.Lib.StableHlo.Run

noncomputable section

namespace Cert.ReferenceIdeal.RefRead

open Cert.ReferenceIdeal Cert.ReferenceIdeal.Gen Idealize.ShloMosaic Idealize.ShloMosaic.TcCoe Idealize.SL.Sem
open Idealize.ShloMosaic.StableHlo Cert.Dcgru

/-- The cells' weights as the reference's argument buffers hold them. -/
def wR (V0 : Valuation τ sig (Elt Ideal)) : Wts :=
  wtsOf (V0 (Proc.devRef .tc main_arg1)) (V0 (Proc.devRef .tc main_arg3)) (V0 (Proc.devRef .tc main_arg4))
    (V0 (Proc.devRef .tc main_arg5)) (V0 (Proc.devRef .tc main_arg6)) (V0 (Proc.devRef .tc main_arg7))
    (V0 (Proc.devRef .tc main_arg8)) (V0 (Proc.devRef .tc main_arg9)) (V0 (Proc.devRef .tc main_arg10))
    (V0 (Proc.devRef .tc main_arg11)) (V0 (Proc.devRef .tc main_arg12))

/-- Batch element `b`'s input signal in the reference's buffers. -/
def xR (V0 : Valuation τ sig (Elt Ideal)) (b : Fin 32) : Sig := sigOf (V0 (Proc.devRef .tc main_arg0)) b

/-- Batch element `b`'s layer-`l` state in the reference's buffers. -/
def hR (V0 : Valuation τ sig (Elt Ideal)) (l : Fin 2) (b : Fin 32) : St := stOf (V0 (Proc.devRef .tc main_arg2)) l b

end Cert.ReferenceIdeal.RefRead

end
-- ==== Proof.Ref0.lean ====
/-
  The reference's first cell read index by index: its new state, as a [32, 32768] array, is the specification's
  first new state of every batch element.

  Each layout operation (reshape, transpose, concatenation, slice, broadcast) is read at an index given by explicit
  coordinates; a matrix product is the sum over the contracted coordinate. The feature matrix [512, 2080] holds at
  (n, f * 32 + b) feature f of batch b at node n; its three taps, stacked and regrouped as [16384, 195], hold at
  (b * 512 + n, k) tap k % 3 of feature k / 3, which is exactly row k of the weights' (feature, tap) order.
-/
import proofs.«172483_g44504451121623_cont_8to1_c_180_13_alg».proof.Proof.RefRunP
import proofs.«172483_g44504451121623_cont_8to1_c_180_13_alg».proof.Proof.RefIns
import proofs.«172483_g44504451121623_cont_8to1_c_180_13_alg».proof.Proof.SpecAlg
import Idealize.ShloMosaic.Lib.ValueIdx
import Idealize.ShloMosaic.Lib.Pipeline.Value
import Idealize.ShloMosaic.Lib.StackMember
import Idealize.ShloMosaic.PureOps.Ideal.Laws

noncomputable section

namespace Cert.ReferenceIdeal.RefRead

open Cert.ReferenceIdeal Cert.ReferenceIdeal.Gen Cert.ReferenceIdeal.ValueP Idealize.ShloMosaic Idealize.ShloMosaic.TcCoe
open Idealize.SL.Sem Idealize.ShloMosaic.StableHlo Idealize.ShloMosaic.ValueIdx Cert.Dcgru

namespace Cell0

/-- The feature matrix of one layer-0 convolution: the input [32,512] and a state [32,32768] (node-major), joined on a
    new last axis, batch moved last and flattened. At row `n`, column `f * 32 + b` it holds feature `f` of batch `b`
    at node `n`. -/
theorem cat_apply (X : FVec Ideal S32x512 .f32) (S : FVec Ideal S32x32768 .f32)
    (h1 : S32x512.ShapeCasts S32x512x1) (h2 : S32x32768.ShapeCasts S32x512x64)
    (hc : Shape.Concatenates [S32x512x1, S32x512x64] S32x512x65 2)
    (ht : S32x512x65.Transposes [1, 2, 0] S512x65x32) (hs : S512x65x32.ShapeCasts S512x2080)
    (n : Fin 512) (f : Fin 65) (b : Fin 32) (hj : f.val * 32 + b.val < 2080) :
    shapeCast S512x2080 (transpose S512x65x32 [1, 2, 0]
        (concatenate S32x512x65 2 [⟨S32x512x1, shapeCast S32x512x1 X h1⟩, ⟨S32x512x64, shapeCast S32x512x64 S h2⟩] hc) ht) hs
      (ix2 n ⟨f.val * 32 + b.val, hj⟩)
    = feat0 (sigOf X b) (fun u n => S (ix2 b ⟨n.val * 64 + u.val, by have := n.isLt; have := u.isLt; omega⟩)) f n := by
  have hn := n.isLt
  have hf := f.isLt
  have hb := b.isLt
  -- the flattening [512,65,32] → [512,2080]
  refine (shapeCast_apply _ hs _ (ix3 n f b) (by
    rw [Shape.rowMajor_val_three, Shape.rowMajor_val_two]
    show (n.val * 65 + f.val) * 32 + b.val = n.val * 2080 + (f.val * 32 + b.val)
    omega)).trans ?_
  -- the transpose [1,2,0]: (n, f, b) reads (b, n, f)
  refine (transpose_apply _ _ ht _ (ix3 b n f)
    (fun a => match a with | ⟨0, _⟩ => rfl | ⟨1, _⟩ => rfl | ⟨2, _⟩ => rfl)).trans ?_
  unfold feat0
  by_cases h0 : f.val = 0
  · rw [dif_pos h0]
    -- the input's piece
    refine (concatenate_pair_apply_left (t := S32x512x65) (s₁ := S32x512x1) (s₂ := S32x512x64) (2 : Fin 3) _ _ hc (ix3 b n f) rfl (ix3 b n (⟨0, Nat.one_pos⟩ : Fin 1))
      (fun a => match a with | ⟨0, _⟩ => rfl | ⟨1, _⟩ => rfl | ⟨2, _⟩ => by show 0 = f.val; omega)).trans ?_
    refine (shapeCast_apply _ h1 _ (ix2 b n) (by
      rw [Shape.rowMajor_val_three, Shape.rowMajor_val_two]
      show b.val * 512 + n.val = (b.val * 512 + n.val) * 1 + 0
      omega)).trans ?_
    rfl
  · rw [dif_neg h0]
    -- the state's piece
    refine (concatenate_pair_apply_right (t := S32x512x65) (s₁ := S32x512x1) (s₂ := S32x512x64) (2 : Fin 3) _ _ hc (ix3 b n f) rfl rfl (ix3 b n (⟨f.val - 1, by omega⟩ : Fin 64))
      (fun a => match a with
        | ⟨0, _⟩ => fun _ => rfl
        | ⟨1, _⟩ => fun _ => rfl
        | ⟨2, _⟩ => fun h => absurd rfl h)
      (by show f.val - 1 + 1 = f.val; omega)).trans ?_
    refine (shapeCast_apply _ h2 _ (ix2 b ⟨n.val * 64 + (f.val - 1), by omega⟩) (by
      rw [Shape.rowMajor_val_three, Shape.rowMajor_val_two]
      show b.val * 32768 + (n.val * 64 + (f.val - 1)) = (b.val * 512 + n.val) * 64 + (f.val - 1)
      omega)).trans ?_
    rfl

/-- The same with the input and the state named: if batch `b`'s row of `X` is the signal `x` and its row of `S` the
    state `s` (node-major), column `f * 32 + b` of the feature matrix is feature `f` of (`x`, `s`). -/
theorem cat_read (X : FVec Ideal S32x512 .f32) (S : FVec Ideal S32x32768 .f32)
    (h1 : S32x512.ShapeCasts S32x512x1) (h2 : S32x32768.ShapeCasts S32x512x64)
    (hc : Shape.Concatenates [S32x512x1, S32x512x64] S32x512x65 2)
    (ht : S32x512x65.Transposes [1, 2, 0] S512x65x32) (hs : S512x65x32.ShapeCasts S512x2080)
    (b : Fin 32) (x : Sig) (s : St) (hx : ∀ n : Fin 512, X (ix2 b n) = x n)
    (hS : ∀ (u : Fin 64) (n : Fin 512) (hp : n.val * 64 + u.val < 32768), S (ix2 b ⟨n.val * 64 + u.val, hp⟩) = s u n)
    (n : Fin 512) (f : Fin 65) (hj : f.val * 32 + b.val < 2080) :
    shapeCast S512x2080 (transpose S512x65x32 [1, 2, 0]
        (concatenate S32x512x65 2 [⟨S32x512x1, shapeCast S32x512x1 X h1⟩, ⟨S32x512x64, shapeCast S32x512x64 S h2⟩] hc) ht) hs
      (ix2 n ⟨f.val * 32 + b.val, hj⟩)
    = feat0 x s f n := by
  have e1 : sigOf X b = x := funext hx
  have e2 : (fun (u : Fin 64) (n : Fin 512) =>
      S (ix2 b ⟨n.val * 64 + u.val, by have := n.isLt; have := u.isLt; omega⟩)) = s :=
    funext fun u => funext fun n => hS u n _
  rw [cat_apply, e1, e2]

/-- The adjacency product read at an index: the sum over the contracted node. -/
theorem mmA_apply (A : FVec Ideal S512x512 .f32) (Z : FVec Ideal S512x2080 .f32) (n : Fin 512) (j : Fin 2080) :
    Host.dotGeneral dot_S512x512_S512x2080_S512x2080_1_0_0_1_n_n none A Z (ix2 n j)
      = ∑ k : Fin 512, A (ix2 n k) * Z (ix2 k j) :=
  StackMember.dotGeneral_plain_apply (m := 512) (n := 2080) (k := 512) none A Z n j

/-- A scalar literal broadcast to a matrix reads the literal everywhere. -/
theorem splat_apply {t : Shape} (w : BitVec 32) (hb : S_.BroadcastsInDim t (![] : Fin 0 → Fin t.rank)) (j : t.Idx) :
    broadcastInDim t (![] : Fin 0 → Fin t.rank) hb (constant (F := Ideal) S_ .f32 w) j = Ideal.ofBits .f32 w :=
  (broadcastInDim_apply _ hb _ j ix0 (fun a => a.elim0)).trans rfl

/-- The second and third taps of a feature matrix `Z` whose column `f * 32 + b` is the signal `g f b`. -/
theorem tap1_apply (A : FVec Ideal S512x512 .f32) (Z : FVec Ideal S512x2080 .f32) (g : Fin 65 → Fin 32 → Sig)
    (hZ : ∀ (n : Fin 512) (f : Fin 65) (b : Fin 32) (hj : f.val * 32 + b.val < 2080),
      Z (ix2 n ⟨f.val * 32 + b.val, hj⟩) = g f b n)
    (n : Fin 512) (f : Fin 65) (b : Fin 32) (hj : f.val * 32 + b.val < 2080) :
    Host.dotGeneral dot_S512x512_S512x2080_S512x2080_1_0_0_1_n_n none A Z (ix2 n ⟨f.val * 32 + b.val, hj⟩)
      = mv (fun n k => A (ix2 n k)) (g f b) n := by
  rw [mmA_apply]
  exact Finset.sum_congr rfl fun k _ => by rw [hZ]

theorem tap2_apply (A : FVec Ideal S512x512 .f32) (Z : FVec Ideal S512x2080 .f32) (g : Fin 65 → Fin 32 → Sig)
    (hZ : ∀ (n : Fin 512) (f : Fin 65) (b : Fin 32) (hj : f.val * 32 + b.val < 2080),
      Z (ix2 n ⟨f.val * 32 + b.val, hj⟩) = g f b n)
    (hb : S_.BroadcastsInDim S512x2080 (![] : Fin 0 → Fin S512x2080.rank))
    (n : Fin 512) (f : Fin 65) (b : Fin 32) (hj : f.val * 32 + b.val < 2080) :
    subf (mulf (broadcastInDim S512x2080 (![] : Fin 0 → Fin S512x2080.rank) hb (constant (F := Ideal) S_ .f32 0x40000000#32))
        (Host.dotGeneral dot_S512x512_S512x2080_S512x2080_1_0_0_1_n_n none A
          (Host.dotGeneral dot_S512x512_S512x2080_S512x2080_1_0_0_1_n_n none A Z))) Z (ix2 n ⟨f.val * 32 + b.val, hj⟩)
      = two * mv (fun n k => A (ix2 n k)) (mv (fun n k => A (ix2 n k)) (g f b)) n - g f b n := by
  rw [subf_apply, mulf_apply, splat_apply, hZ, mmA_apply]
  congr 2
  exact Finset.sum_congr rfl fun k _ => by rw [tap1_apply A Z g hZ]

/-- One array given a new leading unit axis, read there. -/
theorem lead_apply (T : FVec Ideal S512x2080 .f32) (hb : S512x2080.BroadcastsInDim S1x512x2080 (![1, 2] : Fin 2 → Fin S1x512x2080.rank))
    (z : Fin 1) (n : Fin 512) (c : Fin 2080) :
    broadcastInDim S1x512x2080 (![1, 2] : Fin 2 → Fin S1x512x2080.rank) hb T (ix3 z n c) = T (ix2 n c) :=
  broadcastInDim_apply _ hb T (ix3 z n c) (ix2 n c) (fun a => match a with | ⟨0, _⟩ => rfl | ⟨1, _⟩ => rfl)

/-- The stacked-taps matrix [16384,195]: three [512,2080] arrays on a new leading axis, the columns split into
    (feature, batch), batch moved first and tap last, flattened. Row `b * 512 + n`, column `k` holds array `k % 3` at
    row `n`, column `(k / 3) * 32 + b`. -/
theorem stack_apply (T0 T1 T2 : FVec Ideal S512x2080 .f32)
    (hb : S512x2080.BroadcastsInDim S1x512x2080 (![1, 2] : Fin 2 → Fin S1x512x2080.rank))
    (hc : Shape.Concatenates [S1x512x2080, S1x512x2080, S1x512x2080] S3x512x2080 0)
    (h1 : S3x512x2080.ShapeCasts S3x512x65x32) (ht : S3x512x65x32.Transposes [3, 1, 2, 0] S32x512x65x3)
    (h2 : S32x512x65x3.ShapeCasts S16384x195)
    (b : Fin 32) (n : Fin 512) (k : Fin 195) (hr : b.val * 512 + n.val < 16384) (hj : k.val / 3 * 32 + b.val < 2080) :
    shapeCast S16384x195 (transpose S32x512x65x3 [3, 1, 2, 0] (shapeCast S3x512x65x32 (concatenate S3x512x2080 0
      [⟨S1x512x2080, broadcastInDim S1x512x2080 (![1, 2] : Fin 2 → Fin S1x512x2080.rank) hb T0⟩,
       ⟨S1x512x2080, broadcastInDim S1x512x2080 (![1, 2] : Fin 2 → Fin S1x512x2080.rank) hb T1⟩,
       ⟨S1x512x2080, broadcastInDim S1x512x2080 (![1, 2] : Fin 2 → Fin S1x512x2080.rank) hb T2⟩] hc) h1) ht) h2
      (ix2 ⟨b.val * 512 + n.val, hr⟩ k)
    = if k.val % 3 = 0 then T0 (ix2 n ⟨k.val / 3 * 32 + b.val, hj⟩)
      else if k.val % 3 = 1 then T1 (ix2 n ⟨k.val / 3 * 32 + b.val, hj⟩)
      else T2 (ix2 n ⟨k.val / 3 * 32 + b.val, hj⟩) := by
  have hn := n.isLt
  have hk := k.isLt
  have hb' := b.isLt
  have hm : k.val % 3 < 3 := Nat.mod_lt _ (by decide)
  have hf : k.val / 3 < 65 := by omega
  -- the flattening [32,512,65,3] → [16384,195]
  refine (shapeCast_apply _ h2 _ (ix4 b n (⟨k.val / 3, hf⟩ : Fin 65) (⟨k.val % 3, hm⟩ : Fin 3)) (by
    rw [Shape.rowMajor_val_four, Shape.rowMajor_val_two]
    show ((b.val * 512 + n.val) * 65 + k.val / 3) * 3 + k.val % 3 = (b.val * 512 + n.val) * 195 + k.val
    omega)).trans ?_
  -- the transpose [3,1,2,0]: (b, n, f, m) reads (m, n, f, b)
  refine (transpose_apply _ _ ht _ (ix4 (⟨k.val % 3, hm⟩ : Fin 3) n (⟨k.val / 3, hf⟩ : Fin 65) b)
    (fun a => match a with | ⟨0, _⟩ => rfl | ⟨1, _⟩ => rfl | ⟨2, _⟩ => rfl | ⟨3, _⟩ => rfl)).trans ?_
  -- the split of the columns [3,512,2080] → [3,512,65,32]
  refine (shapeCast_apply _ h1 _ (ix3 (⟨k.val % 3, hm⟩ : Fin 3) n (⟨k.val / 3 * 32 + b.val, hj⟩ : Fin 2080)) (by
    rw [Shape.rowMajor_val_three, Shape.rowMajor_val_four]
    show (k.val % 3 * 512 + n.val) * 2080 + (k.val / 3 * 32 + b.val) = ((k.val % 3 * 512 + n.val) * 65 + k.val / 3) * 32 + b.val
    omega)).trans ?_
  -- the piece the leading coordinate names
  by_cases m0 : k.val % 3 = 0
  · rw [if_pos m0]
    refine (concatenate_apply_piece (t := S3x512x2080) (0 : Fin 3)
      [⟨S1x512x2080, broadcastInDim S1x512x2080 (![1, 2] : Fin 2 → Fin S1x512x2080.rank) hb T0⟩,
       ⟨S1x512x2080, broadcastInDim S1x512x2080 (![1, 2] : Fin 2 → Fin S1x512x2080.rank) hb T1⟩,
       ⟨S1x512x2080, broadcastInDim S1x512x2080 (![1, 2] : Fin 2 → Fin S1x512x2080.rank) hb T2⟩]
      hc _ 0 (by show (0 : Nat) < 3; omega) S1x512x2080 _ rfl rfl 0 rfl
      (ix3 (0 : Fin 1) n (⟨k.val / 3 * 32 + b.val, hj⟩ : Fin 2080))
      (fun a => match a with
        | ⟨0, _⟩ => fun h => absurd rfl h
        | ⟨1, _⟩ => fun _ => rfl
        | ⟨2, _⟩ => fun _ => rfl)
      (by show 0 + 0 = k.val % 3; omega)).trans ?_
    exact lead_apply T0 hb _ _ _
  · rw [if_neg m0]
    by_cases m1 : k.val % 3 = 1
    · rw [if_pos m1]
      refine (concatenate_apply_piece (t := S3x512x2080) (0 : Fin 3)
      [⟨S1x512x2080, broadcastInDim S1x512x2080 (![1, 2] : Fin 2 → Fin S1x512x2080.rank) hb T0⟩,
       ⟨S1x512x2080, broadcastInDim S1x512x2080 (![1, 2] : Fin 2 → Fin S1x512x2080.rank) hb T1⟩,
       ⟨S1x512x2080, broadcastInDim S1x512x2080 (![1, 2] : Fin 2 → Fin S1x512x2080.rank) hb T2⟩]
      hc _ 1 (by show (1 : Nat) < 3; omega) S1x512x2080 _ rfl rfl 1 rfl
        (ix3 (0 : Fin 1) n (⟨k.val / 3 * 32 + b.val, hj⟩ : Fin 2080))
        (fun a => match a with
          | ⟨0, _⟩ => fun h => absurd rfl h
          | ⟨1, _⟩ => fun _ => rfl
          | ⟨2, _⟩ => fun _ => rfl)
        (by show 1 + 0 = k.val % 3; omega)).trans ?_
      exact lead_apply T1 hb _ _ _
    · rw [if_neg m1]
      refine (concatenate_apply_piece (t := S3x512x2080) (0 : Fin 3)
      [⟨S1x512x2080, broadcastInDim S1x512x2080 (![1, 2] : Fin 2 → Fin S1x512x2080.rank) hb T0⟩,
       ⟨S1x512x2080, broadcastInDim S1x512x2080 (![1, 2] : Fin 2 → Fin S1x512x2080.rank) hb T1⟩,
       ⟨S1x512x2080, broadcastInDim S1x512x2080 (![1, 2] : Fin 2 → Fin S1x512x2080.rank) hb T2⟩]
      hc _ 2 (by show (2 : Nat) < 3; omega) S1x512x2080 _ rfl rfl 2 rfl
        (ix3 (0 : Fin 1) n (⟨k.val / 3 * 32 + b.val, hj⟩ : Fin 2080))
        (fun a => match a with
          | ⟨0, _⟩ => fun h => absurd rfl h
          | ⟨1, _⟩ => fun _ => rfl
          | ⟨2, _⟩ => fun _ => rfl)
        (by show 2 + 0 = k.val % 3; omega)).trans ?_
      exact lead_apply T2 hb _ _ _

/-- The contraction with a [195,128] weight matrix plus the bias row, read at an index. -/
theorem gconv128_apply (M : FVec Ideal S16384x195 .f32) (W : FVec Ideal S195x128 .f32) (B : FVec Ideal S128 .f32)
    (hb1 : S128.BroadcastsInDim S1x128 (![1] : Fin 1 → Fin S1x128.rank))
    (hb2 : S1x128.BroadcastsInDim S16384x128 (![0, 1] : Fin 2 → Fin S16384x128.rank)) (r : Fin 16384) (o : Fin 128) :
    addf (Host.dotGeneral dot_S16384x195_S195x128_S16384x128_1_0_0_1_n_n none M W)
        (broadcastInDim S16384x128 (![0, 1] : Fin 2 → Fin S16384x128.rank) hb2
          (broadcastInDim S1x128 (![1] : Fin 1 → Fin S1x128.rank) hb1 B)) (ix2 r o)
      = (∑ k : Fin 195, M (ix2 r k) * W (ix2 k o)) + B (ix1 o) := by
  rw [addf_apply]
  congr 1
  · exact StackMember.dotGeneral_plain_apply (m := 16384) (n := 128) (k := 195) none M W r o
  · refine (broadcastInDim_apply _ hb2 _ (ix2 r o) (ix2 (0 : Fin 1) o)
      (fun a => match a with | ⟨0, _⟩ => rfl | ⟨1, _⟩ => rfl)).trans ?_
    exact broadcastInDim_apply _ hb1 B (ix2 (0 : Fin 1) o) (ix1 o) (fun a => match a with | ⟨0, _⟩ => rfl)

/-- The contraction with a [195,64] weight matrix plus the bias row, read at an index. -/
theorem gconv64_apply (M : FVec Ideal S16384x195 .f32) (W : FVec Ideal S195x64 .f32) (B : FVec Ideal S64 .f32)
    (hb1 : S64.BroadcastsInDim S1x64 (![1] : Fin 1 → Fin S1x64.rank))
    (hb2 : S1x64.BroadcastsInDim S16384x64 (![0, 1] : Fin 2 → Fin S16384x64.rank)) (r : Fin 16384) (o : Fin 64) :
    addf (Host.dotGeneral dot_S16384x195_S195x64_S16384x64_1_0_0_1_n_n none M W)
        (broadcastInDim S16384x64 (![0, 1] : Fin 2 → Fin S16384x64.rank) hb2
          (broadcastInDim S1x64 (![1] : Fin 1 → Fin S1x64.rank) hb1 B)) (ix2 r o)
      = (∑ k : Fin 195, M (ix2 r k) * W (ix2 k o)) + B (ix1 o) := by
  rw [addf_apply]
  congr 1
  · exact StackMember.dotGeneral_plain_apply (m := 16384) (n := 64) (k := 195) none M W r o
  · refine (broadcastInDim_apply _ hb2 _ (ix2 r o) (ix2 (0 : Fin 1) o)
      (fun a => match a with | ⟨0, _⟩ => rfl | ⟨1, _⟩ => rfl)).trans ?_
    exact broadcastInDim_apply _ hb1 B (ix2 (0 : Fin 1) o) (ix1 o) (fun a => match a with | ⟨0, _⟩ => rfl)

/-- A tap read at a node, by cases on the tap's number. -/
theorem tap_apply (A : Fin 512 → Fin 512 → EReal) (m : Fin 3) (z : Sig) (n : Fin 512) :
    tap A m z n = if m.val = 0 then z n else if m.val = 1 then mv A z n else two * mv A (mv A z) n - z n := by
  unfold tap
  split_ifs <;> rfl

/-- One graph convolution of the reference read at (batch, node, output): from a feature matrix `Z` whose column
    `f * 32 + b` is feature `f` of batch `b`, its two further taps, the stacked matrix, the weights and the bias, it is the
    specification's contraction plus the bias. -/
theorem conv128_read (A : FVec Ideal S512x512 .f32) (Z T1 T2 : FVec Ideal S512x2080 .f32) (x : Fin 32 → Sig) (s : Fin 32 → St)
    (hZ : ∀ (n : Fin 512) (f : Fin 65) (b : Fin 32) (hj : f.val * 32 + b.val < 2080),
      Z (ix2 n ⟨f.val * 32 + b.val, hj⟩) = feat0 (x b) (s b) f n)
    (hbs : S_.BroadcastsInDim S512x2080 (![] : Fin 0 → Fin S512x2080.rank))
    (hT1 : T1 = Host.dotGeneral dot_S512x512_S512x2080_S512x2080_1_0_0_1_n_n none A Z)
    (hT2 : T2 = subf (mulf (broadcastInDim S512x2080 (![] : Fin 0 → Fin S512x2080.rank) hbs (constant (F := Ideal) S_ .f32 0x40000000#32))
        (Host.dotGeneral dot_S512x512_S512x2080_S512x2080_1_0_0_1_n_n none A T1)) Z)
    (W : FVec Ideal S195x128 .f32) (B : FVec Ideal S128 .f32)
    (hb : S512x2080.BroadcastsInDim S1x512x2080 (![1, 2] : Fin 2 → Fin S1x512x2080.rank))
    (hc : Shape.Concatenates [S1x512x2080, S1x512x2080, S1x512x2080] S3x512x2080 0)
    (h1 : S3x512x2080.ShapeCasts S3x512x65x32) (ht : S3x512x65x32.Transposes [3, 1, 2, 0] S32x512x65x3)
    (h2 : S32x512x65x3.ShapeCasts S16384x195)
    (hb1 : S128.BroadcastsInDim S1x128 (![1] : Fin 1 → Fin S1x128.rank))
    (hb2 : S1x128.BroadcastsInDim S16384x128 (![0, 1] : Fin 2 → Fin S16384x128.rank))
    (b : Fin 32) (n : Fin 512) (o : Fin 128) (hr : b.val * 512 + n.val < 16384) :
    addf (Host.dotGeneral dot_S16384x195_S195x128_S16384x128_1_0_0_1_n_n none
          (shapeCast S16384x195 (transpose S32x512x65x3 [3, 1, 2, 0] (shapeCast S3x512x65x32 (concatenate S3x512x2080 0
            [⟨S1x512x2080, broadcastInDim S1x512x2080 (![1, 2] : Fin 2 → Fin S1x512x2080.rank) hb Z⟩,
             ⟨S1x512x2080, broadcastInDim S1x512x2080 (![1, 2] : Fin 2 → Fin S1x512x2080.rank) hb T1⟩,
             ⟨S1x512x2080, broadcastInDim S1x512x2080 (![1, 2] : Fin 2 → Fin S1x512x2080.rank) hb T2⟩] hc) h1) ht) h2) W)
        (broadcastInDim S16384x128 (![0, 1] : Fin 2 → Fin S16384x128.rank) hb2
          (broadcastInDim S1x128 (![1] : Fin 1 → Fin S1x128.rank) hb1 B)) (ix2 ⟨b.val * 512 + n.val, hr⟩ o)
      = gsum0 (fun n k => A (ix2 n k)) (x b) (s b) (fun k o => W (ix2 k o)) n o + B (ix1 o) := by
  subst hT1
  subst hT2
  rw [gconv128_apply]
  congr 1
  unfold gsum0
  refine Finset.sum_congr rfl fun k _ => ?_
  congr 1
  have hk := k.isLt
  have hb' := b.isLt
  have hj : k.val / 3 * 32 + b.val < 2080 := by omega
  rw [stack_apply _ _ _ hb hc h1 ht h2 b n k hr hj, tap_apply]
  show _ = if k.val % 3 = 0 then _ else if k.val % 3 = 1 then _ else _
  by_cases m0 : k.val % 3 = 0
  · rw [if_pos m0, if_pos m0]
    exact hZ n ⟨k.val / 3, by omega⟩ b hj
  · rw [if_neg m0, if_neg m0]
    by_cases m1 : k.val % 3 = 1
    · rw [if_pos m1, if_pos m1]
      exact tap1_apply A Z (fun f b => feat0 (x b) (s b) f) hZ n ⟨k.val / 3, by omega⟩ b hj
    · rw [if_neg m1, if_neg m1]
      exact tap2_apply A Z (fun f b => feat0 (x b) (s b) f) hZ hbs n ⟨k.val / 3, by omega⟩ b hj

/-- One graph convolution of the reference read at (batch, node, output): from a feature matrix `Z` whose column
    `f * 32 + b` is feature `f` of batch `b`, its two further taps, the stacked matrix, the weights and the bias, it is the
    specification's contraction plus the bias. -/
theorem conv64_read (A : FVec Ideal S512x512 .f32) (Z T1 T2 : FVec Ideal S512x2080 .f32) (x : Fin 32 → Sig) (s : Fin 32 → St)
    (hZ : ∀ (n : Fin 512) (f : Fin 65) (b : Fin 32) (hj : f.val * 32 + b.val < 2080),
      Z (ix2 n ⟨f.val * 32 + b.val, hj⟩) = feat0 (x b) (s b) f n)
    (hbs : S_.BroadcastsInDim S512x2080 (![] : Fin 0 → Fin S512x2080.rank))
    (hT1 : T1 = Host.dotGeneral dot_S512x512_S512x2080_S512x2080_1_0_0_1_n_n none A Z)
    (hT2 : T2 = subf (mulf (broadcastInDim S512x2080 (![] : Fin 0 → Fin S512x2080.rank) hbs (constant (F := Ideal) S_ .f32 0x40000000#32))
        (Host.dotGeneral dot_S512x512_S512x2080_S512x2080_1_0_0_1_n_n none A T1)) Z)
    (W : FVec Ideal S195x64 .f32) (B : FVec Ideal S64 .f32)
    (hb : S512x2080.BroadcastsInDim S1x512x2080 (![1, 2] : Fin 2 → Fin S1x512x2080.rank))
    (hc : Shape.Concatenates [S1x512x2080, S1x512x2080, S1x512x2080] S3x512x2080 0)
    (h1 : S3x512x2080.ShapeCasts S3x512x65x32) (ht : S3x512x65x32.Transposes [3, 1, 2, 0] S32x512x65x3)
    (h2 : S32x512x65x3.ShapeCasts S16384x195)
    (hb1 : S64.BroadcastsInDim S1x64 (![1] : Fin 1 → Fin S1x64.rank))
    (hb2 : S1x64.BroadcastsInDim S16384x64 (![0, 1] : Fin 2 → Fin S16384x64.rank))
    (b : Fin 32) (n : Fin 512) (o : Fin 64) (hr : b.val * 512 + n.val < 16384) :
    addf (Host.dotGeneral dot_S16384x195_S195x64_S16384x64_1_0_0_1_n_n none
          (shapeCast S16384x195 (transpose S32x512x65x3 [3, 1, 2, 0] (shapeCast S3x512x65x32 (concatenate S3x512x2080 0
            [⟨S1x512x2080, broadcastInDim S1x512x2080 (![1, 2] : Fin 2 → Fin S1x512x2080.rank) hb Z⟩,
             ⟨S1x512x2080, broadcastInDim S1x512x2080 (![1, 2] : Fin 2 → Fin S1x512x2080.rank) hb T1⟩,
             ⟨S1x512x2080, broadcastInDim S1x512x2080 (![1, 2] : Fin 2 → Fin S1x512x2080.rank) hb T2⟩] hc) h1) ht) h2) W)
        (broadcastInDim S16384x64 (![0, 1] : Fin 2 → Fin S16384x64.rank) hb2
          (broadcastInDim S1x64 (![1] : Fin 1 → Fin S1x64.rank) hb1 B)) (ix2 ⟨b.val * 512 + n.val, hr⟩ o)
      = gsum0 (fun n k => A (ix2 n k)) (x b) (s b) (fun k o => W (ix2 k o)) n o + B (ix1 o) := by
  subst hT1
  subst hT2
  rw [gconv64_apply]
  congr 1
  unfold gsum0
  refine Finset.sum_congr rfl fun k _ => ?_
  congr 1
  have hk := k.isLt
  have hb' := b.isLt
  have hj : k.val / 3 * 32 + b.val < 2080 := by omega
  rw [stack_apply _ _ _ hb hc h1 ht h2 b n k hr hj, tap_apply]
  show _ = if k.val % 3 = 0 then _ else if k.val % 3 = 1 then _ else _
  by_cases m0 : k.val % 3 = 0
  · rw [if_pos m0, if_pos m0]
    exact hZ n ⟨k.val / 3, by omega⟩ b hj
  · rw [if_neg m0, if_neg m0]
    by_cases m1 : k.val % 3 = 1
    · rw [if_pos m1, if_pos m1]
      exact tap1_apply A Z (fun f b => feat0 (x b) (s b) f) hZ n ⟨k.val / 3, by omega⟩ b hj
    · rw [if_neg m1, if_neg m1]
      exact tap2_apply A Z (fun f b => feat0 (x b) (s b) f) hZ hbs n ⟨k.val / 3, by omega⟩ b hj

/-- The host's elementwise operations read at an index, on extended reals. -/
theorem hneg_apply {s : Shape} (x : FVec Ideal s .f32) (i : s.Idx) : Host.negf x i = -(x i) := rfl
theorem hexp_apply {s : Shape} (x : FVec Ideal s .f32) (i : s.Idx) : Host.exp x i = Ideal.exp (x i) := rfl
theorem hdiv_apply {s : Shape} (x y : FVec Ideal s .f32) (i : s.Idx) : Host.divf x y i = Ideal.div (x i) (y i) := rfl
theorem htanh_apply {s : Shape} (x : FVec Ideal s .f32) (i : s.Idx) : Host.tanh x i = Ideal.tanh (x i) := rfl

/-- The gates: the logistic, spelt `1 / (1 + exp (-y))`, of a [16384,128] array regrouped as [32,512,128]. -/
theorem gate_read (Y : FVec Ideal S16384x128 .f32) (hb : S_.BroadcastsInDim S32x65536 (![] : Fin 0 → Fin S32x65536.rank))
    (h1 : S16384x128.ShapeCasts S32x65536) (h2 : S32x65536.ShapeCasts S32x512x128)
    (b : Fin 32) (n : Fin 512) (o : Fin 128) (hr : b.val * 512 + n.val < 16384) :
    shapeCast S32x512x128 (Host.divf (broadcastInDim S32x65536 (![] : Fin 0 → Fin S32x65536.rank) hb (constant (F := Ideal) S_ .f32 0x3F800000#32))
      (addf (broadcastInDim S32x65536 (![] : Fin 0 → Fin S32x65536.rank) hb (constant (F := Ideal) S_ .f32 0x3F800000#32))
        (Host.exp (Host.negf (shapeCast S32x65536 Y h1))))) h2 (ix3 b n o)
      = Ideal.logistic (Y (ix2 ⟨b.val * 512 + n.val, hr⟩ o)) := by
  have hn := n.isLt
  have ho := o.isLt
  have hb' := b.isLt
  have hp : n.val * 128 + o.val < 65536 := by omega
  refine (shapeCast_apply _ h2 _ (ix2 b (⟨n.val * 128 + o.val, hp⟩ : Fin 65536)) (by
    rw [Shape.rowMajor_val_two, Shape.rowMajor_val_three]
    show b.val * 65536 + (n.val * 128 + o.val) = (b.val * 512 + n.val) * 128 + o.val
    omega)).trans ?_
  rw [hdiv_apply, addf_apply, splat_apply, hexp_apply, hneg_apply,
    shapeCast_apply Y h1 (ix2 b (⟨n.val * 128 + o.val, hp⟩ : Fin 65536)) (ix2 ⟨b.val * 512 + n.val, hr⟩ o) (by
      rw [Shape.rowMajor_val_two, Shape.rowMajor_val_two]
      show (b.val * 512 + n.val) * 128 + o.val = b.val * 65536 + (n.val * 128 + o.val)
      omega)]
  exact logistic_host _

/-- One half of the gates (outputs `c … c + 63`) laid out node-major as [32,32768]. -/
theorem half_read (G : FVec Ideal S32x512x128 .f32) (c : Nat) (hs : S32x512x128.Slices ![0, 0, c] S32x512x64)
    (h : S32x512x64.ShapeCasts S32x32768) (b : Fin 32) (n : Fin 512) (u : Fin 64) (hp : n.val * 64 + u.val < 32768)
    (v : Fin 128) (hv : v.val = c + u.val) :
    shapeCast S32x32768 (extractStridedSlice S32x512x64 ![0, 0, c] G hs) h (ix2 b ⟨n.val * 64 + u.val, hp⟩)
      = G (ix3 b n v) := by
  have hn := n.isLt
  have hu := u.isLt
  refine (shapeCast_apply _ h _ (ix3 b n u) (by
    rw [Shape.rowMajor_val_three, Shape.rowMajor_val_two]
    show (b.val * 512 + n.val) * 64 + u.val = b.val * 32768 + (n.val * 64 + u.val)
    omega)).trans ?_
  exact extractStridedSlice_apply _ G hs (ix3 b n u) (ix3 b n v) (fun a => match a with
    | ⟨0, _⟩ => by show b.val = 0 + b.val; omega
    | ⟨1, _⟩ => by show n.val = 0 + n.val; omega
    | ⟨2, _⟩ => by show v.val = c + u.val; exact hv)

/-- The first layer's state out of the stacked states [2,32,32768]. -/
theorem first_read (Hd : FVec Ideal S2x32x32768 .f32) (hs : S2x32x32768.Slices ![0, 0, 0] S1x32x32768)
    (h : S1x32x32768.ShapeCasts S32x32768) (b : Fin 32) (p : Fin 32768) :
    shapeCast S32x32768 (extractStridedSlice S1x32x32768 ![0, 0, 0] Hd hs) h (ix2 b p) = Hd (ix3 (0 : Fin 2) b p) := by
  refine (shapeCast_apply _ h _ (ix3 (0 : Fin 1) b p) (by
    rw [Shape.rowMajor_val_three, Shape.rowMajor_val_two]
    show (0 * 32 + b.val) * 32768 + p.val = b.val * 32768 + p.val
    omega)).trans ?_
  exact extractStridedSlice_apply _ Hd hs (ix3 (0 : Fin 1) b p) (ix3 (0 : Fin 2) b p) (fun a => match a with
    | ⟨0, _⟩ => by show 0 = 0 + 0; rfl
    | ⟨1, _⟩ => by show b.val = 0 + b.val; omega
    | ⟨2, _⟩ => by show p.val = 0 + p.val; omega)

/-- A [16384,64] array regrouped node-major as [32,32768]. -/
theorem flat64_read (Y : FVec Ideal S16384x64 .f32) (h : S16384x64.ShapeCasts S32x32768) (b : Fin 32) (n : Fin 512) (u : Fin 64)
    (hp : n.val * 64 + u.val < 32768) (hr : b.val * 512 + n.val < 16384) :
    shapeCast S32x32768 Y h (ix2 b ⟨n.val * 64 + u.val, hp⟩) = Y (ix2 ⟨b.val * 512 + n.val, hr⟩ u) :=
  shapeCast_apply Y h _ _ (by
    rw [Shape.rowMajor_val_two, Shape.rowMajor_val_two]
    show (b.val * 512 + n.val) * 64 + u.val = b.val * 32768 + (n.val * 64 + u.val)
    omega)

/-- The mix `g * h + (1 - g) * tanh c`, with the candidate's argument rewritten. -/
theorem mix_congr {g h c c' : EReal} (hc : c = c') : g * h + (one - g) * Ideal.tanh c = mix g h (Ideal.tanh c') := by
  subst hc
  rfl

section Assembly
variable (V0 : Valuation τ sig (Elt Ideal))

/-- The first layer's state, batch `b`, position `p`. -/
theorem v1_apply (b : Fin 32) (p : Fin 32768) :
    res_main_v1 V0 (ix2 b p) = V0 (Proc.devRef .tc main_arg2) (ix3 (0 : Fin 2) b p) := by
  unfold res_main_v1
  exact first_read _ _ _ b p

/-- The gates' feature matrix. -/
theorem v6_apply (n : Fin 512) (f : Fin 65) (b : Fin 32) (hj : f.val * 32 + b.val < 2080) :
    res_main_v6 V0 (ix2 n ⟨f.val * 32 + b.val, hj⟩) = feat0 (xR V0 b) (hR V0 0 b) f n := by
  unfold res_main_v6
  exact cat_read _ _ _ _ _ _ _ b (xR V0 b) (hR V0 0 b) (fun _ => rfl) (fun u n hp => v1_apply V0 b _) n f hj

/-- The gates. -/
theorem v30_apply (b : Fin 32) (n : Fin 512) (o : Fin 128) :
    res_main_v30 V0 (ix3 b n o) = gate0 (wR V0) (xR V0 b) (hR V0 0 b) n o := by
  have hr : b.val * 512 + n.val < 16384 := by have := b.isLt; have := n.isLt; omega
  unfold res_main_v30
  refine (gate_read _ _ _ _ b n o hr).trans ?_
  unfold gate0
  congr 1
  exact conv128_read (V0 (Proc.devRef .tc main_arg1)) (res_main_v6 V0) (res_main_v7 V0) _ (xR V0) (hR V0 0)
    (fun n f b hj => v6_apply V0 n f b hj) _ rfl rfl (V0 (Proc.devRef .tc main_arg3)) (V0 (Proc.devRef .tc main_arg4))
    _ _ _ _ _ _ _ b n o hr

/-- The update gate, node-major. -/
theorem v34_apply (b : Fin 32) (n : Fin 512) (u : Fin 64) (hp : n.val * 64 + u.val < 32768) :
    res_main_v34 V0 (ix2 b ⟨n.val * 64 + u.val, hp⟩)
      = gate0 (wR V0) (xR V0 b) (hR V0 0 b) n ⟨64 + u.val, by have := u.isLt; omega⟩ := by
  unfold res_main_v34
  refine (half_read _ 64 _ _ b n u hp ⟨64 + u.val, by have := u.isLt; omega⟩ rfl).trans ?_
  exact v30_apply V0 b n _

/-- The candidate's feature matrix: the state replaced by the reset state. -/
theorem v40_apply (n : Fin 512) (f : Fin 65) (b : Fin 32) (hj : f.val * 32 + b.val < 2080) :
    res_main_v40 V0 (ix2 n ⟨f.val * 32 + b.val, hj⟩)
      = feat0 (xR V0 b) (rst0 (wR V0) (xR V0 b) (hR V0 0 b)) f n := by
  unfold res_main_v40
  refine cat_read _ _ _ _ _ _ _ b (xR V0 b) (rst0 (wR V0) (xR V0 b) (hR V0 0 b)) (fun _ => rfl) (fun u n hp => ?_) n f hj
  rw [mulf_apply, half_read _ 0 _ _ b n u hp ⟨u.val, by have := u.isLt; omega⟩ (by show u.val = 0 + u.val; omega),
    v30_apply, v1_apply]
  rfl

/-- The first cell's new state at (batch, node, unit). -/
theorem v63_apply (b : Fin 32) (n : Fin 512) (u : Fin 64) (hp : n.val * 64 + u.val < 32768) :
    res_main_v63 V0 (ix2 b ⟨n.val * 64 + u.val, hp⟩) = new0 (wR V0) (xR V0 b) (hR V0 0 b) u n := by
  have hr : b.val * 512 + n.val < 16384 := by have := b.isLt; have := n.isLt; omega
  unfold res_main_v63
  rw [addf_apply, mulf_apply, mulf_apply, subf_apply, splat_apply, htanh_apply, v34_apply, v1_apply]
  exact mix_congr ((flat64_read _ _ b n u hp hr).trans
    (conv64_read (V0 (Proc.devRef .tc main_arg1)) (res_main_v40 V0) (res_main_v41 V0) _ (xR V0)
      (fun b => rst0 (wR V0) (xR V0 b) (hR V0 0 b))
      (fun n f b hj => v40_apply V0 n f b hj) _ rfl rfl (V0 (Proc.devRef .tc main_arg5)) (V0 (Proc.devRef .tc main_arg6))
      _ _ _ _ _ _ _ b n u hr))

end Assembly

end Cell0

open Cell0

/-- The first cell's new state in the reference. -/
theorem v63_eq (V0 : Valuation τ sig (Elt Ideal)) :
    res_main_v63 V0 = encFlat (fun b => H0N (wR V0) (xR V0 b) (hR V0 0 b)) := by
  funext i
  obtain ⟨b, p, rfl⟩ : ∃ (b : Fin 32) (p : Fin 32768), i = ix2 b p := ⟨i 0, i 1, eq_ix2 i⟩
  have hp := p.isLt
  obtain ⟨n, u, h, rfl⟩ : ∃ (n : Fin 512) (u : Fin 64) (h : n.val * 64 + u.val < 32768), p = ⟨n.val * 64 + u.val, h⟩ :=
    ⟨⟨p.val / 64, by omega⟩, ⟨p.val % 64, Nat.mod_lt _ (by decide)⟩, by show p.val / 64 * 64 + p.val % 64 < 32768; omega,
      Fin.ext (by show p.val = p.val / 64 * 64 + p.val % 64; omega)⟩
  rw [v63_apply V0 b n u h, encFlat_apply]
  rfl

end Cert.ReferenceIdeal.RefRead

end
-- ==== Proof.Ref1.lean ====
/-
  The reference's second cell read index by index, given the first cell's new state as a family of states.

  The reference lays the layer's 128 features of every node and batch element out as a [512, 4096] array (node;
  feature-major, batch-minor), multiplies it by the adjacency matrix for the taps, stacks the three taps, regroups
  the stack as [16384, 384] (row: batch and node; column: feature-major, tap-minor) and contracts it with the
  weights.  Each layout step is read at an index given by coordinates; the contraction's column k then carries tap
  k % 3 of feature k / 3, which is the specification's sum term by term.
-/
import proofs.«172483_g44504451121623_cont_8to1_c_180_13_alg».proof.Proof.RefRunP
import proofs.«172483_g44504451121623_cont_8to1_c_180_13_alg».proof.Proof.RefIns
import proofs.«172483_g44504451121623_cont_8to1_c_180_13_alg».proof.Proof.SpecAlg
import Idealize.ShloMosaic.Lib.ValueIdx
import Idealize.ShloMosaic.Lib.Pipeline.Value
import Idealize.ShloMosaic.PureOps.Ideal.Laws
import Idealize.ShloMosaic.Lib.StackMember
import Idealize.ShloMosaic.Lib.IdealHost

noncomputable section

namespace Cert.ReferenceIdeal.RefRead

open Cert.ReferenceIdeal Cert.ReferenceIdeal.Gen Cert.ReferenceIdeal.ValueP Idealize.ShloMosaic Idealize.ShloMosaic.TcCoe
open Idealize.SL.Sem Idealize.ShloMosaic.StableHlo Idealize.ShloMosaic.ValueIdx Cert.Dcgru

/-! The helper lemmas live in their own namespace: the layout steps read at an index, then the second cell's
    named intermediate arrays read at coordinates. -/
namespace Cell1

section Generic
variable {α : Type}

/-- Two [32, 32768] arrays (node-major last axis) laid side by side as the 128 features of every node, then
    transposed to (node, feature, batch) and flattened: at (n, f * 32 + b) it is the first array's unit f or the
    second's unit f - 64, of node n of batch element b. -/
theorem cat_apply (S0 S1 : (⟨2, ![32, 32768]⟩ : Shape).Idx → α)
    (h0 : (⟨2, ![32, 32768]⟩ : Shape).ShapeCasts ⟨3, ![32, 512, 64]⟩)
    (hc : Shape.Concatenates [(⟨3, ![32, 512, 64]⟩ : Shape), ⟨3, ![32, 512, 64]⟩] ⟨3, ![32, 512, 128]⟩ 2)
    (ht : (⟨3, ![32, 512, 128]⟩ : Shape).Transposes [1, 2, 0] ⟨3, ![512, 128, 32]⟩)
    (h3 : (⟨3, ![512, 128, 32]⟩ : Shape).ShapeCasts ⟨2, ![512, 4096]⟩)
    (n : Fin 512) (f : Fin 128) (b : Fin 32) :
    shapeCast ⟨2, ![512, 4096]⟩ (transpose ⟨3, ![512, 128, 32]⟩ [1, 2, 0]
      (concatenate ⟨3, ![32, 512, 128]⟩ 2 [⟨⟨3, ![32, 512, 64]⟩, shapeCast _ S0 h0⟩, ⟨⟨3, ![32, 512, 64]⟩, shapeCast _ S1 h0⟩] hc) ht) h3
      (ix2 n ⟨f.val * 32 + b.val, by have := f.isLt; have := b.isLt; omega⟩)
    = if h : f.val < 64 then S0 (ix2 b ⟨n.val * 64 + f.val, by have := n.isLt; omega⟩)
      else S1 (ix2 b ⟨n.val * 64 + (f.val - 64), by have := n.isLt; have := f.isLt; omega⟩) := by
  have hn := n.isLt; have hf := f.isLt; have hb := b.isLt
  refine (shapeCast_apply _ h3 _ (ix3 n f b) (by
    rw [Shape.rowMajor_val_three, Shape.rowMajor_val_two]
    show (n.val * 128 + f.val) * 32 + b.val = n.val * 4096 + (f.val * 32 + b.val)
    omega)).trans ?_
  refine (transpose_apply _ _ ht _ (ix3 b n f)
    (fun a => match a with | ⟨0, _⟩ => rfl | ⟨1, _⟩ => rfl | ⟨2, _⟩ => rfl)).trans ?_
  by_cases h : f.val < 64
  · rw [dif_pos h]
    refine (concatenate_pair_apply_left 2 _ _ hc _ rfl (ix3 b n ⟨f.val, h⟩)
      (fun a => match a with | ⟨0, _⟩ => rfl | ⟨1, _⟩ => rfl | ⟨2, _⟩ => rfl)).trans ?_
    exact shapeCast_apply _ h0 _ _ (by
      rw [Shape.rowMajor_val_two, Shape.rowMajor_val_three]
      show b.val * 32768 + (n.val * 64 + f.val) = (b.val * 512 + n.val) * 64 + f.val
      omega)
  · rw [dif_neg h]
    refine (concatenate_pair_apply_right 2 _ _ hc _ rfl rfl (ix3 b n ⟨f.val - 64, by omega⟩)
      (fun a => match a with | ⟨0, _⟩ => fun _ => rfl | ⟨1, _⟩ => fun _ => rfl | ⟨2, _⟩ => fun hh => absurd rfl hh)
      (by show (f.val - 64) + 64 = f.val; omega)).trans ?_
    exact shapeCast_apply _ h0 _ _ (by
      rw [Shape.rowMajor_val_two, Shape.rowMajor_val_three]
      show b.val * 32768 + (n.val * 64 + (f.val - 64)) = (b.val * 512 + n.val) * 64 + (f.val - 64)
      omega)

end Generic

section Generic2
variable {α : Type}

/-- A product of an [m, k] by a [k, n] matrix, contracting the left's axis 1 with the right's axis 0, read at an
    index: the sum over the contracted coordinate of the products of the entries. -/
theorem dot_apply {m k n : ℕ} (w : DotDims.WF ⟨2, ![m, k]⟩ ⟨2, ![k, n]⟩ ⟨2, ![m, n]⟩ [1] [0] [0] [1] [] [])
    (A : FVec Ideal ⟨2, ![m, k]⟩ .f32) (B : FVec Ideal ⟨2, ![k, n]⟩ .f32) (a : Fin m) (b : Fin n) :
    Host.dotGeneral (⟨[1], [0], [0], [1], [], [], w⟩ : DotDims ⟨2, ![m, k]⟩ ⟨2, ![k, n]⟩ ⟨2, ![m, n]⟩) none A B (ix2 a b)
      = ∑ c : Fin k, A (ix2 a c) * B (ix2 c b) :=
  StackMember.dotGeneral_plain_apply none A B a b

/-- A vector of O numbers broadcast first to one row, then to every row of an [R, O] array, reads the vector's entry
    of the column. -/
theorem bias_apply {R O : ℕ} (bias : (⟨1, ![O]⟩ : Shape).Idx → α)
    (h1 : (⟨1, ![O]⟩ : Shape).BroadcastsInDim ⟨2, ![1, O]⟩ ![1])
    (h2 : (⟨2, ![1, O]⟩ : Shape).BroadcastsInDim ⟨2, ![R, O]⟩ ![0, 1]) (r : Fin R) (o : Fin O) :
    broadcastInDim ⟨2, ![R, O]⟩ ![0, 1] h2 (broadcastInDim ⟨2, ![1, O]⟩ ![1] h1 bias) (ix2 r o) = bias (ix1 o) := by
  have ho := o.isLt
  refine (broadcastInDim_apply _ h2 _ _ (ix2 (0 : Fin 1) o) (fun a => match a with
    | ⟨0, _⟩ => by show (0 : ℕ) = if (1 : ℕ) = 1 then 0 else r.val; rw [if_pos rfl]
    | ⟨1, _⟩ => by
        show o.val = if O = 1 then 0 else o.val
        split
        · omega
        · rfl)).trans ?_
  exact broadcastInDim_apply _ h1 _ _ (ix1 o) (fun a => match a with
    | ⟨0, _⟩ => by
        show o.val = if O = 1 then 0 else o.val
        split
        · omega
        · rfl)

/-- Three [512, 4096] arrays stacked on a new leading axis, read at (m, n, q): the m-th array at (n, q). -/
theorem stack3_piece (T0 T1 T2 : (⟨2, ![512, 4096]⟩ : Shape).Idx → α)
    (hb : (⟨2, ![512, 4096]⟩ : Shape).BroadcastsInDim ⟨3, ![1, 512, 4096]⟩ ![1, 2])
    (hc : Shape.Concatenates [(⟨3, ![1, 512, 4096]⟩ : Shape), ⟨3, ![1, 512, 4096]⟩, ⟨3, ![1, 512, 4096]⟩] ⟨3, ![3, 512, 4096]⟩ 0)
    (m : Fin 3) (n : Fin 512) (q : Fin 4096) :
    concatenate ⟨3, ![3, 512, 4096]⟩ 0 [⟨⟨3, ![1, 512, 4096]⟩, broadcastInDim _ ![1, 2] hb T0⟩,
        ⟨⟨3, ![1, 512, 4096]⟩, broadcastInDim _ ![1, 2] hb T1⟩, ⟨⟨3, ![1, 512, 4096]⟩, broadcastInDim _ ![1, 2] hb T2⟩] hc (ix3 m n q)
      = if m.val = 0 then T0 (ix2 n q) else if m.val = 1 then T1 (ix2 n q) else T2 (ix2 n q) := by
  have hbc : ∀ T : (⟨2, ![512, 4096]⟩ : Shape).Idx → α,
      broadcastInDim ⟨3, ![1, 512, 4096]⟩ ![1, 2] hb T (ix3 (0 : Fin 1) n q) = T (ix2 n q) := fun T =>
    broadcastInDim_apply _ hb _ _ (ix2 n q) (fun a => match a with | ⟨0, _⟩ => rfl | ⟨1, _⟩ => rfl)
  match m with
  | ⟨0, _⟩ =>
    rw [if_pos rfl]
    refine (concatenate_apply_piece 0 [⟨⟨3, ![1, 512, 4096]⟩, broadcastInDim _ ![1, 2] hb T0⟩,
        ⟨⟨3, ![1, 512, 4096]⟩, broadcastInDim _ ![1, 2] hb T1⟩, ⟨⟨3, ![1, 512, 4096]⟩, broadcastInDim _ ![1, 2] hb T2⟩]
      hc _ 0 (by show 0 < 3; decide) ⟨3, ![1, 512, 4096]⟩ _ rfl rfl 0 rfl (ix3 (0 : Fin 1) n q)
      (fun a => match a with | ⟨0, _⟩ => fun hh => absurd rfl hh | ⟨1, _⟩ => fun _ => rfl | ⟨2, _⟩ => fun _ => rfl) rfl).trans ?_
    exact hbc T0
  | ⟨1, _⟩ =>
    rw [if_neg (show ¬ (1 : ℕ) = 0 by decide), if_pos rfl]
    refine (concatenate_apply_piece 0 [⟨⟨3, ![1, 512, 4096]⟩, broadcastInDim _ ![1, 2] hb T0⟩,
        ⟨⟨3, ![1, 512, 4096]⟩, broadcastInDim _ ![1, 2] hb T1⟩, ⟨⟨3, ![1, 512, 4096]⟩, broadcastInDim _ ![1, 2] hb T2⟩]
      hc _ 1 (by show 1 < 3; decide) ⟨3, ![1, 512, 4096]⟩ _ rfl rfl 1 rfl (ix3 (0 : Fin 1) n q)
      (fun a => match a with | ⟨0, _⟩ => fun hh => absurd rfl hh | ⟨1, _⟩ => fun _ => rfl | ⟨2, _⟩ => fun _ => rfl) rfl).trans ?_
    exact hbc T1
  | ⟨2, _⟩ =>
    rw [if_neg (show ¬ (2 : ℕ) = 0 by decide), if_neg (show ¬ (2 : ℕ) = 1 by decide)]
    refine (concatenate_apply_piece 0 [⟨⟨3, ![1, 512, 4096]⟩, broadcastInDim _ ![1, 2] hb T0⟩,
        ⟨⟨3, ![1, 512, 4096]⟩, broadcastInDim _ ![1, 2] hb T1⟩, ⟨⟨3, ![1, 512, 4096]⟩, broadcastInDim _ ![1, 2] hb T2⟩]
      hc _ 2 (by show 2 < 3; decide) ⟨3, ![1, 512, 4096]⟩ _ rfl rfl 2 rfl (ix3 (0 : Fin 1) n q)
      (fun a => match a with | ⟨0, _⟩ => fun hh => absurd rfl hh | ⟨1, _⟩ => fun _ => rfl | ⟨2, _⟩ => fun _ => rfl) rfl).trans ?_
    exact hbc T2

/-- The stack of three [512, 4096] arrays regrouped as (batch, node, feature, tap) and flattened to [16384, 384]:
    row b * 512 + n, column k holds array k % 3 at (n, (k / 3) * 32 + b). -/
theorem stack_apply (T0 T1 T2 : (⟨2, ![512, 4096]⟩ : Shape).Idx → α)
    (hb : (⟨2, ![512, 4096]⟩ : Shape).BroadcastsInDim ⟨3, ![1, 512, 4096]⟩ ![1, 2])
    (hc : Shape.Concatenates [(⟨3, ![1, 512, 4096]⟩ : Shape), ⟨3, ![1, 512, 4096]⟩, ⟨3, ![1, 512, 4096]⟩] ⟨3, ![3, 512, 4096]⟩ 0)
    (h1 : (⟨3, ![3, 512, 4096]⟩ : Shape).ShapeCasts ⟨4, ![3, 512, 128, 32]⟩)
    (ht : (⟨4, ![3, 512, 128, 32]⟩ : Shape).Transposes [3, 1, 2, 0] ⟨4, ![32, 512, 128, 3]⟩)
    (h2 : (⟨4, ![32, 512, 128, 3]⟩ : Shape).ShapeCasts ⟨2, ![16384, 384]⟩)
    (b : Fin 32) (n : Fin 512) (k : Fin 384) :
    shapeCast ⟨2, ![16384, 384]⟩ (transpose ⟨4, ![32, 512, 128, 3]⟩ [3, 1, 2, 0] (shapeCast ⟨4, ![3, 512, 128, 32]⟩
      (concatenate ⟨3, ![3, 512, 4096]⟩ 0 [⟨⟨3, ![1, 512, 4096]⟩, broadcastInDim _ ![1, 2] hb T0⟩,
        ⟨⟨3, ![1, 512, 4096]⟩, broadcastInDim _ ![1, 2] hb T1⟩, ⟨⟨3, ![1, 512, 4096]⟩, broadcastInDim _ ![1, 2] hb T2⟩] hc) h1) ht) h2
      (ix2 ⟨b.val * 512 + n.val, by have := b.isLt; have := n.isLt; omega⟩ k)
    = if k.val % 3 = 0 then T0 (ix2 n ⟨k.val / 3 * 32 + b.val, by have := k.isLt; have := b.isLt; omega⟩)
      else if k.val % 3 = 1 then T1 (ix2 n ⟨k.val / 3 * 32 + b.val, by have := k.isLt; have := b.isLt; omega⟩)
      else T2 (ix2 n ⟨k.val / 3 * 32 + b.val, by have := k.isLt; have := b.isLt; omega⟩) := by
  have hb' := b.isLt; have hn := n.isLt; have hk := k.isLt
  refine (shapeCast_apply _ h2 _ (ix4 b n (⟨k.val / 3, by omega⟩ : Fin 128) (⟨k.val % 3, by omega⟩ : Fin 3)) (by
    rw [Shape.rowMajor_val_four, Shape.rowMajor_val_two]
    show ((b.val * 512 + n.val) * 128 + k.val / 3) * 3 + k.val % 3 = (b.val * 512 + n.val) * 384 + k.val
    omega)).trans ?_
  refine (transpose_apply _ _ ht _ (ix4 (⟨k.val % 3, by omega⟩ : Fin 3) n (⟨k.val / 3, by omega⟩ : Fin 128) b)
    (fun a => match a with | ⟨0, _⟩ => rfl | ⟨1, _⟩ => rfl | ⟨2, _⟩ => rfl | ⟨3, _⟩ => rfl)).trans ?_
  refine (shapeCast_apply _ h1 _ (ix3 (⟨k.val % 3, by omega⟩ : Fin 3) n (⟨k.val / 3 * 32 + b.val, by omega⟩ : Fin 4096)) (by
    rw [Shape.rowMajor_val_three, Shape.rowMajor_val_four]
    show (k.val % 3 * 512 + n.val) * 4096 + (k.val / 3 * 32 + b.val) = ((k.val % 3 * 512 + n.val) * 128 + k.val / 3) * 32 + b.val
    omega)).trans ?_
  exact stack3_piece T0 T1 T2 hb hc _ n _

/-- The update (or reset) half of a [32, 512, 128] array, flattened to [32, 32768]: at (b, n * 64 + u) it is the
    array at (b, n, c + u), c the half's offset. -/
theorem half_apply (Y : (⟨3, ![32, 512, 128]⟩ : Shape).Idx → α) (c : ℕ) (hc : c ≤ 64)
    (hs : (⟨3, ![32, 512, 128]⟩ : Shape).Slices ![0, 0, c] ⟨3, ![32, 512, 64]⟩)
    (h : (⟨3, ![32, 512, 64]⟩ : Shape).ShapeCasts ⟨2, ![32, 32768]⟩) (b : Fin 32) (n : Fin 512) (u : Fin 64) :
    shapeCast ⟨2, ![32, 32768]⟩ (extractStridedSlice ⟨3, ![32, 512, 64]⟩ ![0, 0, c] Y hs) h
      (ix2 b ⟨n.val * 64 + u.val, by have := n.isLt; have := u.isLt; omega⟩)
      = Y (ix3 b n ⟨c + u.val, by have := u.isLt; omega⟩) := by
  have hb := b.isLt; have hn := n.isLt; have hu := u.isLt
  refine (shapeCast_apply _ h _ (ix3 b n u) (by
    rw [Shape.rowMajor_val_three, Shape.rowMajor_val_two]
    show (b.val * 512 + n.val) * 64 + u.val = b.val * 32768 + (n.val * 64 + u.val)
    omega)).trans ?_
  exact extractStridedSlice_apply _ _ hs _ _ (fun a => match a with
    | ⟨0, _⟩ => by show b.val = 0 + b.val; omega
    | ⟨1, _⟩ => by show n.val = 0 + n.val; omega
    | ⟨2, _⟩ => by show c + u.val = c + u.val; rfl)

end Generic2

section Generic3

/-- The logistic the way the host spells it, through the two reshapes around it: at (b, n, o) it is the logistic of
    the [16384, 128] array at (b * 512 + n, o). -/
theorem sig_apply (X : FVec Ideal ⟨2, ![16384, 128]⟩ .f32)
    (hb : (⟨0, ![]⟩ : Shape).BroadcastsInDim ⟨2, ![32, 65536]⟩ ![])
    (h1 : (⟨2, ![16384, 128]⟩ : Shape).ShapeCasts ⟨2, ![32, 65536]⟩)
    (h2 : (⟨2, ![32, 65536]⟩ : Shape).ShapeCasts ⟨3, ![32, 512, 128]⟩) (b : Fin 32) (n : Fin 512) (o : Fin 128) :
    shapeCast ⟨3, ![32, 512, 128]⟩
      (Host.divf (broadcastInDim ⟨2, ![32, 65536]⟩ ![] hb (constant (F := Ideal) ⟨0, ![]⟩ .f32 0x3F800000#32))
        (addf (broadcastInDim ⟨2, ![32, 65536]⟩ ![] hb (constant (F := Ideal) ⟨0, ![]⟩ .f32 0x3F800000#32))
          (Host.exp (Host.negf (shapeCast ⟨2, ![32, 65536]⟩ X h1))))) h2 (ix3 b n o)
      = Ideal.logistic (X (ix2 ⟨b.val * 512 + n.val, by have := b.isLt; have := n.isLt; omega⟩ o)) := by
  have hb' := b.isLt; have hn := n.isLt; have ho := o.isLt
  refine (shapeCast_apply _ h2 _ (ix2 b (⟨n.val * 128 + o.val, by omega⟩ : Fin 65536)) (by
    rw [Shape.rowMajor_val_two, Shape.rowMajor_val_three]
    show b.val * 65536 + (n.val * 128 + o.val) = (b.val * 512 + n.val) * 128 + o.val
    omega)).trans ?_
  show Ideal.div (broadcastInDim ⟨2, ![32, 65536]⟩ ![] hb (constant (F := Ideal) ⟨0, ![]⟩ .f32 0x3F800000#32) _)
      (broadcastInDim ⟨2, ![32, 65536]⟩ ![] hb (constant (F := Ideal) ⟨0, ![]⟩ .f32 0x3F800000#32) _
        + Ideal.exp (-(shapeCast ⟨2, ![32, 65536]⟩ X h1 _))) = _
  rw [broadcastInDim_scalar_apply, shapeCast_apply X h1 _ (ix2 ⟨b.val * 512 + n.val, by omega⟩ o) (by
    rw [Shape.rowMajor_val_two, Shape.rowMajor_val_two]
    show (b.val * 512 + n.val) * 128 + o.val = b.val * 65536 + (n.val * 128 + o.val)
    omega)]
  exact logistic_host _

/-- The GRU mix of three arrays, the candidate through its hyperbolic tangent and reshape, at (b, n * 64 + u). -/
theorem mix_apply (U H : FVec Ideal ⟨2, ![32, 32768]⟩ .f32) (C : FVec Ideal ⟨2, ![16384, 64]⟩ .f32)
    (hb : (⟨0, ![]⟩ : Shape).BroadcastsInDim ⟨2, ![32, 32768]⟩ ![])
    (h : (⟨2, ![16384, 64]⟩ : Shape).ShapeCasts ⟨2, ![32, 32768]⟩) (b : Fin 32) (n : Fin 512) (u : Fin 64) :
    addf (mulf U H) (mulf (subf (broadcastInDim ⟨2, ![32, 32768]⟩ ![] hb (constant (F := Ideal) ⟨0, ![]⟩ .f32 0x3F800000#32)) U)
        (Host.tanh (shapeCast ⟨2, ![32, 32768]⟩ C h))) (ix2 b ⟨n.val * 64 + u.val, by have := n.isLt; have := u.isLt; omega⟩)
      = mix (U (ix2 b ⟨n.val * 64 + u.val, by have := n.isLt; have := u.isLt; omega⟩))
          (H (ix2 b ⟨n.val * 64 + u.val, by have := n.isLt; have := u.isLt; omega⟩))
          (Ideal.tanh (C (ix2 ⟨b.val * 512 + n.val, by have := b.isLt; have := n.isLt; omega⟩ u))) := by
  have hb' := b.isLt; have hn := n.isLt; have hu := u.isLt
  show U _ * H _ + (broadcastInDim ⟨2, ![32, 32768]⟩ ![] hb (constant (F := Ideal) ⟨0, ![]⟩ .f32 0x3F800000#32) _ - U _)
      * Ideal.tanh (shapeCast ⟨2, ![32, 32768]⟩ C h _) = _
  rw [broadcastInDim_scalar_apply, shapeCast_apply C h _ (ix2 ⟨b.val * 512 + n.val, by omega⟩ u) (by
    rw [Shape.rowMajor_val_two, Shape.rowMajor_val_two]
    show (b.val * 512 + n.val) * 64 + u.val = b.val * 32768 + (n.val * 64 + u.val)
    omega)]
  rfl

/-- A tap of a signal at a node, by cases on the tap's number. -/
theorem tap_apply (A : Fin 512 → Fin 512 → EReal) (m : Fin 3) (z : Sig) (n : Fin 512) :
    tap A m z n = if m.val = 0 then z n else if m.val = 1 then mv A z n else two * mv A (mv A z) n - z n := by
  unfold tap
  by_cases h0 : m.val = 0
  · rw [if_pos h0, if_pos h0]
  · rw [if_neg h0, if_neg h0]
    by_cases h1 : m.val = 1
    · rw [if_pos h1, if_pos h1]
    · rw [if_neg h1, if_neg h1]

/-- The adjacency matrix times a (node, feature * 32 + batch) array whose columns are signals: the matrix applied to
    each signal. -/
theorem mvZ_apply (w : DotDims.WF ⟨2, ![512, 512]⟩ ⟨2, ![512, 4096]⟩ ⟨2, ![512, 4096]⟩ [1] [0] [0] [1] [] [])
    (A : FVec Ideal ⟨2, ![512, 512]⟩ .f32) (Z : FVec Ideal ⟨2, ![512, 4096]⟩ .f32) (z : Fin 32 → Fin 128 → Sig)
    (hZ : ∀ (n : Fin 512) (f : Fin 128) (b : Fin 32),
      Z (ix2 n ⟨f.val * 32 + b.val, by have := f.isLt; have := b.isLt; omega⟩) = z b f n)
    (n : Fin 512) (f : Fin 128) (b : Fin 32) :
    Host.dotGeneral (⟨[1], [0], [0], [1], [], [], w⟩ : DotDims ⟨2, ![512, 512]⟩ ⟨2, ![512, 4096]⟩ ⟨2, ![512, 4096]⟩) none A Z
        (ix2 n ⟨f.val * 32 + b.val, by have := f.isLt; have := b.isLt; omega⟩)
      = mv (fun n k => A (ix2 n k)) (z b f) n := by
  rw [dot_apply]
  unfold mv
  exact Finset.sum_congr rfl (fun c _ => by rw [hZ c f b])

/-- One graph convolution of the reference, read at a row and an output: from the (node, feature * 32 + batch)
    array of the layer's 128 features per batch element, the three taps stacked and regrouped, contracted with the
    weights, plus the bias, is the specification's contraction plus the bias. -/
theorem gconv_apply {O : ℕ}
    (w1 : DotDims.WF ⟨2, ![512, 512]⟩ ⟨2, ![512, 4096]⟩ ⟨2, ![512, 4096]⟩ [1] [0] [0] [1] [] [])
    (w2 : DotDims.WF ⟨2, ![16384, 384]⟩ ⟨2, ![384, O]⟩ ⟨2, ![16384, O]⟩ [1] [0] [0] [1] [] [])
    (A : FVec Ideal ⟨2, ![512, 512]⟩ .f32) (Z : FVec Ideal ⟨2, ![512, 4096]⟩ .f32)
    (W : FVec Ideal ⟨2, ![384, O]⟩ .f32) (bias : FVec Ideal ⟨1, ![O]⟩ .f32)
    (hb0 : (⟨0, ![]⟩ : Shape).BroadcastsInDim ⟨2, ![512, 4096]⟩ ![])
    (hb : (⟨2, ![512, 4096]⟩ : Shape).BroadcastsInDim ⟨3, ![1, 512, 4096]⟩ ![1, 2])
    (hc : Shape.Concatenates [(⟨3, ![1, 512, 4096]⟩ : Shape), ⟨3, ![1, 512, 4096]⟩, ⟨3, ![1, 512, 4096]⟩] ⟨3, ![3, 512, 4096]⟩ 0)
    (h1 : (⟨3, ![3, 512, 4096]⟩ : Shape).ShapeCasts ⟨4, ![3, 512, 128, 32]⟩)
    (ht : (⟨4, ![3, 512, 128, 32]⟩ : Shape).Transposes [3, 1, 2, 0] ⟨4, ![32, 512, 128, 3]⟩)
    (h2 : (⟨4, ![32, 512, 128, 3]⟩ : Shape).ShapeCasts ⟨2, ![16384, 384]⟩)
    (hB1 : (⟨1, ![O]⟩ : Shape).BroadcastsInDim ⟨2, ![1, O]⟩ ![1])
    (hB2 : (⟨2, ![1, O]⟩ : Shape).BroadcastsInDim ⟨2, ![16384, O]⟩ ![0, 1])
    (xs s : Fin 32 → St)
    (hZ : ∀ (n : Fin 512) (f : Fin 128) (b : Fin 32),
      Z (ix2 n ⟨f.val * 32 + b.val, by have := f.isLt; have := b.isLt; omega⟩) = feat1 (xs b) (s b) f n)
    (b : Fin 32) (n : Fin 512) (o : Fin O) :
    addf (Host.dotGeneral (⟨[1], [0], [0], [1], [], [], w2⟩ : DotDims ⟨2, ![16384, 384]⟩ ⟨2, ![384, O]⟩ ⟨2, ![16384, O]⟩) none
        (shapeCast ⟨2, ![16384, 384]⟩ (transpose ⟨4, ![32, 512, 128, 3]⟩ [3, 1, 2, 0] (shapeCast ⟨4, ![3, 512, 128, 32]⟩
          (concatenate ⟨3, ![3, 512, 4096]⟩ 0 [⟨⟨3, ![1, 512, 4096]⟩, broadcastInDim _ ![1, 2] hb Z⟩,
            ⟨⟨3, ![1, 512, 4096]⟩, broadcastInDim _ ![1, 2] hb
              (Host.dotGeneral (⟨[1], [0], [0], [1], [], [], w1⟩ : DotDims ⟨2, ![512, 512]⟩ ⟨2, ![512, 4096]⟩ ⟨2, ![512, 4096]⟩) none A Z)⟩,
            ⟨⟨3, ![1, 512, 4096]⟩, broadcastInDim _ ![1, 2] hb
              (subf (mulf (broadcastInDim ⟨2, ![512, 4096]⟩ ![] hb0 (constant (F := Ideal) ⟨0, ![]⟩ .f32 0x40000000#32))
                (Host.dotGeneral (⟨[1], [0], [0], [1], [], [], w1⟩ : DotDims ⟨2, ![512, 512]⟩ ⟨2, ![512, 4096]⟩ ⟨2, ![512, 4096]⟩) none A
                  (Host.dotGeneral (⟨[1], [0], [0], [1], [], [], w1⟩ : DotDims ⟨2, ![512, 512]⟩ ⟨2, ![512, 4096]⟩ ⟨2, ![512, 4096]⟩) none A Z))) Z)⟩] hc) h1) ht) h2) W)
      (broadcastInDim ⟨2, ![16384, O]⟩ ![0, 1] hB2 (broadcastInDim ⟨2, ![1, O]⟩ ![1] hB1 bias))
      (ix2 ⟨b.val * 512 + n.val, by have := b.isLt; have := n.isLt; omega⟩ o)
    = gsum1 (fun n k => A (ix2 n k)) (xs b) (s b) (fun k o => W (ix2 k o)) n o + bias (ix1 o) := by
  have hb' := b.isLt; have hn := n.isLt
  rw [addf_apply, dot_apply, bias_apply]
  unfold gsum1
  refine congrArg (· + bias (ix1 o)) (Finset.sum_congr rfl fun k _ => ?_)
  have hk := k.isLt
  refine congrArg (· * W (ix2 k o)) ?_
  rw [stack_apply, tap_apply]
  have hZ1 := mvZ_apply w1 A Z (fun b f => feat1 (xs b) (s b) f) hZ
  have hZ2 := mvZ_apply w1 A _ (fun b f => mv (fun n k => A (ix2 n k)) (feat1 (xs b) (s b) f)) hZ1
  show (if k.val % 3 = 0 then _ else if k.val % 3 = 1 then _ else _)
     = (if k.val % 3 = 0 then _ else if k.val % 3 = 1 then _ else _)
  by_cases h0 : k.val % 3 = 0
  · rw [if_pos h0, if_pos h0]
    exact hZ n ⟨k.val / 3, by omega⟩ b
  · rw [if_neg h0, if_neg h0]
    by_cases h1' : k.val % 3 = 1
    · rw [if_pos h1', if_pos h1']
      exact hZ1 n ⟨k.val / 3, by omega⟩ b
    · rw [if_neg h1', if_neg h1']
      rw [subf_apply, mulf_apply, broadcastInDim_scalar_apply]
      exact congrArg₂ (fun x y => two * x - y) (hZ2 n ⟨k.val / 3, by omega⟩ b) (hZ n ⟨k.val / 3, by omega⟩ b)

end Generic3

section AtReference
variable (V0 : Valuation τ sig (Elt Ideal))

/-- The second layer's state as the reference slices it out of the stacked states. -/
theorem v65_apply (b : Fin 32) (n : Fin 512) (u : Fin 64) :
    res_main_v65 V0 (ix2 b ⟨n.val * 64 + u.val, by have := n.isLt; have := u.isLt; omega⟩) = hR V0 1 b u n := by
  have hb := b.isLt; have hn := n.isLt; have hu := u.isLt
  unfold res_main_v65
  refine (shapeCast_apply _ _ _ (ix3 (0 : Fin 1) b (⟨n.val * 64 + u.val, by omega⟩ : Fin 32768)) (by
    refine (Shape.rowMajor_val_three _).trans (Eq.trans ?_ (Shape.rowMajor_val_two (d := ![32, 32768]) _).symm)
    show (0 * 32 + b.val) * 32768 + (n.val * 64 + u.val) = b.val * 32768 + (n.val * 64 + u.val)
    omega)).trans ?_
  refine (extractStridedSlice_apply _ _ _ _ (ix3 (1 : Fin 2) b (⟨n.val * 64 + u.val, by omega⟩ : Fin 32768)) (fun a => match a with
    | ⟨0, _⟩ => by show 1 = 1 + 0; rfl
    | ⟨1, _⟩ => by show b.val = 0 + b.val; omega
    | ⟨2, _⟩ => by show n.val * 64 + u.val = 0 + (n.val * 64 + u.val); omega)).trans ?_
  rfl

variable (g : Fin 32 → St) (h63 : res_main_v63 V0 = encFlat g)
include h63

/-- The second cell's 128 features per node and batch element: the first cell's new state, then the second
    layer's state. -/
theorem v70_apply (n : Fin 512) (f : Fin 128) (b : Fin 32) :
    res_main_v70 V0 (ix2 n ⟨f.val * 32 + b.val, by have := f.isLt; have := b.isLt; omega⟩)
      = feat1 (g b) (hR V0 1 b) f n := by
  have hf := f.isLt
  unfold res_main_v70
  rw [h63]
  refine (cat_apply _ _ _ _ _ _ n f b).trans ?_
  unfold feat1
  by_cases h : f.val < 64
  · rw [dif_pos h, dif_pos h]
    exact encFlat_apply g b n ⟨f.val, h⟩
  · rw [dif_neg h, dif_neg h]
    exact v65_apply V0 b n ⟨f.val - 64, by omega⟩

/-- The second cell's gates. -/
theorem v94_apply (b : Fin 32) (n : Fin 512) (o : Fin 128) :
    res_main_v94 V0 (ix3 b n o) = gate1 (wR V0) (g b) (hR V0 1 b) n o := by
  unfold res_main_v94
  refine (sig_apply _ _ _ _ b n o).trans ?_
  refine (congrArg Ideal.logistic (gconv_apply (O := 128) _ _ _ (res_main_v70 V0) _ _ _ _ _ _ _ _ _ _
    g (hR V0 1) (v70_apply V0 g h63) b n o)).trans ?_
  rfl

/-- The update gate as a [32, 32768] array. -/
theorem v98_apply (b : Fin 32) (n : Fin 512) (u : Fin 64) :
    res_main_v98 V0 (ix2 b ⟨n.val * 64 + u.val, by have := n.isLt; have := u.isLt; omega⟩)
      = gate1 (wR V0) (g b) (hR V0 1 b) n ⟨64 + u.val, by have := u.isLt; omega⟩ := by
  unfold res_main_v98
  refine (half_apply _ 64 (le_refl _) _ _ b n u).trans ?_
  exact v94_apply V0 g h63 b n _

/-- The candidate's 128 features: the first cell's new state, then the reset state. -/
theorem v104_apply (n : Fin 512) (f : Fin 128) (b : Fin 32) :
    res_main_v104 V0 (ix2 n ⟨f.val * 32 + b.val, by have := f.isLt; have := b.isLt; omega⟩)
      = feat1 (g b) (rst1 (wR V0) (g b) (hR V0 1 b)) f n := by
  have hf := f.isLt
  unfold res_main_v104
  rw [h63]
  refine (cat_apply _ _ _ _ _ _ n f b).trans ?_
  unfold feat1
  by_cases h : f.val < 64
  · rw [dif_pos h, dif_pos h]
    exact encFlat_apply g b n ⟨f.val, h⟩
  · rw [dif_neg h, dif_neg h, mulf_apply]
    refine (congrArg₂ (fun (x y : EReal) => x * y)
      ((half_apply _ 0 (Nat.zero_le _) _ _ b n ⟨f.val - 64, by omega⟩).trans
        (v94_apply V0 g h63 b n ⟨0 + (f.val - 64), by omega⟩))
      (v65_apply V0 b n ⟨f.val - 64, by omega⟩)).trans ?_
    unfold rst1
    refine congrArg (fun o => gate1 (wR V0) (g b) (hR V0 1 b) n o * hR V0 1 b ⟨f.val - 64, by omega⟩ n) ?_
    exact Fin.ext (Nat.zero_add _)

/-- The second cell's new state at a batch element, a node and a unit. -/
theorem v127_apply (b : Fin 32) (n : Fin 512) (u : Fin 64) :
    res_main_v127 V0 (ix2 b ⟨n.val * 64 + u.val, by have := n.isLt; have := u.isLt; omega⟩)
      = new1 (wR V0) (g b) (hR V0 1 b) u n := by
  unfold res_main_v127
  refine (mix_apply _ _ _ _ _ b n u).trans ?_
  rw [v98_apply V0 g h63, v65_apply V0]
  refine (congrArg (fun c => mix (gate1 (wR V0) (g b) (hR V0 1 b) n ⟨64 + u.val, by have := u.isLt; omega⟩) (hR V0 1 b u n) (Ideal.tanh c))
    (gconv_apply (O := 64) _ _ _ (res_main_v104 V0) _ _ _ _ _ _ _ _ _ _
      g (fun b => rst1 (wR V0) (g b) (hR V0 1 b)) (v104_apply V0 g h63) b n u)).trans ?_
  rfl

end AtReference

end Cell1

/-- The second cell's new state in the reference, over whatever family the first cell's new state is. -/
theorem v127_eq (V0 : Valuation τ sig (Elt Ideal)) (g : Fin 32 → St) (h63 : res_main_v63 V0 = encFlat g) :
    res_main_v127 V0 = encFlat (fun b => new1 (wR V0) (g b) (hR V0 1 b)) := by
  funext i
  obtain ⟨b, p, rfl⟩ : ∃ (b : Fin 32) (p : Fin 32768), i = ix2 b p := ⟨i 0, i 1, eq_ix2 i⟩
  obtain ⟨n, u, rfl⟩ : ∃ (n : Fin 512) (u : Fin 64),
      p = ⟨n.val * 64 + u.val, by have := n.isLt; have := u.isLt; omega⟩ :=
    ⟨⟨p.val / 64, by have := p.isLt; omega⟩, ⟨p.val % 64, by omega⟩,
      Fin.ext (by show p.val = p.val / 64 * 64 + p.val % 64; omega)⟩
  rw [encFlat_apply]
  exact Cell1.v127_apply V0 g h63 b n u

end Cert.ReferenceIdeal.RefRead

end
-- ==== Proof.RefOut.lean ====
/-
  The reference's two results read index by index, given both cells' new states as families of states: the projection
  of the second state, and the two states stacked.
-/
import proofs.«172483_g44504451121623_cont_8to1_c_180_13_alg».proof.Proof.RefRunP
import proofs.«172483_g44504451121623_cont_8to1_c_180_13_alg».proof.Proof.RefIns
import proofs.«172483_g44504451121623_cont_8to1_c_180_13_alg».proof.Proof.SpecAlg
import Idealize.ShloMosaic.Lib.ValueIdx
import Idealize.ShloMosaic.Lib.Pipeline.Value
import Idealize.ShloMosaic.PureOps.Ideal.Laws

noncomputable section

namespace Cert.ReferenceIdeal.RefRead

open Cert.ReferenceIdeal Cert.ReferenceIdeal.Gen Cert.ReferenceIdeal.ValueP Idealize.ShloMosaic Idealize.ShloMosaic.TcCoe
open Idealize.SL.Sem Idealize.ShloMosaic.StableHlo Idealize.ShloMosaic.ValueIdx Cert.Dcgru

/-- The projection's left operand on its row axis: the output row. -/
theorem projDot_lhs0 (j : S16384x1.Idx) (k : dot_S16384x64_S64x1_S16384x1_1_0_0_1_n_n.contr.Idx) :
    (dot_S16384x64_S64x1_S16384x1_1_0_0_1_n_n.lhsIdx j k 0).val = (j 0).val := by
  simp [DotDims.lhsIdx, dot_S16384x64_S64x1_S16384x1_1_0_0_1_n_n]
  rfl

/-- The projection's left operand on its contracted axis: the contraction position. -/
theorem projDot_lhs1 (j : S16384x1.Idx) (u : Fin 64) :
    (dot_S16384x64_S64x1_S16384x1_1_0_0_1_n_n.lhsIdx j
      ((contrEquiv1 dot_S16384x64_S64x1_S16384x1_1_0_0_1_n_n 64 rfl rfl).symm u) 1).val = u.val :=
  (DotDims.lhsIdx_val_of_single _ rfl j _).trans (contrEquiv1_symm_val _ _ _ _ u)

/-- The projection's right operand on its contracted axis. -/
theorem projDot_rhs0 (j : S16384x1.Idx) (u : Fin 64) :
    (dot_S16384x64_S64x1_S16384x1_1_0_0_1_n_n.rhsIdx j
      ((contrEquiv1 dot_S16384x64_S64x1_S16384x1_1_0_0_1_n_n 64 rfl rfl).symm u) 0).val = u.val :=
  (DotDims.rhsIdx_val_of_single _ rfl j _).trans (contrEquiv1_symm_val _ _ _ _ u)

/-- The projection's right operand on its column axis: the output column. -/
theorem projDot_rhs1 (j : S16384x1.Idx) (k : dot_S16384x64_S64x1_S16384x1_1_0_0_1_n_n.contr.Idx) :
    (dot_S16384x64_S64x1_S16384x1_1_0_0_1_n_n.rhsIdx j k 1).val = (j 1).val := by
  have h1 : (j 1).val < 1 := (j 1).isLt
  have h2 : (dot_S16384x64_S64x1_S16384x1_1_0_0_1_n_n.rhsIdx j k 1).val < 1 :=
    (dot_S16384x64_S64x1_S16384x1_1_0_0_1_n_n.rhsIdx j k 1).isLt
  omega

/-- The projected output at batch element `b`, node `n`. -/
theorem out_at (V0 : Valuation τ sig (Elt Ideal)) (g1 : Fin 32 → St) (b : Fin 32) (n : Fin 512) :
    shapeCast _ (addf (Host.dotGeneral (F := Ideal) (φ₁ := .f32) (φ₂ := .f32) dot_S16384x64_S64x1_S16384x1_1_0_0_1_n_n none (shapeCast _ (encFlat g1) shapeCasts_S32x32768_S16384x64) (V0 (Proc.devRef .tc main_arg11) : FVec Ideal S64x1 .f32)) (broadcastInDim S16384x1 ![0, 1] bcast_S1x1_S16384x1_0_1 (broadcastInDim S1x1 ![1] bcast_S1_S1x1_1 (V0 (Proc.devRef .tc main_arg12) : FVec Ideal S1 .f32)))) shapeCasts_S16384x1_S32x512 (ix2 b n)
      = proj (wR V0) (g1 b) n := by
  have hb : b.val < 32 := b.isLt
  have hn : n.val < 512 := n.isLt
  refine (shapeCast_apply _ _ (ix2 b n) (ix2 (⟨b.val * 512 + n.val, by omega⟩ : Fin 16384) (0 : Fin 1)) (by
    rw [Shape.rowMajor_val_two, Shape.rowMajor_val_two]
    show (b.val * 512 + n.val) * 1 + 0 = b.val * 512 + n.val
    omega)).trans ?_
  rw [addf_apply]
  simp only [Host.dotGeneral]
  rw [Ideal.dotGeneral_apply]
  unfold proj
  refine congrArg₂ (· + ·) ?_ ?_
  · rw [← Equiv.sum_comp (contrEquiv1 dot_S16384x64_S64x1_S16384x1_1_0_0_1_n_n 64 rfl rfl).symm]
    refine Finset.sum_congr rfl fun u _ => ?_
    have hu : u.val < 64 := u.isLt
    refine congrArg₂ (· * ·) ?_ ?_
    · -- the left operand: row b*512+n, column u of the [16384,64] view is position n*64+u of row b
      refine (shapeCast_apply _ _ _ (ix2 b (⟨n.val * 64 + u.val, by omega⟩ : Fin 32768)) (by
        rw [Shape.rowMajor_val_two, Shape.rowMajor_val_two, projDot_lhs0, projDot_lhs1]
        show b.val * 32768 + (n.val * 64 + u.val) = (b.val * 512 + n.val) * 64 + u.val
        omega)).trans ?_
      exact encFlat_apply g1 b n u
    · -- the right operand: the projection's weight of unit u
      show V0 (Proc.devRef .tc main_arg11) _ = V0 (Proc.devRef .tc main_arg11) (ix2 u 0)
      refine congrArg _ (Shape.idx_ext₂ ?_ ?_)
      · rw [projDot_rhs0]
      · rw [projDot_rhs1]
  · -- the bias: one number broadcast twice
    refine (broadcastInDim_apply _ _ _ _ (ix2 (0 : Fin 1) (0 : Fin 1)) (fun a => match a with
      | ⟨0, _⟩ => rfl
      | ⟨1, _⟩ => rfl)).trans ?_
    refine (broadcastInDim_apply _ _ _ _ (ix1 (0 : Fin 1)) (fun a => match a with
      | ⟨0, _⟩ => rfl)).trans ?_
    rfl

/-- The stack of two [32,32768] arrays read in its first half. -/
theorem hs_at0 {α : Type} (X Y : S32x32768.Idx → α) (b : Fin 32) (p : Fin 32768) :
    concatenate S2x32x32768 0 [⟨S1x32x32768, (broadcastInDim S1x32x32768 ![1, 2] bcast_S32x32768_S1x32x32768_1_2 X)⟩, ⟨S1x32x32768, (broadcastInDim S1x32x32768 ![1, 2] bcast_S32x32768_S1x32x32768_1_2 Y)⟩] concatenates_S1x32x32768_S1x32x32768_S2x32x32768_d0 (ix3 (0 : Fin 2) b p)
      = X (ix2 b p) := by
  refine (concatenate_pair_apply_left (t := S2x32x32768) (s₁ := S1x32x32768) (s₂ := S1x32x32768) 0 _ _
    concatenates_S1x32x32768_S1x32x32768_S2x32x32768_d0 (ix3 (0 : Fin 2) b p) rfl (ix3 (0 : Fin 1) b p) (fun a => match a with
    | ⟨0, _⟩ => rfl
    | ⟨1, _⟩ => rfl
    | ⟨2, _⟩ => rfl)).trans ?_
  exact broadcastInDim_apply _ _ _ _ (ix2 b p) (fun a => match a with
    | ⟨0, _⟩ => rfl
    | ⟨1, _⟩ => rfl)

/-- The stack of two [32,32768] arrays read in its second half. -/
theorem hs_at1 {α : Type} (X Y : S32x32768.Idx → α) (b : Fin 32) (p : Fin 32768) :
    concatenate S2x32x32768 0 [⟨S1x32x32768, (broadcastInDim S1x32x32768 ![1, 2] bcast_S32x32768_S1x32x32768_1_2 X)⟩, ⟨S1x32x32768, (broadcastInDim S1x32x32768 ![1, 2] bcast_S32x32768_S1x32x32768_1_2 Y)⟩] concatenates_S1x32x32768_S1x32x32768_S2x32x32768_d0 (ix3 (1 : Fin 2) b p)
      = Y (ix2 b p) := by
  refine (concatenate_pair_apply_right (t := S2x32x32768) (s₁ := S1x32x32768) (s₂ := S1x32x32768) 0 _ _
    concatenates_S1x32x32768_S1x32x32768_S2x32x32768_d0 (ix3 (1 : Fin 2) b p) rfl rfl (ix3 (0 : Fin 1) b p) (fun a => match a with
    | ⟨0, _⟩ => fun h => absurd rfl h
    | ⟨1, _⟩ => fun _ => rfl
    | ⟨2, _⟩ => fun _ => rfl) rfl).trans ?_
  exact broadcastInDim_apply _ _ _ _ (ix2 b p) (fun a => match a with
    | ⟨0, _⟩ => rfl
    | ⟨1, _⟩ => rfl)

/-- The stacked states, over any two arrays that are the two families laid out. -/
theorem hs_core (g g1 : Fin 32 → St) :
    concatenate S2x32x32768 0 [⟨S1x32x32768, (broadcastInDim S1x32x32768 ![1, 2] bcast_S32x32768_S1x32x32768_1_2 (encFlat g))⟩, ⟨S1x32x32768, (broadcastInDim S1x32x32768 ![1, 2] bcast_S32x32768_S1x32x32768_1_2 (encFlat g1))⟩] concatenates_S1x32x32768_S1x32x32768_S2x32x32768_d0
      = (fun i =>
          if (i 0).val = 0 then
            g (i 1) ⟨(i 2).val % 64, Nat.mod_lt _ (by decide)⟩ ⟨(i 2).val / 64, by have h : (i 2).val < 32768 := (i 2).isLt; omega⟩
          else
            g1 (i 1) ⟨(i 2).val % 64, Nat.mod_lt _ (by decide)⟩ ⟨(i 2).val / 64, by have h : (i 2).val < 32768 := (i 2).isLt; omega⟩
          : FVec Ideal S2x32x32768 .f32) := by
  funext i
  obtain ⟨l, b, p, rfl⟩ : ∃ (l : Fin 2) (b : Fin 32) (p : Fin 32768), i = ix3 l b p := ⟨i 0, i 1, i 2, eq_ix3 i⟩
  by_cases hl : l.val = 0
  · obtain rfl : l = 0 := Fin.ext hl
    refine (hs_at0 _ _ b p).trans ?_
    exact (if_pos rfl).symm
  · obtain rfl : l = 1 := Fin.ext (by have := l.isLt; show l.val = 1; omega)
    refine (hs_at1 _ _ b p).trans ?_
    exact (if_neg (show ¬ ((1 : Fin 2).val = 0) by decide)).symm

/-- The projected output. -/
theorem out_eq (V0 : Valuation τ sig (Elt Ideal)) (g1 : Fin 32 → St) (h127 : res_main_v127 V0 = encFlat g1) :
    shapeCast _ (addf (Host.dotGeneral (F := Ideal) (φ₁ := .f32) (φ₂ := .f32) dot_S16384x64_S64x1_S16384x1_1_0_0_1_n_n none (shapeCast _ (res_main_v127 V0) shapeCasts_S32x32768_S16384x64) (V0 (Proc.devRef .tc main_arg11))) (broadcastInDim S16384x1 ![0, 1] bcast_S1x1_S16384x1_0_1 (broadcastInDim S1x1 ![1] bcast_S1_S1x1_1 (V0 (Proc.devRef .tc main_arg12))))) shapeCasts_S16384x1_S32x512
      = (fun i => proj (wR V0) (g1 (i 0)) (i 1) : FVec Ideal S32x512 .f32) := by
  rw [h127]
  funext i
  obtain ⟨b, n, rfl⟩ : ∃ (b : Fin 32) (n : Fin 512), i = ix2 b n := ⟨i 0, i 1, eq_ix2 i⟩
  exact out_at V0 g1 b n

/-- The stacked states. -/
theorem hs_eq (V0 : Valuation τ sig (Elt Ideal)) (g g1 : Fin 32 → St) (h63 : res_main_v63 V0 = encFlat g)
    (h127 : res_main_v127 V0 = encFlat g1) :
    concatenate S2x32x32768 0 [⟨S1x32x32768, (broadcastInDim S1x32x32768 ![1, 2] bcast_S32x32768_S1x32x32768_1_2 (res_main_v63 V0))⟩, ⟨S1x32x32768, (broadcastInDim S1x32x32768 ![1, 2] bcast_S32x32768_S1x32x32768_1_2 (res_main_v127 V0))⟩] concatenates_S1x32x32768_S1x32x32768_S2x32x32768_d0
      = (fun i =>
          if (i 0).val = 0 then
            g (i 1) ⟨(i 2).val % 64, Nat.mod_lt _ (by decide)⟩ ⟨(i 2).val / 64, by have h : (i 2).val < 32768 := (i 2).isLt; omega⟩
          else
            g1 (i 1) ⟨(i 2).val % 64, Nat.mod_lt _ (by decide)⟩ ⟨(i 2).val / 64, by have h : (i 2).val < 32768 := (i 2).isLt; omega⟩
          : FVec Ideal S2x32x32768 .f32) := by
  rw [h63, h127]
  exact hs_core g g1

end Cert.ReferenceIdeal.RefRead

end
-- ==== Proof.lean ====
/-
  The kernel runs two stacked diffusion-convolution GRU cells and a projection for a block of sixteen batch elements
  per grid point; the reference runs the same cells over all thirty-two at once.  Both are, batch element by batch
  element, the specification of Proof/Spec.lean over the extended reals: the kernel diffuses the input signal and the
  state separately where the reference diffuses their concatenation (diffusion acts on each feature column alone),
  spreads layer 0's one input feature through a Kronecker block (its off-diagonal zeros annihilate), accumulates each
  convolution tap by tap from the bias where the reference contracts all (feature, tap) rows at once and adds the bias
  last (sums on the extended reals commute and associate), and truncates matrix operands to bf16 (the identity on the
  extended reals).  No step needs the inputs finite.  The kernels' frames are the generated ones, the reference's frame
  is its run with the results dropped; the idealization rewrote nothing.
-/
import proofs.«172483_g44504451121623_cont_8to1_c_180_13_alg».proof.Defs
import proofs.«172483_g44504451121623_cont_8to1_c_180_13_alg».proof.Proof.Gen.Kernel
import proofs.«172483_g44504451121623_cont_8to1_c_180_13_alg».proof.Proof.Gen.Kernel.Skeleton
import proofs.«172483_g44504451121623_cont_8to1_c_180_13_alg».proof.Proof.Gen.Kernel.Launch
import proofs.«172483_g44504451121623_cont_8to1_c_180_13_alg».proof.Proof.Gen.Kernel.Points
import proofs.«172483_g44504451121623_cont_8to1_c_180_13_alg».proof.Proof.Gen.Kernel.Frame
import proofs.«172483_g44504451121623_cont_8to1_c_180_13_alg».proof.Proof.Gen.KernelIdeal
import proofs.«172483_g44504451121623_cont_8to1_c_180_13_alg».proof.Proof.Gen.KernelIdeal.Skeleton
import proofs.«172483_g44504451121623_cont_8to1_c_180_13_alg».proof.Proof.Gen.KernelIdeal.Launch
import proofs.«172483_g44504451121623_cont_8to1_c_180_13_alg».proof.Proof.Gen.KernelIdeal.Points
import proofs.«172483_g44504451121623_cont_8to1_c_180_13_alg».proof.Proof.Gen.KernelIdeal.Frame
import proofs.«172483_g44504451121623_cont_8to1_c_180_13_alg».proof.Proof.Gen.ReferenceIdeal
import proofs.«172483_g44504451121623_cont_8to1_c_180_13_alg».proof.Proof.Gen.Pre_finite_inputs
import proofs.«172483_g44504451121623_cont_8to1_c_180_13_alg».proof.Proof.Gen.KernelIdeal.Value
import proofs.«172483_g44504451121623_cont_8to1_c_180_13_alg».proof.Proof.RefRunP
import proofs.«172483_g44504451121623_cont_8to1_c_180_13_alg».proof.Proof.KFinal
import proofs.«172483_g44504451121623_cont_8to1_c_180_13_alg».proof.Proof.Ref0
import proofs.«172483_g44504451121623_cont_8to1_c_180_13_alg».proof.Proof.Ref1
import proofs.«172483_g44504451121623_cont_8to1_c_180_13_alg».proof.Proof.RefOut
import Idealize.ShloMosaic.Adequacy
import Idealize.ShloMosaic.Init

noncomputable section

namespace Cert.Proof

open Idealize.ShloMosaic Idealize.ShloMosaic.TcCoe Idealize.SL.Sem Idealize.ShloMosaic.StableHlo Cert.Dcgru

/-! ## The reference's two results are the specification's arrays -/

section Reference

open Cert.ReferenceIdeal Cert.ReferenceIdeal.Gen Cert.ReferenceIdeal.ValueP Cert.ReferenceIdeal.RefRead

/-- The first cell's new states in the reference, as a family. -/
abbrev g0R (V0 : Valuation τ sig (Elt Ideal)) : Fin 32 → St := fun b => H0N (wR V0) (xR V0 b) (hR V0 0 b)

/-- The second cell's new states in the reference, as a family. -/
abbrev g1R (V0 : Valuation τ sig (Elt Ideal)) : Fin 32 → St := fun b => new1 (wR V0) (g0R V0 b) (hR V0 1 b)

theorem h63R (V0 : Valuation τ sig (Elt Ideal)) : res_main_v63 V0 = encFlat (g0R V0) := v63_eq V0

theorem h127R (V0 : Valuation τ sig (Elt Ideal)) : res_main_v127 V0 = encFlat (g1R V0) := v127_eq V0 (g0R V0) (h63R V0)

/-- The reference's projected output is the specification's output array of its arguments. -/
theorem ref_out (V0 : Valuation τ sig (Elt Ideal)) :
    (fun i => proj (wR V0) (g1R V0 (i 0)) (i 1) : FVec Ideal S32x512 .f32)
      = outArr (wR V0) (V0 (Proc.devRef .tc main_arg0)) (V0 (Proc.devRef .tc main_arg2)) := rfl

/-- The reference's stacked states are the specification's state array of its arguments. -/
theorem ref_hs (V0 : Valuation τ sig (Elt Ideal)) :
    (fun i =>
        if (i 0).val = 0 then
          g0R V0 (i 1) ⟨(i 2).val % 64, Nat.mod_lt _ (by decide)⟩ ⟨(i 2).val / 64, by have h : (i 2).val < 32768 := (i 2).isLt; omega⟩
        else
          g1R V0 (i 1) ⟨(i 2).val % 64, Nat.mod_lt _ (by decide)⟩ ⟨(i 2).val / 64, by have h : (i 2).val < 32768 := (i 2).isLt; omega⟩
        : FVec Ideal S2x32x32768 .f32)
      = hsArr (wR V0) (V0 (Proc.devRef .tc main_arg0)) (V0 (Proc.devRef .tc main_arg2)) := rfl

end Reference

/-! ## The claims -/

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2.2) (Cert.ReferenceIdeal.ValueP.run (F := Ideal) m ρ)

/-- The idealization rewrote no operation. -/
theorem preserves : Cert.preserves_Kernel_KernelIdeal := trivial

/-- Both programs end with the specification's two arrays of the (agreeing) arguments. -/
theorem algebraic : Cert.algebraic_KernelIdeal_ReferenceIdeal := by
  intro m ρ m' ρ' _ hagree
  refine ⟨fun c => Cert.KernelIdeal.KRead.outK m c, fun c => Cert.KernelIdeal.KRead.hsK m c,
    Cert.KernelIdeal.KRead.run m ρ, ?_⟩
  refine (θ_run Cert.ReferenceIdeal.defs _ _).mono (fun _ h c => ⟨(h c).1.trans ?_, (h c).2.1.trans ?_, (h c).2.2⟩)
    (Cert.ReferenceIdeal.ValueP.run (F := Ideal) m' ρ')
  · -- the projected output
    rw [Cert.ReferenceIdeal.RefRead.out_eq (launchContents m' c) (g1R (launchContents m' c)) (h127R (launchContents m' c)),
      ref_out]
    obtain ⟨e0, e1, e2, e3, e4, e5, e6, e7, e8, e9, e10, e11, e12⟩ := hagree c
    show _ = Cert.KernelIdeal.KRead.outK m c
    unfold Cert.KernelIdeal.KRead.outK Cert.KernelIdeal.KRead.wK
    rw [← e0, ← e1, ← e2, ← e3, ← e4, ← e5, ← e6, ← e7, ← e8, ← e9, ← e10, ← e11, ← e12]
    rfl
  · -- the stacked states
    rw [Cert.ReferenceIdeal.RefRead.hs_eq (launchContents m' c) (g0R (launchContents m' c)) (g1R (launchContents m' c))
      (h63R (launchContents m' c)) (h127R (launchContents m' c)), ref_hs]
    obtain ⟨e0, e1, e2, e3, e4, e5, e6, e7, e8, e9, e10, e11, e12⟩ := hagree c
    show _ = Cert.KernelIdeal.KRead.hsK m c
    unfold Cert.KernelIdeal.KRead.hsK Cert.KernelIdeal.KRead.wK
    rw [← e0, ← e1, ← e2, ← e3, ← e4, ← e5, ← e6, ← e7, ← e8, ← e9, ← e10, ← e11, ← e12]
    rfl

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
